-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x1024 : Shape := ⟨2, ![4096, 1024]⟩
abbrev S4096x2 : Shape := ⟨2, ![4096, 2]⟩
abbrev S16 : Shape := ⟨1, ![16]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2 : S_.BroadcastsInDim S4096x2 (![] : Fin 0 → Fin S4096x2.rank)
  reducesTo_S4096x2_S_d0_1 : S4096x2.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v10 : IVec S_ 1) (main_v15 : IVec S16 1) (main_c_5 : IVec S_ 1) : IVec S_ 1 :=
  let main_v16 : IVec S_ 1 := (fun x v => Host.reduce IntOp.andi x v reducesTo_S16_S_d0 h_S_) main_v15 main_c_5
  let main_v17 : IVec S_ 1 := andi main_v10 main_v16
  main_v17

def fn {F : FTy → Type} [FloatOps F] (main_arg0 : FVec F S4096x1024 .f32) (main_arg1 : IVec S4096x2 32) (main_arg2 : IVec S16 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_c_0 : IVec S_ 32 := constantI S_ 32 0#32
  let main_v4 : IVec S4096x2 32 := broadcastInDim S4096x2 ![] bcast_S_S4096x2 main_c_0
  let main_v5 : IVec S4096x2 1 := cmpi .sge main_arg1 main_v4
  let main_c_1 : IVec S_ 32 := constantI S_ 32 15#32
  let main_v6 : IVec S4096x2 32 := broadcastInDim S4096x2 ![] bcast_S_S4096x2 main_c_1
  let main_v7 : IVec S4096x2 1 := cmpi .sle main_arg1 main_v6
  let main_v8 : IVec S4096x2 1 := andi main_v5 main_v7
  let main_c_2 : IVec S_ 1 := constantI S_ 1 1#1
  let main_v9 : IVec S_ 1 := (fun x v => Host.reduce IntOp.andi x v reducesTo_S4096x2_S_d0_1 h_S_) main_v8 main_c_2
  let main_v10 : IVec S_ 1 := andi main_v3 main_v9
  let main_c_3 : IVec S_ 32 := constantI S_ 32 0#32
  let main_v11 : IVec S16 32 := broadcastInDim S16 ![] bcast_S_S16 main_c_3
  let main_v12 : IVec S16 1 := cmpi .sge main_arg2 main_v11
  let main_c_4 : IVec S_ 32 := constantI S_ 32 7#32
  let main_v13 : IVec S16 32 := broadcastInDim S16 ![] bcast_S_S16 main_c_4
  let main_v14 : IVec S16 1 := cmpi .sle main_arg2 main_v13
  let main_v15 : IVec S16 1 := andi main_v12 main_v14
  let main_c_5 : IVec S_ 1 := constantI S_ 1 1#1
  fn_part1 (F := F) main_v10 main_v15 main_c_5
-- ==== Kernel.lean ====
abbrev S4096x1024 : Shape := ⟨2, ![4096, 1024]⟩
abbrev S4096x2 : Shape := ⟨2, ![4096, 2]⟩
abbrev S16 : Shape := ⟨1, ![16]⟩
abbrev S8192 : Shape := ⟨1, ![8192]⟩
abbrev S8x4096 : Shape := ⟨2, ![8, 4096]⟩
abbrev S256 : Shape := ⟨1, ![256]⟩
abbrev S1024 : Shape := ⟨1, ![1024]⟩
abbrev S_ : Shape := ⟨0, ![]⟩
abbrev S128 : Shape := ⟨1, ![128]⟩
abbrev S1x128 : Shape := ⟨2, ![1, 128]⟩
abbrev S8x4096x1024 : Shape := ⟨3, ![8, 4096, 1024]⟩
abbrev S256x1024 : Shape := ⟨2, ![256, 1024]⟩
abbrev S8x256 : Shape := ⟨2, ![8, 256]⟩
abbrev S8x256x1024 : Shape := ⟨3, ![8, 256, 1024]⟩
abbrev S8x1024 : Shape := ⟨2, ![8, 1024]⟩
abbrev S8x8 : Shape := ⟨2, ![8, 8]⟩
abbrev S1x8x1024 : Shape := ⟨3, ![1, 8, 1024]⟩
abbrev S8x8x1 : Shape := ⟨3, ![8, 8, 1]⟩
abbrev S8x8x1024 : Shape := ⟨3, ![8, 8, 1024]⟩

abbrev nBuf : Table → Nat
  | .hbm => 6
  | .local .tc .vmem => 6
  | .local .scVector .vmem => 3
  | _ => 0

abbrev bufTy : (tb : Table) → Fin (nBuf tb) → BufTy
  | .hbm, ⟨0, _⟩ => ⟨S4096x1024, .f32⟩
  | .hbm, ⟨1, _⟩ => ⟨S4096x2, .i32⟩
  | .hbm, ⟨2, _⟩ => ⟨S16, .i32⟩
  | .hbm, ⟨3, _⟩ => ⟨S8192, .i32⟩
  | .hbm, ⟨4, _⟩ => ⟨S8x4096, .f32⟩
  | .hbm, ⟨5, _⟩ => ⟨S8x4096x1024, .f32⟩
  | .local .tc .vmem, ⟨0, _⟩ => ⟨S256x1024, .f32⟩
  | .local .tc .vmem, ⟨1, _⟩ => ⟨S256x1024, .f32⟩
  | .local .tc .vmem, ⟨2, _⟩ => ⟨S8x256, .f32⟩
  | .local .tc .vmem, ⟨3, _⟩ => ⟨S8x256, .f32⟩
  | .local .tc .vmem, ⟨4, _⟩ => ⟨S8x256x1024, .f32⟩
  | .local .tc .vmem, ⟨5, _⟩ => ⟨S8x256x1024, .f32⟩
  | .local .scVector .vmem, ⟨0, _⟩ => ⟨S256, .i32⟩
  | .local .scVector .vmem, ⟨1, _⟩ => ⟨S16, .i32⟩
  | .local .scVector .vmem, ⟨2, _⟩ => ⟨S1024, .f32⟩
  | _, _ => ⟨S4096x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v0_scv : Ref sig .scVector := ⟨.hbm, 3, rfl⟩
abbrev main_arg2_scv : Ref sig .scVector := ⟨.hbm, 2, rfl⟩
abbrev main_v1_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v3 : BitVec 32 := Scalar.muli v1 c256_i32
  ![v3.toNat]
@[reducible] def k0_t1_loop : Scf.Loop 32 :=
  let c0_i32_0 : BitVec 32 := 0#32
  let c8_i32 : BitVec 32 := 8#32
  let v4 : BitVec 32 := Scalar.addi c0_i32_0 c8_i32
  let c1_i32 : BitVec 32 := 1#32
  ⟨c0_i32_0, v4, c1_i32⟩
def k0_off2 (k0_t1 : Fin k0_t1_loop.trips) (c0_i32_83 : BitVec 32) : Fin 1 → Nat :=
  let c0_i32_0 : BitVec 32 := 0#32
  let c1_i32 : BitVec 32 := 1#32
  let arg9 : BitVec 32 := Scf.iv c0_i32_0 c1_i32 k0_t1
  let c128_i32_82 : BitVec 32 := 128#32
  let v248 : BitVec 32 := Scalar.muli arg9 c128_i32_82
  let v249 : BitVec 32 := Scalar.addi v248 c0_i32_83
  let v250 : Index := Scalar.indexCast v249
  ![v250.toNat]

def k0_chk1 (v10 : IVec S16 32) : Prop :=
  (∀ a x, ((![v10] : Fin 1 → IVec S16 32) a x).toNat < S256.size a)
instance k0_chk1.dec : ∀ (v10 : IVec S16 32), Decidable (k0_chk1 v10) := fun v10 => decidable_of_iff' _ (Iff.of_eq (k0_chk1.eq_1 v10))
theorem k0_idx1_inb : ∀ (v10 : IVec S16 32) (k0_hw1 : k0_chk1 v10), ∀ a x, ((![v10] : Fin 1 → IVec S16 32) a x).toNat < S256.size a := fun v10 k0_hw1 => k0_hw1

def k0_chk2 (v15 : IVec S16 32) : Prop :=
  (∀ a x, ((![v15] : Fin 1 → IVec S16 32) a x).toNat < S256.size a)
instance k0_chk2.dec : ∀ (v15 : IVec S16 32), Decidable (k0_chk2 v15) := fun v15 => decidable_of_iff' _ (Iff.of_eq (k0_chk2.eq_1 v15))
theorem k0_idx2_inb : ∀ (v15 : IVec S16 32) (k0_hw2 : k0_chk2 v15), ∀ a x, ((![v15] : Fin 1 → IVec S16 32) a x).toNat < S256.size a := fun v15 k0_hw2 => k0_hw2

def k0_chk3 (v11 : IVec S16 32) : Prop :=
  (∀ a x, ((![v11] : Fin 1 → IVec S16 32) a x).toNat < S16.size a)
instance k0_chk3.dec : ∀ (v11 : IVec S16 32), Decidable (k0_chk3 v11) := fun v11 => decidable_of_iff' _ (Iff.of_eq (k0_chk3.eq_1 v11))
theorem k0_idx3_inb : ∀ (v11 : IVec S16 32) (k0_hw3 : k0_chk3 v11), ∀ a x, ((![v11] : Fin 1 → IVec S16 32) a x).toNat < S16.size a := fun v11 k0_hw3 => k0_hw3

def k0_chk4 (v16 : IVec S16 32) : Prop :=
  (∀ a x, ((![v16] : Fin 1 → IVec S16 32) a x).toNat < S16.size a)
instance k0_chk4.dec : ∀ (v16 : IVec S16 32), Decidable (k0_chk4 v16) := fun v16 => decidable_of_iff' _ (Iff.of_eq (k0_chk4.eq_1 v16))
theorem k0_idx4_inb : ∀ (v16 : IVec S16 32) (k0_hw4 : k0_chk4 v16), ∀ a x, ((![v16] : Fin 1 → IVec S16 32) a x).toNat < S16.size a := fun v16 k0_hw4 => k0_hw4

def k0_chk5 (v21 : IVec S16 32) : Prop :=
  (∀ a x, ((![v21] : Fin 1 → IVec S16 32) a x).toNat < S1024.size a)
instance k0_chk5.dec : ∀ (v21 : IVec S16 32), Decidable (k0_chk5 v21) := fun v21 => decidable_of_iff' _ (Iff.of_eq (k0_chk5.eq_1 v21))
theorem k0_idx5_inb : ∀ (v21 : IVec S16 32) (k0_hw5 : k0_chk5 v21), ∀ a x, ((![v21] : Fin 1 → IVec S16 32) a x).toNat < S1024.size a := fun v21 k0_hw5 => k0_hw5

def k0_chk6 (v24 : IVec S16 32) : Prop :=
  (∀ a x, ((![v24] : Fin 1 → IVec S16 32) a x).toNat < S1024.size a)
instance k0_chk6.dec : ∀ (v24 : IVec S16 32), Decidable (k0_chk6 v24) := fun v24 => decidable_of_iff' _ (Iff.of_eq (k0_chk6.eq_1 v24))
theorem k0_idx6_inb : ∀ (v24 : IVec S16 32) (k0_hw6 : k0_chk6 v24), ∀ a x, ((![v24] : Fin 1 → IVec S16 32) a x).toNat < S1024.size a := fun v24 k0_hw6 => k0_hw6

def k0_chk7 (v28 : IVec S16 32) : Prop :=
  (∀ a x, ((![v28] : Fin 1 → IVec S16 32) a x).toNat < S256.size a)
instance k0_chk7.dec : ∀ (v28 : IVec S16 32), Decidable (k0_chk7 v28) := fun v28 => decidable_of_iff' _ (Iff.of_eq (k0_chk7.eq_1 v28))
theorem k0_idx7_inb : ∀ (v28 : IVec S16 32) (k0_hw7 : k0_chk7 v28), ∀ a x, ((![v28] : Fin 1 → IVec S16 32) a x).toNat < S256.size a := fun v28 k0_hw7 => k0_hw7

def k0_chk8 (v33 : IVec S16 32) : Prop :=
  (∀ a x, ((![v33] : Fin 1 → IVec S16 32) a x).toNat < S256.size a)
instance k0_chk8.dec : ∀ (v33 : IVec S16 32), Decidable (k0_chk8 v33) := fun v33 => decidable_of_iff' _ (Iff.of_eq (k0_chk8.eq_1 v33))
theorem k0_idx8_inb : ∀ (v33 : IVec S16 32) (k0_hw8 : k0_chk8 v33), ∀ a x, ((![v33] : Fin 1 → IVec S16 32) a x).toNat < S256.size a := fun v33 k0_hw8 => k0_hw8

def k0_chk9 (v29 : IVec S16 32) : Prop :=
  (∀ a x, ((![v29] : Fin 1 → IVec S16 32) a x).toNat < S16.size a)
instance k0_chk9.dec : ∀ (v29 : IVec S16 32), Decidable (k0_chk9 v29) := fun v29 => decidable_of_iff' _ (Iff.of_eq (k0_chk9.eq_1 v29))
theorem k0_idx9_inb : ∀ (v29 : IVec S16 32) (k0_hw9 : k0_chk9 v29), ∀ a x, ((![v29] : Fin 1 → IVec S16 32) a x).toNat < S16.size a := fun v29 k0_hw9 => k0_hw9

def k0_chk10 (v34 : IVec S16 32) : Prop :=
  (∀ a x, ((![v34] : Fin 1 → IVec S16 32) a x).toNat < S16.size a)
instance k0_chk10.dec : ∀ (v34 : IVec S16 32), Decidable (k0_chk10 v34) := fun v34 => decidable_of_iff' _ (Iff.of_eq (k0_chk10.eq_1 v34))
theorem k0_idx10_inb : ∀ (v34 : IVec S16 32) (k0_hw10 : k0_chk10 v34), ∀ a x, ((![v34] : Fin 1 → IVec S16 32) a x).toNat < S16.size a := fun v34 k0_hw10 => k0_hw10

def k0_chk11 (v39 : IVec S16 32) : Prop :=
  (∀ a x, ((![v39] : Fin 1 → IVec S16 32) a x).toNat < S1024.size a)
instance k0_chk11.dec : ∀ (v39 : IVec S16 32), Decidable (k0_chk11 v39) := fun v39 => decidable_of_iff' _ (Iff.of_eq (k0_chk11.eq_1 v39))
theorem k0_idx11_inb : ∀ (v39 : IVec S16 32) (k0_hw11 : k0_chk11 v39), ∀ a x, ((![v39] : Fin 1 → IVec S16 32) a x).toNat < S1024.size a := fun v39 k0_hw11 => k0_hw11

def k0_chk12 (v42 : IVec S16 32) : Prop :=
  (∀ a x, ((![v42] : Fin 1 → IVec S16 32) a x).toNat < S1024.size a)
instance k0_chk12.dec : ∀ (v42 : IVec S16 32), Decidable (k0_chk12 v42) := fun v42 => decidable_of_iff' _ (Iff.of_eq (k0_chk12.eq_1 v42))
theorem k0_idx12_inb : ∀ (v42 : IVec S16 32) (k0_hw12 : k0_chk12 v42), ∀ a x, ((![v42] : Fin 1 → IVec S16 32) a x).toNat < S1024.size a := fun v42 k0_hw12 => k0_hw12

def k0_chk13 (v46 : IVec S16 32) : Prop :=
  (∀ a x, ((![v46] : Fin 1 → IVec S16 32) a x).toNat < S256.size a)
instance k0_chk13.dec : ∀ (v46 : IVec S16 32), Decidable (k0_chk13 v46) := fun v46 => decidable_of_iff' _ (Iff.of_eq (k0_chk13.eq_1 v46))
theorem k0_idx13_inb : ∀ (v46 : IVec S16 32) (k0_hw13 : k0_chk13 v46), ∀ a x, ((![v46] : Fin 1 → IVec S16 32) a x).toNat < S256.size a := fun v46 k0_hw13 => k0_hw13

def k0_chk14 (v51 : IVec S16 32) : Prop :=
  (∀ a x, ((![v51] : Fin 1 → IVec S16 32) a x).toNat < S256.size a)
instance k0_chk14.dec : ∀ (v51 : IVec S16 32), Decidable (k0_chk14 v51) := fun v51 => decidable_of_iff' _ (Iff.of_eq (k0_chk14.eq_1 v51))
theorem k0_idx14_inb : ∀ (v51 : IVec S16 32) (k0_hw14 : k0_chk14 v51), ∀ a x, ((![v51] : Fin 1 → IVec S16 32) a x).toNat < S256.size a := fun v51 k0_hw14 => k0_hw14

def k0_chk15 (v47 : IVec S16 32) : Prop :=
  (∀ a x, ((![v47] : Fin 1 → IVec S16 32) a x).toNat < S16.size a)
instance k0_chk15.dec : ∀ (v47 : IVec S16 32), Decidable (k0_chk15 v47) := fun v47 => decidable_of_iff' _ (Iff.of_eq (k0_chk15.eq_1 v47))
theorem k0_idx15_inb : ∀ (v47 : IVec S16 32) (k0_hw15 : k0_chk15 v47), ∀ a x, ((![v47] : Fin 1 → IVec S16 32) a x).toNat < S16.size a := fun v47 k0_hw15 => k0_hw15

def k0_chk16 (v52 : IVec S16 32) : Prop :=
  (∀ a x, ((![v52] : Fin 1 → IVec S16 32) a x).toNat < S16.size a)
instance k0_chk16.dec : ∀ (v52 : IVec S16 32), Decidable (k0_chk16 v52) := fun v52 => decidable_of_iff' _ (Iff.of_eq (k0_chk16.eq_1 v52))
theorem k0_idx16_inb : ∀ (v52 : IVec S16 32) (k0_hw16 : k0_chk16 v52), ∀ a x, ((![v52] : Fin 1 → IVec S16 32) a x).toNat < S16.size a := fun v52 k0_hw16 => k0_hw16

def k0_chk17 (v57 : IVec S16 32) : Prop :=
  (∀ a x, ((![v57] : Fin 1 → IVec S16 32) a x).toNat < S1024.size a)
instance k0_chk17.dec : ∀ (v57 : IVec S16 32), Decidable (k0_chk17 v57) := fun v57 => decidable_of_iff' _ (Iff.of_eq (k0_chk17.eq_1 v57))
theorem k0_idx17_inb : ∀ (v57 : IVec S16 32) (k0_hw17 : k0_chk17 v57), ∀ a x, ((![v57] : Fin 1 → IVec S16 32) a x).toNat < S1024.size a := fun v57 k0_hw17 => k0_hw17

def k0_chk18 (v60 : IVec S16 32) : Prop :=
  (∀ a x, ((![v60] : Fin 1 → IVec S16 32) a x).toNat < S1024.size a)
instance k0_chk18.dec : ∀ (v60 : IVec S16 32), Decidable (k0_chk18 v60) := fun v60 => decidable_of_iff' _ (Iff.of_eq (k0_chk18.eq_1 v60))
theorem k0_idx18_inb : ∀ (v60 : IVec S16 32) (k0_hw18 : k0_chk18 v60), ∀ a x, ((![v60] : Fin 1 → IVec S16 32) a x).toNat < S1024.size a := fun v60 k0_hw18 => k0_hw18

def k0_chk19 (v64 : IVec S16 32) : Prop :=
  (∀ a x, ((![v64] : Fin 1 → IVec S16 32) a x).toNat < S256.size a)
instance k0_chk19.dec : ∀ (v64 : IVec S16 32), Decidable (k0_chk19 v64) := fun v64 => decidable_of_iff' _ (Iff.of_eq (k0_chk19.eq_1 v64))
theorem k0_idx19_inb : ∀ (v64 : IVec S16 32) (k0_hw19 : k0_chk19 v64), ∀ a x, ((![v64] : Fin 1 → IVec S16 32) a x).toNat < S256.size a := fun v64 k0_hw19 => k0_hw19

def k0_chk20 (v69 : IVec S16 32) : Prop :=
  (∀ a x, ((![v69] : Fin 1 → IVec S16 32) a x).toNat < S256.size a)
instance k0_chk20.dec : ∀ (v69 : IVec S16 32), Decidable (k0_chk20 v69) := fun v69 => decidable_of_iff' _ (Iff.of_eq (k0_chk20.eq_1 v69))
theorem k0_idx20_inb : ∀ (v69 : IVec S16 32) (k0_hw20 : k0_chk20 v69), ∀ a x, ((![v69] : Fin 1 → IVec S16 32) a x).toNat < S256.size a := fun v69 k0_hw20 => k0_hw20

def k0_chk21 (v65 : IVec S16 32) : Prop :=
  (∀ a x, ((![v65] : Fin 1 → IVec S16 32) a x).toNat < S16.size a)
instance k0_chk21.dec : ∀ (v65 : IVec S16 32), Decidable (k0_chk21 v65) := fun v65 => decidable_of_iff' _ (Iff.of_eq (k0_chk21.eq_1 v65))
theorem k0_idx21_inb : ∀ (v65 : IVec S16 32) (k0_hw21 : k0_chk21 v65), ∀ a x, ((![v65] : Fin 1 → IVec S16 32) a x).toNat < S16.size a := fun v65 k0_hw21 => k0_hw21

def k0_chk22 (v70 : IVec S16 32) : Prop :=
  (∀ a x, ((![v70] : Fin 1 → IVec S16 32) a x).toNat < S16.size a)
instance k0_chk22.dec : ∀ (v70 : IVec S16 32), Decidable (k0_chk22 v70) := fun v70 => decidable_of_iff' _ (Iff.of_eq (k0_chk22.eq_1 v70))
theorem k0_idx22_inb : ∀ (v70 : IVec S16 32) (k0_hw22 : k0_chk22 v70), ∀ a x, ((![v70] : Fin 1 → IVec S16 32) a x).toNat < S16.size a := fun v70 k0_hw22 => k0_hw22

def k0_chk23 (v75 : IVec S16 32) : Prop :=
  (∀ a x, ((![v75] : Fin 1 → IVec S16 32) a x).toNat < S1024.size a)
instance k0_chk23.dec : ∀ (v75 : IVec S16 32), Decidable (k0_chk23 v75) := fun v75 => decidable_of_iff' _ (Iff.of_eq (k0_chk23.eq_1 v75))
theorem k0_idx23_inb : ∀ (v75 : IVec S16 32) (k0_hw23 : k0_chk23 v75), ∀ a x, ((![v75] : Fin 1 → IVec S16 32) a x).toNat < S1024.size a := fun v75 k0_hw23 => k0_hw23

def k0_chk24 (v78 : IVec S16 32) : Prop :=
  (∀ a x, ((![v78] : Fin 1 → IVec S16 32) a x).toNat < S1024.size a)
instance k0_chk24.dec : ∀ (v78 : IVec S16 32), Decidable (k0_chk24 v78) := fun v78 => decidable_of_iff' _ (Iff.of_eq (k0_chk24.eq_1 v78))
theorem k0_idx24_inb : ∀ (v78 : IVec S16 32) (k0_hw24 : k0_chk24 v78), ∀ a x, ((![v78] : Fin 1 → IVec S16 32) a x).toNat < S1024.size a := fun v78 k0_hw24 => k0_hw24

def k0_chk25 (v82 : IVec S16 32) : Prop :=
  (∀ a x, ((![v82] : Fin 1 → IVec S16 32) a x).toNat < S256.size a)
instance k0_chk25.dec : ∀ (v82 : IVec S16 32), Decidable (k0_chk25 v82) := fun v82 => decidable_of_iff' _ (Iff.of_eq (k0_chk25.eq_1 v82))
theorem k0_idx25_inb : ∀ (v82 : IVec S16 32) (k0_hw25 : k0_chk25 v82), ∀ a x, ((![v82] : Fin 1 → IVec S16 32) a x).toNat < S256.size a := fun v82 k0_hw25 => k0_hw25

def k0_chk26 (v87 : IVec S16 32) : Prop :=
  (∀ a x, ((![v87] : Fin 1 → IVec S16 32) a x).toNat < S256.size a)
instance k0_chk26.dec : ∀ (v87 : IVec S16 32), Decidable (k0_chk26 v87) := fun v87 => decidable_of_iff' _ (Iff.of_eq (k0_chk26.eq_1 v87))
theorem k0_idx26_inb : ∀ (v87 : IVec S16 32) (k0_hw26 : k0_chk26 v87), ∀ a x, ((![v87] : Fin 1 → IVec S16 32) a x).toNat < S256.size a := fun v87 k0_hw26 => k0_hw26

def k0_chk27 (v83 : IVec S16 32) : Prop :=
  (∀ a x, ((![v83] : Fin 1 → IVec S16 32) a x).toNat < S16.size a)
instance k0_chk27.dec : ∀ (v83 : IVec S16 32), Decidable (k0_chk27 v83) := fun v83 => decidable_of_iff' _ (Iff.of_eq (k0_chk27.eq_1 v83))
theorem k0_idx27_inb : ∀ (v83 : IVec S16 32) (k0_hw27 : k0_chk27 v83), ∀ a x, ((![v83] : Fin 1 → IVec S16 32) a x).toNat < S16.size a := fun v83 k0_hw27 => k0_hw27

def k0_chk28 (v88 : IVec S16 32) : Prop :=
  (∀ a x, ((![v88] : Fin 1 → IVec S16 32) a x).toNat < S16.size a)
instance k0_chk28.dec : ∀ (v88 : IVec S16 32), Decidable (k0_chk28 v88) := fun v88 => decidable_of_iff' _ (Iff.of_eq (k0_chk28.eq_1 v88))
theorem k0_idx28_inb : ∀ (v88 : IVec S16 32) (k0_hw28 : k0_chk28 v88), ∀ a x, ((![v88] : Fin 1 → IVec S16 32) a x).toNat < S16.size a := fun v88 k0_hw28 => k0_hw28

def k0_chk29 (v93 : IVec S16 32) : Prop :=
  (∀ a x, ((![v93] : Fin 1 → IVec S16 32) a x).toNat < S1024.size a)
instance k0_chk29.dec : ∀ (v93 : IVec S16 32), Decidable (k0_chk29 v93) := fun v93 => decidable_of_iff' _ (Iff.of_eq (k0_chk29.eq_1 v93))
theorem k0_idx29_inb : ∀ (v93 : IVec S16 32) (k0_hw29 : k0_chk29 v93), ∀ a x, ((![v93] : Fin 1 → IVec S16 32) a x).toNat < S1024.size a := fun v93 k0_hw29 => k0_hw29

def k0_chk30 (v96 : IVec S16 32) : Prop :=
  (∀ a x, ((![v96] : Fin 1 → IVec S16 32) a x).toNat < S1024.size a)
instance k0_chk30.dec : ∀ (v96 : IVec S16 32), Decidable (k0_chk30 v96) := fun v96 => decidable_of_iff' _ (Iff.of_eq (k0_chk30.eq_1 v96))
theorem k0_idx30_inb : ∀ (v96 : IVec S16 32) (k0_hw30 : k0_chk30 v96), ∀ a x, ((![v96] : Fin 1 → IVec S16 32) a x).toNat < S1024.size a := fun v96 k0_hw30 => k0_hw30

def k0_chk31 (v100 : IVec S16 32) : Prop :=
  (∀ a x, ((![v100] : Fin 1 → IVec S16 32) a x).toNat < S256.size a)
instance k0_chk31.dec : ∀ (v100 : IVec S16 32), Decidable (k0_chk31 v100) := fun v100 => decidable_of_iff' _ (Iff.of_eq (k0_chk31.eq_1 v100))
theorem k0_idx31_inb : ∀ (v100 : IVec S16 32) (k0_hw31 : k0_chk31 v100), ∀ a x, ((![v100] : Fin 1 → IVec S16 32) a x).toNat < S256.size a := fun v100 k0_hw31 => k0_hw31

def k0_chk32 (v105 : IVec S16 32) : Prop :=
  (∀ a x, ((![v105] : Fin 1 → IVec S16 32) a x).toNat < S256.size a)
instance k0_chk32.dec : ∀ (v105 : IVec S16 32), Decidable (k0_chk32 v105) := fun v105 => decidable_of_iff' _ (Iff.of_eq (k0_chk32.eq_1 v105))
theorem k0_idx32_inb : ∀ (v105 : IVec S16 32) (k0_hw32 : k0_chk32 v105), ∀ a x, ((![v105] : Fin 1 → IVec S16 32) a x).toNat < S256.size a := fun v105 k0_hw32 => k0_hw32

def k0_chk33 (v101 : IVec S16 32) : Prop :=
  (∀ a x, ((![v101] : Fin 1 → IVec S16 32) a x).toNat < S16.size a)
instance k0_chk33.dec : ∀ (v101 : IVec S16 32), Decidable (k0_chk33 v101) := fun v101 => decidable_of_iff' _ (Iff.of_eq (k0_chk33.eq_1 v101))
theorem k0_idx33_inb : ∀ (v101 : IVec S16 32) (k0_hw33 : k0_chk33 v101), ∀ a x, ((![v101] : Fin 1 → IVec S16 32) a x).toNat < S16.size a := fun v101 k0_hw33 => k0_hw33

def k0_chk34 (v106 : IVec S16 32) : Prop :=
  (∀ a x, ((![v106] : Fin 1 → IVec S16 32) a x).toNat < S16.size a)
instance k0_chk34.dec : ∀ (v106 : IVec S16 32), Decidable (k0_chk34 v106) := fun v106 => decidable_of_iff' _ (Iff.of_eq (k0_chk34.eq_1 v106))
theorem k0_idx34_inb : ∀ (v106 : IVec S16 32) (k0_hw34 : k0_chk34 v106), ∀ a x, ((![v106] : Fin 1 → IVec S16 32) a x).toNat < S16.size a := fun v106 k0_hw34 => k0_hw34

def k0_chk35 (v111 : IVec S16 32) : Prop :=
  (∀ a x, ((![v111] : Fin 1 → IVec S16 32) a x).toNat < S1024.size a)
instance k0_chk35.dec : ∀ (v111 : IVec S16 32), Decidable (k0_chk35 v111) := fun v111 => decidable_of_iff' _ (Iff.of_eq (k0_chk35.eq_1 v111))
theorem k0_idx35_inb : ∀ (v111 : IVec S16 32) (k0_hw35 : k0_chk35 v111), ∀ a x, ((![v111] : Fin 1 → IVec S16 32) a x).toNat < S1024.size a := fun v111 k0_hw35 => k0_hw35

def k0_chk36 (v114 : IVec S16 32) : Prop :=
  (∀ a x, ((![v114] : Fin 1 → IVec S16 32) a x).toNat < S1024.size a)
instance k0_chk36.dec : ∀ (v114 : IVec S16 32), Decidable (k0_chk36 v114) := fun v114 => decidable_of_iff' _ (Iff.of_eq (k0_chk36.eq_1 v114))
theorem k0_idx36_inb : ∀ (v114 : IVec S16 32) (k0_hw36 : k0_chk36 v114), ∀ a x, ((![v114] : Fin 1 → IVec S16 32) a x).toNat < S1024.size a := fun v114 k0_hw36 => k0_hw36

def k0_chk37 (v118 : IVec S16 32) : Prop :=
  (∀ a x, ((![v118] : Fin 1 → IVec S16 32) a x).toNat < S256.size a)
instance k0_chk37.dec : ∀ (v118 : IVec S16 32), Decidable (k0_chk37 v118) := fun v118 => decidable_of_iff' _ (Iff.of_eq (k0_chk37.eq_1 v118))
theorem k0_idx37_inb : ∀ (v118 : IVec S16 32) (k0_hw37 : k0_chk37 v118), ∀ a x, ((![v118] : Fin 1 → IVec S16 32) a x).toNat < S256.size a := fun v118 k0_hw37 => k0_hw37

def k0_chk38 (v123 : IVec S16 32) : Prop :=
  (∀ a x, ((![v123] : Fin 1 → IVec S16 32) a x).toNat < S256.size a)
instance k0_chk38.dec : ∀ (v123 : IVec S16 32), Decidable (k0_chk38 v123) := fun v123 => decidable_of_iff' _ (Iff.of_eq (k0_chk38.eq_1 v123))
theorem k0_idx38_inb : ∀ (v123 : IVec S16 32) (k0_hw38 : k0_chk38 v123), ∀ a x, ((![v123] : Fin 1 → IVec S16 32) a x).toNat < S256.size a := fun v123 k0_hw38 => k0_hw38

def k0_chk39 (v119 : IVec S16 32) : Prop :=
  (∀ a x, ((![v119] : Fin 1 → IVec S16 32) a x).toNat < S16.size a)
instance k0_chk39.dec : ∀ (v119 : IVec S16 32), Decidable (k0_chk39 v119) := fun v119 => decidable_of_iff' _ (Iff.of_eq (k0_chk39.eq_1 v119))
theorem k0_idx39_inb : ∀ (v119 : IVec S16 32) (k0_hw39 : k0_chk39 v119), ∀ a x, ((![v119] : Fin 1 → IVec S16 32) a x).toNat < S16.size a := fun v119 k0_hw39 => k0_hw39

def k0_chk40 (v124 : IVec S16 32) : Prop :=
  (∀ a x, ((![v124] : Fin 1 → IVec S16 32) a x).toNat < S16.size a)
instance k0_chk40.dec : ∀ (v124 : IVec S16 32), Decidable (k0_chk40 v124) := fun v124 => decidable_of_iff' _ (Iff.of_eq (k0_chk40.eq_1 v124))
theorem k0_idx40_inb : ∀ (v124 : IVec S16 32) (k0_hw40 : k0_chk40 v124), ∀ a x, ((![v124] : Fin 1 → IVec S16 32) a x).toNat < S16.size a := fun v124 k0_hw40 => k0_hw40

def k0_chk41 (v129 : IVec S16 32) : Prop :=
  (∀ a x, ((![v129] : Fin 1 → IVec S16 32) a x).toNat < S1024.size a)
instance k0_chk41.dec : ∀ (v129 : IVec S16 32), Decidable (k0_chk41 v129) := fun v129 => decidable_of_iff' _ (Iff.of_eq (k0_chk41.eq_1 v129))
theorem k0_idx41_inb : ∀ (v129 : IVec S16 32) (k0_hw41 : k0_chk41 v129), ∀ a x, ((![v129] : Fin 1 → IVec S16 32) a x).toNat < S1024.size a := fun v129 k0_hw41 => k0_hw41

def k0_chk42 (v132 : IVec S16 32) : Prop :=
  (∀ a x, ((![v132] : Fin 1 → IVec S16 32) a x).toNat < S1024.size a)
instance k0_chk42.dec : ∀ (v132 : IVec S16 32), Decidable (k0_chk42 v132) := fun v132 => decidable_of_iff' _ (Iff.of_eq (k0_chk42.eq_1 v132))
theorem k0_idx42_inb : ∀ (v132 : IVec S16 32) (k0_hw42 : k0_chk42 v132), ∀ a x, ((![v132] : Fin 1 → IVec S16 32) a x).toNat < S1024.size a := fun v132 k0_hw42 => k0_hw42

def k0_chk43 (v136 : IVec S16 32) : Prop :=
  (∀ a x, ((![v136] : Fin 1 → IVec S16 32) a x).toNat < S256.size a)
instance k0_chk43.dec : ∀ (v136 : IVec S16 32), Decidable (k0_chk43 v136) := fun v136 => decidable_of_iff' _ (Iff.of_eq (k0_chk43.eq_1 v136))
theorem k0_idx43_inb : ∀ (v136 : IVec S16 32) (k0_hw43 : k0_chk43 v136), ∀ a x, ((![v136] : Fin 1 → IVec S16 32) a x).toNat < S256.size a := fun v136 k0_hw43 => k0_hw43

def k0_chk44 (v141 : IVec S16 32) : Prop :=
  (∀ a x, ((![v141] : Fin 1 → IVec S16 32) a x).toNat < S256.size a)
instance k0_chk44.dec : ∀ (v141 : IVec S16 32), Decidable (k0_chk44 v141) := fun v141 => decidable_of_iff' _ (Iff.of_eq (k0_chk44.eq_1 v141))
theorem k0_idx44_inb : ∀ (v141 : IVec S16 32) (k0_hw44 : k0_chk44 v141), ∀ a x, ((![v141] : Fin 1 → IVec S16 32) a x).toNat < S256.size a := fun v141 k0_hw44 => k0_hw44

def k0_chk45 (v137 : IVec S16 32) : Prop :=
  (∀ a x, ((![v137] : Fin 1 → IVec S16 32) a x).toNat < S16.size a)
instance k0_chk45.dec : ∀ (v137 : IVec S16 32), Decidable (k0_chk45 v137) := fun v137 => decidable_of_iff' _ (Iff.of_eq (k0_chk45.eq_1 v137))
theorem k0_idx45_inb : ∀ (v137 : IVec S16 32) (k0_hw45 : k0_chk45 v137), ∀ a x, ((![v137] : Fin 1 → IVec S16 32) a x).toNat < S16.size a := fun v137 k0_hw45 => k0_hw45

def k0_chk46 (v142 : IVec S16 32) : Prop :=
  (∀ a x, ((![v142] : Fin 1 → IVec S16 32) a x).toNat < S16.size a)
instance k0_chk46.dec : ∀ (v142 : IVec S16 32), Decidable (k0_chk46 v142) := fun v142 => decidable_of_iff' _ (Iff.of_eq (k0_chk46.eq_1 v142))
theorem k0_idx46_inb : ∀ (v142 : IVec S16 32) (k0_hw46 : k0_chk46 v142), ∀ a x, ((![v142] : Fin 1 → IVec S16 32) a x).toNat < S16.size a := fun v142 k0_hw46 => k0_hw46

def k0_chk47 (v147 : IVec S16 32) : Prop :=
  (∀ a x, ((![v147] : Fin 1 → IVec S16 32) a x).toNat < S1024.size a)
instance k0_chk47.dec : ∀ (v147 : IVec S16 32), Decidable (k0_chk47 v147) := fun v147 => decidable_of_iff' _ (Iff.of_eq (k0_chk47.eq_1 v147))
theorem k0_idx47_inb : ∀ (v147 : IVec S16 32) (k0_hw47 : k0_chk47 v147), ∀ a x, ((![v147] : Fin 1 → IVec S16 32) a x).toNat < S1024.size a := fun v147 k0_hw47 => k0_hw47

def k0_chk48 (v150 : IVec S16 32) : Prop :=
  (∀ a x, ((![v150] : Fin 1 → IVec S16 32) a x).toNat < S1024.size a)
instance k0_chk48.dec : ∀ (v150 : IVec S16 32), Decidable (k0_chk48 v150) := fun v150 => decidable_of_iff' _ (Iff.of_eq (k0_chk48.eq_1 v150))
theorem k0_idx48_inb : ∀ (v150 : IVec S16 32) (k0_hw48 : k0_chk48 v150), ∀ a x, ((![v150] : Fin 1 → IVec S16 32) a x).toNat < S1024.size a := fun v150 k0_hw48 => k0_hw48
def k0_off3 (i : grid0.Coords) : Fin 2 → Nat :=
  let c0_i32_43 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, v2.toNat]
def k0_off4 (i : grid0.Coords) : Fin 2 → Nat :=
  let c1_i32_46 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![1, v2.toNat]
def k0_off5 (i : grid0.Coords) : Fin 2 → Nat :=
  let c2_i32_49 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![2, v2.toNat]
def k0_off6 (i : grid0.Coords) : Fin 2 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![3, v2.toNat]
def k0_off7 (i : grid0.Coords) : Fin 2 → Nat :=
  let c4_i32 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![4, v2.toNat]
def k0_off8 (i : grid0.Coords) : Fin 2 → Nat :=
  let c5_i32 : BitVec 32 := 5#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![5, v2.toNat]
def k0_off9 (i : grid0.Coords) : Fin 2 → Nat :=
  let c6_i32 : BitVec 32 := 6#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![6, v2.toNat]
def k0_off10 (i : grid0.Coords) : Fin 2 → Nat :=
  let c7_i32 : BitVec 32 := 7#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![7, v2.toNat]
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x2_S8192 : S4096x2.ShapeCasts S8192
  h_S16 : 0 < S16.numel
  iota_S16_d0_w32_scVector : S16.Iotas .scVector 32 [0]
  h_S256 : 0 < S256.numel
  h_S1024 : 0 < S1024.numel
  inb_S1024_S128_0 : ∀ a, (![0] : Fin 1 → Nat) a + S128.size a ≤ S1024.size a
  squeezes_S1x128_S128 : S1x128.Squeezes S128
  inb_S1024_S128_128 : ∀ a, (![128] : Fin 1 → Nat) a + S128.size a ≤ S1024.size a
  inb_S1024_S128_256 : ∀ a, (![256] : Fin 1 → Nat) a + S128.size a ≤ S1024.size a
  inb_S1024_S128_384 : ∀ a, (![384] : Fin 1 → Nat) a + S128.size a ≤ S1024.size a
  inb_S1024_S128_512 : ∀ a, (![512] : Fin 1 → Nat) a + S128.size a ≤ S1024.size a
  inb_S1024_S128_640 : ∀ a, (![640] : Fin 1 → Nat) a + S128.size a ≤ S1024.size a
  inb_S1024_S128_768 : ∀ a, (![768] : Fin 1 → Nat) a + S128.size a ≤ S1024.size a
  inb_S1024_S128_896 : ∀ a, (![896] : Fin 1 → Nat) a + S128.size a ≤ S1024.size a
  inb_S256x1024_S8x1024_0_0 : ∀ a, (![0, 0] : Fin 2 → Nat) a + S8x1024.size a ≤ S256x1024.size a
  h_S8x1024 : 0 < S8x1024.numel
  inb_S8x256_S8x8_0_0 : ∀ a, (![0, 0] : Fin 2 → Nat) a + S8x8.size a ≤ S8x256.size a
  h_S8x8 : 0 < S8x8.numel
  shapeCasts_S8x8_S8x8 : S8x8.ShapeCasts S8x8
  shapeCasts_S8x1024_S1x8x1024 : S8x1024.ShapeCasts S1x8x1024
  shapeCasts_S8x8_S8x8x1 : S8x8.ShapeCasts S8x8x1
  broadcasts_S1x8x1024_S8x8x1024 : S1x8x1024.Broadcasts S8x8x1024
  broadcasts_S8x8x1_S8x8x1024 : S8x8x1.Broadcasts S8x8x1024
  inb_S8x256x1024_S8x8x1024_0_0_0 : ∀ a, (![0, 0, 0] : Fin 3 → Nat) a + S8x8x1024.size a ≤ S8x256x1024.size a
  h_S8x8x1024 : 0 < S8x8x1024.numel
  inb_S256x1024_S8x1024_8_0 : ∀ a, (![8, 0] : Fin 2 → Nat) a + S8x1024.size a ≤ S256x1024.size a
  inb_S8x256_S8x8_0_8 : ∀ a, (![0, 8] : Fin 2 → Nat) a + S8x8.size a ≤ S8x256.size a
  inb_S8x256x1024_S8x8x1024_0_8_0 : ∀ a, (![0, 8, 0] : Fin 3 → Nat) a + S8x8x1024.size a ≤ S8x256x1024.size a
  inb_S256x1024_S8x1024_16_0 : ∀ a, (![16, 0] : Fin 2 → Nat) a + S8x1024.size a ≤ S256x1024.size a
  inb_S8x256_S8x8_0_16 : ∀ a, (![0, 16] : Fin 2 → Nat) a + S8x8.size a ≤ S8x256.size a
  inb_S8x256x1024_S8x8x1024_0_16_0 : ∀ a, (![0, 16, 0] : Fin 3 → Nat) a + S8x8x1024.size a ≤ S8x256x1024.size a
  inb_S256x1024_S8x1024_24_0 : ∀ a, (![24, 0] : Fin 2 → Nat) a + S8x1024.size a ≤ S256x1024.size a
  inb_S8x256_S8x8_0_24 : ∀ a, (![0, 24] : Fin 2 → Nat) a + S8x8.size a ≤ S8x256.size a
  inb_S8x256x1024_S8x8x1024_0_24_0 : ∀ a, (![0, 24, 0] : Fin 3 → Nat) a + S8x8x1024.size a ≤ S8x256x1024.size a
  inb_S256x1024_S8x1024_32_0 : ∀ a, (![32, 0] : Fin 2 → Nat) a + S8x1024.size a ≤ S256x1024.size a
  inb_S8x256_S8x8_0_32 : ∀ a, (![0, 32] : Fin 2 → Nat) a + S8x8.size a ≤ S8x256.size a
  inb_S8x256x1024_S8x8x1024_0_32_0 : ∀ a, (![0, 32, 0] : Fin 3 → Nat) a + S8x8x1024.size a ≤ S8x256x1024.size a
  inb_S256x1024_S8x1024_40_0 : ∀ a, (![40, 0] : Fin 2 → Nat) a + S8x1024.size a ≤ S256x1024.size a
  inb_S8x256_S8x8_0_40 : ∀ a, (![0, 40] : Fin 2 → Nat) a + S8x8.size a ≤ S8x256.size a
  inb_S8x256x1024_S8x8x1024_0_40_0 : ∀ a, (![0, 40, 0] : Fin 3 → Nat) a + S8x8x1024.size a ≤ S8x256x1024.size a
  inb_S256x1024_S8x1024_48_0 : ∀ a, (![48, 0] : Fin 2 → Nat) a + S8x1024.size a ≤ S256x1024.size a
  inb_S8x256_S8x8_0_48 : ∀ a, (![0, 48] : Fin 2 → Nat) a + S8x8.size a ≤ S8x256.size a
  inb_S8x256x1024_S8x8x1024_0_48_0 : ∀ a, (![0, 48, 0] : Fin 3 → Nat) a + S8x8x1024.size a ≤ S8x256x1024.size a
  inb_S256x1024_S8x1024_56_0 : ∀ a, (![56, 0] : Fin 2 → Nat) a + S8x1024.size a ≤ S256x1024.size a
  inb_S8x256_S8x8_0_56 : ∀ a, (![0, 56] : Fin 2 → Nat) a + S8x8.size a ≤ S8x256.size a
  inb_S8x256x1024_S8x8x1024_0_56_0 : ∀ a, (![0, 56, 0] : Fin 3 → Nat) a + S8x8x1024.size a ≤ S8x256x1024.size a
  inb_S256x1024_S8x1024_64_0 : ∀ a, (![64, 0] : Fin 2 → Nat) a + S8x1024.size a ≤ S256x1024.size a
  inb_S8x256_S8x8_0_64 : ∀ a, (![0, 64] : Fin 2 → Nat) a + S8x8.size a ≤ S8x256.size a
  inb_S8x256x1024_S8x8x1024_0_64_0 : ∀ a, (![0, 64, 0] : Fin 3 → Nat) a + S8x8x1024.size a ≤ S8x256x1024.size a
  inb_S256x1024_S8x1024_72_0 : ∀ a, (![72, 0] : Fin 2 → Nat) a + S8x1024.size a ≤ S256x1024.size a
  inb_S8x256_S8x8_0_72 : ∀ a, (![0, 72] : Fin 2 → Nat) a + S8x8.size a ≤ S8x256.size a
  inb_S8x256x1024_S8x8x1024_0_72_0 : ∀ a, (![0, 72, 0] : Fin 3 → Nat) a + S8x8x1024.size a ≤ S8x256x1024.size a
  inb_S256x1024_S8x1024_80_0 : ∀ a, (![80, 0] : Fin 2 → Nat) a + S8x1024.size a ≤ S256x1024.size a
  inb_S8x256_S8x8_0_80 : ∀ a, (![0, 80] : Fin 2 → Nat) a + S8x8.size a ≤ S8x256.size a
  inb_S8x256x1024_S8x8x1024_0_80_0 : ∀ a, (![0, 80, 0] : Fin 3 → Nat) a + S8x8x1024.size a ≤ S8x256x1024.size a
  inb_S256x1024_S8x1024_88_0 : ∀ a, (![88, 0] : Fin 2 → Nat) a + S8x1024.size a ≤ S256x1024.size a
  inb_S8x256_S8x8_0_88 : ∀ a, (![0, 88] : Fin 2 → Nat) a + S8x8.size a ≤ S8x256.size a
  inb_S8x256x1024_S8x8x1024_0_88_0 : ∀ a, (![0, 88, 0] : Fin 3 → Nat) a + S8x8x1024.size a ≤ S8x256x1024.size a
  inb_S256x1024_S8x1024_96_0 : ∀ a, (![96, 0] : Fin 2 → Nat) a + S8x1024.size a ≤ S256x1024.size a
  inb_S8x256_S8x8_0_96 : ∀ a, (![0, 96] : Fin 2 → Nat) a + S8x8.size a ≤ S8x256.size a
  inb_S8x256x1024_S8x8x1024_0_96_0 : ∀ a, (![0, 96, 0] : Fin 3 → Nat) a + S8x8x1024.size a ≤ S8x256x1024.size a
  inb_S256x1024_S8x1024_104_0 : ∀ a, (![104, 0] : Fin 2 → Nat) a + S8x1024.size a ≤ S256x1024.size a
  inb_S8x256_S8x8_0_104 : ∀ a, (![0, 104] : Fin 2 → Nat) a + S8x8.size a ≤ S8x256.size a
  inb_S8x256x1024_S8x8x1024_0_104_0 : ∀ a, (![0, 104, 0] : Fin 3 → Nat) a + S8x8x1024.size a ≤ S8x256x1024.size a
  inb_S256x1024_S8x1024_112_0 : ∀ a, (![112, 0] : Fin 2 → Nat) a + S8x1024.size a ≤ S256x1024.size a
  inb_S8x256_S8x8_0_112 : ∀ a, (![0, 112] : Fin 2 → Nat) a + S8x8.size a ≤ S8x256.size a
  inb_S8x256x1024_S8x8x1024_0_112_0 : ∀ a, (![0, 112, 0] : Fin 3 → Nat) a + S8x8x1024.size a ≤ S8x256x1024.size a
  inb_S256x1024_S8x1024_120_0 : ∀ a, (![120, 0] : Fin 2 → Nat) a + S8x1024.size a ≤ S256x1024.size a
  inb_S8x256_S8x8_0_120 : ∀ a, (![0, 120] : Fin 2 → Nat) a + S8x8.size a ≤ S8x256.size a
  inb_S8x256x1024_S8x8x1024_0_120_0 : ∀ a, (![0, 120, 0] : Fin 3 → Nat) a + S8x8x1024.size a ≤ S8x256x1024.size a
  inb_S256x1024_S8x1024_128_0 : ∀ a, (![128, 0] : Fin 2 → Nat) a + S8x1024.size a ≤ S256x1024.size a
  inb_S8x256_S8x8_0_128 : ∀ a, (![0, 128] : Fin 2 → Nat) a + S8x8.size a ≤ S8x256.size a
  inb_S8x256x1024_S8x8x1024_0_128_0 : ∀ a, (![0, 128, 0] : Fin 3 → Nat) a + S8x8x1024.size a ≤ S8x256x1024.size a
  inb_S256x1024_S8x1024_136_0 : ∀ a, (![136, 0] : Fin 2 → Nat) a + S8x1024.size a ≤ S256x1024.size a
  inb_S8x256_S8x8_0_136 : ∀ a, (![0, 136] : Fin 2 → Nat) a + S8x8.size a ≤ S8x256.size a
  inb_S8x256x1024_S8x8x1024_0_136_0 : ∀ a, (![0, 136, 0] : Fin 3 → Nat) a + S8x8x1024.size a ≤ S8x256x1024.size a
  inb_S256x1024_S8x1024_144_0 : ∀ a, (![144, 0] : Fin 2 → Nat) a + S8x1024.size a ≤ S256x1024.size a
  inb_S8x256_S8x8_0_144 : ∀ a, (![0, 144] : Fin 2 → Nat) a + S8x8.size a ≤ S8x256.size a
  inb_S8x256x1024_S8x8x1024_0_144_0 : ∀ a, (![0, 144, 0] : Fin 3 → Nat) a + S8x8x1024.size a ≤ S8x256x1024.size a
  inb_S256x1024_S8x1024_152_0 : ∀ a, (![152, 0] : Fin 2 → Nat) a + S8x1024.size a ≤ S256x1024.size a
  inb_S8x256_S8x8_0_152 : ∀ a, (![0, 152] : Fin 2 → Nat) a + S8x8.size a ≤ S8x256.size a
  inb_S8x256x1024_S8x8x1024_0_152_0 : ∀ a, (![0, 152, 0] : Fin 3 → Nat) a + S8x8x1024.size a ≤ S8x256x1024.size a
  inb_S256x1024_S8x1024_160_0 : ∀ a, (![160, 0] : Fin 2 → Nat) a + S8x1024.size a ≤ S256x1024.size a
  inb_S8x256_S8x8_0_160 : ∀ a, (![0, 160] : Fin 2 → Nat) a + S8x8.size a ≤ S8x256.size a
  inb_S8x256x1024_S8x8x1024_0_160_0 : ∀ a, (![0, 160, 0] : Fin 3 → Nat) a + S8x8x1024.size a ≤ S8x256x1024.size a
  inb_S256x1024_S8x1024_168_0 : ∀ a, (![168, 0] : Fin 2 → Nat) a + S8x1024.size a ≤ S256x1024.size a
  inb_S8x256_S8x8_0_168 : ∀ a, (![0, 168] : Fin 2 → Nat) a + S8x8.size a ≤ S8x256.size a
  inb_S8x256x1024_S8x8x1024_0_168_0 : ∀ a, (![0, 168, 0] : Fin 3 → Nat) a + S8x8x1024.size a ≤ S8x256x1024.size a
  inb_S256x1024_S8x1024_176_0 : ∀ a, (![176, 0] : Fin 2 → Nat) a + S8x1024.size a ≤ S256x1024.size a
  inb_S8x256_S8x8_0_176 : ∀ a, (![0, 176] : Fin 2 → Nat) a + S8x8.size a ≤ S8x256.size a
  inb_S8x256x1024_S8x8x1024_0_176_0 : ∀ a, (![0, 176, 0] : Fin 3 → Nat) a + S8x8x1024.size a ≤ S8x256x1024.size a
  inb_S256x1024_S8x1024_184_0 : ∀ a, (![184, 0] : Fin 2 → Nat) a + S8x1024.size a ≤ S256x1024.size a
  inb_S8x256_S8x8_0_184 : ∀ a, (![0, 184] : Fin 2 → Nat) a + S8x8.size a ≤ S8x256.size a
  inb_S8x256x1024_S8x8x1024_0_184_0 : ∀ a, (![0, 184, 0] : Fin 3 → Nat) a + S8x8x1024.size a ≤ S8x256x1024.size a
  inb_S256x1024_S8x1024_192_0 : ∀ a, (![192, 0] : Fin 2 → Nat) a + S8x1024.size a ≤ S256x1024.size a
  inb_S8x256_S8x8_0_192 : ∀ a, (![0, 192] : Fin 2 → Nat) a + S8x8.size a ≤ S8x256.size a
  inb_S8x256x1024_S8x8x1024_0_192_0 : ∀ a, (![0, 192, 0] : Fin 3 → Nat) a + S8x8x1024.size a ≤ S8x256x1024.size a
  inb_S256x1024_S8x1024_200_0 : ∀ a, (![200, 0] : Fin 2 → Nat) a + S8x1024.size a ≤ S256x1024.size a
  inb_S8x256_S8x8_0_200 : ∀ a, (![0, 200] : Fin 2 → Nat) a + S8x8.size a ≤ S8x256.size a
  inb_S8x256x1024_S8x8x1024_0_200_0 : ∀ a, (![0, 200, 0] : Fin 3 → Nat) a + S8x8x1024.size a ≤ S8x256x1024.size a
  inb_S256x1024_S8x1024_208_0 : ∀ a, (![208, 0] : Fin 2 → Nat) a + S8x1024.size a ≤ S256x1024.size a
  inb_S8x256_S8x8_0_208 : ∀ a, (![0, 208] : Fin 2 → Nat) a + S8x8.size a ≤ S8x256.size a
  inb_S8x256x1024_S8x8x1024_0_208_0 : ∀ a, (![0, 208, 0] : Fin 3 → Nat) a + S8x8x1024.size a ≤ S8x256x1024.size a
  inb_S256x1024_S8x1024_216_0 : ∀ a, (![216, 0] : Fin 2 → Nat) a + S8x1024.size a ≤ S256x1024.size a
  inb_S8x256_S8x8_0_216 : ∀ a, (![0, 216] : Fin 2 → Nat) a + S8x8.size a ≤ S8x256.size a
  inb_S8x256x1024_S8x8x1024_0_216_0 : ∀ a, (![0, 216, 0] : Fin 3 → Nat) a + S8x8x1024.size a ≤ S8x256x1024.size a
  inb_S256x1024_S8x1024_224_0 : ∀ a, (![224, 0] : Fin 2 → Nat) a + S8x1024.size a ≤ S256x1024.size a
  inb_S8x256_S8x8_0_224 : ∀ a, (![0, 224] : Fin 2 → Nat) a + S8x8.size a ≤ S8x256.size a
  inb_S8x256x1024_S8x8x1024_0_224_0 : ∀ a, (![0, 224, 0] : Fin 3 → Nat) a + S8x8x1024.size a ≤ S8x256x1024.size a
  inb_S256x1024_S8x1024_232_0 : ∀ a, (![232, 0] : Fin 2 → Nat) a + S8x1024.size a ≤ S256x1024.size a
  inb_S8x256_S8x8_0_232 : ∀ a, (![0, 232] : Fin 2 → Nat) a + S8x8.size a ≤ S8x256.size a
  inb_S8x256x1024_S8x8x1024_0_232_0 : ∀ a, (![0, 232, 0] : Fin 3 → Nat) a + S8x8x1024.size a ≤ S8x256x1024.size a
  inb_S256x1024_S8x1024_240_0 : ∀ a, (![240, 0] : Fin 2 → Nat) a + S8x1024.size a ≤ S256x1024.size a
  inb_S8x256_S8x8_0_240 : ∀ a, (![0, 240] : Fin 2 → Nat) a + S8x8.size a ≤ S8x256.size a
  inb_S8x256x1024_S8x8x1024_0_240_0 : ∀ a, (![0, 240, 0] : Fin 3 → Nat) a + S8x8x1024.size a ≤ S8x256x1024.size a
  inb_S256x1024_S8x1024_248_0 : ∀ a, (![248, 0] : Fin 2 → Nat) a + S8x1024.size a ≤ S256x1024.size a
  inb_S8x256_S8x8_0_248 : ∀ a, (![0, 248] : Fin 2 → Nat) a + S8x8.size a ≤ S8x256.size a
  inb_S8x256x1024_S8x8x1024_0_248_0 : ∀ a, (![0, 248, 0] : Fin 3 → Nat) a + S8x8x1024.size a ≤ S8x256x1024.size a
  hcc0_scratch3 : 0 + S_.numel ≤ 9
  hcc0_scoped0 : 1 + S_.numel ≤ 9
  hcc0_scoped1 : 2 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S256.size a ≤ S8192.size a
  k0_t1_ok : k0_t1_loop.OK
  k0_off2_inb : ∀ k0_t1 : Fin k0_t1_loop.trips, ∀ (r : Fin 8), ∀ a, (k0_off2 k0_t1 (BitVec.ofNat 32 (16 * r.val))) a + S16.size a ≤ S1024.size a
  k0_off3_inb : ∀ i : grid0.Coords, ∀ a, (k0_off3 i) a + S1x128.size a ≤ S8x4096.size a
  k0_off4_inb : ∀ i : grid0.Coords, ∀ a, (k0_off4 i) a + S1x128.size a ≤ S8x4096.size a
  k0_off5_inb : ∀ i : grid0.Coords, ∀ a, (k0_off5 i) a + S1x128.size a ≤ S8x4096.size a
  k0_off6_inb : ∀ i : grid0.Coords, ∀ a, (k0_off6 i) a + S1x128.size a ≤ S8x4096.size a
  k0_off7_inb : ∀ i : grid0.Coords, ∀ a, (k0_off7 i) a + S1x128.size a ≤ S8x4096.size a
  k0_off8_inb : ∀ i : grid0.Coords, ∀ a, (k0_off8 i) a + S1x128.size a ≤ S8x4096.size a
  k0_off9_inb : ∀ i : grid0.Coords, ∀ a, (k0_off9 i) a + S1x128.size a ≤ S8x4096.size a
  k0_off10_inb : ∀ i : grid0.Coords, ∀ a, (k0_off10 i) a + S1x128.size a ≤ S8x4096.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S4096x1024.size a
  hwx1_0 : ∀ i : grid1.Coords, EltTy.bits .f32 = 32 ∨ (Rect.block (s := S4096x1024) S256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256.size a ≤ S8x4096.size a
  hwx1_1 : ∀ i : grid1.Coords, EltTy.bits .f32 = 32 ∨ (Rect.block (s := S8x4096) S8x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256x1024.size a ≤ S8x4096x1024.size a
  hwx1_2 : ∀ i : grid1.Coords, EltTy.bits .f32 = 32 ∨ (Rect.block (s := S8x4096x1024) S8x256x1024.size (cc1_transform_2 i) (hinb1_2 i)).WholeWords (EltTy.packing .f32)

variable [Facts₀]

abbrev cc0_scratch3 : DmaSems sig S_ := SemArray.consecutive 0 S_ hcc0_scratch3
abbrev cc0_scoped0 : DmaSems sig S_ := SemArray.consecutive 1 S_ hcc0_scoped0
abbrev cc0_scoped1 : DmaSems sig S_ := SemArray.consecutive 2 S_ hcc0_scoped1

abbrev win1_0 : Pipeline.Window sig grid1 :=
  Pipeline.Window.ofSpec (Memref.whole main_arg0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S8x256x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S4096x2 : Shape := ⟨2, ![4096, 2]⟩
abbrev S16 : Shape := ⟨1, ![16]⟩
abbrev S_ : Shape := ⟨0, ![]⟩
abbrev S4096x2x1 : Shape := ⟨3, ![4096, 2, 1]⟩
abbrev S1 : Shape := ⟨1, ![1]⟩
abbrev S1x1x1 : Shape := ⟨3, ![1, 1, 1]⟩
abbrev S1x4096x2 : Shape := ⟨3, ![1, 4096, 2]⟩
abbrev S8 : Shape := ⟨1, ![8]⟩
abbrev S8x1x1 : Shape := ⟨3, ![8, 1, 1]⟩
abbrev S8x4096x2 : Shape := ⟨3, ![8, 4096, 2]⟩
abbrev S8x4096 : Shape := ⟨2, ![8, 4096]⟩
abbrev S8x4096x1 : Shape := ⟨3, ![8, 4096, 1]⟩
abbrev S1x4096x1024 : Shape := ⟨3, ![1, 4096, 1024]⟩
abbrev S8x4096x1024 : Shape := ⟨3, ![8, 4096, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2, .i32⟩
  | .hbm, ⟨2, _⟩ => ⟨S16, .i32⟩
  | .hbm, ⟨3, _⟩ => ⟨S_, .i32⟩
  | .hbm, ⟨4, _⟩ => ⟨S4096x2, .i32⟩
  | .hbm, ⟨5, _⟩ => ⟨S4096x2, .i1⟩
  | .hbm, ⟨6, _⟩ => ⟨S_, .i32⟩
  | .hbm, ⟨7, _⟩ => ⟨S4096x2, .i32⟩
  | .hbm, ⟨8, _⟩ => ⟨S4096x2, .i32⟩
  | .hbm, ⟨9, _⟩ => ⟨S4096x2, .i32⟩
  | .hbm, ⟨10, _⟩ => ⟨S4096x2x1, .i32⟩
  | .hbm, ⟨11, _⟩ => ⟨S1, .i32⟩
  | .hbm, ⟨12, _⟩ => ⟨S_, .i32⟩
  | .hbm, ⟨13, _⟩ => ⟨S4096x2x1, .i32⟩
  | .hbm, ⟨14, _⟩ => ⟨S4096x2x1, .i1⟩
  | .hbm, ⟨15, _⟩ => ⟨S1x1x1, .i32⟩
  | .hbm, ⟨16, _⟩ => ⟨S4096x2x1, .i32⟩
  | .hbm, ⟨17, _⟩ => ⟨S4096x2x1, .i1⟩
  | .hbm, ⟨18, _⟩ => ⟨S4096x2x1, .i1⟩
  | .hbm, ⟨19, _⟩ => ⟨S_, .i1⟩
  | .hbm, ⟨20, _⟩ => ⟨S4096x2, .i1⟩
  | .hbm, ⟨21, _⟩ => ⟨S4096x2, .i32⟩
  | .hbm, ⟨22, _⟩ => ⟨S_, .i32⟩
  | .hbm, ⟨23, _⟩ => ⟨S4096x2, .i32⟩
  | .hbm, ⟨24, _⟩ => ⟨S4096x2, .i32⟩
  | .hbm, ⟨25, _⟩ => ⟨S1x4096x2, .i32⟩
  | .hbm, ⟨26, _⟩ => ⟨S8, .i32⟩
  | .hbm, ⟨27, _⟩ => ⟨S8x1x1, .i32⟩
  | .hbm, ⟨28, _⟩ => ⟨S8x4096x2, .i32⟩
  | .hbm, ⟨29, _⟩ => ⟨S8x4096x2, .i32⟩
  | .hbm, ⟨30, _⟩ => ⟨S8x4096x2, .i1⟩
  | .hbm, ⟨31, _⟩ => ⟨S_, .i1⟩
  | .hbm, ⟨32, _⟩ => ⟨S8x4096, .i1⟩
  | .hbm, ⟨33, _⟩ => ⟨S8x4096x1, .i1⟩
  | .hbm, ⟨34, _⟩ => ⟨S1x4096x1024, .f32⟩
  | .hbm, ⟨35, _⟩ => ⟨S_, .f32⟩
  | .hbm, ⟨36, _⟩ => ⟨S8x4096x1024, .i1⟩
  | .hbm, ⟨37, _⟩ => ⟨S8x4096x1024, .f32⟩
  | .hbm, ⟨38, _⟩ => ⟨S8x4096x1024, .f32⟩
  | .hbm, ⟨39, _⟩ => ⟨S8x4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_c_4 : Ref sig .tc := ⟨.hbm, 22, rfl⟩
abbrev main_call0_v14 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_c : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v10 : Ref sig .tc := ⟨.hbm, 39, rfl⟩

abbrev nD : Nat := 1
abbrev τ : Topo := Topo.v7x

variable {F : FTy → Type} [FloatOps F]

class Facts₀ : Prop where
  bcast_S_S4096x2 : S_.BroadcastsInDim S4096x2 (![] : Fin 0 → Fin S4096x2.rank)
  bcast_S4096x2_S4096x2x1_0_1 : S4096x2.BroadcastsInDim S4096x2x1 (![0, 1] : Fin 2 → Fin S4096x2x1.rank)
  bcast_S_S4096x2x1 : S_.BroadcastsInDim S4096x2x1 (![] : Fin 0 → Fin S4096x2x1.rank)
  bcast_S1_S1x1x1_2 : S1.BroadcastsInDim S1x1x1 (![2] : Fin 1 → Fin S1x1x1.rank)
  bcast_S1x1x1_S4096x2x1_0_1_2 : S1x1x1.BroadcastsInDim S4096x2x1 (![0, 1, 2] : Fin 3 → Fin S4096x2x1.rank)
  reducesTo_S4096x2x1_S4096x2_d2 : S4096x2x1.ReducesTo [2] S4096x2
  h_S_ : 0 < S_.numel
  bcast_S4096x2_S1x4096x2_1_2 : S4096x2.BroadcastsInDim S1x4096x2 (![1, 2] : Fin 2 → Fin S1x4096x2.rank)
  bcast_S8_S8x1x1_0 : S8.BroadcastsInDim S8x1x1 (![0] : Fin 1 → Fin S8x1x1.rank)
  bcast_S1x4096x2_S8x4096x2_0_1_2 : S1x4096x2.BroadcastsInDim S8x4096x2 (![0, 1, 2] : Fin 3 → Fin S8x4096x2.rank)
  bcast_S8x1x1_S8x4096x2_0_1_2 : S8x1x1.BroadcastsInDim S8x4096x2 (![0, 1, 2] : Fin 3 → Fin S8x4096x2.rank)
  reducesTo_S8x4096x2_S8x4096_d2 : S8x4096x2.ReducesTo [2] S8x4096
  bcast_S8x4096_S8x4096x1_0_1 : S8x4096.BroadcastsInDim S8x4096x1 (![0, 1] : Fin 2 → Fin S8x4096x1.rank)
  bcast_S4096x1024_S1x4096x1024_1_2 : S4096x1024.BroadcastsInDim S1x4096x1024 (![1, 2] : Fin 2 → Fin S1x4096x1024.rank)
  bcast_S8x4096x1_S8x4096x1024_0_1_2 : S8x4096x1.BroadcastsInDim S8x4096x1024 (![0, 1, 2] : Fin 3 → Fin S8x4096x1024.rank)
  bcast_S1x4096x1024_S8x4096x1024_0_1_2 : S1x4096x1024.BroadcastsInDim S8x4096x1024 (![0, 1, 2] : Fin 3 → Fin S8x4096x1024.rank)
  bcast_S_S8x4096x1024 : S_.BroadcastsInDim S8x4096x1024 (![] : Fin 0 → Fin S8x4096x1024.rank)
  gather_S16_S4096x2x1_S4096x2_n_0_n_n_0_2_1_wf : GatherDims.WF S16 S4096x2x1 S4096x2 [] [0] [] [0] [] 2 ![1]

variable [Facts₀]

def gather_S16_S4096x2x1_S4096x2_n_0_n_n_0_2_1 : GatherDims S16 S4096x2x1 S4096x2 where
  offsetDims := []
  collapsedSliceDims := [0]
  operandBatchingDims := []
  startIndicesBatchingDims := []
  startIndexMap := [0]
  indexVectorDim := 2
  sliceSizes := ![1]
  wf := gather_S16_S4096x2x1_S4096x2_n_0_n_n_0_2_1_wf

class Facts : Prop extends Facts₀ where

variable [Facts]
-- ==== Proof.Spec.lean ====
/-
  What both programs compute, stated once, index by index, over no program.

  A token t of 4096 names two experts, idx[t, 0] and idx[t, 1]; the table map sends an expert to one of eight
  devices. Token t is dispatched to device d when one of its two experts lives on d. The routing mask is 1.0 at
  (d, t) in that case and 0.0 otherwise; the dispatched tensor is out[d, t, j] = x[t, j] * mask[d, t].
  An expert word is read modulo 16, which changes nothing on the inputs the precondition admits
  (0 <= idx <= 15) and keeps the definition total.
-/
import Idealize.ShloMosaic.PureOps
import Idealize.ShloMosaic.Lib.ValueIdx

noncomputable section

namespace Cert.Spec

open Idealize.ShloMosaic Idealize.ShloMosaic.ValueIdx

abbrev Sx : Shape := ⟨2, ![4096, 1024]⟩
abbrev Si : Shape := ⟨2, ![4096, 2]⟩
abbrev Sm : Shape := ⟨1, ![16]⟩
abbrev Sf : Shape := ⟨1, ![8192]⟩
abbrev Sw : Shape := ⟨2, ![8, 4096]⟩
abbrev So : Shape := ⟨3, ![8, 4096, 1024]⟩

/-- The expert list laid flat, row-major: entry 2t + k is token t's k-th expert. -/
def flat (idx : IVec Si 32) : IVec Sf 32 := fun j =>
  idx (ix2 (⟨(j 0).val / 2, by have h : (j 0).val < 8192 := (j 0).isLt; omega⟩ : Fin 4096) (⟨(j 0).val % 2, Nat.mod_lt _ (by decide)⟩ : Fin 2))

/-- The device of token t's k-th expert, as a number. -/
def devOf (idx : IVec Si 32) (map : IVec Sm 32) (t : Fin 4096) (k : Fin 2) : ℕ :=
  (map (ix1 (⟨(idx (ix2 t k)).toNat % 16, Nat.mod_lt _ (by decide)⟩ : Fin 16))).toNat

/-- Token t goes to device d: one of its two experts lives there. -/
def Hit (idx : IVec Si 32) (map : IVec Sm 32) (d : Fin 8) (t : Fin 4096) : Prop := ∃ k : Fin 2, devOf idx map t k = d.val

instance (idx : IVec Si 32) (map : IVec Sm 32) (d : Fin 8) (t : Fin 4096) : Decidable (Hit idx map d t) := by
  unfold Hit; infer_instance

variable {F : FTy → Type} [FloatOps F]

/-- The routing mask at device d and token t: 1.0 where the token goes to the device, 0.0 elsewhere. -/
def maskAt (idx : IVec Si 32) (map : IVec Sm 32) (d : Fin 8) (t : Fin 4096) : F .f32 :=
  if Hit idx map d t then Scalar.ofBits .f32 0x3F800000#32 else Scalar.ofBits .f32 0x00000000#32

/-- The routing mask as an array over (device, token). -/
def mask (idx : IVec Si 32) (map : IVec Sm 32) : FVec F Sw .f32 := fun i => maskAt (F := F) idx map (i 0) (i 1)

/-- The dispatched tensor: each token's row times its mask entry. -/
def out (x : FVec F Sx .f32) (idx : IVec Si 32) (map : IVec Sm 32) : FVec F So .f32 := fun i =>
  FloatOps.mulf (x (ix2 (i 1) (i 2))) (mask (F := F) idx map (ix2 (i 0) (i 1)))

end Cert.Spec

end
-- ==== Proof.KI.Common.lean ====
/-
  The kernel program as the SparseCore launch theorem sees it, and what its threads pass one another.

  One device, two SparseCores of sixteen vector subcores: thirty-two tiles, tile (c, i) numbered w = 2 i + c, each
  owning tokens [128 w, 128 w + 128). The TensorCore reshapes the expert list flat, starts the tiles, waits for them,
  then runs the dispatch pipeline over sixteen blocks of 256 tokens.
  A tile reads its 256 words of the flat expert list and the whole expert-to-device table (both under a read share of
  its own, one of 32), and owns, at the full share, its eight row pieces of the mask array: row r, columns
  [128 w, 128 w + 128), for r < 8. It leaves those pieces at the specification's mask.
-/
import proofs.«202873_g15822659519276_cont_week2b_991_21_alg».proof.Defs
import proofs.«202873_g15822659519276_cont_week2b_991_21_alg».proof.Proof.Gen.KernelIdeal
import proofs.«202873_g15822659519276_cont_week2b_991_21_alg».proof.Proof.Gen.KernelIdeal.Skeleton
import proofs.«202873_g15822659519276_cont_week2b_991_21_alg».proof.Proof.Gen.KernelIdeal.Launch
import proofs.«202873_g15822659519276_cont_week2b_991_21_alg».proof.Proof.Gen.KernelIdeal.Points
import proofs.«202873_g15822659519276_cont_week2b_991_21_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Batch
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

/-! ## The launch memory, the arrays and what they hold -/

variable (m : (ℓ : Loc nD τ sig) → Buf (Elt F) ℓ) (ρ : Dev nD → PrngReg)

/-- The token rows, the expert list, the expert-to-device table (the arguments); the flat expert list, the routing
    mask, the dispatched tensor (what @main computes), as locations of device d. -/
abbrev xLoc (d : Dev nD) : Loc nD τ sig := (SparseCore.T d).loc main_arg0
abbrev iLoc (d : Dev nD) : Loc nD τ sig := (SparseCore.T d).loc main_arg1
abbrev mLoc (d : Dev nD) : Loc nD τ sig := (SparseCore.T d).loc main_arg2
abbrev fLoc (d : Dev nD) : Loc nD τ sig := (SparseCore.T d).loc main_v0
abbrev wLoc (d : Dev nD) : Loc nD τ sig := (SparseCore.T d).loc main_v1
abbrev oLoc (d : Dev nD) : Loc nD τ sig := (SparseCore.T d).loc main_v2

/-- The flat expert list of the launch memory. -/
def flatB (d : Dev nD) : Buf (Elt F) (fLoc d) := Cert.Spec.flat (m (iLoc d))

variable [FloatOps F]

/-- The routing mask and the dispatched tensor of the launch memory's arguments. -/
def maskB (d : Dev nD) : Buf (Elt F) (wLoc d) := Cert.Spec.mask (F := F) (m (iLoc d)) (m (mLoc d))
def outB (d : Dev nD) : Buf (Elt F) (oLoc d) := Cert.Spec.out (F := F) (m (xLoc d)) (m (iLoc d)) (m (mLoc d))

omit [FloatOps F] in
/-- What the proof asks of the launch memory: every expert word below 16, every device word below 8. -/
def PreOK : Prop := ∀ d : Dev nD, (∀ i, (m (iLoc d) i).toNat < 16) ∧ (∀ j, (m (mLoc d) j).toNat < 8)

/-! ## The tiles' pieces of the mask array -/

/-- Tile (c, i) is worker 2 i + c. -/
abbrev wid (c : Fin 2) (i : Fin 16) : Fin 32 := ⟨2 * i.val + c.val, by omega⟩

omit [FloatOps F] in
theorem hblk (r : Fin 8) (w : Fin 32) : ∀ a, ((![r.val, w.val] : Fin 2 → Nat) a + 1) * (![1, 128] : Fin 2 → Nat) a ≤ S8x4096.size a := by
  intro a
  match a with
  | ⟨0, _⟩ => show (r.val + 1) * 1 ≤ 8; omega
  | ⟨1, _⟩ => show (w.val + 1) * 128 ≤ 4096; omega

/-- Row r, columns [128 w, 128 w + 128) of the mask array. -/
abbrev wRect (r : Fin 8) (w : Fin 32) : Rect S8x4096 := Rect.block (s := S8x4096) ![1, 128] ![r.val, w.val] (hblk r w)
abbrev wSet (r : Fin 8) (w : Fin 32) : Finset S8x4096.Idx := (wRect r w).set

/-- Worker w's read share of an array every tile reads. -/
abbrev tok (w : Fin 32) : PosShare TreeShare := Transfers.shareTok fullShare 32 w

/-- What worker w's task is handed: the flat expert list and the table under its read share, its eight row pieces
    of the mask array at their launch contents. -/
def goRes (d : Dev nD) (w : Fin 32) : sProp 𝕄 :=
  iprop((fLoc d ↦{tok w} flatB m d) ∗ (mLoc d ↦{tok w} m (mLoc d))
    ∗ bigSep Finset.univ fun r : Fin 8 => wLoc d ↦[wSet r w]{fullShare} m (wLoc d))

/-- What it hands back: the same, its pieces of the mask array at the specification's mask. -/
def tdRes (d : Dev nD) (w : Fin 32) : sProp 𝕄 :=
  iprop((fLoc d ↦{tok w} flatB m d) ∗ (mLoc d ↦{tok w} m (mLoc d))
    ∗ bigSep Finset.univ fun r : Fin 8 => wLoc d ↦[wSet r w]{fullShare} maskB m d)

/-- The one call: a SparseCore is handed its sixteen tiles' holdings and hands them back. -/
def P : (K (F := F)).Pay (nD := nD) (Val := Elt F) (Name := ℕ) (U := UU) where
  st := fun q d c => match q with
    | 0 => bigSep Finset.univ fun i : Fin 16 => goRes m d (wid (Fin.cast nCore_zero c) i)
  dn := fun q d c => match q with
    | 0 => bigSep Finset.univ fun i : Fin 16 => tdRes m d (wid (Fin.cast nCore_zero c) i)
  go := fun q d c i => match q with
    | 0 => goRes m d (wid (Fin.cast nCore_zero c) (Fin.cast nSub_zero i))
  td := fun q d c i => match q with
    | 0 => tdRes m d (wid (Fin.cast nCore_zero c) (Fin.cast nSub_zero i))
  x := fun _ _ => iprop(emp)

instance P_storable : (P (F := F) m).IsStorable where
  st q d c := match q with | 0 => by unfold P goRes; infer_instance
  dn q d c := match q with | 0 => by unfold P tdRes; infer_instance
  go q d c i := match q with | 0 => by unfold P goRes; infer_instance
  td q d c i := match q with | 0 => by unfold P tdRes; infer_instance

end Cert.Proof.KI

end
-- ==== Proof.KI.MaskDefs.lean ====
/-
  The routing-mask scratch of one tile as a function of its two tables, store by store.

  A tile holds 256 expert words (token t's k-th expert at 2 t + k, t < 128) and the 16-entry expert-to-device table.
  Its mask scratch of 1024 floats starts at zero; indexed store s of sixteen (chunk s / 2, expert column s % 2) puts 1.0
  at 128 * dev + t for the sixteen tokens t = 16 (s / 2) + x, x < 16, where dev is the device word of token t's expert
  in that column.
-/
import Idealize.ShloMosaic.PureOps
import Idealize.ShloMosaic.Lib.ValueIdx

noncomputable section

namespace Cert.Proof.KI

open Idealize.ShloMosaic Idealize.ShloMosaic.ValueIdx

variable {F : FTy → Type} [FloatOps F]
variable (idxv : IVec ⟨1, ![256]⟩ 32) (mapv : IVec ⟨1, ![16]⟩ 32)

/-- The device word of local token t's k-th expert, read through the two tables (the expert word modulo 16, the
    position modulo 256: total, and the identity on the words the precondition admits). -/
def devW (t k : ℕ) : ℕ :=
  (mapv (ix1 (⟨(idxv (ix1 (⟨(2 * t + k) % 256, Nat.mod_lt _ (by decide)⟩ : Fin 256))).toNat % 16, Nat.mod_lt _ (by decide)⟩ : Fin 16))).toNat

/-- Where indexed store s puts its lane x. -/
def posW (s x : ℕ) : ℕ := 128 * devW idxv mapv (16 * (s / 2) + x) (s % 2) + (16 * (s / 2) + x)

/-- 1.0 and 0.0 as the kernel spells them. -/
def oneW : F .f32 := Scalar.ofBits .f32 0x3F800000#32
def zeroW : F .f32 := Scalar.ofBits .f32 0x00000000#32

open Classical in
/-- The mask scratch after the first n indexed stores. -/
def Gn (n : ℕ) : (⟨1, ![1024]⟩ : Shape).Idx → F .f32 := fun j =>
  if ∃ s, s < n ∧ ∃ x, x < 16 ∧ (j 0).val = posW idxv mapv s x then oneW else zeroW

end Cert.Proof.KI

end
-- ==== Proof.KI.MaskVal.lean ====
/-
  The mask scratch of one tile after all sixteen indexed stores, element by element.

  Element 128 r + t of the scratch (r < 8, t < 128) holds 1.0 exactly when one of token t's two experts has device
  word r. Store s, lane x writes at 128 dev + t' with t' = 16 (s / 2) + x < 128 and dev < 8 the device word of token
  t''s expert in column s % 2; 128 dev + t' = 128 r + t forces t' = t and dev = r, and conversely token t's column k is
  written by store 2 (t / 16) + k, lane t % 16.
-/
import proofs.«202873_g15822659519276_cont_week2b_991_21_alg».proof.Proof.KI.MaskDefs

noncomputable section

namespace Cert.Proof.KI

open Idealize.ShloMosaic Idealize.ShloMosaic.ValueIdx

variable {F : FTy → Type} [FloatOps F]
variable (idxv : IVec ⟨1, ![256]⟩ 32) (mapv : IVec ⟨1, ![16]⟩ 32)

omit [FloatOps F] in
/-- Some store of the sixteen writes element 128 r + t exactly when token t has an expert of device word r. -/
theorem written_iff (hmap : ∀ j, (mapv j).toNat < 8) (r : Fin 8) (t : Fin 128) :
    (∃ s, s < 16 ∧ ∃ x, x < 16 ∧ 128 * r.val + t.val = posW idxv mapv s x)
      ↔ (devW idxv mapv t.val 0 = r.val ∨ devW idxv mapv t.val 1 = r.val) := by
  have hdev : ∀ t k, devW idxv mapv t k < 8 := fun t k => hmap _
  have hr : r.val < 8 := r.isLt
  have ht : t.val < 128 := t.isLt
  constructor
  · rintro ⟨s, hs, x, hx, e⟩
    unfold posW at e
    have hd := hdev (16 * (s / 2) + x) (s % 2)
    have et : 16 * (s / 2) + x = t.val := by omega
    have er : devW idxv mapv (16 * (s / 2) + x) (s % 2) = r.val := by omega
    rw [et] at er
    rcases Nat.mod_two_eq_zero_or_one s with h | h
    · left; rw [h] at er; exact er
    · right; rw [h] at er; exact er
  · rintro (h | h)
    · refine ⟨2 * (t.val / 16), by omega, t.val % 16, by omega, ?_⟩
      unfold posW
      have e1 : 16 * (2 * (t.val / 16) / 2) + t.val % 16 = t.val := by omega
      have e2 : 2 * (t.val / 16) % 2 = 0 := by omega
      rw [e1, e2, h]
    · refine ⟨2 * (t.val / 16) + 1, by omega, t.val % 16, by omega, ?_⟩
      unfold posW
      have e1 : 16 * ((2 * (t.val / 16) + 1) / 2) + t.val % 16 = t.val := by omega
      have e2 : (2 * (t.val / 16) + 1) % 2 = 1 := by omega
      rw [e1, e2, h]

/-- After the sixteen stores, element 128 r + t is 1.0 if one of token t's two experts has device word r, else 0.0. -/
theorem Gn_final (hmap : ∀ j, (mapv j).toNat < 8) (r : Fin 8) (t : Fin 128) :
    Gn (F := F) idxv mapv 16 (ix1 (⟨128 * r.val + t.val, by omega⟩ : Fin 1024))
      = if devW idxv mapv t.val 0 = r.val ∨ devW idxv mapv t.val 1 = r.val then oneW else zeroW := by
  unfold Gn
  by_cases h : devW idxv mapv t.val 0 = r.val ∨ devW idxv mapv t.val 1 = r.val
  · rw [if_pos h]; exact if_pos ((written_iff idxv mapv hmap r t).mpr h)
  · rw [if_neg h]; exact if_neg fun h' => h ((written_iff idxv mapv hmap r t).mp h')

/-- Before any store the scratch is zero. -/
theorem Gn_zero : Gn (F := F) idxv mapv 0 = fun _ => zeroW := by
  funext j
  unfold Gn
  exact if_neg (by rintro ⟨s, hs, -⟩; omega)

end Cert.Proof.KI

end
-- ==== Proof.KI.MaskStep.lean ====
/-
  One indexed store of the mask scratch, and the index vector it stores through, as pure facts.

  An indexed store of one value on every lane leaves that value at every element some lane names and the old contents
  elsewhere; the lanes' order does not matter. Store n of a tile writes 1.0 at posW n x for its sixteen lanes x, which
  takes the scratch after n stores to the scratch after n + 1. The index vector of store n = 2 c + k is 128 times the
  device words gathered through the two tables at the expert positions 2 (16 c + x) + k, plus the local tokens
  16 c + x; no word wraps, the device words being below 8 and the tokens below 128. The specification's mask at token
  128 w + t is what the tile of worker w computes from its own 256 expert words.
-/
import proofs.«202873_g15822659519276_cont_week2b_991_21_alg».proof.Proof.KI.MaskDefs
import proofs.«202873_g15822659519276_cont_week2b_991_21_alg».proof.Proof.KI.MaskVal
import proofs.«202873_g15822659519276_cont_week2b_991_21_alg».proof.Proof.Spec

noncomputable section

namespace Cert.Proof.KI

open Idealize.ShloMosaic Idealize.ShloMosaic.ValueIdx

variable {F : FTy → Type} [FloatOps F]
variable (idxv : IVec ⟨1, ![256]⟩ 32) (mapv : IVec ⟨1, ![16]⟩ 32)

/-! ## An indexed store of one value on every lane -/

omit [FloatOps F] in
/-- Writing one value c wherever a lane of the list names: c where some lane names the element, the old value where
    none does. -/
theorem foldl_lanes {α β ι : Type} (p : ι → α → Prop) {dec : ∀ k j, Decidable (p k j)} (c : β) (l : List ι) (g : α → β) (j : α) :
    ((∃ k ∈ l, p k j) → l.foldl (fun g k => fun j => if p k j then c else g j) g j = c)
      ∧ ((∀ k ∈ l, ¬ p k j) → l.foldl (fun g k => fun j => if p k j then c else g j) g j = g j) := by
  induction l generalizing g with
  | nil => exact ⟨fun ⟨k, hk, _⟩ => absurd hk (List.not_mem_nil), fun _ => rfl⟩
  | cons k l ih =>
    rw [List.foldl_cons]
    obtain ⟨ih1, ih2⟩ := ih (fun j => if p k j then c else g j)
    refine ⟨fun ⟨k', hk', hp⟩ => ?_, fun hn => ?_⟩
    · by_cases hl : ∃ k ∈ l, p k j
      · exact ih1 hl
      · have hk : p k j := by
          rcases List.mem_cons.mp hk' with e | hm
          · exact e ▸ hp
          · exact absurd ⟨k', hm, hp⟩ hl
        rw [ih2 (fun k'' hk'' hp'' => hl ⟨k'', hk'', hp''⟩)]; exact if_pos hk
    · rw [ih2 (fun k' hk' => hn k' (List.mem_cons_of_mem _ hk'))]
      exact if_neg (hn k List.mem_cons_self)

/-- An unmasked indexed store of one value c on every lane, element by element. -/
theorem storeIdx_const_apply {s : Shape} {e : EltTy} {d : Fin 1 → Nat} (f : Vec F s e) (idxs : Fin s.rank → IVec ⟨1, d⟩ 32)
    (c : Elt F e) (h : ∀ a x, (idxs a x).toNat < s.size a) (j : s.Idx) :
    ((∃ k : Fin (d 0), ∀ a, (j a).val = (idxs a (Shape.ofLane k)).toNat) → storeIdx f idxs (fun _ => c) (fun _ => 1#1) false h j = c)
      ∧ ((¬ ∃ k : Fin (d 0), ∀ a, (j a).val = (idxs a (Shape.ofLane k)).toNat) → storeIdx f idxs (fun _ => c) (fun _ => 1#1) false h j = f j) := by
  obtain ⟨h1, h2⟩ := foldl_lanes (fun (k : Fin (d 0)) (j : s.Idx) => ∀ a, (j a).val = (idxAt idxs h (Shape.ofLane k) a).val)
    (dec := fun _ _ => inferInstance) c (List.finRange (d 0)) f j
  refine ⟨fun ⟨k, hk⟩ => h1 ⟨k, List.mem_finRange k, hk⟩, fun hn => h2 fun k _ hk => hn ⟨k, hk⟩⟩

/-! ## Store n of a tile -/

/-- Store n, whose lane x writes 1.0 at posW n x, takes the scratch after n stores to the scratch after n + 1. -/
theorem storeIdx_Gn (n : ℕ) (ix : IVec ⟨1, ![16]⟩ 32)
    (h : ∀ a x, ((![ix] : Fin 1 → IVec ⟨1, ![16]⟩ 32) a x).toNat < (⟨1, ![1024]⟩ : Shape).size a)
    (hix : ∀ x : (⟨1, ![16]⟩ : Shape).Idx, (ix x).toNat = posW idxv mapv n (x 0).val) :
    storeIdx (F := F) (e := .f32) (Gn idxv mapv n) ![ix] (broadcast ⟨1, ![16]⟩ oneW) (fun _ => 1#1) false h = Gn idxv mapv (n + 1) := by
  funext j
  obtain ⟨h1, h2⟩ := storeIdx_const_apply (F := F) (e := .f32) (Gn idxv mapv n) ![ix] oneW h j
  -- a lane names element j exactly when j is that lane's position
  have hlane : (∃ k : Fin 16, ∀ a : Fin 1, (j a).val = ((![ix] : Fin 1 → IVec ⟨1, ![16]⟩ 32) a (Shape.ofLane k)).toNat)
      ↔ ∃ x, x < 16 ∧ (j 0).val = posW idxv mapv n x := by
    constructor
    · rintro ⟨k, hk⟩
      exact ⟨k.val, k.isLt, (hk 0).trans (hix (Shape.ofLane k))⟩
    · rintro ⟨x, hx, e⟩
      refine ⟨⟨x, hx⟩, fun a => ?_⟩
      match a with
      | ⟨0, _⟩ => exact e.trans (hix (Shape.ofLane (⟨x, hx⟩ : Fin 16))).symm
  by_cases hn : ∃ x, x < 16 ∧ (j 0).val = posW idxv mapv n x
  · refine (h1 (hlane.mpr hn)).trans ?_
    unfold Gn
    exact (if_pos ⟨n, Nat.lt_succ_self n, hn⟩).symm
  · refine (h2 fun hk => hn (hlane.mp hk)).trans ?_
    by_cases hs : ∃ s, s < n ∧ ∃ x, x < 16 ∧ (j 0).val = posW idxv mapv s x
    · obtain ⟨s, hsn, hx⟩ := hs
      unfold Gn
      exact (if_pos ⟨s, hsn, hx⟩).trans (if_pos ⟨s, Nat.lt_succ_of_lt hsn, hx⟩).symm
    · unfold Gn
      refine (if_neg hs).trans (if_neg ?_).symm
      rintro ⟨s, hsn, hx⟩
      rcases Nat.lt_succ_iff_lt_or_eq.mp hsn with hlt | heq
      · exact hs ⟨s, hlt, hx⟩
      · exact hn (heq ▸ hx)

/-! ## The index vector of store n -/

omit [FloatOps F] in
/-- 128 times a word below 8 plus a word below 128, as a number: no wrap. -/
theorem toNat_mul128_add (a b : BitVec 32) (ha : a.toNat < 8) (hb : b.toNat < 128) :
    (a * 128#32 + b).toNat = 128 * a.toNat + b.toNat := by
  have h128 : (128#32 : BitVec 32).toNat = 128 := rfl
  rw [BitVec.toNat_add, BitVec.toNat_mul, h128]
  omega

/-- The index vector of store n = 2 c + k: lane x holds posW n x. -/
theorem posW_of (n c k : ℕ) (hn : n = 2 * c + k) (hk : k < 2) (hc : c < 8) (E LT : IVec ⟨1, ![16]⟩ 32)
    (h0 : ∀ a x, ((![E] : Fin 1 → IVec ⟨1, ![16]⟩ 32) a x).toNat < (⟨1, ![256]⟩ : Shape).size a)
    (h1 : ∀ a x, ((![loadIdx (F := F) (e := .i32) idxv ![E] h0] : Fin 1 → IVec ⟨1, ![16]⟩ 32) a x).toNat < (⟨1, ![16]⟩ : Shape).size a)
    (hE : ∀ x, (E x).toNat = 2 * (16 * c + (x 0).val) + k) (hLT : ∀ x, (LT x).toNat = 16 * c + (x 0).val)
    (hmap : ∀ j, (mapv j).toNat < 8) :
    ∀ x, (addi (muli (loadIdx (F := F) (e := .i32) mapv ![loadIdx (F := F) (e := .i32) idxv ![E] h0] h1) (broadcast ⟨1, ![16]⟩ 128#32)) LT x).toNat = posW idxv mapv n (x 0).val := by
  intro x
  have hx : (x 0).val < 16 := (x 0).isLt
  have hw : (loadIdx (F := F) (e := .i32) idxv ![E] h0 x).toNat < 16 := h1 0 x
  -- the expert word gathered is the one devW reads
  have e1 : loadIdx (F := F) (e := .i32) idxv ![E] h0 x
      = idxv (ix1 (⟨(2 * (16 * c + (x 0).val) + k) % 256, Nat.mod_lt _ (by decide)⟩ : Fin 256)) := by
    show idxv (idxAt ![E] h0 x) = _
    refine congrArg idxv (funext fun a => ?_)
    match a with
    | ⟨0, _⟩ => exact Fin.ext (show (E x).toNat = (2 * (16 * c + (x 0).val) + k) % 256 by rw [hE x]; omega)
  -- so the device word gathered is devW
  have e2 : (loadIdx (F := F) (e := .i32) mapv ![loadIdx (F := F) (e := .i32) idxv ![E] h0] h1 x).toNat = devW idxv mapv (16 * c + (x 0).val) k := by
    show (mapv (idxAt ![loadIdx (F := F) (e := .i32) idxv ![E] h0] h1 x)).toNat = _
    unfold devW
    refine congrArg (fun i => (mapv i).toNat) (funext fun a => ?_)
    match a with
    | ⟨0, _⟩ =>
      refine Fin.ext ?_
      show (loadIdx (F := F) (e := .i32) idxv ![E] h0 x).toNat = (idxv _).toNat % 16
      rw [← e1]; omega
  have hd : devW idxv mapv (16 * c + (x 0).val) k < 8 := hmap _
  show (loadIdx (F := F) (e := .i32) mapv ![loadIdx (F := F) (e := .i32) idxv ![E] h0] h1 x * 128#32 + LT x).toNat = _
  rw [toNat_mul128_add _ _ (by rw [e2]; exact hd) (by rw [hLT x]; omega), e2, hLT x]
  unfold posW
  have q1 : n / 2 = c := by omega
  have q2 : n % 2 = k := by omega
  rw [q1, q2]

omit [FloatOps F] in
/-- A store's index vector stays inside the scratch. -/
theorem store_ix_lt (M LT : IVec ⟨1, ![16]⟩ 32) (hM : ∀ x, (M x).toNat < 8) (hLT : ∀ x, (LT x).toNat < 128) :
    ∀ x, (addi (muli M (broadcast ⟨1, ![16]⟩ 128#32)) LT x).toNat < 1024 := by
  intro x
  show (M x * 128#32 + LT x).toNat < 1024
  rw [toNat_mul128_add _ _ (hM x) (hLT x)]
  have := hM x; have := hLT x; omega

omit [FloatOps F] in
/-- The in-range facts an indexed load or store cites, from a bound on the index vector. -/
theorem chk_lt (n : ℕ) (v : IVec ⟨1, ![16]⟩ 32) (hv : ∀ x, (v x).toNat < n) :
    ∀ a x, ((![v] : Fin 1 → IVec ⟨1, ![16]⟩ 32) a x).toNat < (⟨1, ![n]⟩ : Shape).size a := by
  intro a x
  match a with
  | ⟨0, _⟩ => exact hv x

theorem chk_load {N : ℕ} (n : ℕ) (f : IVec ⟨1, ![N]⟩ 32) (hf : ∀ j, (f j).toNat < n) (idx : Fin 1 → IVec ⟨1, ![16]⟩ 32)
    (h : ∀ a x, (idx a x).toNat < (⟨1, ![N]⟩ : Shape).size a) :
    ∀ a x, ((![loadIdx (F := F) (e := .i32) f idx h] : Fin 1 → IVec ⟨1, ![16]⟩ 32) a x).toNat < (⟨1, ![n]⟩ : Shape).size a := by
  intro a x
  match a with
  | ⟨0, _⟩ => exact hf _

/-! ## The specification's mask over one worker's tokens -/

/-- Worker w's 256 words of the flat expert list. -/
def flatSlice (idx : IVec Cert.Spec.Si 32) (w : Fin 32) : IVec ⟨1, ![256]⟩ 32 := fun j =>
  Cert.Spec.flat idx (ix1 (⟨256 * w.val + (j 0).val, by have h : (j 0).val < 256 := (j 0).isLt; omega⟩ : Fin 8192))

omit [FloatOps F] in
/-- The device word the tile of worker w reads for its token t is the specification's for token 128 w + t. -/
theorem devW_flatSlice (idx : IVec Cert.Spec.Si 32) (map : IVec Cert.Spec.Sm 32) (w : Fin 32) (t : Fin 128) (k : Fin 2) :
    devW (flatSlice idx w) map t.val k.val = Cert.Spec.devOf idx map (⟨128 * w.val + t.val, by omega⟩ : Fin 4096) k := by
  have ht : t.val < 128 := t.isLt
  have hk : k.val < 2 := k.isLt
  have key : flatSlice idx w (ix1 (⟨(2 * t.val + k.val) % 256, Nat.mod_lt _ (by decide)⟩ : Fin 256))
      = idx (ix2 (⟨128 * w.val + t.val, by omega⟩ : Fin 4096) k) := by
    show idx (ix2 _ _) = idx (ix2 _ _)
    refine congrArg idx (congrArg₂ ix2 (Fin.ext ?_) (Fin.ext ?_))
    · show (256 * w.val + (2 * t.val + k.val) % 256) / 2 = 128 * w.val + t.val; omega
    · show (256 * w.val + (2 * t.val + k.val) % 256) % 2 = k.val; omega
  unfold devW Cert.Spec.devOf
  refine congrArg (fun i => (map i).toNat) (funext fun a => ?_)
  match a with
  | ⟨0, _⟩ => exact Fin.ext (congrArg (fun v : BitVec 32 => v.toNat % 16) key)

/-- The specification's mask at device r, token 128 w + t, from worker w's own expert words. -/
theorem maskAt_eq (idx : IVec Cert.Spec.Si 32) (map : IVec Cert.Spec.Sm 32) (w : Fin 32) (r : Fin 8) (t : Fin 128) :
    Cert.Spec.maskAt (F := F) idx map r (⟨128 * w.val + t.val, by omega⟩ : Fin 4096)
      = if devW (flatSlice idx w) map t.val 0 = r.val ∨ devW (flatSlice idx w) map t.val 1 = r.val then oneW else zeroW := by
  have e0 : devW (flatSlice idx w) map t.val 0 = Cert.Spec.devOf idx map (⟨128 * w.val + t.val, by omega⟩ : Fin 4096) 0 :=
    devW_flatSlice idx map w t 0
  have e1 : devW (flatSlice idx w) map t.val 1 = Cert.Spec.devOf idx map (⟨128 * w.val + t.val, by omega⟩ : Fin 4096) 1 :=
    devW_flatSlice idx map w t 1
  have hit : Cert.Spec.Hit idx map r (⟨128 * w.val + t.val, by omega⟩ : Fin 4096)
      ↔ (devW (flatSlice idx w) map t.val 0 = r.val ∨ devW (flatSlice idx w) map t.val 1 = r.val) := by
    unfold Cert.Spec.Hit
    constructor
    · rintro ⟨k, hk⟩
      match k, hk with
      | ⟨0, _⟩, hk => exact Or.inl (e0.trans hk)
      | ⟨1, _⟩, hk => exact Or.inr (e1.trans hk)
    · rintro (h | h)
      · exact ⟨0, e0.symm.trans h⟩
      · exact ⟨1, e1.symm.trans h⟩
  unfold Cert.Spec.maskAt oneW zeroW
  by_cases hh : Cert.Spec.Hit idx map r (⟨128 * w.val + t.val, by omega⟩ : Fin 4096)
  · rw [if_pos hh, if_pos (hit.mp hh)]
  · rw [if_neg hh, if_neg fun h' => hh (hit.mpr h')]

end Cert.Proof.KI

end
-- ==== Proof.KI.Pays.lean ====
/-
  The lane values of the tile body's index vectors.

  A tile handles its 128 tokens in eight chunks of sixteen lanes. In chunk c, lane l stands for the tile's local token
  16 c + l; the two words of the flat expert list that belong to it sit at positions 2 (16 c + l) and 2 (16 c + l) + 1
  of the tile's 256 words. Each index vector is the lane counter plus a literal, doubled, plus one: all far below 2^32,
  so the word arithmetic is the arithmetic of the values.
-/
import proofs.«202873_g15822659519276_cont_week2b_991_21_alg».proof.Proof.Gen.KernelIdeal.Skeleton

namespace Cert.Proof.KI

open Cert.KernelIdeal Cert.KernelIdeal.Gen Idealize.ShloMosaic

/-- A lane number is below sixteen. -/
theorem lane_lt (x : S16.Idx) : (x 0).val < 16 := (x 0).isLt

/-- The lane counter: lane l holds l. -/
theorem iota_lane (h : S16.Iotas .scVector 32 [0]) : ∀ x, (iota .scVector S16 32 [0] h x).toNat = (x 0).val := by
  intro x
  have hx := lane_lt x
  show (BitVec.ofNat 32 (0 * S16.size 0 + (x 0).val)).toNat = (x 0).val
  rw [BitVec.toNat_ofNat, Nat.zero_mul, Nat.zero_add]
  exact Nat.mod_eq_of_lt (by omega)

/-- A literal k added to a vector whose lane l holds l: lane l holds k + l. -/
theorem lt_of (k : Nat) (hk : k ≤ 112) (v5 : IVec S16 32) (hv5 : ∀ x, (v5 x).toNat = (x 0).val) (x : S16.Idx) :
    (addi (broadcast S16 (BitVec.ofNat 32 k)) v5 x).toNat = k + (x 0).val := by
  have hx := lane_lt x
  show (BitVec.ofNat 32 k + v5 x).toNat = _
  rw [BitVec.toNat_add, BitVec.toNat_ofNat, hv5 x]
  omega

/-- A vector doubled, where the lane holds n below 2^30. -/
theorem ev_of (p : IVec S16 32) (n : Nat) (x : S16.Idx) (hn : n < 2 ^ 30) (hp : (p x).toNat = n) :
    (muli (broadcast S16 2#32) p x).toNat = 2 * n + 0 := by
  show (2#32 * p x).toNat = _
  rw [BitVec.toNat_mul, hp, show (2#32 : BitVec 32).toNat = 2 from rfl]
  omega

/-- A vector doubled, plus one. -/
theorem od_of (p : IVec S16 32) (n : Nat) (x : S16.Idx) (hn : n < 2 ^ 30) (hp : (p x).toNat = n) :
    (addi (muli (broadcast S16 2#32) p) (broadcast S16 1#32) x).toNat = 2 * n + 1 := by
  show (2#32 * p x + 1#32).toNat = _
  rw [BitVec.toNat_add, BitVec.toNat_mul, hp, show (2#32 : BitVec 32).toNat = 2 from rfl, show (1#32 : BitVec 32).toNat = 1 from rfl]
  omega

/-! ### Chunk 0: tokens 0 to 15 of the tile -/

theorem pay_lt0 : ∀ x, (k0_pay10 x).toNat = 16 * 0 + (x 0).val :=
  fun x => lt_of 0 (by omega) _ (iota_lane _) x

theorem pay_ev0 : ∀ x, (k0_pay11 x).toNat = 2 * (16 * 0 + (x 0).val) + 0 :=
  fun x => ev_of _ _ x (by have := lane_lt x; omega) (pay_lt0 x)

theorem pay_od0 : ∀ x, (k0_pay12 x).toNat = 2 * (16 * 0 + (x 0).val) + 1 :=
  fun x => od_of _ _ x (by have := lane_lt x; omega) (pay_lt0 x)

/-! ### Chunk 1: tokens 16 to 31 of the tile -/

theorem pay_lt1 (v5 : IVec S16 32) (hv5 : ∀ x, (v5 x).toNat = (x 0).val) : ∀ x, (k0_pay15 v5 16#32 x).toNat = 16 * 1 + (x 0).val :=
  fun x => lt_of 16 (by omega) v5 hv5 x

theorem pay_ev1 (v5 : IVec S16 32) (hv5 : ∀ x, (v5 x).toNat = (x 0).val) : ∀ x, (k0_pay16 v5 16#32 x).toNat = 2 * (16 * 1 + (x 0).val) + 0 :=
  fun x => ev_of _ _ x (by have := lane_lt x; omega) (pay_lt1 v5 hv5 x)

theorem pay_od1 (v5 : IVec S16 32) (hv5 : ∀ x, (v5 x).toNat = (x 0).val) : ∀ x, (k0_pay17 v5 16#32 x).toNat = 2 * (16 * 1 + (x 0).val) + 1 :=
  fun x => od_of _ _ x (by have := lane_lt x; omega) (pay_lt1 v5 hv5 x)

/-! ### Chunk 2: tokens 32 to 47 of the tile -/

theorem pay_lt2 (v5 : IVec S16 32) (hv5 : ∀ x, (v5 x).toNat = (x 0).val) : ∀ x, (k0_pay20 v5 x).toNat = 16 * 2 + (x 0).val :=
  fun x => lt_of 32 (by omega) v5 hv5 x

theorem pay_ev2 (v5 : IVec S16 32) (hv5 : ∀ x, (v5 x).toNat = (x 0).val) : ∀ x, (k0_pay21 v5 x).toNat = 2 * (16 * 2 + (x 0).val) + 0 :=
  fun x => ev_of _ _ x (by have := lane_lt x; omega) (pay_lt2 v5 hv5 x)

theorem pay_od2 (v5 : IVec S16 32) (hv5 : ∀ x, (v5 x).toNat = (x 0).val) : ∀ x, (k0_pay22 v5 x).toNat = 2 * (16 * 2 + (x 0).val) + 1 :=
  fun x => od_of _ _ x (by have := lane_lt x; omega) (pay_lt2 v5 hv5 x)

/-! ### Chunk 3: tokens 48 to 63 of the tile -/

theorem pay_lt3 (v5 : IVec S16 32) (hv5 : ∀ x, (v5 x).toNat = (x 0).val) : ∀ x, (k0_pay25 v5 x).toNat = 16 * 3 + (x 0).val :=
  fun x => lt_of 48 (by omega) v5 hv5 x

theorem pay_ev3 (v5 : IVec S16 32) (hv5 : ∀ x, (v5 x).toNat = (x 0).val) : ∀ x, (k0_pay26 v5 x).toNat = 2 * (16 * 3 + (x 0).val) + 0 :=
  fun x => ev_of _ _ x (by have := lane_lt x; omega) (pay_lt3 v5 hv5 x)

theorem pay_od3 (v5 : IVec S16 32) (hv5 : ∀ x, (v5 x).toNat = (x 0).val) : ∀ x, (k0_pay27 v5 x).toNat = 2 * (16 * 3 + (x 0).val) + 1 :=
  fun x => od_of _ _ x (by have := lane_lt x; omega) (pay_lt3 v5 hv5 x)

/-! ### Chunk 4: tokens 64 to 79 of the tile -/

theorem pay_lt4 (v5 : IVec S16 32) (hv5 : ∀ x, (v5 x).toNat = (x 0).val) : ∀ x, (k0_pay30 v5 x).toNat = 16 * 4 + (x 0).val :=
  fun x => lt_of 64 (by omega) v5 hv5 x

theorem pay_ev4 (v5 : IVec S16 32) (hv5 : ∀ x, (v5 x).toNat = (x 0).val) : ∀ x, (k0_pay31 v5 x).toNat = 2 * (16 * 4 + (x 0).val) + 0 :=
  fun x => ev_of _ _ x (by have := lane_lt x; omega) (pay_lt4 v5 hv5 x)

theorem pay_od4 (v5 : IVec S16 32) (hv5 : ∀ x, (v5 x).toNat = (x 0).val) : ∀ x, (k0_pay32 v5 x).toNat = 2 * (16 * 4 + (x 0).val) + 1 :=
  fun x => od_of _ _ x (by have := lane_lt x; omega) (pay_lt4 v5 hv5 x)

/-! ### Chunk 5: tokens 80 to 95 of the tile -/

theorem pay_lt5 (v5 : IVec S16 32) (hv5 : ∀ x, (v5 x).toNat = (x 0).val) : ∀ x, (k0_pay35 v5 x).toNat = 16 * 5 + (x 0).val :=
  fun x => lt_of 80 (by omega) v5 hv5 x

theorem pay_ev5 (v5 : IVec S16 32) (hv5 : ∀ x, (v5 x).toNat = (x 0).val) : ∀ x, (k0_pay36 v5 x).toNat = 2 * (16 * 5 + (x 0).val) + 0 :=
  fun x => ev_of _ _ x (by have := lane_lt x; omega) (pay_lt5 v5 hv5 x)

theorem pay_od5 (v5 : IVec S16 32) (hv5 : ∀ x, (v5 x).toNat = (x 0).val) : ∀ x, (k0_pay37 v5 x).toNat = 2 * (16 * 5 + (x 0).val) + 1 :=
  fun x => od_of _ _ x (by have := lane_lt x; omega) (pay_lt5 v5 hv5 x)

/-! ### Chunk 6: tokens 96 to 111 of the tile -/

theorem pay_lt6 (v5 : IVec S16 32) (hv5 : ∀ x, (v5 x).toNat = (x 0).val) : ∀ x, (k0_pay40 v5 x).toNat = 16 * 6 + (x 0).val :=
  fun x => lt_of 96 (by omega) v5 hv5 x

theorem pay_ev6 (v5 : IVec S16 32) (hv5 : ∀ x, (v5 x).toNat = (x 0).val) : ∀ x, (k0_pay41 v5 x).toNat = 2 * (16 * 6 + (x 0).val) + 0 :=
  fun x => ev_of _ _ x (by have := lane_lt x; omega) (pay_lt6 v5 hv5 x)

theorem pay_od6 (v5 : IVec S16 32) (hv5 : ∀ x, (v5 x).toNat = (x 0).val) : ∀ x, (k0_pay42 v5 x).toNat = 2 * (16 * 6 + (x 0).val) + 1 :=
  fun x => od_of _ _ x (by have := lane_lt x; omega) (pay_lt6 v5 hv5 x)

/-! ### Chunk 7: tokens 112 to 127 of the tile -/

theorem pay_lt7 (v5 : IVec S16 32) (hv5 : ∀ x, (v5 x).toNat = (x 0).val) : ∀ x, (k0_pay45 v5 x).toNat = 16 * 7 + (x 0).val :=
  fun x => lt_of 112 (by omega) v5 hv5 x

theorem pay_ev7 (v5 : IVec S16 32) (hv5 : ∀ x, (v5 x).toNat = (x 0).val) : ∀ x, (k0_pay46 v5 x).toNat = 2 * (16 * 7 + (x 0).val) + 0 :=
  fun x => ev_of _ _ x (by have := lane_lt x; omega) (pay_lt7 v5 hv5 x)

theorem pay_od7 (v5 : IVec S16 32) (hv5 : ∀ x, (v5 x).toNat = (x 0).val) : ∀ x, (k0_pay47 v5 x).toNat = 2 * (16 * 7 + (x 0).val) + 1 :=
  fun x => od_of _ _ x (by have := lane_lt x; omega) (pay_lt7 v5 hv5 x)

end Cert.Proof.KI
-- ==== Proof.KI.TileDefs.lean ====
/-
  Names shared by the parts of one tile's task: the thread of grid place L, the arrays and scratch buffers as the
  kernel's memrefs, the tile's three DMA semaphore cells, and the tile's own buffers and semaphores opened at them.
-/
import proofs.«202873_g15822659519276_cont_week2b_991_21_alg».proof.Proof.KI.Common
import proofs.«202873_g15822659519276_cont_week2b_991_21_alg».proof.Proof.KI.MaskDefs
import proofs.«202873_g15822659519276_cont_week2b_991_21_alg».proof.Proof.KI.MaskVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable [FloatOps F]

section Tile
variable (d : Dev nD) (L : grid0.Coords)
abbrev cV (L : grid0.Coords) : Fin τ.nSC := (L 0).castLE hcore0
abbrev jV (L : grid0.Coords) : Fin τ.nSub := (L 1).castLE hsub0

abbrev A2 : Memref sig .scVector .hbm S8192 .i32 := Memref.whole main_v0_scv
abbrev A3 : Memref sig .scVector .hbm S16 .i32 := Memref.whole main_arg2_scv
abbrev A4 : Memref sig .scVector .hbm S8x4096 .f32 := Memref.whole main_v1_scv
abbrev s0 : Memref sig .scVector .vmem S256 .i32 := Memref.whole cc0_scratch0
abbrev s1 : Memref sig .scVector .vmem S16 .i32 := Memref.whole cc0_scratch1
abbrev s2 : Memref sig .scVector .vmem S1024 .f32 := Memref.whole cc0_scratch2

local notation "𝕥" => (V d (cV L) (jV L))

theorem bound_zero : grid0.bound 0 = 2 := rfl
theorem bound_one : grid0.bound 1 = 16 := rfl
abbrev widL (L : grid0.Coords) : Fin 32 := wid (Fin.cast bound_zero (L 0)) (Fin.cast bound_one (L 1))

abbrev c3cell (d : Dev nD) (c : Fin τ.nSC) (i : Fin τ.nSub) : GSem nD τ sig := (V d c i, .dma cc0_scratch3.sem)
abbrev c0cell (d : Dev nD) (c : Fin τ.nSC) (i : Fin τ.nSub) : GSem nD τ sig := (V d c i, .dma cc0_scoped0.sem)
abbrev c1cell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (c3cell d (cV L) (jV L)) 0 ∗ semVal (c0cell d (cV L) (jV L)) 0 ∗ semVal (c1cell d (cV L) (jV L)) 0
          ∗ bigSep ((((ownCells (V d (cV L) (jV L))).erase (c3cell d (cV L) (jV L))).erase (c0cell d (cV L) (jV L))).erase (c1cell d (cV L) (jV L)))
              fun g => semVal g 0) := by
  unfold SparseCore.Cfg.ownSems0
  rw [SparseCore.bigSep_erase' ((mem_ownCells (g := c3cell d (cV L) (jV L))).mpr ⟨rfl, by
      show (SemLoc.dma cc0_scratch3.sem : SemLoc sig).isScoped .scVector = true; decide⟩),
    SparseCore.bigSep_erase' (Finset.mem_erase.mpr ⟨by simp [c3cell, c0cell]; decide, (mem_ownCells (g := c0cell d (cV L) (jV L))).mpr ⟨rfl, by
      show (SemLoc.dma cc0_scoped0.sem : SemLoc sig).isScoped .scVector = true; decide⟩⟩),
    SparseCore.bigSep_erase' (Finset.mem_erase.mpr ⟨by simp [c0cell, c1cell]; decide, Finset.mem_erase.mpr ⟨by simp [c3cell, c1cell]; decide,
      (mem_ownCells (g := c1cell d (cV L) (jV L))).mpr ⟨rfl, by show (SemLoc.dma cc0_scoped1.sem : SemLoc sig).isScoped .scVector = true; decide⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] in
theorem pts_s0 (f : Buf (Elt F) ((V d (cV L) (jV L)).loc cc0_scratch0)) :
    ((s0).view.loc (V d (cV L) (jV L)) ↦{fullShare} f : sProp 𝕄) = (V d (cV L) (jV L)).loc cc0_scratch0 ↦{fullShare} f := rfl
omit [FloatOps F] in
theorem pts_s1 (f : Buf (Elt F) ((V d (cV L) (jV L)).loc cc0_scratch1)) :
    ((s1).view.loc (V d (cV L) (jV L)) ↦{fullShare} f : sProp 𝕄) = (V d (cV L) (jV L)).loc cc0_scratch1 ↦{fullShare} f := rfl
omit [FloatOps F] in
theorem pts_s2 (f : Buf (Elt F) ((V d (cV L) (jV L)).loc cc0_scratch2)) :
    ((s2).view.loc (V d (cV L) (jV L)) ↦{fullShare} f : sProp 𝕄) = (V d (cV L) (jV L)).loc cc0_scratch2 ↦{fullShare} f := rfl
omit [FloatOps F] in
theorem pts_A2 (q : PosShare TreeShare) (f : Buf (Elt F) (fLoc d)) :
    ((A2).view.loc (V d (cV L) (jV L)) ↦{q} f : sProp 𝕄) = fLoc d ↦{q} f := rfl
omit [FloatOps F] in
theorem pts_A3 (q : PosShare TreeShare) (f : Buf (Elt F) (mLoc d)) :
    ((A3).view.loc (V d (cV L) (jV L)) ↦{q} f : sProp 𝕄) = mLoc d ↦{q} f := rfl

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The mask scratch read as the mask array reads it: entry (r, c) is scratch word 128 r + c % 128, whichever tile's
    columns c lies in. -/
def spreadG (G : S1024.Idx → F .f32) : S8x4096.Idx → F .f32 := fun i =>
  G (ix1 (⟨128 * (i 0).val + (i 1).val % 128, by
    have h0 : (i 0).val < 8 := (i 0).isLt
    have h1 : (i 1).val % 128 < 128 := Nat.mod_lt _ (by decide)
    omega⟩ : Fin 1024))

end Tile
end Cert.Proof.KI
end
-- ==== Proof.KI.ZeroTrip.lean ====
/-
  Zeroing the mask scratch, one loop trip at a time.

  Trip k of the zeroing loop stores sixteen zeros at each of the eight offsets 128 k + 16 i, i < 8: together the 128
  words [128 k, 128 k + 128). If the words below 128 k were zero before the trip, the words below 128 (k + 1) are zero
  after it: a word under one of the eight stores reads that store's payload, which is zero; a word under none lies below
  128 k and is unchanged. After the eight trips all 1024 words are zero, which is the scratch before any indexed store.
-/
import proofs.«202873_g15822659519276_cont_week2b_991_21_alg».proof.Proof.KI.TileDefs
import Idealize.ShloMosaic.Lib.Writes

noncomputable section

namespace Cert.Proof.KI

open Cert.KernelIdeal Cert.KernelIdeal.Gen

open Idealize.ShloMosaic
open Idealize.ShloMosaic.SparseCore (S V T)
open Idealize.SL.Sem
open Idealize.ShloMosaic.ValueIdx

variable {F : FTy → Type}
variable [FloatOps F]

/-- Writes whose payloads are all one constant leave that constant wherever the contents held it before or some piece
    covers. -/
theorem read_writes_const {sig : RefSig} {κ : Kind} {sp : Space} {s : Shape} {e : EltTy} {Val : EltTy → Type}
    (v : View sig κ sp s e) (f : v.ty.Contents Val) (z : Val e) (L : List (View.Piece Val s e))
    (hL : ∀ p ∈ L, ∀ x : p.1.shape.Idx, p.2 x = z) (y : s.Idx)
    (hy : v.read Val f y = z ∨ ∃ p ∈ L, y ∈ p.1.set) : v.read Val (v.writes Val f L) y = z := by
  by_cases h : ∃ p ∈ L, y ∈ p.1.set
  · exact View.read_writes_apply_of_pieces v f (fun _ => z) L hL y h
  · rw [View.read_writes_apply_of_forall_not_mem v f y L fun p hp hm => h ⟨p, hp, hm⟩]
    exact hy.resolve_right h

/-- The i-th store of trip k: sixteen zeros at offset 128 k + 16 i. -/
def zeroPiece (k : Fin k0_t1_loop.trips) (i : Fin 8) : View.Piece (Elt F) S1024 .f32 :=
  ⟨Rect.unit (s := S1024) (k0_off2 k (BitVec.ofNat 32 (16 * i.val))) S16.size (k0_off2_inb k i), fun _ => zeroW⟩

theorem trips_eq : Scf.trips k0_t1_loop.lb k0_t1_loop.ub k0_t1_loop.st = 8 := by decide

section Tile
variable (d : Dev nD) (L : grid0.Coords)

theorem zero_trip (k : Fin k0_t1_loop.trips) (f : Buf (Elt F) ((V d (cV L) (jV L)).loc cc0_scratch2))
    (hf : ∀ j : S1024.Idx, (j 0).val < 128 * k.val → f j = zeroW) :
    ∀ j : S1024.Idx, (j 0).val < 128 * (k.val + 1) →
      (s2).view.writes (Elt F) f [⟨Rect.unit (s := S1024) (k0_off2 k 112#32) S16.size (k0_off2_inb k 7), k0_pay8⟩,
        ⟨Rect.unit (s := S1024) (k0_off2 k 96#32) S16.size (k0_off2_inb k 6), k0_pay7⟩,
        ⟨Rect.unit (s := S1024) (k0_off2 k 80#32) S16.size (k0_off2_inb k 5), k0_pay6⟩,
        ⟨Rect.unit (s := S1024) (k0_off2 k 64#32) S16.size (k0_off2_inb k 4), k0_pay5⟩,
        ⟨Rect.unit (s := S1024) (k0_off2 k 48#32) S16.size (k0_off2_inb k 3), k0_pay4⟩,
        ⟨Rect.unit (s := S1024) (k0_off2 k 32#32) S16.size (k0_off2_inb k 2), k0_pay3⟩,
        ⟨Rect.unit (s := S1024) (k0_off2 k 16#32) S16.size (k0_off2_inb k 1), k0_pay2⟩,
        ⟨Rect.unit (s := S1024) (k0_off2 k 0#32) S16.size (k0_off2_inb k 0), k0_pay1⟩] j = zeroW := by
  intro j hj
  have hk : k.val < 8 := lt_of_lt_of_eq k.isLt trips_eq
  have hall : ∀ i : Fin 8, i ∈ ([7, 6, 5, 4, 3, 2, 1, 0] : List (Fin 8)) := by decide
  show (s2).view.read (Elt F) ((s2).view.writes (Elt F) f (([7, 6, 5, 4, 3, 2, 1, 0] : List (Fin 8)).map (zeroPiece (F := F) k))) j = zeroW
  refine read_writes_const (Val := Elt F) (s2).view f (zeroW (F := F)) _ (fun p hp x => ?_) j ?_
  · obtain ⟨i, -, rfl⟩ := List.mem_map.1 hp
    rfl
  · by_cases hlo : (j 0).val < 128 * k.val
    · exact Or.inl (hf j hlo)
    · refine Or.inr ?_
      have hi : ((j 0).val - 128 * k.val) / 16 < 8 := by omega
      refine ⟨zeroPiece k ⟨_, hi⟩, List.mem_map.2 ⟨_, hall _, rfl⟩, ?_⟩
      show j ∈ (Rect.unit (s := S1024) (k0_off2 k (BitVec.ofNat 32 (16 * (((j 0).val - 128 * k.val) / 16)))) S16.size
        (k0_off2_inb k ⟨_, hi⟩)).set
      refine Rect.mem_set_unit.2 (Fin.forall_fin_one.2 ?_)
      rw [k0_off2_eq k ⟨_, hi⟩]
      show 128 * k.val + 16 * (((j 0).val - 128 * k.val) / 16) ≤ (j 0).val
        ∧ (j 0).val < 128 * k.val + 16 * (((j 0).val - 128 * k.val) / 16) + 16
      omega

/-- A scratch whose words are all zero after the eight trips is the scratch before any indexed store. -/
theorem zero_all (idxv : IVec S256 32) (mapv : IVec S16 32) (f : Buf (Elt F) ((V d (cV L) (jV L)).loc cc0_scratch2))
    (hf : ∀ j : S1024.Idx, (j 0).val < 128 * Scf.trips k0_t1_loop.lb k0_t1_loop.ub k0_t1_loop.st → f j = zeroW) :
    f = Gn idxv mapv 0 := by
  rw [Gn_zero]
  funext j
  refine hf j ?_
  have hj : (j 0).val < 1024 := (j 0).isLt
  rw [trips_eq]
  omega

end Tile
end Cert.Proof.KI
end
-- ==== Proof.KI.Landed.lean ====
/-
  What the two synchronous copies leave in a tile's scratch buffers.

  The first copy moves the tile's 256 words of the flat expert list, words [256 w, 256 w + 256) for worker
  w = 2 i + c at grid place (c, i), into the first scratch buffer; the second moves the whole expert-to-device table
  into the second. An unmasked write of a whole buffer leaves its payload, and the payload read through the slice at
  offset 512 i + 256 c = 256 w is the flat list at 256 w + j.
-/
import proofs.«202873_g15822659519276_cont_week2b_991_21_alg».proof.Proof.KI.TileDefs
import proofs.«202873_g15822659519276_cont_week2b_991_21_alg».proof.Proof.KI.MaskStep

noncomputable section

namespace Cert.Proof.KI

open Cert.KernelIdeal Cert.KernelIdeal.Gen

open Idealize.ShloMosaic
open Idealize.ShloMosaic.SparseCore (S V T)
open Idealize.ShloMosaic.ValueIdx

variable {F : FTy → Type}

section Tile
variable (m : (ℓ : Loc nD τ sig) → Buf (Elt F) ℓ) (d : Dev nD) (L : grid0.Coords)

/-- The slice of the flat expert list a tile copies starts at 256 times its worker number. -/
theorem off1_emb (j : S256.Idx) :
    (Rect.unit (s := S8192) (k0_off1 L) S256.size (k0_off1_inb L)).emb j
      = ix1 (⟨256 * (widL L).val + (j 0).val, by
          have h : (j 0).val < 256 := (j 0).isLt
          have hw : (widL L).val < 32 := (widL L).isLt
          omega⟩ : Fin 8192) := by
  funext a
  match a with
  | ⟨0, _⟩ =>
    apply Fin.ext
    show k0_off1 L 0 + 1 * (j 0).val = 256 * (2 * (L 1).val + (L 0).val) + (j 0).val
    rw [k0_off1_eq L]
    show 512 * (L 1).val + 256 * (L 0).val + 1 * (j 0).val = _
    omega

/-- After the first copy the first scratch buffer holds the tile's 256 words of the flat expert list. -/
theorem s0_landed (g0 : Buf (Elt F) ((V d (cV L) (jV L)).loc cc0_scratch0)) :
    View.write (Elt F) (s0).view g0
        (ReadAs.same.apply (View.read (Elt F)
          ((A2).slice (Rect.unit (s := S8192) (k0_off1 L) S256.size (k0_off1_inb L)) (fun _ => rfl)).view (flatB m d)))
        Finset.univ
      = (flatSlice (m (iLoc d)) (widL L) : Buf (Elt F) ((V d (cV L) (jV L)).loc cc0_scratch0)) := by
  refine (View.write_whole_univ (Val := Elt F) cc0_scratch0 g0 _).trans ?_
  funext j
  show flatB m d ((Rect.unit (s := S8192) (k0_off1 L) S256.size (k0_off1_inb L)).emb j) = flatSlice (m (iLoc d)) (widL L) j
  rw [off1_emb]
  rfl

/-- After the second copy the second scratch buffer holds the expert-to-device table. -/
theorem s1_landed (g1 : Buf (Elt F) ((V d (cV L) (jV L)).loc cc0_scratch1)) :
    View.write (Elt F) (s1).view g1 (ReadAs.same.apply (View.read (Elt F) (A3).view (m (mLoc d)))) Finset.univ
      = (m (mLoc d) : Buf (Elt F) ((V d (cV L) (jV L)).loc cc0_scratch1)) := by
  exact View.write_whole_univ (Val := Elt F) cc0_scratch1 g1 _

end Tile

end Cert.Proof.KI

end
-- ==== Proof.KI.TailDefs.lean ====
/-
  Names for the last segment of a tile's task: the eight copies' source and target pieces as the body spells them, what a
  landed copy leaves, and the targets' offsets in closed form.
-/
import proofs.«202873_g15822659519276_cont_week2b_991_21_alg».proof.Proof.KI.TileDefs
import Idealize.ShloMosaic.Lib.Batch
import Idealize.ShloMosaic.Lib.Tactic
import Idealize.ShloMosaic.Lib.Writes

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable [FloatOps F]

section Tile
variable (d : Dev nD) (L : grid0.Coords)

local notation "𝕥" => (V d (cV L) (jV L))

/-- One row piece of the mask array as a copy's target names it: the row and the 128 columns from the given offsets,
    seen as 128 words. -/
abbrev rowM (off : Fin 2 → ℕ) (h : ∀ a, off a + S1x128.size a ≤ S8x4096.size a) : Memref sig .scVector .hbm S128 .f32 :=
  (A4.slice (Rect.unit (s := S8x4096) off S1x128.size h) (fun _ => rfl)).squeeze S128 squeezes_S1x128_S128
/-- 128 words of the mask scratch from word o. -/
abbrev srcM (o : ℕ) (h : ∀ a, (![o] : Fin 1 → ℕ) a + S128.size a ≤ S1024.size a) : Memref sig .scVector .vmem S128 .f32 :=
  s2.slice (Rect.unit (s := S1024) ![o] S128.size h) (fun _ => rfl)

/-- What a landed copy leaves in the mask array: the target piece overwritten whole by the source piece's words. -/
abbrev landed (G : Buf (Elt F) ((V d (cV L) (jV L)).loc cc0_scratch2)) (fw : Buf (Elt F) (wLoc d))
    (off : Fin 2 → ℕ) (h : ∀ a, off a + S1x128.size a ≤ S8x4096.size a) (o : ℕ) (ho : ∀ a, (![o] : Fin 1 → ℕ) a + S128.size a ≤ S1024.size a) :
    Buf (Elt F) ((rowM off h).view.loc 𝕥) :=
  (rowM off h).view.writes (Elt F) fw [⟨Rect.whole S128, ReadAs.same.apply ((srcM o ho).view.read (Elt F) G)⟩]

/-- The tile's columns start at 128 times its number. -/
theorem off_row (r : Fin 8) : (![r.val, 256 * (L 1).val + 128 * (L 0).val] : Fin 2 → ℕ) = ![r.val, 128 * (widL L).val] := by
  funext a
  match a with
  | ⟨0, _⟩ => rfl
  | ⟨1, _⟩ => show 256 * (L 1).val + 128 * (L 0).val = 128 * (2 * (L 1).val + (L 0).val); omega
theorem off3_row : k0_off3 L = ![(0 : Fin 8).val, 128 * (widL L).val] := (k0_off3_eq L).trans (off_row L 0)
theorem off4_row : k0_off4 L = ![(1 : Fin 8).val, 128 * (widL L).val] := (k0_off4_eq L).trans (off_row L 1)
theorem off5_row : k0_off5 L = ![(2 : Fin 8).val, 128 * (widL L).val] := (k0_off5_eq L).trans (off_row L 2)
theorem off6_row : k0_off6 L = ![(3 : Fin 8).val, 128 * (widL L).val] := (k0_off6_eq L).trans (off_row L 3)
theorem off7_row : k0_off7 L = ![(4 : Fin 8).val, 128 * (widL L).val] := (k0_off7_eq L).trans (off_row L 4)
theorem off8_row : k0_off8 L = ![(5 : Fin 8).val, 128 * (widL L).val] := (k0_off8_eq L).trans (off_row L 5)
theorem off9_row : k0_off9 L = ![(6 : Fin 8).val, 128 * (widL L).val] := (k0_off9_eq L).trans (off_row L 6)
theorem off10_row : k0_off10 L = ![(7 : Fin 8).val, 128 * (widL L).val] := (k0_off10_eq L).trans (off_row L 7)

end Tile
end Cert.Proof.KI
end
-- ==== Proof.KI.TailRun.lean ====
/-
  The last segment of a tile's task, run: the eight copies of the mask scratch's rows to the tile's pieces of the mask
  array, all on one DMA semaphore, and the eight waits, over the pieces as the copies name them.

  No load or store touches a copy's source or target between the first copy and the last wait, so the copies are one counted
  batch: nothing is known at the first seven waits, and the eighth hands back every target at its source's words.
-/
import proofs.«202873_g15822659519276_cont_week2b_991_21_alg».proof.Proof.KI.TailDefs
import Idealize.ShloMosaic.Lib.Batch
import Idealize.ShloMosaic.Lib.Tactic
import Idealize.ShloMosaic.Lib.Writes

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable [FloatOps F]

section Tile
variable (d : Dev nD) (L : grid0.Coords)

local notation "𝕥" => (V d (cV L) (jV L))

/-- The suffix of the tile's body from its first copy: the eight copies of the mask scratch's rows to the tile's pieces of
    the mask array, all on one DMA semaphore, then the eight waits. -/
def tailProg (L : grid0.Coords) : Prog (TpuEff nD τ sig (Elt F) Λ₀ (.scVector ((L 0).castLE hcore0) ((L 1).castLE hsub0))) PUnit := do
  let v154 : Memref sig .scVector .hbm S1x128 .f32 := A4.slice (Rect.unit (s := S8x4096) (k0_off3 L) S1x128.size (k0_off3_inb L)) (fun _ => rfl)
  let v155 : Memref sig .scVector .hbm S128 .f32 := v154.squeeze S128 squeezes_S1x128_S128
  let v156 : Memref sig .scVector .vmem S128 .f32 := s2.slice (Rect.unit (s := S1024) ![0] S128.size inb_S1024_S128_0) (fun _ => rfl)
  Prog.lift (.enqueueDma v156 (.here v155) (.dma cc0_scratch3.sem) (View.wordExact_bits rfl) ((View.wordExact_bits rfl).reshape _ _) ⟨Or.inl rfl, trivial⟩)
  k0_part7 L A2 (Memref.isWhole_whole _) A3 (Memref.isWhole_whole _) A4 (Memref.isWhole_whole _) s0 (Memref.isWhole_whole _) s1 (Memref.isWhole_whole _) s2 (Memref.isWhole_whole _) cc0_scratch3 cc0_scoped0 cc0_scoped1
  k0_part8 L A2 (Memref.isWhole_whole _) A3 (Memref.isWhole_whole _) A4 (Memref.isWhole_whole _) s0 (Memref.isWhole_whole _) s1 (Memref.isWhole_whole _) s2 (Memref.isWhole_whole _) cc0_scratch3 cc0_scoped0 cc0_scoped1
  let v234 : Memref sig .scVector .vmem S128 .f32 := s2.slice (Rect.unit (s := S1024) ![640] S128.size inb_S1024_S128_640) (fun _ => rfl)
  let v232 : Memref sig .scVector .hbm S1x128 .f32 := A4.slice (Rect.unit (s := S8x4096) (k0_off8 L) S1x128.size (k0_off8_inb L)) (fun _ => rfl)
  let v233 : Memref sig .scVector .hbm S128 .f32 := v232.squeeze S128 squeezes_S1x128_S128
  Prog.lift (.waitDma2 cc0_scratch3.sem v234 v233 (View.wordExact_bits rfl) ((View.wordExact_bits rfl).reshape _ _))
  let v238 : Memref sig .scVector .hbm S1x128 .f32 := A4.slice (Rect.unit (s := S8x4096) (k0_off9 L) S1x128.size (k0_off9_inb L)) (fun _ => rfl)
  let v239 : Memref sig .scVector .hbm S128 .f32 := v238.squeeze S128 squeezes_S1x128_S128
  let v240 : Memref sig .scVector .vmem S128 .f32 := s2.slice (Rect.unit (s := S1024) ![768] S128.size inb_S1024_S128_768) (fun _ => rfl)
  Prog.lift (.waitDma2 cc0_scratch3.sem v240 v239 (View.wordExact_bits rfl) ((View.wordExact_bits rfl).reshape _ _))
  let v244 : Memref sig .scVector .hbm S1x128 .f32 := A4.slice (Rect.unit (s := S8x4096) (k0_off10 L) S1x128.size (k0_off10_inb L)) (fun _ => rfl)
  let v245 : Memref sig .scVector .hbm S128 .f32 := v244.squeeze S128 squeezes_S1x128_S128
  let v246 : Memref sig .scVector .vmem S128 .f32 := s2.slice (Rect.unit (s := S1024) ![896] S128.size inb_S1024_S128_896) (fun _ => rfl)
  Prog.lift (.waitDma2 cc0_scratch3.sem v246 v245 (View.wordExact_bits rfl) ((View.wordExact_bits rfl).reshape _ _))
  pure ⟨⟩

/-! ## The pieces' words -/

/-- A target piece's words are the tile's piece of its row. -/
theorem set_rowM (off : Fin 2 → ℕ) (h : ∀ a, off a + S1x128.size a ≤ S8x4096.size a) (r : Fin 8) (w : Fin 32) (hoff : off = ![r.val, 128 * w.val]) :
    (rowM off h).view.set = wSet r w := by
  subst hoff
  refine Finset.ext fun i => ?_
  show i ∈ (((View.whole main_v1_scv).slice (Rect.unit (s := S8x4096) ![r.val, 128 * w.val] S1x128.size h)).reshape S128 squeezes_S1x128_S128.numel_eq).set
    ↔ i ∈ (Rect.unit (s := S8x4096) (fun a => (![r.val, w.val] : Fin 2 → ℕ) a * (![1, 128] : Fin 2 → ℕ) a) ![1, 128] (fun a => (Nat.succ_mul _ _).symm.trans_le (hblk r w a) |> fun h => by omega)).set
  rw [View.set_reshape, View.set_slice_whole, Rect.mem_set_unit, Rect.mem_set_unit]
  refine forall_congr' fun a => ?_
  match a with
  | ⟨0, _⟩ => show (r.val ≤ (i 0).val ∧ (i 0).val < r.val + 1) ↔ (r.val * 1 ≤ (i 0).val ∧ (i 0).val < r.val * 1 + 1); omega
  | ⟨1, _⟩ => show (128 * w.val ≤ (i 1).val ∧ (i 1).val < 128 * w.val + 128) ↔ (w.val * 128 ≤ (i 1).val ∧ (i 1).val < w.val * 128 + 128); omega

/-- A target piece, spelt as its copy spells it, is the tile's piece of that row. -/
theorem pts_row (off : Fin 2 → ℕ) (h : ∀ a, off a + S1x128.size a ≤ S8x4096.size a) (r : Fin 8) (hoff : off = ![r.val, 128 * (widL L).val])
    (f : Buf (Elt F) (wLoc d)) :
    ((rowM off h).view.loc 𝕥 ↦[(rowM off h).view.set]{fullShare} f : sProp 𝕄) = (wLoc d ↦[wSet r (widL L)]{fullShare} f) := by
  rw [set_rowM off h r (widL L) hoff]

/-! ## The batch -/

/-- What a copy delivers: its target piece landed, its source piece back. -/
abbrev deliv (G : Buf (Elt F) ((V d (cV L) (jV L)).loc cc0_scratch2)) (fw : Buf (Elt F) (wLoc d))
    (off : Fin 2 → ℕ) (h : ∀ a, off a + S1x128.size a ≤ S8x4096.size a) (o : ℕ) (ho : ∀ a, (![o] : Fin 1 → ℕ) a + S128.size a ≤ S1024.size a) : sProp 𝕄 :=
  iprop(((rowM off h).view.loc 𝕥 ↦[(rowM off h).view.set]{fullShare} landed d L G fw off h o ho)
    ∗ ((srcM o ho).view.loc 𝕥 ↦[(srcM o ho).view.set]{fullShare} G))

/-- The eight deliveries, in the order of the copies. -/
abbrev delivs (G : Buf (Elt F) ((V d (cV L) (jV L)).loc cc0_scratch2)) (fw : Buf (Elt F) (wLoc d)) : Fin 8 → sProp 𝕄
  | ⟨0, _⟩ => deliv d L G fw (k0_off3 L) (k0_off3_inb L) 0 inb_S1024_S128_0
  | ⟨1, _⟩ => deliv d L G fw (k0_off4 L) (k0_off4_inb L) 128 inb_S1024_S128_128
  | ⟨2, _⟩ => deliv d L G fw (k0_off5 L) (k0_off5_inb L) 256 inb_S1024_S128_256
  | ⟨3, _⟩ => deliv d L G fw (k0_off6 L) (k0_off6_inb L) 384 inb_S1024_S128_384
  | ⟨4, _⟩ => deliv d L G fw (k0_off7 L) (k0_off7_inb L) 512 inb_S1024_S128_512
  | ⟨5, _⟩ => deliv d L G fw (k0_off8 L) (k0_off8_inb L) 640 inb_S1024_S128_640
  | ⟨6, _⟩ => deliv d L G fw (k0_off9 L) (k0_off9_inb L) 768 inb_S1024_S128_768
  | ⟨7, _⟩ => deliv d L G fw (k0_off10 L) (k0_off10_inb L) 896 inb_S1024_S128_896

/-- One copy's credit. -/
abbrev creditN : ℕ := (rowM (k0_off3 L) (k0_off3_inb L)).view.amount (SemLoc.dma (sig := sig) cc0_scratch3.sem)

instance delivs_storable (G : Buf (Elt F) ((V d (cV L) (jV L)).loc cc0_scratch2)) (fw : Buf (Elt F) (wLoc d)) (t : Fin 8) :
    Storable (upEmb : UEmb _ 𝕄) (delivs d L G fw t) :=
  match t with
  | ⟨0, _⟩ => (inferInstance : Storable (upEmb : UEmb _ 𝕄) (deliv d L G fw (k0_off3 L) (k0_off3_inb L) 0 inb_S1024_S128_0))
  | ⟨1, _⟩ => (inferInstance : Storable (upEmb : UEmb _ 𝕄) (deliv d L G fw (k0_off4 L) (k0_off4_inb L) 128 inb_S1024_S128_128))
  | ⟨2, _⟩ => (inferInstance : Storable (upEmb : UEmb _ 𝕄) (deliv d L G fw (k0_off5 L) (k0_off5_inb L) 256 inb_S1024_S128_256))
  | ⟨3, _⟩ => (inferInstance : Storable (upEmb : UEmb _ 𝕄) (deliv d L G fw (k0_off6 L) (k0_off6_inb L) 384 inb_S1024_S128_384))
  | ⟨4, _⟩ => (inferInstance : Storable (upEmb : UEmb _ 𝕄) (deliv d L G fw (k0_off7 L) (k0_off7_inb L) 512 inb_S1024_S128_512))
  | ⟨5, _⟩ => (inferInstance : Storable (upEmb : UEmb _ 𝕄) (deliv d L G fw (k0_off8 L) (k0_off8_inb L) 640 inb_S1024_S128_640))
  | ⟨6, _⟩ => (inferInstance : Storable (upEmb : UEmb _ 𝕄) (deliv d L G fw (k0_off9 L) (k0_off9_inb L) 768 inb_S1024_S128_768))
  | ⟨7, _⟩ => (inferInstance : Storable (upEmb : UEmb _ 𝕄) (deliv d L G fw (k0_off10 L) (k0_off10_inb L) 896 inb_S1024_S128_896))

omit [FloatOps F] in
/-- One more wait at the kernel's own index keeps the recorded waits among the old ones and that index. -/
theorem mem_insert_own {W W0 : Waits sig (HIx 1)} {sm : SemLoc sig} (h : ∀ p ∈ W, p ∈ W0 ∨ p.2 = none) :
    ∀ p ∈ insert (sm, (none : HIx 1)) W, p ∈ W0 ∨ p.2 = none := by
  intro p hp
  rcases Finset.mem_insert.mp hp with rfl | hp
  · exact Or.inr rfl
  · exact h p hp

/-! ## The run -/

set_option maxHeartbeats 4000000 in
/-- The segment over the pieces as the copies name them: the eight sources and the eight targets go out with the batch and
    come back at the last wait, each target at its source's words. -/
theorem tail_run (G : Buf (Elt F) ((V d (cV L) (jV L)).loc cc0_scratch2)) (fw : Buf (Elt F) (wLoc d))
    (O : CellTallies nD τ sig (HIx 1)) (W0 : Waits sig (HIx 1)) (Q : PUnit → sProp 𝕄) :
    iprop(Transfers.MayWaits (V d (cV L) (jV L)) (none : HIx 1) O
        ∗ (((srcM 0 inb_S1024_S128_0).view.loc 𝕥 ↦[(srcM 0 inb_S1024_S128_0).view.set]{fullShare} G)
          ∗ ((srcM 128 inb_S1024_S128_128).view.loc 𝕥 ↦[(srcM 128 inb_S1024_S128_128).view.set]{fullShare} G)
          ∗ ((srcM 256 inb_S1024_S128_256).view.loc 𝕥 ↦[(srcM 256 inb_S1024_S128_256).view.set]{fullShare} G)
          ∗ ((srcM 384 inb_S1024_S128_384).view.loc 𝕥 ↦[(srcM 384 inb_S1024_S128_384).view.set]{fullShare} G)
          ∗ ((srcM 512 inb_S1024_S128_512).view.loc 𝕥 ↦[(srcM 512 inb_S1024_S128_512).view.set]{fullShare} G)
          ∗ ((srcM 640 inb_S1024_S128_640).view.loc 𝕥 ↦[(srcM 640 inb_S1024_S128_640).view.set]{fullShare} G)
          ∗ ((srcM 768 inb_S1024_S128_768).view.loc 𝕥 ↦[(srcM 768 inb_S1024_S128_768).view.set]{fullShare} G)
          ∗ ((srcM 896 inb_S1024_S128_896).view.loc 𝕥 ↦[(srcM 896 inb_S1024_S128_896).view.set]{fullShare} G))
        ∗ ((rowM (k0_off3 L) (k0_off3_inb L)).view.loc 𝕥 ↦[(rowM (k0_off3 L) (k0_off3_inb L)).view.set]{fullShare} fw)
        ∗ ((rowM (k0_off4 L) (k0_off4_inb L)).view.loc 𝕥 ↦[(rowM (k0_off4 L) (k0_off4_inb L)).view.set]{fullShare} fw)
        ∗ ((rowM (k0_off5 L) (k0_off5_inb L)).view.loc 𝕥 ↦[(rowM (k0_off5 L) (k0_off5_inb L)).view.set]{fullShare} fw)
        ∗ ((rowM (k0_off6 L) (k0_off6_inb L)).view.loc 𝕥 ↦[(rowM (k0_off6 L) (k0_off6_inb L)).view.set]{fullShare} fw)
        ∗ ((rowM (k0_off7 L) (k0_off7_inb L)).view.loc 𝕥 ↦[(rowM (k0_off7 L) (k0_off7_inb L)).view.set]{fullShare} fw)
        ∗ ((rowM (k0_off8 L) (k0_off8_inb L)).view.loc 𝕥 ↦[(rowM (k0_off8 L) (k0_off8_inb L)).view.set]{fullShare} fw)
        ∗ ((rowM (k0_off9 L) (k0_off9_inb L)).view.loc 𝕥 ↦[(rowM (k0_off9 L) (k0_off9_inb L)).view.set]{fullShare} fw)
        ∗ ((rowM (k0_off10 L) (k0_off10_inb L)).view.loc 𝕥 ↦[(rowM (k0_off10 L) (k0_off10_inb L)).view.set]{fullShare} fw)
        ∗ semVal (c3cell d (cV L) (jV L)) 0 ∗ owes (V d (cV L) (jV L)) O W0
        ∗ (((((srcM 0 inb_S1024_S128_0).view.loc 𝕥 ↦[(srcM 0 inb_S1024_S128_0).view.set]{fullShare} G)
              ∗ ((srcM 128 inb_S1024_S128_128).view.loc 𝕥 ↦[(srcM 128 inb_S1024_S128_128).view.set]{fullShare} G)
              ∗ ((srcM 256 inb_S1024_S128_256).view.loc 𝕥 ↦[(srcM 256 inb_S1024_S128_256).view.set]{fullShare} G)
              ∗ ((srcM 384 inb_S1024_S128_384).view.loc 𝕥 ↦[(srcM 384 inb_S1024_S128_384).view.set]{fullShare} G)
              ∗ ((srcM 512 inb_S1024_S128_512).view.loc 𝕥 ↦[(srcM 512 inb_S1024_S128_512).view.set]{fullShare} G)
              ∗ ((srcM 640 inb_S1024_S128_640).view.loc 𝕥 ↦[(srcM 640 inb_S1024_S128_640).view.set]{fullShare} G)
              ∗ ((srcM 768 inb_S1024_S128_768).view.loc 𝕥 ↦[(srcM 768 inb_S1024_S128_768).view.set]{fullShare} G)
              ∗ ((srcM 896 inb_S1024_S128_896).view.loc 𝕥 ↦[(srcM 896 inb_S1024_S128_896).view.set]{fullShare} G))
            ∗ ((rowM (k0_off3 L) (k0_off3_inb L)).view.loc 𝕥 ↦[(rowM (k0_off3 L) (k0_off3_inb L)).view.set]{fullShare} landed d L G fw (k0_off3 L) (k0_off3_inb L) 0 inb_S1024_S128_0)
            ∗ ((rowM (k0_off4 L) (k0_off4_inb L)).view.loc 𝕥 ↦[(rowM (k0_off4 L) (k0_off4_inb L)).view.set]{fullShare} landed d L G fw (k0_off4 L) (k0_off4_inb L) 128 inb_S1024_S128_128)
            ∗ ((rowM (k0_off5 L) (k0_off5_inb L)).view.loc 𝕥 ↦[(rowM (k0_off5 L) (k0_off5_inb L)).view.set]{fullShare} landed d L G fw (k0_off5 L) (k0_off5_inb L) 256 inb_S1024_S128_256)
            ∗ ((rowM (k0_off6 L) (k0_off6_inb L)).view.loc 𝕥 ↦[(rowM (k0_off6 L) (k0_off6_inb L)).view.set]{fullShare} landed d L G fw (k0_off6 L) (k0_off6_inb L) 384 inb_S1024_S128_384)
            ∗ ((rowM (k0_off7 L) (k0_off7_inb L)).view.loc 𝕥 ↦[(rowM (k0_off7 L) (k0_off7_inb L)).view.set]{fullShare} landed d L G fw (k0_off7 L) (k0_off7_inb L) 512 inb_S1024_S128_512)
            ∗ ((rowM (k0_off8 L) (k0_off8_inb L)).view.loc 𝕥 ↦[(rowM (k0_off8 L) (k0_off8_inb L)).view.set]{fullShare} landed d L G fw (k0_off8 L) (k0_off8_inb L) 640 inb_S1024_S128_640)
            ∗ ((rowM (k0_off9 L) (k0_off9_inb L)).view.loc 𝕥 ↦[(rowM (k0_off9 L) (k0_off9_inb L)).view.set]{fullShare} landed d L G fw (k0_off9 L) (k0_off9_inb L) 768 inb_S1024_S128_768)
            ∗ ((rowM (k0_off10 L) (k0_off10_inb L)).view.loc 𝕥 ↦[(rowM (k0_off10 L) (k0_off10_inb L)).view.set]{fullShare} landed d L G fw (k0_off10 L) (k0_off10_inb L) 896 inb_S1024_S128_896)
            ∗ semVal (c3cell d (cV L) (jV L)) 0 ∗ ∃ W', ⌜∀ p ∈ W', p ∈ W0 ∨ p.2 = none⌝ ∗ owes (V d (cV L) (jV L)) O W') -∗ Q ⟨⟩))
      ⊢ wp frame (wpE (defs₀ (F := F)) 𝒱₀ (V d (cV L) (jV L)) none) Set.univ (tailProg (F := F) L) Q := by
  iintro ⟨Hmw, ⟨HS0, HS1, HS2, HS3, HS4, HS5, HS6, HS7⟩, HD0, HD1, HD2, HD3, HD4, HD5, HD6, HD7, Hsem, HO, Hk⟩
  imod (Transfers.batch_alloc' (Lvl := ℕ) (countersEmb (U := UU)) 𝕥 (none : HIx 1) (creditN L) (delivs d L G fw) (sm := .dma cc0_scratch3.sem) (E := Set.univ)) $$ Hsem with HB
  unfold tailProg
  sl_exec
  sl_step
  iapply Hk
  isplitl [HB_src0 HB_src1 HB_src2 HB_src3 HB_src4 HB_src5 HB_src6 HB_src7]
  · isplitl [HB_src0]; · iexact HB_src0
    isplitl [HB_src1]; · iexact HB_src1
    isplitl [HB_src2]; · iexact HB_src2
    isplitl [HB_src3]; · iexact HB_src3
    isplitl [HB_src4]; · iexact HB_src4
    isplitl [HB_src5]; · iexact HB_src5
    isplitl [HB_src6]; · iexact HB_src6
    iexact HB_src7
  isplitl [HB_dst0]; · iexact HB_dst0
  isplitl [HB_dst1]; · iexact HB_dst1
  isplitl [HB_dst2]; · iexact HB_dst2
  isplitl [HB_dst3]; · iexact HB_dst3
  isplitl [HB_dst4]; · iexact HB_dst4
  isplitl [HB_dst5]; · iexact HB_dst5
  isplitl [HB_dst6]; · iexact HB_dst6
  isplitl [HB_dst7]; · iexact HB_dst7
  isplitl [HB]; · iexact HB
  iexists _; isplitr
  swap; · iexact HO
  ipureintro
  exact mem_insert_own (mem_insert_own (mem_insert_own (mem_insert_own (mem_insert_own (mem_insert_own (mem_insert_own (mem_insert_own fun p hp => Or.inl hp)))))))

end Tile
end Cert.Proof.KI
end
-- ==== Proof.KI.TailSrc.lean ====
/-
  The mask scratch held whole is its eight pieces of 128 words.

  Piece i is words [128 i, 128 i + 128) of the 1024: the pieces are pairwise disjoint (they are separated on the one
  axis) and word t lies in piece t / 128. So a points-to over the whole scratch is the separating conjunction of the
  eight points-tos over the pieces, at any contents.
-/
import proofs.«202873_g15822659519276_cont_week2b_991_21_alg».proof.Proof.KI.TailDefs

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable [FloatOps F]

omit [FloatOps F] in
/-- A points-to over a whole location is the eight points-tos over eight pairwise disjoint sets covering it. -/
theorem pts_eight (ℓ : Loc nD τ sig) (q : PosShare TreeShare) (f : Buf (Elt F) ℓ) (K : Fin 8 → Finset (Idx ℓ))
    (hd : ∀ i ∈ (Finset.univ : Finset (Fin 8)), ∀ j ∈ (Finset.univ : Finset (Fin 8)), i ≠ j → Disjoint (K i) (K j))
    (hc : (Finset.univ : Finset (Fin 8)).biUnion K = Finset.univ) :
    (ℓ ↦{q} f : sProp 𝕄) = iprop((ℓ ↦[K 0]{q} f) ∗ (ℓ ↦[K 1]{q} f) ∗ (ℓ ↦[K 2]{q} f) ∗ (ℓ ↦[K 3]{q} f)
      ∗ (ℓ ↦[K 4]{q} f) ∗ (ℓ ↦[K 5]{q} f) ∗ (ℓ ↦[K 6]{q} f) ∗ (ℓ ↦[K 7]{q} f)) := by
  rw [← bigSep_fin8 (F := F) (fun i => ℓ ↦[K i]{q} f), ← pointsTo_biUnion Finset.univ K hd, hc]

section Tile
variable (d : Dev nD) (L : grid0.Coords)

local notation "𝕥" => (V d (cV L) (jV L))

omit [FloatOps F] in
theorem set_srcM (o : ℕ) (ho : ∀ a, (![o] : Fin 1 → ℕ) a + S128.size a ≤ S1024.size a) :
    (srcM o ho).view.set = (Rect.unit (s := S1024) ![o] S128.size ho).set := View.set_slice_whole cc0_scratch2 _

omit [FloatOps F] in
theorem mem_srcRect (o : ℕ) (ho : ∀ a, (![o] : Fin 1 → ℕ) a + S128.size a ≤ S1024.size a) (x : S1024.Idx) :
    x ∈ (Rect.unit (s := S1024) ![o] S128.size ho).set ↔ ∀ a, (![o] : Fin 1 → ℕ) a ≤ x a ∧ (x a : ℕ) < (![o] : Fin 1 → ℕ) a + S128.size a :=
  Rect.mem_set_unit

omit [FloatOps F] in
theorem srcM_disjoint (o o' : ℕ) (ho : ∀ a, (![o] : Fin 1 → ℕ) a + S128.size a ≤ S1024.size a)
    (ho' : ∀ a, (![o'] : Fin 1 → ℕ) a + S128.size a ≤ S1024.size a) (h : o + 128 ≤ o' ∨ o' + 128 ≤ o) :
    Disjoint (srcM o ho).view.set (srcM o' ho').view.set := by
  rw [set_srcM, set_srcM]
  exact Rect.unit_disjoint (0 : Fin 1) h

omit [FloatOps F] in
theorem inb_piece (i : Fin 8) : ∀ a, (![128 * i.val] : Fin 1 → ℕ) a + S128.size a ≤ S1024.size a := by
  intro a
  match a with
  | ⟨0, _⟩ => show 128 * i.val + 128 ≤ 1024; omega

/-- Piece i of the scratch: words [128 i, 128 i + 128). -/
abbrev srcSet (i : Fin 8) : Finset (Idx ((s2).view.loc 𝕥)) := (srcM (128 * i.val) (inb_piece i)).view.set

theorem pts_s2_rows (G : Buf (Elt F) ((V d (cV L) (jV L)).loc cc0_scratch2)) :
    ((s2).view.loc 𝕥 ↦{fullShare} G : sProp 𝕄)
      = iprop(((srcM 0 inb_S1024_S128_0).view.loc 𝕥 ↦[(srcM 0 inb_S1024_S128_0).view.set]{fullShare} G)
        ∗ ((srcM 128 inb_S1024_S128_128).view.loc 𝕥 ↦[(srcM 128 inb_S1024_S128_128).view.set]{fullShare} G)
        ∗ ((srcM 256 inb_S1024_S128_256).view.loc 𝕥 ↦[(srcM 256 inb_S1024_S128_256).view.set]{fullShare} G)
        ∗ ((srcM 384 inb_S1024_S128_384).view.loc 𝕥 ↦[(srcM 384 inb_S1024_S128_384).view.set]{fullShare} G)
        ∗ ((srcM 512 inb_S1024_S128_512).view.loc 𝕥 ↦[(srcM 512 inb_S1024_S128_512).view.set]{fullShare} G)
        ∗ ((srcM 640 inb_S1024_S128_640).view.loc 𝕥 ↦[(srcM 640 inb_S1024_S128_640).view.set]{fullShare} G)
        ∗ ((srcM 768 inb_S1024_S128_768).view.loc 𝕥 ↦[(srcM 768 inb_S1024_S128_768).view.set]{fullShare} G)
        ∗ ((srcM 896 inb_S1024_S128_896).view.loc 𝕥 ↦[(srcM 896 inb_S1024_S128_896).view.set]{fullShare} G)) := by
  have hd : ∀ i ∈ (Finset.univ : Finset (Fin 8)), ∀ j ∈ (Finset.univ : Finset (Fin 8)), i ≠ j →
      Disjoint (srcSet d L i) (srcSet d L j) := by
    intro i _ j _ hij
    refine srcM_disjoint _ _ _ _ ?_
    have : i.val ≠ j.val := fun e => hij (Fin.ext e)
    omega
  have hc : (Finset.univ : Finset (Fin 8)).biUnion (srcSet d L) = Finset.univ := by
    ext x
    simp only [Finset.mem_biUnion, Finset.mem_univ, true_and, iff_true]
    have hx : (x 0).val < 1024 := (x 0).isLt
    refine ⟨⟨(x 0).val / 128, by omega⟩, ?_⟩
    unfold srcSet
    rw [set_srcM]
    refine (mem_srcRect _ _ x).mpr fun a => ?_
    match a with
    | ⟨0, _⟩ => show 128 * ((x 0).val / 128) ≤ (x 0).val ∧ (x 0).val < 128 * ((x 0).val / 128) + 128; omega
  exact pts_eight (F := F) ((s2).view.loc 𝕥) fullShare G (srcSet d L) hd hc

end Tile
end Cert.Proof.KI
end
-- ==== Proof.KI.TailLand.lean ====
/-
  A landed copy of a row piece is the mask scratch spread over the mask array.

  The copy of piece r moves scratch words [128 r, 128 r + 128) onto row r, columns [128 w, 128 w + 128) of the mask
  array, seen as 128 words. Element j of the piece is the array's (r, 128 w + j); the spread scratch reads there word
  128 r + (128 w + j) % 128 = 128 r + j, which is the word the copy moved.
-/
import proofs.«202873_g15822659519276_cont_week2b_991_21_alg».proof.Proof.KI.TailDefs
import Idealize.ShloMosaic.Lib.Pipeline.Value

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable [FloatOps F]

section Tile
variable (d : Dev nD) (L : grid0.Coords)

local notation "𝕥" => (V d (cV L) (jV L))

/-- On a row piece, the mask scratch spread over the mask array and what the landed copy of the piece's 128 scratch
    words leaves are the same function: element j of the piece reads scratch word 128 r + j either way. -/
theorem landed_spread (G : Buf (Elt F) ((V d (cV L) (jV L)).loc cc0_scratch2)) (fw : Buf (Elt F) (wLoc d))
    (off : Fin 2 → ℕ) (h : ∀ a, off a + S1x128.size a ≤ S8x4096.size a) (o : ℕ)
    (ho : ∀ a, (![o] : Fin 1 → ℕ) a + S128.size a ≤ S1024.size a) (r : Fin 8)
    (hoff : off = ![r.val, 128 * (widL L).val]) (ho' : o = 128 * r.val) :
    ((rowM off h).view.loc 𝕥 ↦[(rowM off h).view.set]{fullShare} spreadG G : sProp 𝕄)
      = ((rowM off h).view.loc 𝕥 ↦[(rowM off h).view.set]{fullShare} landed d L G fw off h o ho) := by
  refine pointsTo_congr fun i hi => ?_
  obtain ⟨j, rfl⟩ := View.exists_emb_of_mem_set _ hi
  have hj : (j 0).val < 128 := (j 0).isLt
  have hw : (widL L).val < 32 := (widL L).isLt
  have hr : r.val < 8 := r.isLt
  -- the piece's element j as an element of the row rectangle
  have hre : Shape.reshapeEquiv (squeezes_S1x128_S128).numel_eq j = (ix2 (0 : Fin 1) (j 0) : S1x128.Idx) := by
    apply Shape.reshapeEquiv_eq_of_rowMajor
    rw [Shape.rowMajor_val_two, Shape.rowMajor_val_one]
    show 0 * 128 + (j 0).val = (j 0).val
    omega
  have hemb : (rowM off h).view.emb j = (Rect.unit (s := S8x4096) off S1x128.size h).emb (ix2 (0 : Fin 1) (j 0)) := by
    rw [← hre]; rfl
  -- what the landed copy leaves there
  have e1 : landed d L G fw off h o ho ((rowM off h).view.emb j) = G ((srcM o ho).view.emb j) := by
    have hh := View.read_writes_cons_emb (rowM off h).view fw (Rect.whole S128)
      (ReadAs.same.apply ((srcM o ho).view.read (Elt F) G)) [] j
    rw [Rect.emb_whole_apply] at hh
    exact hh
  rw [e1, hemb]
  unfold spreadG
  refine congrArg G (funext fun a => ?_)
  match a with
  | ⟨0, _⟩ =>
    apply Fin.ext
    show 128 * (off 0 + 1 * 0) + (off 1 + 1 * (j 0).val) % 128 = o + 1 * (j 0).val
    subst hoff ho'
    show 128 * (r.val + 1 * 0) + (128 * (widL L).val + 1 * (j 0).val) % 128 = 128 * r.val + 1 * (j 0).val
    omega

end Tile
end Cert.Proof.KI
end
-- ==== Proof.KI.Tail.lean ====
/-
  The last segment of a tile's task: the eight copies of the mask scratch's rows to the tile's pieces of the mask array,
  all on one DMA semaphore, and the eight waits — stated over the scratch held whole and the tile's eight pieces of the
  mask array.

  The scratch held whole is its eight rows and each piece of the mask array is a copy's target, so the run over the pieces as
  the copies name them applies; afterwards each landed piece holds, on its own words, the scratch's row read as the mask array
  reads it, and the rows rejoin to the scratch.
-/
import proofs.«202873_g15822659519276_cont_week2b_991_21_alg».proof.Proof.KI.TailRun
import proofs.«202873_g15822659519276_cont_week2b_991_21_alg».proof.Proof.KI.TailSrc
import proofs.«202873_g15822659519276_cont_week2b_991_21_alg».proof.Proof.KI.TailLand
import Idealize.ShloMosaic.Lib.Batch
import Idealize.ShloMosaic.Lib.Tactic
import Idealize.ShloMosaic.Lib.Writes

noncomputable section

namespace Cert.Proof.KI

open Cert.KernelIdeal Cert.KernelIdeal.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable [FloatOps F]

section Tile
variable (d : Dev nD) (L : grid0.Coords)

local notation "𝕥" => (V d (cV L) (jV L))

/-- THE LAST SEGMENT of a tile's task: from the mask scratch at G, the tile's eight row pieces of the mask array and the
    copies' semaphore at zero, the eight copies and the eight waits leave each piece at the scratch's row (the scratch
    read as the mask array reads it), the scratch and the semaphore as they were, and record only waits at the kernel's
    own index. -/
theorem tail_copies (G : Buf (Elt F) ((V d (cV L) (jV L)).loc cc0_scratch2)) (fw : Buf (Elt F) (wLoc d))
    (O : CellTallies nD τ sig (HIx 1)) (W0 : Waits sig (HIx 1)) (Q : PUnit → sProp 𝕄) :
    iprop(Transfers.MayWaits (V d (cV L) (jV L)) (none : HIx 1) O ∗ ((s2).view.loc (V d (cV L) (jV L)) ↦{fullShare} G)
        ∗ (wLoc d ↦[wSet 0 (widL L)]{fullShare} fw) ∗ (wLoc d ↦[wSet 1 (widL L)]{fullShare} fw) ∗ (wLoc d ↦[wSet 2 (widL L)]{fullShare} fw) ∗ (wLoc d ↦[wSet 3 (widL L)]{fullShare} fw) ∗ (wLoc d ↦[wSet 4 (widL L)]{fullShare} fw) ∗ (wLoc d ↦[wSet 5 (widL L)]{fullShare} fw) ∗ (wLoc d ↦[wSet 6 (widL L)]{fullShare} fw) ∗ (wLoc d ↦[wSet 7 (widL L)]{fullShare} fw)
        ∗ semVal (c3cell d (cV L) (jV L)) 0 ∗ owes (V d (cV L) (jV L)) O W0
        ∗ ((((s2).view.loc (V d (cV L) (jV L)) ↦{fullShare} G)
            ∗ (wLoc d ↦[wSet 0 (widL L)]{fullShare} spreadG G) ∗ (wLoc d ↦[wSet 1 (widL L)]{fullShare} spreadG G) ∗ (wLoc d ↦[wSet 2 (widL L)]{fullShare} spreadG G) ∗ (wLoc d ↦[wSet 3 (widL L)]{fullShare} spreadG G) ∗ (wLoc d ↦[wSet 4 (widL L)]{fullShare} spreadG G) ∗ (wLoc d ↦[wSet 5 (widL L)]{fullShare} spreadG G) ∗ (wLoc d ↦[wSet 6 (widL L)]{fullShare} spreadG G) ∗ (wLoc d ↦[wSet 7 (widL L)]{fullShare} spreadG G)
            ∗ semVal (c3cell d (cV L) (jV L)) 0 ∗ ∃ W', ⌜∀ p ∈ W', p ∈ W0 ∨ p.2 = none⌝ ∗ owes (V d (cV L) (jV L)) O W') -∗ Q ⟨⟩))
      ⊢ wp frame (wpE (defs₀ (F := F)) 𝒱₀ (V d (cV L) (jV L)) none) Set.univ (tailProg (F := F) L) Q := by
  iintro ⟨Hmw, Hs2, Hw0, Hw1, Hw2, Hw3, Hw4, Hw5, Hw6, Hw7, Hsem, HO, Hk⟩
  iapply (tail_run d L G fw O W0 Q)
  isplitl [Hmw]; · iexact Hmw
  isplitl [Hs2]; · iapply (Entails.of_eq (pts_s2_rows d L G)); iexact Hs2
  isplitl [Hw0]; · iapply (Entails.of_eq (pts_row d L (k0_off3 L) (k0_off3_inb L) 0 (off3_row L) fw).symm); iexact Hw0
  isplitl [Hw1]; · iapply (Entails.of_eq (pts_row d L (k0_off4 L) (k0_off4_inb L) 1 (off4_row L) fw).symm); iexact Hw1
  isplitl [Hw2]; · iapply (Entails.of_eq (pts_row d L (k0_off5 L) (k0_off5_inb L) 2 (off5_row L) fw).symm); iexact Hw2
  isplitl [Hw3]; · iapply (Entails.of_eq (pts_row d L (k0_off6 L) (k0_off6_inb L) 3 (off6_row L) fw).symm); iexact Hw3
  isplitl [Hw4]; · iapply (Entails.of_eq (pts_row d L (k0_off7 L) (k0_off7_inb L) 4 (off7_row L) fw).symm); iexact Hw4
  isplitl [Hw5]; · iapply (Entails.of_eq (pts_row d L (k0_off8 L) (k0_off8_inb L) 5 (off8_row L) fw).symm); iexact Hw5
  isplitl [Hw6]; · iapply (Entails.of_eq (pts_row d L (k0_off9 L) (k0_off9_inb L) 6 (off9_row L) fw).symm); iexact Hw6
  isplitl [Hw7]; · iapply (Entails.of_eq (pts_row d L (k0_off10 L) (k0_off10_inb L) 7 (off10_row L) fw).symm); iexact Hw7
  isplitl [Hsem]; · iexact Hsem
  isplitl [HO]; · iexact HO
  iintro ⟨Hs, H0, H1, H2, H3, H4, H5, H6, H7, Hsem, HO⟩
  iapply Hk
  isplitl [Hs]; · iapply (Entails.of_eq (pts_s2_rows d L G).symm); iexact Hs
  isplitl [H0]
  · iapply (Entails.of_eq ((landed_spread d L G fw (k0_off3 L) (k0_off3_inb L) 0 inb_S1024_S128_0 0 (off3_row L) rfl).symm.trans (pts_row d L (k0_off3 L) (k0_off3_inb L) 0 (off3_row L) (spreadG G))))
    iexact H0
  isplitl [H1]
  · iapply (Entails.of_eq ((landed_spread d L G fw (k0_off4 L) (k0_off4_inb L) 128 inb_S1024_S128_128 1 (off4_row L) rfl).symm.trans (pts_row d L (k0_off4 L) (k0_off4_inb L) 1 (off4_row L) (spreadG G))))
    iexact H1
  isplitl [H2]
  · iapply (Entails.of_eq ((landed_spread d L G fw (k0_off5 L) (k0_off5_inb L) 256 inb_S1024_S128_256 2 (off5_row L) rfl).symm.trans (pts_row d L (k0_off5 L) (k0_off5_inb L) 2 (off5_row L) (spreadG G))))
    iexact H2
  isplitl [H3]
  · iapply (Entails.of_eq ((landed_spread d L G fw (k0_off6 L) (k0_off6_inb L) 384 inb_S1024_S128_384 3 (off6_row L) rfl).symm.trans (pts_row d L (k0_off6 L) (k0_off6_inb L) 3 (off6_row L) (spreadG G))))
    iexact H3
  isplitl [H4]
  · iapply (Entails.of_eq ((landed_spread d L G fw (k0_off7 L) (k0_off7_inb L) 512 inb_S1024_S128_512 4 (off7_row L) rfl).symm.trans (pts_row d L (k0_off7 L) (k0_off7_inb L) 4 (off7_row L) (spreadG G))))
    iexact H4
  isplitl [H5]
  · iapply (Entails.of_eq ((landed_spread d L G fw (k0_off8 L) (k0_off8_inb L) 640 inb_S1024_S128_640 5 (off8_row L) rfl).symm.trans (pts_row d L (k0_off8 L) (k0_off8_inb L) 5 (off8_row L) (spreadG G))))
    iexact H5
  isplitl [H6]
  · iapply (Entails.of_eq ((landed_spread d L G fw (k0_off9 L) (k0_off9_inb L) 768 inb_S1024_S128_768 6 (off9_row L) rfl).symm.trans (pts_row d L (k0_off9 L) (k0_off9_inb L) 6 (off9_row L) (spreadG G))))
    iexact H6
  isplitl [H7]
  · iapply (Entails.of_eq ((landed_spread d L G fw (k0_off10 L) (k0_off10_inb L) 896 inb_S1024_S128_896 7 (off10_row L) rfl).symm.trans (pts_row d L (k0_off10 L) (k0_off10_inb L) 7 (off10_row L) (spreadG G))))
    iexact H7
  isplitl [Hsem]; · iexact Hsem
  iexact HO

end Tile
end Cert.Proof.KI
end
-- ==== Proof.KI.TwoStores.lean ====
/-
  Two indexed stores into the mask scratch, one after the other, as the scratch's contents.

  Each store reads the whole scratch, scatters into what it read, and writes the whole scratch back. The second reads
  what the first wrote; so after both the scratch holds the second scatter applied to the first applied to what the
  scratch held.
-/
import proofs.«202873_g15822659519276_cont_week2b_991_21_alg».proof.Proof.KI.TileDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable [FloatOps F]

omit [FloatOps F] in
/-- Two stores through a whole buffer, each of a function of what a load of the whole buffer reads, the second load
    covered by the first store: the buffer ends at the second function of the first function of what it held. -/
theorem two_writes_whole {sg : RefSig} {κ : Kind} (Val : EltTy → Type) [∀ e, Nonempty (Val e)] (b : Ref sg κ) (G : b.ty.Contents Val)
    (φ1 φ2 : b.ty.Contents Val → b.ty.Contents Val) :
    (Memref.whole b).view.writes Val G
        [⟨Rect.whole _, φ2 ((Memref.whole b).view.readCov
            [⟨Rect.whole _, φ1 ((Memref.whole b).view.readAt Val (LoadRect.whole _) G)⟩] (LoadRect.whole _))⟩,
         ⟨Rect.whole _, φ1 ((Memref.whole b).view.readAt Val (LoadRect.whole _) G)⟩]
      = φ2 (φ1 G) := by
  have e1 : (Memref.whole b).view.readAt Val (LoadRect.whole _) G = G := Memref.readAt_whole Val b G
  rw [e1]
  have e2 : (Memref.whole b).view.readCov [⟨Rect.whole _, φ1 G⟩] (LoadRect.whole _) = φ1 G := by
    unfold View.readCov
    rw [View.writes_cons, View.writes_nil]
    exact (congrArg _ (Memref.write_access_whole_univ Val b _ (φ1 G))).trans (Memref.readAt_whole Val b (φ1 G))
  rw [e2, View.writes_cons]
  exact Memref.write_access_whole_univ Val b _ (φ2 (φ1 G))

section Tile
variable (d : Dev nD) (L : grid0.Coords)

theorem two_stores (G : Buf (Elt F) ((V d (cV L) (jV L)).loc cc0_scratch2)) (ix1 ix2 : IVec S16 32) (v1 v2 : FVec F S16 .f32)
    (h1 : ∀ a x, ((![ix1] : Fin 1 → IVec S16 32) a x).toNat < S1024.size a)
    (h2 : ∀ a x, ((![ix2] : Fin 1 → IVec S16 32) a x).toNat < S1024.size a) :
    (s2).view.writes (Elt F) G
        [⟨Rect.whole S1024, storeIdx (F := F) (e := .f32) ((s2).view.readCov
            [⟨Rect.whole S1024, storeIdx (F := F) (e := .f32) (View.readAt (Elt F) (s2).view (LoadRect.whole S1024) G) ![ix1] v1 (fun _ => 1#1) false h1⟩]
            (LoadRect.whole S1024)) ![ix2] v2 (fun _ => 1#1) false h2⟩,
         ⟨Rect.whole S1024, storeIdx (F := F) (e := .f32) (View.readAt (Elt F) (s2).view (LoadRect.whole S1024) G) ![ix1] v1 (fun _ => 1#1) false h1⟩]
      = storeIdx (F := F) (e := .f32) (storeIdx (F := F) (e := .f32) G ![ix1] v1 (fun _ => 1#1) false h1) ![ix2] v2 (fun _ => 1#1) false h2 := by
  exact two_writes_whole (Elt F) cc0_scratch2 G (fun g => storeIdx (F := F) (e := .f32) g ![ix1] v1 (fun _ => 1#1) false h1)
    (fun g => storeIdx (F := F) (e := .f32) g ![ix2] v2 (fun _ => 1#1) false h2)

end Tile
end Cert.Proof.KI
end
-- ==== Proof.KI.PieceVal.lean ====
/-
  A tile's finished mask scratch, read as the mask array reads it, is the specification's mask on the tile's pieces.

  Piece r of worker w is row r, columns [128 w, 128 w + 128) of the mask array. An element (r, 128 w + t) of it reads
  scratch word 128 r + t, which after the sixteen indexed stores is 1.0 exactly when one of local token t's two
  experts has device word r; the specification's mask at device r and token 128 w + t is 1.0 under the same
  condition, read from the worker's own 256 expert words.
-/
import proofs.«202873_g15822659519276_cont_week2b_991_21_alg».proof.Proof.KI.TileDefs
import proofs.«202873_g15822659519276_cont_week2b_991_21_alg».proof.Proof.KI.MaskStep

noncomputable section

namespace Cert.Proof.KI

open Cert.KernelIdeal Cert.KernelIdeal.Gen

open Idealize.ShloMosaic
open Idealize.ShloMosaic.SparseCore (S V T)
open Idealize.ShloMosaic.ValueIdx

variable {F : FTy → Type}

section Tile
variable (m : (ℓ : Loc nD τ sig) → Buf (Elt F) ℓ) [FloatOps F] (d : Dev nD) (L : grid0.Coords)

/-- On piece r of the tile's worker, the scratch after the sixteen stores spread over the mask array is the
    specification's mask. -/
theorem piece_val (hmap : ∀ j, (m (mLoc d) j).toNat < 8) (r : Fin 8) (i : S8x4096.Idx) (hi : i ∈ wSet r (widL L)) :
    spreadG (Gn (F := F) (flatSlice (m (iLoc d)) (widL L)) (m (mLoc d)) 16) i = maskB m d i := by
  have hh := Rect.mem_set_unit.mp hi
  have h0 : r.val * 1 ≤ (i 0).val ∧ (i 0).val < r.val * 1 + 1 := hh 0
  have h1 : (widL L).val * 128 ≤ (i 1).val ∧ (i 1).val < (widL L).val * 128 + 128 := hh 1
  have hw : (widL L).val < 32 := (widL L).isLt
  have hr : r.val < 8 := r.isLt
  -- the local token
  obtain ⟨t, ht⟩ : ∃ t : Fin 128, (i 1).val = 128 * (widL L).val + t.val :=
    ⟨⟨(i 1).val - 128 * (widL L).val, by omega⟩, by show (i 1).val = 128 * (widL L).val + ((i 1).val - 128 * (widL L).val); omega⟩
  have htl : t.val < 128 := t.isLt
  have e0 : i 0 = r := Fin.ext (by show (i 0).val = r.val; omega)
  have e1 : i 1 = (⟨128 * (widL L).val + t.val, by omega⟩ : Fin 4096) := Fin.ext ht
  -- the scratch word read
  have eL : spreadG (Gn (F := F) (flatSlice (m (iLoc d)) (widL L)) (m (mLoc d)) 16) i
      = Gn (F := F) (flatSlice (m (iLoc d)) (widL L)) (m (mLoc d)) 16 (ix1 (⟨128 * r.val + t.val, by omega⟩ : Fin 1024)) := by
    unfold spreadG
    refine congrArg (Gn (F := F) (flatSlice (m (iLoc d)) (widL L)) (m (mLoc d)) 16) (congrArg ix1 (Fin.ext ?_))
    show 128 * (i 0).val + (i 1).val % 128 = 128 * r.val + t.val
    omega
  -- the specification's entry
  have eR : maskB m d i
      = Cert.Spec.maskAt (F := F) (m (iLoc d)) (m (mLoc d)) r (⟨128 * (widL L).val + t.val, by omega⟩ : Fin 4096) :=
    congrArg₂ (Cert.Spec.maskAt (F := F) (m (iLoc d)) (m (mLoc d))) e0 e1
  rw [eL, eR, Gn_final (F := F) _ _ hmap r t, maskAt_eq (F := F) (m (iLoc d)) (m (mLoc d)) (widL L) r t]

end Tile

end Cert.Proof.KI

end
-- ==== Proof.KI.Tile.lean ====
/-
  The body obligation of the routing kernel: one vector subcore's task, at a symbolic grid place, generic in the
  float instance.

  The tile fetches its 256 expert words and the 16-entry expert-to-device table, zeroes its 1024-word mask scratch,
  then for each of its 128 tokens and each of the token's two experts stores 1.0 at scratch word 128 * device + token
  (sixteen indexed stores of sixteen lanes), and copies the eight rows of the scratch to its columns of the eight rows
  of the mask array. The scratch is carried through the sixteen stores as the function Gn of the two tables; its final
  value is the specification's mask on the tile's columns.
-/
import proofs.«202873_g15822659519276_cont_week2b_991_21_alg».proof.Proof.KI.Common
import proofs.«202873_g15822659519276_cont_week2b_991_21_alg».proof.Proof.KI.MaskDefs
import proofs.«202873_g15822659519276_cont_week2b_991_21_alg».proof.Proof.KI.MaskVal
import proofs.«202873_g15822659519276_cont_week2b_991_21_alg».proof.Proof.KI.MaskStep
import proofs.«202873_g15822659519276_cont_week2b_991_21_alg».proof.Proof.KI.Pays
import proofs.«202873_g15822659519276_cont_week2b_991_21_alg».proof.Proof.KI.TileDefs
import proofs.«202873_g15822659519276_cont_week2b_991_21_alg».proof.Proof.KI.ZeroTrip
import proofs.«202873_g15822659519276_cont_week2b_991_21_alg».proof.Proof.KI.Landed
import proofs.«202873_g15822659519276_cont_week2b_991_21_alg».proof.Proof.KI.Tail
import proofs.«202873_g15822659519276_cont_week2b_991_21_alg».proof.Proof.KI.TwoStores
import proofs.«202873_g15822659519276_cont_week2b_991_21_alg».proof.Proof.KI.PieceVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable (m : (ℓ : Loc nD τ sig) → Buf (Elt F) ℓ) [FloatOps F]

section Tile
variable (d : Dev nD) (L : grid0.Coords)

/-- The two tables as the tile's indexed loads read them off its scratch buffers. -/
abbrev idxR : IVec S256 32 :=
  View.readAt (Elt F) (s0).view (LoadRect.whole S256) (flatSlice (m (iLoc d)) (widL L) : Buf (Elt F) ((V d (cV L) (jV L)).loc cc0_scratch0))
abbrev mapR : IVec S16 32 :=
  View.readAt (Elt F) (s1).view (LoadRect.whole S16) (m (mLoc d))

omit [FloatOps F] in
theorem idxR_eq : idxR (F := F) m d L = flatSlice (m (iLoc d)) (widL L) := Memref.readAt_whole (Elt F) cc0_scratch0 _
omit [FloatOps F] in
theorem mapR_eq : mapR (F := F) m d = m (mLoc d) := Memref.readAt_whole (Elt F) cc0_scratch1 _

/-- Before trip k of the zeroing loop the mask scratch is zero below 128 k. -/
def zinv (d : Dev nD) (L : grid0.Coords) (k : Nat) (_ : PUnit) : sProp 𝕄 :=
  iprop(∃ f : Buf (Elt F) ((V d (cV L) (jV L)).loc cc0_scratch2), ((s2).view.loc (V d (cV L) (jV L)) ↦{fullShare} f)
    ∗ ⌜∀ j : S1024.Idx, (j 0).val < 128 * k → f j = zeroW⌝)

/-- One chunk's two indexed stores take the mask scratch from Gn n to Gn (n + 2). -/
theorem chunk_pts (idxv : IVec S256 32) (mapv : IVec S16 32) (n : ℕ) (ix1 ix2 : IVec S16 32) (v1 v2 : FVec F S16 .f32)
    (h1 : ∀ a x, ((![ix1] : Fin 1 → IVec S16 32) a x).toNat < S1024.size a) (h2 : ∀ a x, ((![ix2] : Fin 1 → IVec S16 32) a x).toNat < S1024.size a)
    (hv1 : v1 = broadcast S16 (oneW : F .f32)) (hv2 : v2 = broadcast S16 (oneW : F .f32))
    (hix1 : ∀ x : S16.Idx, (ix1 x).toNat = posW idxv mapv n (x 0).val) (hix2 : ∀ x : S16.Idx, (ix2 x).toNat = posW idxv mapv (n + 1) (x 0).val) :
    ((s2).view.loc (V d (cV L) (jV L)) ↦{fullShare} (s2).view.writes (Elt F) (Gn (F := F) idxv mapv n : Buf (Elt F) ((V d (cV L) (jV L)).loc cc0_scratch2))
        [⟨Rect.whole S1024, storeIdx ((s2).view.readCov [⟨Rect.whole S1024, storeIdx (View.readAt (Elt F) (s2).view (LoadRect.whole S1024) (Gn (F := F) idxv mapv n : Buf (Elt F) ((V d (cV L) (jV L)).loc cc0_scratch2))) ![ix1] v1 (fun _ => 1#1) false h1⟩] (LoadRect.whole S1024)) ![ix2] v2 (fun _ => 1#1) false h2⟩,
          ⟨Rect.whole S1024, storeIdx (View.readAt (Elt F) (s2).view (LoadRect.whole S1024) (Gn (F := F) idxv mapv n : Buf (Elt F) ((V d (cV L) (jV L)).loc cc0_scratch2))) ![ix1] v1 (fun _ => 1#1) false h1⟩] : sProp 𝕄)
      = ((s2).view.loc (V d (cV L) (jV L)) ↦{fullShare} (Gn (F := F) idxv mapv (n + 2) : Buf (Elt F) ((V d (cV L) (jV L)).loc cc0_scratch2))) := by
  subst hv1 hv2
  rw [two_stores (F := F) d L, storeIdx_Gn idxv mapv n ix1 h1 hix1, storeIdx_Gn idxv mapv (n + 1) ix2 h2 hix2]

/-- A landed row piece of the mask array holds the specification's mask there. -/
theorem piece_pts (hmap : ∀ j, (m (mLoc d) j).toNat < 8) (r : Fin 8) :
    (wLoc d ↦[wSet r (widL L)]{fullShare} (spreadG (Gn (F := F) (idxR (F := F) m d L) (mapR (F := F) m d) (14 + 2)) : Buf (Elt F) (wLoc d)) : sProp 𝕄)
      = (wLoc d ↦[wSet r (widL L)]{fullShare} maskB m d) :=
  pointsTo_congr fun i hi => by
    rw [idxR_eq, mapR_eq]
    exact piece_val (F := F) m d L hmap r i hi

theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goRes m d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__routing_body L A2 (Memref.isWhole_whole _) A3 (Memref.isWhole_whole _) A4 (Memref.isWhole_whole _)
            s0 (Memref.isWhole_whole _) s1 (Memref.isWhole_whole _) s2 (Memref.isWhole_whole _) cc0_scratch3 cc0_scoped0 cc0_scoped1)
          fun _ => iprop(tdRes m d (widL L) ∗ scopedBufs (V d (cV L) (jV L)) ∗ scopedSems0 (V d (cV L) (jV L))
            ∗ ∃ W', ⌜∀ p ∈ W', p ∈ W ∨ p.2 = none⌝ ∗ owes (V d (cV L) (jV L)) O W') := by
  conv =>
    rhs
    simp only [cc0__routing_body_eq_skeleton]; unfold cc0__routing_body_skel
    simp only [k0_part2_eq_skeleton, k0_part3_eq_skeleton, k0_part4_eq_skeleton, k0_part5_eq_skeleton, k0_part6_eq_skeleton]
    unfold k0_part2_skel k0_part3_skel k0_part4_skel k0_part5_skel k0_part6_skel
    simp only [SparseCore.vectorLoadIdx_bind (V d (cV L) (jV L)), SparseCore.vectorStoreIdx_bind (V d (cV L) (jV L)), Prog.bind_assoc]
  rw [(K (F := F)).scopedBufs_V hF d (cV L) (jV L), SparseCore.Cfg.scopedSems0_V (Val := Elt F) d (cV L) (jV L), ownSems0_V, ownBufs_V]
  unfold goRes
  rw [bigSep_fin8]
  iintro ⟨#Hlv, -, ⟨HF, HM, HW0, HW1, HW2, HW3, HW4, HW5, HW6, HW7⟩, ⟨⟨%g0, Hs0⟩, ⟨%g1, Hs1⟩, ⟨%g2, Hs2⟩, Hbufs⟩, ⟨Hsem3, Hsem0, Hsem1, Hsems⟩, HO⟩
  ihave Hmw := ((K (F := F)).mayWaits_none (thr := V d (cV L) (jV L)) hO) $$ Hlv
  ihave HF' := (Entails.of_eq (pts_A2 (F := F) d L _ _).symm) $$ HF
  ihave HM' := (Entails.of_eq (pts_A3 (F := F) d L _ _).symm) $$ HM
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  -- the two fetches and their waits
  sl_exec
  sl_unfold_run_names
  rw [s0_landed (F := F) m d L g0, s1_landed (F := F) m d L g1]
  -- the zeroing loop
  sl_for (zinv (F := F) d L) $$ [Hs2']
  case region =>
    intro k _
    unfold zinv
    iintro ⟨%f, Hs2, %hf⟩
    sl_exec
    sl_step
    iexists _; isplitl [Hs2]; · iexact Hs2
    ipureintro; exact zero_trip (F := F) d L k f hf
  · unfold zinv; iexists _; isplitl [Hs2']; · iexact Hs2'
    ipureintro; intro j hj; exact absurd hj (by omega)
  iintro %_ HI
  unfold zinv
  icases HI with ⟨%f, Hs2, %hf⟩
  obtain rfl := zero_all (F := F) d L (idxR (F := F) m d L) (mapR (F := F) m d) f hf
  have hidx' : ∀ j, (idxR (F := F) m d L j).toNat < 16 := by
    intro j; rw [idxR_eq]; exact (hpre d).1 _
  have hmap' : ∀ j, (mapR (F := F) m d j).toNat < 8 := by
    intro j; rw [mapR_eq]; exact (hpre d).2 _
  -- chunk 0: tokens 0 … 15
  sl_exec (disch := first
    | (show k0_chk1 _; exact chk_lt 256 _ (fun x => by have := lane_lt x; rw [pay_ev0 x]; omega))
    | (show k0_chk2 _; exact chk_lt 256 _ (fun x => by have := lane_lt x; rw [pay_od0 x]; omega))
    | (show k0_chk3 _; exact chk_load (F := F) 16 _ hidx' _ _)
    | (show k0_chk4 _; exact chk_load (F := F) 16 _ hidx' _ _)
    | (show k0_chk5 _; exact chk_lt 1024 _ (store_ix_lt _ _ (fun x => hmap' _) (fun x => by have := lane_lt x; rw [pay_lt0 x]; omega)))
    | (show k0_chk6 _; exact chk_lt 1024 _ (store_ix_lt _ _ (fun x => hmap' _) (fun x => by have := lane_lt x; rw [pay_lt0 x]; omega))))
  sl_unfold_run_names
  ihave Hs2 := (Entails.of_eq (chunk_pts (F := F) d L (idxR (F := F) m d L) (mapR (F := F) m d) 0 _ _ _ _ _ _ ?hvA0 ?hvB0 ?hA0 ?hB0)) $$ Hs2
  case hvA0 => rfl
  case hvB0 => rfl
  case hA0 => exact posW_of (F := F) (idxR (F := F) m d L) (mapR (F := F) m d) 0 0 0 rfl (by decide) (by decide) _ _ _ _ (pay_ev0) (pay_lt0) hmap'
  case hB0 => exact posW_of (F := F) (idxR (F := F) m d L) (mapR (F := F) m d) 1 0 1 rfl (by decide) (by decide) _ _ _ _ (pay_od0) (pay_lt0) hmap'
  -- chunk 1: tokens 16 … 31
  sl_exec (disch := first
    | (show k0_chk7 _; exact chk_lt 256 _ (fun x => by have := lane_lt x; rw [pay_ev1 _ (iota_lane _) x]; omega))
    | (show k0_chk8 _; exact chk_lt 256 _ (fun x => by have := lane_lt x; rw [pay_od1 _ (iota_lane _) x]; omega))
    | (show k0_chk9 _; exact chk_load (F := F) 16 _ hidx' _ _)
    | (show k0_chk10 _; exact chk_load (F := F) 16 _ hidx' _ _)
    | (show k0_chk11 _; exact chk_lt 1024 _ (store_ix_lt _ _ (fun x => hmap' _) (fun x => by have := lane_lt x; rw [pay_lt1 _ (iota_lane _) x]; omega)))
    | (show k0_chk12 _; exact chk_lt 1024 _ (store_ix_lt _ _ (fun x => hmap' _) (fun x => by have := lane_lt x; rw [pay_lt1 _ (iota_lane _) x]; omega))))
  sl_unfold_run_names
  ihave Hs2 := (Entails.of_eq (chunk_pts (F := F) d L (idxR (F := F) m d L) (mapR (F := F) m d) 2 _ _ _ _ _ _ ?hvA1 ?hvB1 ?hA1 ?hB1)) $$ Hs2
  case hvA1 => rfl
  case hvB1 => rfl
  case hA1 => exact posW_of (F := F) (idxR (F := F) m d L) (mapR (F := F) m d) 2 1 0 rfl (by decide) (by decide) _ _ _ _ (pay_ev1 _ (iota_lane iota_S16_d0_w32_scVector)) (pay_lt1 _ (iota_lane iota_S16_d0_w32_scVector)) hmap'
  case hB1 => exact posW_of (F := F) (idxR (F := F) m d L) (mapR (F := F) m d) 3 1 1 rfl (by decide) (by decide) _ _ _ _ (pay_od1 _ (iota_lane iota_S16_d0_w32_scVector)) (pay_lt1 _ (iota_lane iota_S16_d0_w32_scVector)) hmap'
  -- chunk 2: tokens 32 … 47
  sl_exec (disch := first
    | (show k0_chk13 _; exact chk_lt 256 _ (fun x => by have := lane_lt x; rw [pay_ev2 _ (iota_lane _) x]; omega))
    | (show k0_chk14 _; exact chk_lt 256 _ (fun x => by have := lane_lt x; rw [pay_od2 _ (iota_lane _) x]; omega))
    | (show k0_chk15 _; exact chk_load (F := F) 16 _ hidx' _ _)
    | (show k0_chk16 _; exact chk_load (F := F) 16 _ hidx' _ _)
    | (show k0_chk17 _; exact chk_lt 1024 _ (store_ix_lt _ _ (fun x => hmap' _) (fun x => by have := lane_lt x; rw [pay_lt2 _ (iota_lane _) x]; omega)))
    | (show k0_chk18 _; exact chk_lt 1024 _ (store_ix_lt _ _ (fun x => hmap' _) (fun x => by have := lane_lt x; rw [pay_lt2 _ (iota_lane _) x]; omega))))
  sl_unfold_run_names
  ihave Hs2 := (Entails.of_eq (chunk_pts (F := F) d L (idxR (F := F) m d L) (mapR (F := F) m d) 4 _ _ _ _ _ _ ?hvA2 ?hvB2 ?hA2 ?hB2)) $$ Hs2
  case hvA2 => rfl
  case hvB2 => rfl
  case hA2 => exact posW_of (F := F) (idxR (F := F) m d L) (mapR (F := F) m d) 4 2 0 rfl (by decide) (by decide) _ _ _ _ (pay_ev2 _ (iota_lane iota_S16_d0_w32_scVector)) (pay_lt2 _ (iota_lane iota_S16_d0_w32_scVector)) hmap'
  case hB2 => exact posW_of (F := F) (idxR (F := F) m d L) (mapR (F := F) m d) 5 2 1 rfl (by decide) (by decide) _ _ _ _ (pay_od2 _ (iota_lane iota_S16_d0_w32_scVector)) (pay_lt2 _ (iota_lane iota_S16_d0_w32_scVector)) hmap'
  -- chunk 3: tokens 48 … 63
  sl_exec (disch := first
    | (show k0_chk19 _; exact chk_lt 256 _ (fun x => by have := lane_lt x; rw [pay_ev3 _ (iota_lane _) x]; omega))
    | (show k0_chk20 _; exact chk_lt 256 _ (fun x => by have := lane_lt x; rw [pay_od3 _ (iota_lane _) x]; omega))
    | (show k0_chk21 _; exact chk_load (F := F) 16 _ hidx' _ _)
    | (show k0_chk22 _; exact chk_load (F := F) 16 _ hidx' _ _)
    | (show k0_chk23 _; exact chk_lt 1024 _ (store_ix_lt _ _ (fun x => hmap' _) (fun x => by have := lane_lt x; rw [pay_lt3 _ (iota_lane _) x]; omega)))
    | (show k0_chk24 _; exact chk_lt 1024 _ (store_ix_lt _ _ (fun x => hmap' _) (fun x => by have := lane_lt x; rw [pay_lt3 _ (iota_lane _) x]; omega))))
  sl_unfold_run_names
  ihave Hs2 := (Entails.of_eq (chunk_pts (F := F) d L (idxR (F := F) m d L) (mapR (F := F) m d) 6 _ _ _ _ _ _ ?hvA3 ?hvB3 ?hA3 ?hB3)) $$ Hs2
  case hvA3 => rfl
  case hvB3 => rfl
  case hA3 => exact posW_of (F := F) (idxR (F := F) m d L) (mapR (F := F) m d) 6 3 0 rfl (by decide) (by decide) _ _ _ _ (pay_ev3 _ (iota_lane iota_S16_d0_w32_scVector)) (pay_lt3 _ (iota_lane iota_S16_d0_w32_scVector)) hmap'
  case hB3 => exact posW_of (F := F) (idxR (F := F) m d L) (mapR (F := F) m d) 7 3 1 rfl (by decide) (by decide) _ _ _ _ (pay_od3 _ (iota_lane iota_S16_d0_w32_scVector)) (pay_lt3 _ (iota_lane iota_S16_d0_w32_scVector)) hmap'
  -- chunk 4: tokens 64 … 79
  sl_exec (disch := first
    | (show k0_chk25 _; exact chk_lt 256 _ (fun x => by have := lane_lt x; rw [pay_ev4 _ (iota_lane _) x]; omega))
    | (show k0_chk26 _; exact chk_lt 256 _ (fun x => by have := lane_lt x; rw [pay_od4 _ (iota_lane _) x]; omega))
    | (show k0_chk27 _; exact chk_load (F := F) 16 _ hidx' _ _)
    | (show k0_chk28 _; exact chk_load (F := F) 16 _ hidx' _ _)
    | (show k0_chk29 _; exact chk_lt 1024 _ (store_ix_lt _ _ (fun x => hmap' _) (fun x => by have := lane_lt x; rw [pay_lt4 _ (iota_lane _) x]; omega)))
    | (show k0_chk30 _; exact chk_lt 1024 _ (store_ix_lt _ _ (fun x => hmap' _) (fun x => by have := lane_lt x; rw [pay_lt4 _ (iota_lane _) x]; omega))))
  sl_unfold_run_names
  ihave Hs2 := (Entails.of_eq (chunk_pts (F := F) d L (idxR (F := F) m d L) (mapR (F := F) m d) 8 _ _ _ _ _ _ ?hvA4 ?hvB4 ?hA4 ?hB4)) $$ Hs2
  case hvA4 => rfl
  case hvB4 => rfl
  case hA4 => exact posW_of (F := F) (idxR (F := F) m d L) (mapR (F := F) m d) 8 4 0 rfl (by decide) (by decide) _ _ _ _ (pay_ev4 _ (iota_lane iota_S16_d0_w32_scVector)) (pay_lt4 _ (iota_lane iota_S16_d0_w32_scVector)) hmap'
  case hB4 => exact posW_of (F := F) (idxR (F := F) m d L) (mapR (F := F) m d) 9 4 1 rfl (by decide) (by decide) _ _ _ _ (pay_od4 _ (iota_lane iota_S16_d0_w32_scVector)) (pay_lt4 _ (iota_lane iota_S16_d0_w32_scVector)) hmap'
  -- chunk 5: tokens 80 … 95
  sl_exec (disch := first
    | (show k0_chk31 _; exact chk_lt 256 _ (fun x => by have := lane_lt x; rw [pay_ev5 _ (iota_lane _) x]; omega))
    | (show k0_chk32 _; exact chk_lt 256 _ (fun x => by have := lane_lt x; rw [pay_od5 _ (iota_lane _) x]; omega))
    | (show k0_chk33 _; exact chk_load (F := F) 16 _ hidx' _ _)
    | (show k0_chk34 _; exact chk_load (F := F) 16 _ hidx' _ _)
    | (show k0_chk35 _; exact chk_lt 1024 _ (store_ix_lt _ _ (fun x => hmap' _) (fun x => by have := lane_lt x; rw [pay_lt5 _ (iota_lane _) x]; omega)))
    | (show k0_chk36 _; exact chk_lt 1024 _ (store_ix_lt _ _ (fun x => hmap' _) (fun x => by have := lane_lt x; rw [pay_lt5 _ (iota_lane _) x]; omega))))
  sl_unfold_run_names
  ihave Hs2 := (Entails.of_eq (chunk_pts (F := F) d L (idxR (F := F) m d L) (mapR (F := F) m d) 10 _ _ _ _ _ _ ?hvA5 ?hvB5 ?hA5 ?hB5)) $$ Hs2
  case hvA5 => rfl
  case hvB5 => rfl
  case hA5 => exact posW_of (F := F) (idxR (F := F) m d L) (mapR (F := F) m d) 10 5 0 rfl (by decide) (by decide) _ _ _ _ (pay_ev5 _ (iota_lane iota_S16_d0_w32_scVector)) (pay_lt5 _ (iota_lane iota_S16_d0_w32_scVector)) hmap'
  case hB5 => exact posW_of (F := F) (idxR (F := F) m d L) (mapR (F := F) m d) 11 5 1 rfl (by decide) (by decide) _ _ _ _ (pay_od5 _ (iota_lane iota_S16_d0_w32_scVector)) (pay_lt5 _ (iota_lane iota_S16_d0_w32_scVector)) hmap'
  -- chunk 6: tokens 96 … 111
  sl_exec (disch := first
    | (show k0_chk37 _; exact chk_lt 256 _ (fun x => by have := lane_lt x; rw [pay_ev6 _ (iota_lane _) x]; omega))
    | (show k0_chk38 _; exact chk_lt 256 _ (fun x => by have := lane_lt x; rw [pay_od6 _ (iota_lane _) x]; omega))
    | (show k0_chk39 _; exact chk_load (F := F) 16 _ hidx' _ _)
    | (show k0_chk40 _; exact chk_load (F := F) 16 _ hidx' _ _)
    | (show k0_chk41 _; exact chk_lt 1024 _ (store_ix_lt _ _ (fun x => hmap' _) (fun x => by have := lane_lt x; rw [pay_lt6 _ (iota_lane _) x]; omega)))
    | (show k0_chk42 _; exact chk_lt 1024 _ (store_ix_lt _ _ (fun x => hmap' _) (fun x => by have := lane_lt x; rw [pay_lt6 _ (iota_lane _) x]; omega))))
  sl_unfold_run_names
  ihave Hs2 := (Entails.of_eq (chunk_pts (F := F) d L (idxR (F := F) m d L) (mapR (F := F) m d) 12 _ _ _ _ _ _ ?hvA6 ?hvB6 ?hA6 ?hB6)) $$ Hs2
  case hvA6 => rfl
  case hvB6 => rfl
  case hA6 => exact posW_of (F := F) (idxR (F := F) m d L) (mapR (F := F) m d) 12 6 0 rfl (by decide) (by decide) _ _ _ _ (pay_ev6 _ (iota_lane iota_S16_d0_w32_scVector)) (pay_lt6 _ (iota_lane iota_S16_d0_w32_scVector)) hmap'
  case hB6 => exact posW_of (F := F) (idxR (F := F) m d L) (mapR (F := F) m d) 13 6 1 rfl (by decide) (by decide) _ _ _ _ (pay_od6 _ (iota_lane iota_S16_d0_w32_scVector)) (pay_lt6 _ (iota_lane iota_S16_d0_w32_scVector)) hmap'
  -- chunk 7: tokens 112 … 127
  sl_exec (disch := first
    | (show k0_chk43 _; exact chk_lt 256 _ (fun x => by have := lane_lt x; rw [pay_ev7 _ (iota_lane _) x]; omega))
    | (show k0_chk44 _; exact chk_lt 256 _ (fun x => by have := lane_lt x; rw [pay_od7 _ (iota_lane _) x]; omega))
    | (show k0_chk45 _; exact chk_load (F := F) 16 _ hidx' _ _)
    | (show k0_chk46 _; exact chk_load (F := F) 16 _ hidx' _ _)
    | (show k0_chk47 _; exact chk_lt 1024 _ (store_ix_lt _ _ (fun x => hmap' _) (fun x => by have := lane_lt x; rw [pay_lt7 _ (iota_lane _) x]; omega)))
    | (show k0_chk48 _; exact chk_lt 1024 _ (store_ix_lt _ _ (fun x => hmap' _) (fun x => by have := lane_lt x; rw [pay_lt7 _ (iota_lane _) x]; omega))))
  sl_unfold_run_names
  ihave Hs2 := (Entails.of_eq (chunk_pts (F := F) d L (idxR (F := F) m d L) (mapR (F := F) m d) 14 _ _ _ _ _ _ ?hvA7 ?hvB7 ?hA7 ?hB7)) $$ Hs2
  case hvA7 => rfl
  case hvB7 => rfl
  case hA7 => exact posW_of (F := F) (idxR (F := F) m d L) (mapR (F := F) m d) 14 7 0 rfl (by decide) (by decide) _ _ _ _ (pay_ev7 _ (iota_lane iota_S16_d0_w32_scVector)) (pay_lt7 _ (iota_lane iota_S16_d0_w32_scVector)) hmap'
  case hB7 => exact posW_of (F := F) (idxR (F := F) m d L) (mapR (F := F) m d) 15 7 1 rfl (by decide) (by decide) _ _ _ _ (pay_od7 _ (iota_lane iota_S16_d0_w32_scVector)) (pay_lt7 _ (iota_lane iota_S16_d0_w32_scVector)) hmap'
  -- the eight copies of the scratch's rows to the mask array, and their waits
  iapply (tail_copies (F := F) d L (Gn (F := F) (idxR (F := F) m d L) (mapR (F := F) m d) (14 + 2)) (m (wLoc d)) O _ _) $$ [Hs2 HW0 HW1 HW2 HW3 HW4 HW5 HW6 HW7 Hsem3 HO HF' HM' Hs0' Hs1' Hbufs Hsems Hsem0 Hsem1]
  isplitr; · iexact Hmw
  isplitl [Hs2]; · iexact Hs2
  isplitl [HW0]; · iexact HW0
  isplitl [HW1]; · iexact HW1
  isplitl [HW2]; · iexact HW2
  isplitl [HW3]; · iexact HW3
  isplitl [HW4]; · iexact HW4
  isplitl [HW5]; · iexact HW5
  isplitl [HW6]; · iexact HW6
  isplitl [HW7]; · iexact HW7
  isplitl [Hsem3]; · iexact Hsem3
  isplitl [HO]; · iexact HO
  iintro ⟨Hs2, HW0, HW1, HW2, HW3, HW4, HW5, HW6, HW7, Hsem3, %W', %hW', HO⟩
  -- what is handed back
  unfold tdRes
  rw [bigSep_fin8]
  have hmap : ∀ j, (m (mLoc d) j).toNat < 8 := fun j => (hpre d).2 j
  isplitl [HF' HM' HW0 HW1 HW2 HW3 HW4 HW5 HW6 HW7]
  · isplitl [HF']; · iapply (Entails.of_eq (pts_A2 (F := F) d L _ _)); iexact HF'
    isplitl [HM']; · iapply (Entails.of_eq (pts_A3 (F := F) d L _ _)); iexact HM'
    isplitl [HW0]; · iapply (Entails.of_eq (piece_pts (F := F) m d L hmap 0)); iexact HW0
    isplitl [HW1]; · iapply (Entails.of_eq (piece_pts (F := F) m d L hmap 1)); iexact HW1
    isplitl [HW2]; · iapply (Entails.of_eq (piece_pts (F := F) m d L hmap 2)); iexact HW2
    isplitl [HW3]; · iapply (Entails.of_eq (piece_pts (F := F) m d L hmap 3)); iexact HW3
    isplitl [HW4]; · iapply (Entails.of_eq (piece_pts (F := F) m d L hmap 4)); iexact HW4
    isplitl [HW5]; · iapply (Entails.of_eq (piece_pts (F := F) m d L hmap 5)); iexact HW5
    isplitl [HW6]; · iapply (Entails.of_eq (piece_pts (F := F) m d L hmap 6)); iexact HW6
    iapply (Entails.of_eq (piece_pts (F := F) m d L hmap 7)); iexact HW7
  isplitl [Hs0' Hs1' Hs2 Hbufs]
  · isplitl [Hs0']; · iexists _; iapply (Entails.of_eq (pts_s0 (F := F) d L _)); iexact Hs0'
    isplitl [Hs1']; · iexists _; iapply (Entails.of_eq (pts_s1 (F := F) d L _)); iexact Hs1'
    isplitl [Hs2]; · iexists _; iapply (Entails.of_eq (pts_s2 (F := F) d L _)); iexact Hs2
    iexact Hbufs
  isplitl [Hsem3 Hsem0 Hsem1 Hsems]
  · isplitl [Hsem3]; · iexact Hsem3
    isplitl [Hsem0]; · iexact Hsem0
    isplitl [Hsem1]; · iexact Hsem1
    iexact Hsems
  iexists W'; isplitr
  · ipureintro; intro p hp
    rcases hW' p hp with h | h
    · rcases Finset.mem_insert.mp h with h | h
      · exact .inr (h ▸ rfl)
      · rcases Finset.mem_insert.mp h with h | h
        · exact .inr (h ▸ rfl)
        · exact .inl h
    · exact .inr h
  · iexact HO

end Tile
end Cert.Proof.KI
end
-- ==== Proof.KI.Region.lean ====
/-
  The dispatch pipeline's region, entered from the TensorCore's thread of the whole program.

  After the tiles have handed back the routing mask, the TensorCore calls the dispatch pipeline: sixteen blocks of
  256 tokens, three windows (the token rows and the mask read, the dispatched tensor written). The call is the
  pipeline's region under the extended body table; it runs from the three arrays at their entry contents to the
  arrays at what the pipeline computes, and returns the TensorCore's thread state unchanged: during the region the
  TensorCore owes nothing, and every wait of the pipeline is recorded at the index that carries level zero.
  The pipeline's staging cells' ghost state is dealt at launch, from the launch element's component for it.
-/
import proofs.«202873_g15822659519276_cont_week2b_991_21_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The pipeline's tables, its ghost state and the launch element's component -/

/-- The admissible tables of the pipelines: none is prefetched. -/
abbrev adm : (p : Fin 1) → (pcfgs (F := F) p).Adm := fun p => (cfgs p).toPCfg_adm

/-- The pairs a TensorCore's waits may have recorded around the region: those at or below level 8. -/
def recB (c : Dev nD) : Set (SemLoc sig × HIx 1) := {p | (K (F := F)).lev (T c, p.1) p.2 ≤ 8}

/-- The pipeline's ghost state on device d, as the launch deals it: its staging cells' launch state and the duty
    tokens of its transfers. -/
def pipeGhost (d : Dev nD) : sProp 𝕄 :=
  iprop(Pipeline.cellsGhost cfgs (EP (F := F)) 0 d ∗ Pipeline.toksInit cfgs (EP (F := F)) 0 d)

/-- The launch element's component for the pipeline's staging cells. -/
def uP₀ : UP := initOf (Pipeline.cells (nD := nD) (τ := τ) cfgs cellOf_inj) (Pipeline.launchToks (nD := nD) (τ := τ) cfgs cellOf_inj)

/-- Funding: from the component, every device's ghost state of the pipeline. -/
theorem pipe_fund : (BI.own (EP (F := F) uP₀) : sProp 𝕄) ⊢ |==> bigSep Finset.univ fun d : Dev nD => pipeGhost (F := F) d := by
  refine (Pipeline.fund_ghost cfgs (EP (F := F)) cellOf_inj).trans (bupd_mono ?_)
  unfold pipeGhost
  rw [bigSep_sep']
  refine BI.sep_mono (Entails.of_eq (bigSep_congr fun c _ => ?_)) (Entails.of_eq (bigSep_congr fun c _ => ?_))
  · exact bigSep_univ_of_subsingleton (0 : Fin 1)
  · exact bigSep_univ_of_subsingleton (0 : Fin 1)

variable (m : (ℓ : Loc nD τ sig) → Buf (Elt F) ℓ) [FloatOps F]

section Region

variable (dats : (p : Fin 1) → (c : Dev nD) → Pipeline.Dat τ (Elt F) (HIx 1) ℕ UU ℕ (cfgs p) c)
  (X Y : Dev nD → sProp (MT nD τ sig (HIx 1) (Elt F) ℕ UU ℕ))

/-- What the TensorCore holds of its debts around the region: nothing owed, its recorded pairs at or below level 8. -/
def owes1 (c : Dev nD) : sProp 𝕄 :=
  iprop(∃ W, ⌜(K (F := F)).WBelow (T c) W (8 * 1)⌝ ∗ owes (T c) (0 : CellTallies nD τ sig (HIx 1)) W)

/-- The thread state the region is entered from: the debts, what enters the body's invariant, the three arrays at
    their entry contents. -/
def regPre (c : Dev nD) : sProp 𝕄 :=
  iprop(owes1 (F := F) c ∗ X c
    ∗ (xLoc c ↦{fullShare} (dats 0 c).A 0) ∗ (wLoc c ↦{fullShare} (dats 0 c).A 1) ∗ (oLoc c ↦{fullShare} (dats 0 c).A 2))

/-- The one it leaves: the debts, what the invariant gives back, the arrays at what the pipeline computes. -/
def regPost (c : Dev nD) : sProp 𝕄 :=
  iprop(owes1 (F := F) c ∗ Y c
    ∗ (xLoc c ↦{fullShare} (dats 0 c).arrAt 0 cfg1.N) ∗ (wLoc c ↦{fullShare} (dats 0 c).arrAt 1 cfg1.N) ∗ (oLoc c ↦{fullShare} (dats 0 c).arrAt 2 cfg1.N))

/-- Conjoined over no index: nothing. -/
theorem bigSep_F0 {M : Type} [URA M] (Φ : Fin 0 → sProp M) : bigSep Finset.univ Φ = (BI.emp : sProp M) :=
  bigSep_univ_eq_bigSepL [] (by decide) (by decide) Φ

omit [FloatOps F] in
/-- No table is prefetched: none is held. -/
theorem prefHeld0 (c : Dev nD) (q) (pf) :
    (Pipeline.prefHeld (Ix := HIx 1) (Name := ℕ) (U := UU) (Lvl := ℕ) (Val := Elt F) (pcfgs (F := F) 0).pre c q pf : sProp 𝕄) = BI.emp :=
  bigSep_F0 _

variable (hbody : ∀ c, Pipeline.BodyObligation (dats 0 c) (defs₀ (F := F)) Variants.none (none : HIx 1) Set.univ)
  (hshare : ∀ c w, (dats 0 c).share w = fullShare) (howed : ∀ c t, (dats 0 c).owed t = 0)
  (hrec : ∀ c t, (dats 0 c).recorded t = recB (F := F) c)
  (hin : ∀ c, X c ⊢ (dats 0 c).Φ 0) (hout : ∀ c, (dats 0 c).Φ (Fin.last _) ⊢ Y c)

/-- The region's record: the decided layout, no semaphore of the kernel's own, the body obligation, and the four
    entailments around the thread states. -/
def reg : Pipeline.RegionSeg (pcfgs (F := F)) adm dats (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (hbody c).loose
  hwaits := Pipeline.hwaits_of_owed_zero _ _ _ _ _ _ 0 (fun c t => howed c t)
  pre := regPre dats X
  post := regPost dats Y
  X := X
  Y := Y
  Z _ := iprop(emp)
  hentry c := by
    rw [Pipeline.arrays_eq (Pipeline.pin (pcfgs (F := F)) adm) dats 0 c arr_whole1 (hshare c), bigSep_W1, prefHeld0]
    unfold regPre owes1 Pipeline.Dat.owesAt Pipeline.owesWithin Pipeline.Dat.bound
    rw [howed, hrec]
    iintro ⟨⟨⟨%W, %hW, HO⟩, HX, Hx, Hw, Ho⟩, -, -⟩
    imodintro
    isplitl [Hx Hw Ho]
    · isplitl [Hx]; · iexact Hx
      isplitl [Hw]; · iexact Hw
      iexact Ho
    isplitr; · iempintro
    isplitl [HO]
    · iexists W; isplitr
      · ipureintro; exact fun p hp => Or.inl (hW p (Finset.mem_coe.mp hp))
      iexact HO
    isplitl [HX]; · iexact HX
    iempintro
  hin c := by
    iintro ⟨HX, -, -⟩; iapply (hin c); iexact HX
  hout c := by
    rw [Pipeline.ownSems0_none, scopedRest1_eq]
    iintro HΦ
    isplitl [HΦ]; · iapply (hout c); iexact HΦ
    isplitr <;> iempintro
  hexit c := by
    rw [Pipeline.arrays_eq (Pipeline.pin (pcfgs (F := F)) adm) dats 0 c arr_whole1 (hshare c), bigSep_W1]
    unfold regPost owes1 Pipeline.Dat.owesAt Pipeline.owesWithin Pipeline.Dat.bound
    rw [howed, hrec]
    iintro ⟨⟨Hx, Hw, Ho⟩, ⟨%W, %hW, HO⟩, HY, -⟩
    imodintro
    isplitl [HO]
    · iexists W; isplitr
      · ipureintro; intro p hp
        rcases hW (Finset.mem_coe.mpr hp) with h | ⟨w, s, rfl⟩
        · exact h
        · exact Nat.zero_le _
      iexact HO
    isplitl [HY]; · iexact HY
    isplitl [Hx]; · iexact Hx
    isplitl [Hw]; · iexact Hw
    iexact Ho

omit [FloatOps F] in
/-- The call as it stands in the whole program is the pipeline's call, lifted to the extended body table. -/
theorem prog_eq : (Prog.lift (.customCall (SparseCore.inner (Pipeline.entry 0)) ()) :
      Prog (TpuEff nD τ sig (Elt F) (SparseCore.Sig (ΛP (F := F)) 1) .tc) PUnit)
    = SparseCore.liftProg (Prog.op (.customCall (Pipeline.entry 0) ()) fun _ => Prog.ret PUnit.unit) := rfl

include hbody hshare howed hrec hin hout in
set_option backward.isDefEq.respectTransparency.types false in
/-- The region, general in what enters the body's invariant and what it gives back. -/
theorem region_wp' (κ : GSem nD τ sig → ℕ) (d : Dev nD) (Q : PUnit → sProp 𝕄) :
    iprop((K (F := F)).ctx EH (P m) κ ∗ (K (F := F)).tcSt EH d 1 ∗ boundary (T d) ∗ pipeGhost (F := F) d ∗ X d
          ∗ (xLoc d ↦{fullShare} (dats 0 d).A 0) ∗ (wLoc d ↦{fullShare} (dats 0 d).A 1) ∗ (oLoc d ↦{fullShare} (dats 0 d).A 2)
          ∗ (iprop((K (F := F)).tcSt EH d 1 ∗ boundary (T d) ∗ Y d
              ∗ (xLoc d ↦{fullShare} (dats 0 d).arrAt 0 cfg1.N) ∗ (wLoc d ↦{fullShare} (dats 0 d).arrAt 1 cfg1.N) ∗ (oLoc d ↦{fullShare} (dats 0 d).arrAt 2 cfg1.N)) -∗ Q ⟨⟩))
        ⊢ wp frame (wpE ((K (F := F)).defs (D (F := F))) 𝒱 (T d) none) Set.univ (Prog.lift (.customCall (SparseCore.inner (Pipeline.entry 0)) ())) Q := by
  rw [prog_eq]
  refine BIBase.Entails.trans ?_ ((K (F := F)).wp_liftProg (D (F := F)) 𝒱 (T d) Set.univ none _ Q)
  have hpre : iprop((∃ W, ⌜(K (F := F)).WBelow (T d) W (8 * 1)⌝ ∗ owes (T d) (0 : CellTallies nD τ sig (HIx 1)) W) ∗ X d
      ∗ (xLoc d ↦{fullShare} (dats 0 d).A 0) ∗ (wLoc d ↦{fullShare} (dats 0 d).A 1) ∗ (oLoc d ↦{fullShare} (dats 0 d).A 2))
      ⊢ (reg dats X Y hbody hshare howed hrec hin hout).pre d := BI.Entails.refl _
  have hpost : (reg dats X Y hbody hshare howed hrec hin hout).post d
      ⊢ iprop((∃ W, ⌜(K (F := F)).WBelow (T d) W (8 * 1)⌝ ∗ owes (T d) (0 : CellTallies nD τ sig (HIx 1)) W) ∗ Y d
        ∗ (xLoc d ↦{fullShare} (dats 0 d).arrAt 0 cfg1.N) ∗ (wLoc d ↦{fullShare} (dats 0 d).arrAt 1 cfg1.N) ∗ (oLoc d ↦{fullShare} (dats 0 d).arrAt 2 cfg1.N)) :=
    BI.Entails.refl _
  unfold SparseCore.Cfg.tcSt pipeGhost
  rw [(K (F := F)).Otc_end d (le_refl 1)]
  iintro ⟨#Hctx, ⟨HO, Hrest⟩, Hbd, ⟨Hg, Ht⟩, HX, Hx, Hw, Ho, Hk⟩
  iapply (Pipeline.RegionSeg.wp (pcfgs (F := F)) adm dats (none : HIx 1) cellOf_inj EP defs₀ 𝒱₀ (K (F := F)).L (K (F := F)).lev
    (reg dats X Y hbody hshare howed hrec hin hout) d none (fun u h => by cases h) (fun _ => Prog.ret PUnit.unit) Q)
  isplitl [Hrest Hk]
  · iintro ⟨Hbd, Hpost⟩
    ihave Hp := hpost $$ Hpost
    icases Hp with ⟨HO, HY, Hx, Hw, Ho⟩
    rw [wp_ret]
    imodintro
    iapply Hk
    isplitl [HO Hrest]
    · isplitl [HO]; · iexact HO
      iexact Hrest
    isplitl [Hbd]; · iexact Hbd
    isplitl [HY]; · iexact HY
    isplitl [Hx]; · iexact Hx
    isplitl [Hw]; · iexact Hw
    iexact Ho
  isplitl [Hbd]; · iexact Hbd
  isplitl [HO HX Hx Hw Ho]
  · iapply hpre
    isplitl [HO]; · iexact HO
    isplitl [HX]; · iexact HX
    isplitl [Hx]; · iexact Hx
    isplitl [Hw]; · iexact Hw
    iexact Ho
  isplitr; · iapply (SparseCore.Cfg.ctx_levAts κ); iexact Hctx
  isplitl [Hg]; · iexact Hg
  iexact Ht

end Region

/-- The region as the whole program's proof uses it: the body's invariant is entered from nothing and gives nothing
    back. From the thread state after the tiles' call, the boundary, the pipeline's ghost state and the three arrays
    at the proof data's entry contents, the call runs to the same thread state, the boundary and the arrays at what
    the pipeline computes. -/
theorem region_wp (dats : (p : Fin 1) → (c : Dev nD) → Pipeline.Dat τ (Elt F) (HIx 1) ℕ UU ℕ (cfgs p) c)
    (hbody : ∀ c, Pipeline.BodyObligation (dats 0 c) (defs₀ (F := F)) Variants.none (none : HIx 1) Set.univ)
    (hshare : ∀ c w, (dats 0 c).share w = fullShare) (howed : ∀ c t, (dats 0 c).owed t = 0)
    (hrec : ∀ c t, (dats 0 c).recorded t = recB (F := F) c)
    (hin : ∀ c, (BI.emp : sProp 𝕄) ⊢ (dats 0 c).Φ 0) (hout : ∀ c, (dats 0 c).Φ (Fin.last _) ⊢ (BI.emp : sProp 𝕄))
    (κ : GSem nD τ sig → ℕ) (d : Dev nD) (Q : PUnit → sProp 𝕄) :
    iprop((K (F := F)).ctx EH (P m) κ ∗ (K (F := F)).tcSt EH d 1 ∗ boundary (T d) ∗ pipeGhost (F := F) d
          ∗ (xLoc d ↦{fullShare} (dats 0 d).A 0) ∗ (wLoc d ↦{fullShare} (dats 0 d).A 1) ∗ (oLoc d ↦{fullShare} (dats 0 d).A 2)
          ∗ (iprop((K (F := F)).tcSt EH d 1 ∗ boundary (T d)
              ∗ (xLoc d ↦{fullShare} (dats 0 d).arrAt 0 cfg1.N) ∗ (wLoc d ↦{fullShare} (dats 0 d).arrAt 1 cfg1.N) ∗ (oLoc d ↦{fullShare} (dats 0 d).arrAt 2 cfg1.N)) -∗ Q ⟨⟩))
        ⊢ wp frame (wpE ((K (F := F)).defs (D (F := F))) 𝒱 (T d) none) Set.univ (Prog.lift (.customCall (SparseCore.inner (Pipeline.entry 0)) ())) Q := by
  refine BIBase.Entails.trans ?_ (region_wp' m dats (fun _ => iprop(emp)) (fun _ => iprop(emp)) hbody hshare howed hrec hin hout κ d Q)
  iintro ⟨#Hctx, Hst, Hbd, Hg, Hx, Hw, Ho, Hk⟩
  isplitr; · iexact Hctx
  isplitl [Hst]; · iexact Hst
  isplitl [Hbd]; · iexact Hbd
  isplitl [Hg]; · iexact Hg
  isplitr; · iempintro
  isplitl [Hx]; · iexact Hx
  isplitl [Hw]; · iexact Hw
  isplitl [Ho]; · iexact Ho
  iintro ⟨Hst, Hbd, -, Hx, Hw, Ho⟩
  iapply Hk
  isplitl [Hst]; · iexact Hst
  isplitl [Hbd]; · iexact Hbd
  isplitl [Hx]; · iexact Hx
  isplitl [Hw]; · iexact Hw
  iexact Ho

end Cert.Proof.KI

end
-- ==== Proof.KI.TcBody.lean ====
/-
  The TensorCore dispatch: one block of the pipeline and the whole dispatched tensor.

  At grid point t the body is handed 256 token rows (the block x of f32[256, 1024]) and the 256 matching columns of the
  routing mask (the block w of f32[8, 256]); in thirty-two steps of eight rows it writes the block
  out[d, r, j] = x[r, j] * w[d, r] of f32[8, 256, 1024]. The sixteen blocks tile the dispatched tensor, so after the last
  point the result array holds, at (d, t, j), the token's row entry times the mask entry of (d, t).
-/
import proofs.«202873_g15822659519276_cont_week2b_991_21_alg».proof.Proof.KI.Common
import Idealize.ShloMosaic.Lib.Pipeline.FrameBody
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.Proof.KI

open Cert.KernelIdeal Cert.KernelIdeal.Gen

open Idealize.ShloMosaic Idealize.ShloMosaic.TcCoe Idealize.ShloMosaic.Tactic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig (HIx 1) (Elt F) ℕ UU ℕ

/-! ## The thirty-two steps' rectangles -/

theorem inb_rows (k : Fin 32) : ∀ a, (![8 * k.val, 0] : Fin 2 → Nat) a + S8x1024.size a ≤ S256x1024.size a := by
  intro a
  match a with
  | ⟨0, _⟩ => show 8 * k.val + 8 ≤ 256; omega
  | ⟨1, _⟩ => show 0 + 1024 ≤ 1024; omega

theorem inb_cols (k : Fin 32) : ∀ a, (![0, 8 * k.val] : Fin 2 → Nat) a + S8x8.size a ≤ S8x256.size a := by
  intro a
  match a with
  | ⟨0, _⟩ => show 0 + 8 ≤ 8; omega
  | ⟨1, _⟩ => show 8 * k.val + 8 ≤ 256; omega

theorem inb_out (k : Fin 32) : ∀ a, (![0, 8 * k.val, 0] : Fin 3 → Nat) a + S8x8x1024.size a ≤ S8x256x1024.size a := by
  intro a
  match a with
  | ⟨0, _⟩ => show 0 + 8 ≤ 8; omega
  | ⟨1, _⟩ => show 8 * k.val + 8 ≤ 256; omega
  | ⟨2, _⟩ => show 0 + 1024 ≤ 1024; omega

/-- Step k's token rows [8 k, 8 k + 8) of the block of rows. -/
abbrev rowsR (k : Fin 32) : Rect S256x1024 := Rect.unit (s := S256x1024) ![8 * k.val, 0] S8x1024.size (inb_rows k)
/-- Step k's columns [8 k, 8 k + 8) of the block of the mask. -/
abbrev colsR (k : Fin 32) : Rect S8x256 := Rect.unit (s := S8x256) ![0, 8 * k.val] S8x8.size (inb_cols k)
/-- Step k's rows [8 k, 8 k + 8) of the output block, all devices, all columns. -/
abbrev outR (k : Fin 32) : Rect S8x256x1024 := Rect.unit (s := S8x256x1024) ![0, 8 * k.val, 0] S8x8x1024.size (inb_out k)

variable [FloatOps F]

/-! ## One step and the block -/

/-- One step: eight token rows against the eight matching mask columns, out[d, r, j] = rows[r, j] * cols[d, r]. -/
def step (rows : Vec F S8x1024 .f32) (cols : Vec F S8x8 .f32) : FVec F S8x8x1024 .f32 :=
  mulf (broadcastTo S8x8x1024 (shapeCast S1x8x1024 rows shapeCasts_S8x1024_S1x8x1024) broadcasts_S1x8x1024_S8x8x1024)
    (broadcastTo S8x8x1024 (shapeCast S8x8x1 (shapeCast S8x8 cols shapeCasts_S8x8_S8x8) shapeCasts_S8x8_S8x8x1) broadcasts_S8x8x1_S8x8x1024)

/-- Step k's store, from the two input blocks. -/
def piece (x0 : Vec F S256x1024 .f32) (x1 : Vec F S8x256 .f32) (k : Fin 32) : View.Piece (Elt F) S8x256x1024 .f32 :=
  ⟨outR k, step (View.ld x0 (rowsR k)) (View.ld x1 (colsR k))⟩

/-- The steps, last first. -/
abbrev stepsRev : List (Fin 32) := [31, 30, 29, 28, 27, 26, 25, 24, 23, 22, 21, 20, 19, 18, 17, 16, 15, 14, 13, 12, 11, 10, 9, 8, 7, 6, 5, 4, 3, 2, 1, 0]

/-- the output block from the two input blocks: outblk[d, r, j] = inblk[r, j] * wblk[d, r], as the View.canon of the body's 32 stores -/
def outBlk (x0 : Vec F S256x1024 .f32) (x1 : Vec F S8x256 .f32) : Vec F S8x256x1024 .f32 :=
  View.canon (stepsRev.map (piece x0 x1))

/-! ## The steps tile the block -/

theorem mem_stepsRev : ∀ k : Fin 32, k ∈ stepsRev := by decide

/-- Row r of the output block is written by step r / 8. -/
theorem cover (x0 : Vec F S256x1024 .f32) (x1 : Vec F S8x256 .f32) (y : S8x256x1024.Idx) :
    ∃ pc ∈ stepsRev.map (piece x0 x1), y ∈ pc.1.set := by
  have h0 : (y 0).val < 8 := (y 0).isLt
  have h1 : (y 1).val < 256 := (y 1).isLt
  have h2 : (y 2).val < 1024 := (y 2).isLt
  refine ⟨piece x0 x1 ⟨(y 1).val / 8, by omega⟩, List.mem_map_of_mem (mem_stepsRev _), ?_⟩
  show y ∈ (outR ⟨(y 1).val / 8, by omega⟩).set
  rw [Rect.mem_set_unit]
  intro a
  match a with
  | ⟨0, _⟩ => show 0 ≤ (y 0).val ∧ (y 0).val < 0 + 8; omega
  | ⟨1, _⟩ => show 8 * ((y 1).val / 8) ≤ (y 1).val ∧ (y 1).val < 8 * ((y 1).val / 8) + 8; omega
  | ⟨2, _⟩ => show 0 ≤ (y 2).val ∧ (y 2).val < 0 + 1024; omega

/-! ## The body's triple -/

set_option maxHeartbeats 4000000 in
/-- The body on whole staging memrefs, the two inputs' at read contents x0 and x1 and the output's at anything, runs to the
    continuation holding the inputs' as they were and the output's at the block of x0 and x1. -/
theorem sound_kernel (c : Dev nD) (E : Set ℕ) (i : grid1.Coords) (arg1 : Memref sig .tc .vmem S256x1024 .f32) (harg1 : arg1.IsWhole)
    (arg2 : Memref sig .tc .vmem S8x256 .f32) (harg2 : arg2.IsWhole) (arg3 : Memref sig .tc .vmem S8x256x1024 .f32) (harg3 : arg3.IsWhole)
    (x0 : Vec F S256x1024 .f32) (x1 : Vec F S8x256 .f32) (Q : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ Q ⟨⟩))
      ⊢ wp frame (wpE (defs₀ (F := F)) Variants.none c none) E (cc1__dispatch_tc i arg1 harg1 arg2 harg2 arg3 harg3) Q := by
  simp only [cc1__dispatch_tc_eq_skeleton]; unfold cc1__dispatch_tc_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _ _)

/-! ## The pipeline's proof data -/

variable (m : (ℓ : Loc nD τ sig) → Buf (Elt F) ℓ)

/-- The block of token rows at point t: rows [256 t, 256 t + 256) of the token array as launched. -/
abbrev xblk (c : Dev nD) (t : Fin cfg1.N) : Vec F S256x1024 .f32 := ((cfg1.win 0).blk t).view.read (Elt F) (m (xLoc c))
/-- The block of the mask at point t: columns [256 t, 256 t + 256) of the routing mask. -/
abbrev wblk (c : Dev nD) (t : Fin cfg1.N) : Vec F S8x256 .f32 := ((cfg1.win 1).blk t).view.read (Elt F) (maskB m c)

/-- the proof data of pipeline 0 on core c: the arrays AS THE REGION FINDS THEM are a LITERAL match — window 0: m (xLoc c); window 1: maskB m c (the mask the SparseCore tiles left); window 2: m (oLoc c) -/
def dats (_ : Fin 1) (c : Dev nD) : Dat τ (Elt F) (HIx 1) ℕ UU ℕ cfg1 c where
  A w := match w with
    | ⟨0, _⟩ => m (xLoc c)
    | ⟨1, _⟩ => maskB m c
    | ⟨2, _⟩ => m (oLoc c)
  after w t := match w with
    | ⟨0, _⟩ => xblk m c t
    | ⟨1, _⟩ => wblk m c t
    | ⟨2, _⟩ => outBlk (xblk m c t) (wblk m c t)
  Φ _ := iprop(emp)
  q _ := fullShare
  owed _ := 0
  recorded _ := {p | (K (F := F)).lev (SparseCore.T c, p.1) p.2 ≤ 8}

theorem arrA0 (c : Dev nD) : (dats m 0 c).A 0 = m (xLoc c) := by dsimp only [dats]
theorem arrA1 (c : Dev nD) : (dats m 0 c).A 1 = maskB m c := by dsimp only [dats]
theorem arrA2 (c : Dev nD) : (dats m 0 c).A 2 = m (oLoc c) := by dsimp only [dats]

theorem after0 (c : Dev nD) (t : Fin cfg1.N) : (dats m 0 c).after 0 t = xblk m c t := by dsimp only [dats]
theorem after1 (c : Dev nD) (t : Fin cfg1.N) : (dats m 0 c).after 1 t = wblk m c t := by dsimp only [dats]
theorem after2 (c : Dev nD) (t : Fin cfg1.N) : (dats m 0 c).after 2 t = outBlk (xblk m c t) (wblk m c t) := by dsimp only [dats]

theorem share_full (c : Dev nD) (w : Fin cfg1.W) : (dats m 0 c).share w = fullShare := (dats m 0 c).share_full (fun _ => rfl) w
theorem owed_zero (c : Dev nD) (t : Fin (cfg1.N + 1)) : (dats m 0 c).owed t = 0 := rfl
theorem Φ_eq (c : Dev nD) (t : Fin (cfg1.N + 1)) : (dats m 0 c).Φ t = (BI.emp : sProp 𝕄) := rfl
theorem Φ_in (c : Dev nD) : (BI.emp : sProp 𝕄) ⊢ (dats m 0 c).Φ 0 := .rfl
theorem Φ_out (c : Dev nD) : (dats m 0 c).Φ (Fin.last _) ⊢ (BI.emp : sProp 𝕄) := .rfl
theorem recorded_eq (c : Dev nD) (t : Fin (cfg1.N + 1)) :
    (dats m 0 c).recorded t = {p | (K (F := F)).lev (SparseCore.T c, p.1) p.2 ≤ 8} := rfl

/-! ## What the body finds in the input windows' buffers -/

/-- An input window's current staging buffer holds its block at every point: both windows are uncut, never idle, and the
    body leaves their blocks in place. -/
theorem before0 (c : Dev nD) (t : Fin cfg1.N) (d) : (dats m 0 c).before 0 t d = xblk m c t :=
  ((dats m 0 c).before_in_eq_fetched 0 rfl (fun _ => rfl) (fun _ _ _ => rfl) (fun t => by rw [after0]; unfold Dat.blockOf; rw [arrA0]; try rfl) t d).trans
    (by unfold Dat.fetched Dat.blockOf; rw [arrA0]; try rfl)
theorem before1 (c : Dev nD) (t : Fin cfg1.N) (d) : (dats m 0 c).before 1 t d = wblk m c t :=
  ((dats m 0 c).before_in_eq_fetched 1 rfl (fun _ => rfl) (fun _ _ _ => rfl) (fun t => by rw [after1]; unfold Dat.blockOf; rw [arrA1]; try rfl) t d).trans
    (by unfold Dat.fetched Dat.blockOf; rw [arrA1]; try rfl)

/-! ## The body obligation, at a generic point -/

/-- What the body is called with at point t, the windows one by one, -/
def bodyPre (c : Dev nD) (t : Fin cfg1.N) : sProp 𝕄 :=
  iprop((dats m 0 c).Φ t.castSucc ∗ (dats m 0 c).owesAt (none : HIx 1) t.castSucc
    ∗ (∃ d, owns (c : Thread nD τ) (st1_0 t) fullShare ((dats m 0 c).before 0 t d))
    ∗ (∃ d, owns (c : Thread nD τ) (st1_1 t) fullShare ((dats m 0 c).before 1 t d))
    ∗ (∃ d, owns (c : Thread nD τ) (st1_2 t) fullShare ((dats m 0 c).before 2 t d)))

/-- and what it returns. -/
def bodyPost (c : Dev nD) (t : Fin cfg1.N) : sProp 𝕄 :=
  iprop((dats m 0 c).Φ t.succ ∗ (dats m 0 c).owesAt (none : HIx 1) t.succ
    ∗ owns (c : Thread nD τ) (st1_0 t) fullShare ((dats m 0 c).after 0 t)
    ∗ owns (c : Thread nD τ) (st1_1 t) fullShare ((dats m 0 c).after 1 t)
    ∗ owns (c : Thread nD τ) (st1_2 t) fullShare ((dats m 0 c).after 2 t))

/-- The body at any point: the inputs' memrefs hold their blocks, so the body's triple applies; the invariant and the
    core's tallies pass through unread. -/
theorem sound_body (c : Dev nD) (t : Fin cfg1.N) :
    bodyPre m c t ⊢ wp frame (wpE (defs₀ (F := F)) Variants.none c none) Set.univ (bodyAt1 t) (fun _ => bodyPost m c t) := by
  unfold bodyPre bodyPost bodyAt1
  simp only [before0, before1]
  rw [show (dats m 0 c).Φ t.succ = (dats m 0 c).Φ t.castSucc from rfl,
    show (dats m 0 c).owesAt (none : HIx 1) t.succ = (dats m 0 c).owesAt (none : HIx 1) t.castSucc from rfl,
    after0, after1, after2]
  iintro ⟨HΦ, Ho, ⟨%d0, H0⟩, ⟨%d1, H1⟩, ⟨%d2, H2⟩⟩
  iapply (sound_kernel c Set.univ (grid1.coords t) _ _ _ _ _ _ (xblk m c t) (wblk m c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none (none : HIx 1) Set.univ := fun t => by
  rw [bigSep_W1, bigSep_W1]
  exact sound_body m c t

/-! ## The input arrays after the region -/

/-- An input window's array is never written back. -/
theorem arrAt_x (c : Dev nD) : (dats m 0 c).arrAt 0 cfg1.N = m (xLoc c) := ((dats m 0 c).arrAt_in 0 rfl _).trans (arrA0 m c)
theorem arrAt_w (c : Dev nD) : (dats m 0 c).arrAt 1 cfg1.N = maskB m c := ((dats m 0 c).arrAt_in 1 rfl _).trans (arrA1 m c)

end Cert.Proof.KI

end
-- ==== Proof.KI.TcBlock.lean ====
/-
  The dispatch block, index by index.

  Each of the thirty-two steps multiplies eight token rows, laid along a new leading axis, by the eight matching mask
  columns, laid along a new trailing axis; read at (d, r, j) that is rows[r, j] * cols[d, r]. Step k's store covers rows
  [8 k, 8 k + 8) of the output block, so the block the stores leave is out[d, r, j] = x[r, j] * w[d, r] at every index.
-/
import proofs.«202873_g15822659519276_cont_week2b_991_21_alg».proof.Proof.KI.TcBody

noncomputable section

namespace Cert.Proof.KI

open Cert.KernelIdeal Cert.KernelIdeal.Gen

open Idealize.ShloMosaic Idealize.ShloMosaic.ValueIdx

variable {F : FTy → Type} [FloatOps F]

/-! ## One step at an index -/

/-- An [a, b] array cast to [a, b, 1] reads, at (i, j, u), the operand at (i, j). -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- One step at (d, r, j): the token row's entry times the mask's entry of (d, r). -/
theorem step_apply (rows : Vec F S8x1024 .f32) (cols : Vec F S8x8 .f32) (d : Fin 8) (r : Fin 8) (j : Fin 1024) :
    step rows cols (ix3 d r j) = FloatOps.mulf (rows (ix2 r j)) (cols (ix2 d r)) := by
  have e1 : broadcastTo S8x8x1024 (shapeCast S1x8x1024 rows shapeCasts_S8x1024_S1x8x1024) broadcasts_S1x8x1024_S8x8x1024 (ix3 d r j) = rows (ix2 r j) :=
    (broadcastTo_apply _ _ (ix3 d r j) (ix3 (0 : Fin 1) r j) (fun a => match a with | ⟨0, _⟩ => rfl | ⟨1, _⟩ => rfl | ⟨2, _⟩ => rfl)).trans
      (shapeCast_ab_1ab_apply rows _ 0 r j)
  have e2 : broadcastTo S8x8x1024 (shapeCast S8x8x1 (shapeCast S8x8 cols shapeCasts_S8x8_S8x8) shapeCasts_S8x8_S8x8x1) broadcasts_S8x8x1_S8x8x1024 (ix3 d r j) = cols (ix2 d r) :=
    (broadcastTo_apply _ _ (ix3 d r j) (ix3 d r (0 : Fin 1)) (fun a => match a with | ⟨0, _⟩ => rfl | ⟨1, _⟩ => rfl | ⟨2, _⟩ => rfl)).trans
      ((shapeCast_ab_ab1_apply _ _ d r 0).trans (congrFun (shapeCast_self cols _) (ix2 d r)))
  unfold step
  show FloatOps.mulf (broadcastTo S8x8x1024 (shapeCast S1x8x1024 rows shapeCasts_S8x1024_S1x8x1024) broadcasts_S1x8x1024_S8x8x1024 (ix3 d r j))
      (broadcastTo S8x8x1024 (shapeCast S8x8x1 (shapeCast S8x8 cols shapeCasts_S8x8_S8x8) shapeCasts_S8x8_S8x8x1) broadcasts_S8x8x1_S8x8x1024 (ix3 d r j)) = _
  rw [e1, e2]

/-! ## The block, index by index -/

/-- The block as one function of the two input blocks: out[d, r, j] = x[r, j] * w[d, r]. -/
def dispBlk (x0 : Vec F S256x1024 .f32) (x1 : Vec F S8x256 .f32) : Vec F S8x256x1024 .f32 :=
  fun i => FloatOps.mulf (x0 (ix2 (i 1) (i 2))) (x1 (ix2 (i 0) (i 1)))

/-- Step k's store agrees with it: local row r of the step is row 8 k + r of the block. -/
theorem piece_agrees (x0 : Vec F S256x1024 .f32) (x1 : Vec F S8x256 .f32) (k : Fin 32) (d : Fin 8) (r : Fin 8) (j : Fin 1024) :
    step (View.ld x0 (rowsR k)) (View.ld x1 (colsR k)) (ix3 d r j) = dispBlk x0 x1 ((outR k).emb (ix3 d r j)) := by
  have h0 : (rowsR k).idx (ix2 r j) = ix2 (((outR k).emb (ix3 d r j)) 1) (((outR k).emb (ix3 d r j)) 2) := by
    funext a; apply Fin.ext
    match a with
    | ⟨0, _⟩ => rfl
    | ⟨1, _⟩ => rfl
  have h1 : (colsR k).idx (ix2 d r) = ix2 (((outR k).emb (ix3 d r j)) 0) (((outR k).emb (ix3 d r j)) 1) := by
    funext a; apply Fin.ext
    match a with
    | ⟨0, _⟩ => rfl
    | ⟨1, _⟩ => rfl
  rw [step_apply]
  exact congrArg₂ FloatOps.mulf (congrArg x0 h0) (congrArg x1 h1)

/-- THE BLOCK: what the thirty-two stores leave is that function. -/
theorem outBlk_eq (x0 : Vec F S256x1024 .f32) (x1 : Vec F S8x256 .f32) :
    outBlk x0 x1 = fun i => FloatOps.mulf (x0 (ix2 (i 1) (i 2))) (x1 (ix2 (i 0) (i 1))) := by
  show outBlk x0 x1 = dispBlk x0 x1
  funext y
  unfold outBlk
  refine View.canon_apply_of_pieces (dispBlk x0 x1) _ (fun p hp x => ?_) y (cover x0 x1 y)
  obtain ⟨k, -, rfl⟩ := List.mem_map.mp hp
  have hx : x = ix3 (x 0) (x 1) (x 2) := eq_ix3 x
  rw [hx]
  exact piece_agrees x0 x1 k (x 0) (x 1) (x 2)

end Cert.Proof.KI

end
-- ==== Proof.KI.TcValue.lean ====
/-
  The dispatched tensor after the pipeline: the sixteen blocks tile it.

  Grid point t is handed rows [256 t, 256 t + 256) of the token array and columns [256 t, 256 t + 256) of the routing
  mask, and writes back rows [256 t, 256 t + 256) of the dispatched tensor, all devices and all columns: the block
  index of the rows is the grid coordinate on all three arrays and zero on every other axis. A block's element
  (d, r, j) therefore sits at (d, 256 t + r, j) of the result, where the specification's tensor holds
  x[256 t + r, j] * mask[d, 256 t + r]: what the body wrote from its two input blocks. Row n of the tensor is in the
  block of point n / 256, so the blocks cover the array and it ends at the specification's tensor.
-/
import proofs.«202873_g15822659519276_cont_week2b_991_21_alg».proof.Proof.KI.TcBlock

noncomputable section

namespace Cert.Proof.KI

open Cert.KernelIdeal Cert.KernelIdeal.Gen

open Idealize.ShloMosaic Idealize.ShloMosaic.TcCoe Idealize.ShloMosaic.ValueIdx
open Idealize.ShloMosaic.SparseCore (S V T)
open Idealize.ShloMosaic.SparseCore.Cfg (HIx)
open Idealize.SL Idealize.SL.Sem
open Idealize.ShloMosaic.Pipeline (Dat Cfg Window)

variable {F : FTy → Type} [FloatOps F]
variable (m : (ℓ : Loc nD τ sig) → Buf (Elt F) ℓ)

/-! ## The index maps over the grid -/

/-- The three windows move together: the rows' block index is the same on the token array (axis 0), the mask (axis 1)
    and the result (axis 1), and every other block index is zero. -/
theorem tc_index_maps : ∀ t : Fin cfg1.N,
    win1_0.index t (0 : Fin 2) = win1_2.index t (1 : Fin 3) ∧ win1_0.index t (1 : Fin 2) = 0
    ∧ win1_1.index t (0 : Fin 2) = 0 ∧ win1_1.index t (1 : Fin 2) = win1_2.index t (1 : Fin 3)
    ∧ win1_2.index t (0 : Fin 3) = 0 ∧ win1_2.index t (2 : Fin 3) = 0 :=
  (by decide +kernel : ∀ t : Fin grid1.N, _)

/-- Every block of 256 rows of the result is some point's. -/
theorem tc_rows_onto : ∀ q : Fin 16, ∃ t : Fin cfg1.N, win1_2.index t = ![0, q.val, 0] :=
  (by decide +kernel : ∀ q : Fin 16, ∃ t : Fin grid1.N, win1_2.index t = ![0, q.val, 0])

/-! ## What a point writes back -/

/-- The specification's tensor at an index: the token's entry times the mask's. -/
theorem outB_apply (c : Dev nD) (i : S8x4096x1024.Idx) :
    outB m c i = FloatOps.mulf (m (xLoc c) (ix2 (i 1) (i 2))) (maskB m c (ix2 (i 0) (i 1))) := rfl

/-- Point t writes back block t of the specification's tensor. -/
theorem tc_flushed_eq (c : Dev nD) (t : Fin cfg1.N) :
    (dats m 0 c).flushed 2 t = ((cfg1.win 2).blk t).view.read (Elt F) (outB m c) := by
  show (cfg1.win 2).cut (grid1.coords t) ((dats m 0 c).after 2 t) = _
  rw [after2, outBlk_eq]
  obtain ⟨e0, e1, e2, e3, e4, e5⟩ := tc_index_maps t
  funext j
  show FloatOps.mulf (m (xLoc c) (((cfg1.win 0).blk t).view.emb (ix2 (j 1) (j 2))))
      (maskB m c (((cfg1.win 1).blk t).view.emb (ix2 (j 0) (j 1))))
    = outB m c (((cfg1.win 2).blk t).view.emb j)
  rw [outB_apply]
  have h0 : ((cfg1.win 0).blk t).view.emb (ix2 (j 1) (j 2))
      = ix2 ((((cfg1.win 2).blk t).view.emb j) 1) ((((cfg1.win 2).blk t).view.emb j) 2) := by
    funext a; apply Fin.ext
    match a with
    | ⟨0, _⟩ => show win1_0.index t (0 : Fin 2) * 256 + 1 * (j 1).val = win1_2.index t (1 : Fin 3) * 256 + 1 * (j 1).val; omega
    | ⟨1, _⟩ => show win1_0.index t (1 : Fin 2) * 1024 + 1 * (j 2).val = win1_2.index t (2 : Fin 3) * 1024 + 1 * (j 2).val; omega
  have h1 : ((cfg1.win 1).blk t).view.emb (ix2 (j 0) (j 1))
      = ix2 ((((cfg1.win 2).blk t).view.emb j) 0) ((((cfg1.win 2).blk t).view.emb j) 1) := by
    funext a; apply Fin.ext
    match a with
    | ⟨0, _⟩ => show win1_1.index t (0 : Fin 2) * 8 + 1 * (j 0).val = win1_2.index t (0 : Fin 3) * 8 + 1 * (j 0).val; omega
    | ⟨1, _⟩ => show win1_1.index t (1 : Fin 2) * 256 + 1 * (j 1).val = win1_2.index t (1 : Fin 3) * 256 + 1 * (j 1).val; omega
  rw [h0, h1]
  rfl

/-! ## The blocks cover the tensor -/

/-- An index of the tensor is in point t's block iff each coordinate is in the block's range on its axis. -/
theorem tc_mem_blk (t : Fin cfg1.N) (i : S8x4096x1024.Idx) :
    i ∈ ((cfg1.win 2).blk t).view.set ↔ ∀ a : Fin 3, win1_2.index t a * S8x256x1024.size a ≤ (i a).val
      ∧ (i a).val < win1_2.index t a * S8x256x1024.size a + S8x256x1024.size a := by
  show i ∈ ((View.whole main_v2).slice (win1_2.rect t)).set ↔ _
  rw [View.set_slice_whole, Rect.mem_set_unit]
  exact Iff.rfl

/-- Row n of the tensor is in the block of the point whose rows' block index is n / 256. -/
theorem tc_blocks_cover (i : S8x4096x1024.Idx) :
    ∃ t : Fin cfg1.N, (cfg1.win 2).flush t = true ∧ i ∈ ((cfg1.win 2).blk t).view.set := by
  have hi0 : (i 0).val < 8 := (i 0).isLt
  have hi1 : (i 1).val < 4096 := (i 1).isLt
  have hi2 : (i 2).val < 1024 := (i 2).isLt
  obtain ⟨t, ht⟩ := tc_rows_onto ⟨(i 1).val / 256, by omega⟩
  have q0 : win1_2.index t (0 : Fin 3) = 0 := congrFun ht 0
  have q1 : win1_2.index t (1 : Fin 3) = (i 1).val / 256 := congrFun ht 1
  have q2 : win1_2.index t (2 : Fin 3) = 0 := congrFun ht 2
  refine ⟨t, flush1_2 t, ?_⟩
  rw [tc_mem_blk]
  intro a
  match a with
  | ⟨0, _⟩ => show win1_2.index t (0 : Fin 3) * 8 ≤ (i 0).val ∧ (i 0).val < win1_2.index t (0 : Fin 3) * 8 + 8; omega
  | ⟨1, _⟩ => show win1_2.index t (1 : Fin 3) * 256 ≤ (i 1).val ∧ (i 1).val < win1_2.index t (1 : Fin 3) * 256 + 256; omega
  | ⟨2, _⟩ => show win1_2.index t (2 : Fin 3) * 1024 ≤ (i 2).val ∧ (i 2).val < win1_2.index t (2 : Fin 3) * 1024 + 1024; omega

/-! ## The tensor after the last point -/

/-- After the last point the result array is the specification's dispatched tensor. -/
theorem arrAt_out (c : Dev nD) : (dats m 0 c).arrAt 2 cfg1.N = outB m c :=
  (dats m 0 c).arrAt_eq_of_cover 2 (outB m c) (fun t _ => tc_flushed_eq m c t) tc_blocks_cover

end Cert.Proof.KI

end
-- ==== Proof.KI.Split.lean ====
/-
  How the TensorCore's whole arrays split into the thirty-two tiles' holdings and join back.

  The mask array, 8 × 4096, is the disjoint union of its 256 rectangles (row r, columns [128 w, 128 w + 128)):
  element (r, t) lies in rectangle (r, t / 128) and in no other. The tiles (c, i) of Fin 2 × Fin 16 are the workers
  w = 2 i + c of Fin 32, one to one: a separating conjunction over the workers is one over the cores and, inside, over
  the subcores. An array every tile reads is, at the full share, a remainder and one read share per worker.
-/
import proofs.«202873_g15822659519276_cont_week2b_991_21_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Tiles and workers -/

/-- Tile (c, i) ↦ worker 2 i + c, with inverse w ↦ (w mod 2, w div 2). -/
def widEquiv : Fin 2 × Fin 16 ≃ Fin 32 where
  toFun p := wid p.1 p.2
  invFun w := (⟨w.val % 2, by omega⟩, ⟨w.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv w := by
    refine Fin.ext ?_
    show 2 * (w.val / 2) + w.val % 2 = w.val; omega

/-- A separating conjunction over the thirty-two workers, tile by tile. -/
theorem bigSep_workers (Φ : Fin 32 → sProp 𝕄) :
    bigSep Finset.univ Φ = bigSep Finset.univ fun c : Fin 2 => bigSep Finset.univ fun i : Fin 16 => Φ (wid c i) := by
  rw [bigSep_univ_equiv widEquiv Φ, bigSep_univ_prod]; rfl

/-! ## The 256 rectangles of the mask array -/

/-- the 256 rectangles are pairwise disjoint and cover the mask array -/
theorem wSets_disjoint : ∀ p ∈ (Finset.univ : Finset (Fin 8 × Fin 32)), ∀ p' ∈ (Finset.univ : Finset (Fin 8 × Fin 32)),
    p ≠ p' → Disjoint (wSet p.1 p.2) (wSet p'.1 p'.2) := by
  intro p _ p' _ h
  refine Rect.block_disjoint _ _ fun e => h ?_
  have e0 : p.1.val = p'.1.val := congrFun e 0
  have e1 : p.2.val = p'.2.val := congrFun e 1
  exact Prod.ext (Fin.ext e0) (Fin.ext e1)

theorem wSets_cover : (Finset.univ : Finset (Fin 8 × Fin 32)).biUnion (fun p => wSet p.1 p.2) = Finset.univ := by
  ext j
  simp only [Finset.mem_biUnion, Finset.mem_univ, true_and, iff_true]
  have h0 : (j 0).val < 8 := (j 0).isLt
  have h1 : (j 1).val < 4096 := (j 1).isLt
  refine ⟨(⟨(j 0).val, h0⟩, ⟨(j 1).val / 128, by omega⟩), Rect.mem_set_unit.mpr fun a => ?_⟩
  match a with
  | ⟨0, _⟩ => show (j 0).val * 1 ≤ (j 0).val ∧ (j 0).val < (j 0).val * 1 + 1; omega
  | ⟨1, _⟩ => show (j 1).val / 128 * 128 ≤ (j 1).val ∧ (j 1).val < (j 1).val / 128 * 128 + 128; omega

/-! ## The mask array, whole and in pieces -/

/-- the mask array held whole IS its 2 × 16 × 8 pieces, at any contents -/
theorem wPts_split (d : Dev nD) (f : Buf (Elt F) (wLoc d)) :
    (wLoc d ↦{fullShare} f : sProp 𝕄) = bigSep Finset.univ fun c : Fin 2 => bigSep Finset.univ fun i : Fin 16 =>
      bigSep Finset.univ fun r : Fin 8 => wLoc d ↦[wSet r (wid c i)]{fullShare} f := by
  rw [← bigSep_workers (F := F) (fun w => bigSep Finset.univ fun r : Fin 8 => wLoc d ↦[wSet r w]{fullShare} f),
    ← bigSep_univ_comm (fun (r : Fin 8) (w : Fin 32) => (wLoc d ↦[wSet r w]{fullShare} f : sProp 𝕄)),
    ← bigSep_univ_prod (fun p : Fin 8 × Fin 32 => (wLoc d ↦[wSet p.1 p.2]{fullShare} f : sProp 𝕄)),
    ← pointsTo_biUnion Finset.univ (ℓ := wLoc d) (fun p : Fin 8 × Fin 32 => wSet p.1 p.2) wSets_disjoint, wSets_cover]

/-! ## An array every tile reads -/

/-- an array every tile reads: the full share is a remainder and one token per tile -/
theorem toks_split (ℓ : Loc nD τ sig) (f : Buf (Elt F) ℓ) :
    (ℓ ↦{fullShare} f : sProp 𝕄) ⊣⊢ iprop((ℓ ↦{Transfers.shareDrop fullShare 32} f)
      ∗ bigSep Finset.univ fun c : Fin 2 => bigSep Finset.univ fun i : Fin 16 => ℓ ↦{tok (wid c i)} f) := by
  rw [← bigSep_workers (F := F) (fun w => ℓ ↦{tok w} f)]
  exact Transfers.pointsTo_toks fullShare 32

end Cert.Proof.KI

end
-- ==== Proof.KI.Deal.lean ====
/-
  How the TensorCore deals its three arrays into the one call's payloads and collects them back.

  The call's payloads, over the two cores, are the thirty-two workers' holdings: a read share of the flat expert list,
  a read share of the table, and the worker's eight row pieces of the mask array. Summed over the workers these are the
  thirty-two read shares of each read array and, the 256 rectangles being a partition, the mask array whole. With the two
  remainders of the read shares they are the three arrays at the full share.
-/
import proofs.«202873_g15822659519276_cont_week2b_991_21_alg».proof.Proof.KI.Split

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- A separating conjunction over the call's cores is one over Fin 2. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- The mask array held whole is the thirty-two workers' eight row pieces, at any contents. -/
theorem wPts_workers (d : Dev nD) (f : Buf (Elt F) (wLoc d)) :
    (wLoc d ↦{fullShare} f : sProp 𝕄)
      = bigSep Finset.univ fun w : Fin 32 => bigSep Finset.univ fun r : Fin 8 => wLoc d ↦[wSet r w]{fullShare} f := by
  rw [wPts_split, ← bigSep_workers (F := F) (fun w => bigSep Finset.univ fun r : Fin 8 => wLoc d ↦[wSet r w]{fullShare} f)]

variable (m : (ℓ : Loc nD τ sig) → Buf (Elt F) ℓ) [FloatOps F]

/-- The start payloads, summed: the read shares of the two read arrays and the mask array whole at its launch contents. -/
theorem st_sum (d : Dev nD) :
    (bigSep Finset.univ fun c : Fin ((K (F := F)).nCore 0) => (P m).st 0 d c)
      = iprop((bigSep Finset.univ fun w : Fin 32 => fLoc d ↦{tok w} flatB m d)
          ∗ (bigSep Finset.univ fun w : Fin 32 => mLoc d ↦{tok w} m (mLoc d))
          ∗ (wLoc d ↦{fullShare} m (wLoc d))) := by
  show (bigSep Finset.univ fun c : Fin ((K (F := F)).nCore 0) =>
      bigSep Finset.univ fun i : Fin 16 => goRes m d (wid (Fin.cast nCore_zero c) i)) = _
  rw [bigSep_cores (F := F) (fun c => bigSep Finset.univ fun i : Fin 16 => goRes m d (wid c i)),
    ← bigSep_workers (F := F) (fun w => goRes m d w)]
  unfold goRes
  rw [bigSep_sep', bigSep_sep', wPts_workers d (m (wLoc d))]

/-- The done payloads, summed: the same, the mask array at the specification's mask. -/
theorem dn_sum (d : Dev nD) :
    (bigSep Finset.univ fun c : Fin ((K (F := F)).nCore 0) => (P m).dn 0 d c)
      = iprop((bigSep Finset.univ fun w : Fin 32 => fLoc d ↦{tok w} flatB m d)
          ∗ (bigSep Finset.univ fun w : Fin 32 => mLoc d ↦{tok w} m (mLoc d))
          ∗ (wLoc d ↦{fullShare} maskB m d)) := by
  show (bigSep Finset.univ fun c : Fin ((K (F := F)).nCore 0) =>
      bigSep Finset.univ fun i : Fin 16 => tdRes m d (wid (Fin.cast nCore_zero c) i)) = _
  rw [bigSep_cores (F := F) (fun c => bigSep Finset.univ fun i : Fin 16 => tdRes m d (wid c i)),
    ← bigSep_workers (F := F) (fun w => tdRes m d w)]
  unfold tdRes
  rw [bigSep_sep', bigSep_sep', wPts_workers d (maskB m d)]

/-- dealing: the flat expert list, the table and the mask array, held whole, are the two read-share remainders and the
    call's start payloads -/
theorem deal (d : Dev nD) :
    iprop((fLoc d ↦{fullShare} flatB m d) ∗ (mLoc d ↦{fullShare} m (mLoc d)) ∗ (wLoc d ↦{fullShare} m (wLoc d)))
      ⊢ iprop(((fLoc d ↦{Transfers.shareDrop fullShare 32} flatB m d) ∗ (mLoc d ↦{Transfers.shareDrop fullShare 32} m (mLoc d)))
          ∗ bigSep Finset.univ fun c : Fin ((K (F := F)).nCore 0) => (P m).st 0 d c) := by
  rw [st_sum]
  iintro ⟨Hf, Hm, Hw⟩
  ihave Hf' := (Transfers.pointsTo_toks_split (ℓ := fLoc d) (S := Finset.univ) (f := flatB m d) fullShare 32) $$ Hf
  ihave Hm' := (Transfers.pointsTo_toks_split (ℓ := mLoc d) (S := Finset.univ) (f := m (mLoc d)) fullShare 32) $$ Hm
  icases Hf' with ⟨Hf0, Hft⟩
  icases Hm' with ⟨Hm0, Hmt⟩
  isplitl [Hf0 Hm0]
  · isplitl [Hf0]; · iexact Hf0
    iexact Hm0
  isplitl [Hft]; · iexact Hft
  isplitl [Hmt]; · iexact Hmt
  iexact Hw

/-- collecting: the remainders and the call's done payloads are the three arrays whole, the mask array at the
    specification's mask -/
theorem collect (d : Dev nD) :
    iprop(((fLoc d ↦{Transfers.shareDrop fullShare 32} flatB m d) ∗ (mLoc d ↦{Transfers.shareDrop fullShare 32} m (mLoc d)))
          ∗ bigSep Finset.univ fun c : Fin ((K (F := F)).nCore 0) => (P m).dn 0 d c)
      ⊢ iprop((fLoc d ↦{fullShare} flatB m d) ∗ (mLoc d ↦{fullShare} m (mLoc d)) ∗ (wLoc d ↦{fullShare} maskB m d)) := by
  rw [dn_sum]
  iintro ⟨⟨Hf0, Hm0⟩, Hft, Hmt, Hw⟩
  isplitl [Hf0 Hft]
  · iapply (Transfers.pointsTo_toks_join (ℓ := fLoc d) (S := Finset.univ) (f := flatB m d) fullShare 32)
    isplitl [Hf0]; · iexact Hf0
    iexact Hft
  isplitl [Hm0 Hmt]
  · iapply (Transfers.pointsTo_toks_join (ℓ := mLoc d) (S := Finset.univ) (f := m (mLoc d)) fullShare 32)
    isplitl [Hm0]; · iexact Hm0
    iexact Hmt
  iexact Hw

end Cert.Proof.KI

end
-- ==== Proof.PreDecode.lean ====
/-
  Two facts that name no program.

  (1) What the input-domain predicate says of its integer arguments. The predicate is the conjunction of three
  all-reductions; when it holds, every expert word lies in [0, 15] and every device word in [0, 7], so each reads the
  same signed and unsigned and its value is below 16, respectively below 8.

  (2) The expert list [4096, 2] laid out under the shape [8192] in row-major order has, at position j, the entry
  (j / 2, j % 2).
-/
import proofs.«202873_g15822659519276_cont_week2b_991_21_alg».proof.Pre_input_domain
import proofs.«202873_g15822659519276_cont_week2b_991_21_alg».proof.Proof.Spec
import Idealize.ShloMosaic.Lib.ReduceAll
import Idealize.ShloMosaic.Lib.ValueIdx
import Idealize.ShloMosaic.Lib.Pipeline.Value

namespace Cert.Proof.PreDecode

open Idealize.ShloMosaic Idealize.ShloMosaic.ValueIdx

/-- A rank-0 shape has one index. -/
instance : Subsingleton Cert.Pre_input_domain.S_.Idx := ⟨fun a b => funext fun d => d.elim0⟩

/-- A word that tests 0 ≤ v and v ≤ k signed, for a small literal k, has value at most k. -/
theorem toNat_le_of_between {v : BitVec 32} (k : Nat) (hk : k < 2 ^ 31)
    (h : IntOp.andi (IntOp.cmpi .sge v 0#32) (IntOp.cmpi .sle v (BitVec.ofNat 32 k)) = 1#1) : v.toNat ≤ k := by
  obtain ⟨h0, h1⟩ := IntOp.andi_eq_one.1 h
  rw [IntOp.cmpi_sge] at h0
  rw [IntOp.cmpi_sle] at h1
  have hz : (0#32 : BitVec 32).toInt = 0 := by decide
  have hkI : (BitVec.ofNat 32 k).toInt = (k : Int) := by
    rw [BitVec.toInt_eq_toNat_cond, BitVec.toNat_ofNat]
    have : k % 2 ^ 32 = k := Nat.mod_eq_of_lt (by omega)
    rw [this]; split <;> omega
  rw [hz] at h0
  rw [hkI] at h1
  rw [BitVec.toInt_eq_toNat_cond] at h0 h1
  have hv : v.toNat < 2 ^ 32 := v.isLt
  split at h0 <;> omega

theorem ranges {F : FTy → Type} [FloatOps F] [Cert.Pre_input_domain.Facts]
    (x : FVec F Cert.Pre_input_domain.S4096x1024 .f32) (idx : IVec Cert.Pre_input_domain.S4096x2 32)
    (map : IVec Cert.Pre_input_domain.S16 32)
    (h : Cert.Pre_input_domain.fn (F := F) x idx map = fun _ => 1#1) :
    (∀ i, (idx i).toNat < 16) ∧ (∀ j, (map j).toNat < 8) := by
  have h0 := congrFun h ix0
  dsimp only [Cert.Pre_input_domain.fn, Cert.Pre_input_domain.fn_part1] at h0
  obtain ⟨h12, h3⟩ := IntOp.andi_eq_one.1 (show IntOp.andi _ _ = 1#1 from h0)
  obtain ⟨-, h2⟩ := IntOp.andi_eq_one.1 (show IntOp.andi _ _ = 1#1 from h12)
  refine ⟨fun i => ?_, fun j => ?_⟩
  · have e := Host.reduce_andi_all _ _ _ _ ix0 h2 i
    have := toNat_le_of_between (v := idx i) 15 (by decide) e
    omega
  · have e := Host.reduce_andi_all _ _ _ _ ix0 h3 j
    have := toNat_le_of_between (v := map j) 7 (by decide) e
    omega

/-- The expert list under the flat shape, read at position j, is the entry (j / 2, j % 2). -/
theorem flat_eq (idx : IVec Cert.Spec.Si 32) (h : Cert.Spec.Si.ShapeCasts Cert.Spec.Sf) :
    shapeCast Cert.Spec.Sf idx h = Cert.Spec.flat idx := by
  funext j
  unfold Cert.Spec.flat
  refine shapeCast_apply idx h j _ ?_
  rw [Shape.rowMajor_val_two, Shape.rowMajor_val_one]
  show (j 0).val / 2 * 2 + (j 0).val % 2 = (j 0).val
  omega

end Cert.Proof.PreDecode
-- ==== Proof.KI.Launch.lean ====
/-
  The kernel program's run: every weakly fair execution of its thirty-five threads ends, nothing faulting, with the
  dispatched tensor at the specification's function of the arguments and the arguments unchanged.

  The SparseCore launch theorem is applied at one vector-subcore call. Each tile's task is the tile body's triple; a
  SparseCore's holdings are its sixteen tiles'; the launch element funds the handshakes' rounds and the pipeline's
  staging cells; @main on the TensorCore reshapes the expert list, deals the flat list, the table and the mask array to
  the tiles, collects them with the mask array at the mask, runs the dispatch pipeline over them, and keeps the four
  arrays the claim reads.
-/
import proofs.«202873_g15822659519276_cont_week2b_991_21_alg».proof.Proof.KI.Tile
import proofs.«202873_g15822659519276_cont_week2b_991_21_alg».proof.Proof.KI.Region
import proofs.«202873_g15822659519276_cont_week2b_991_21_alg».proof.Proof.KI.TcValue
import proofs.«202873_g15822659519276_cont_week2b_991_21_alg».proof.Proof.KI.Deal
import proofs.«202873_g15822659519276_cont_week2b_991_21_alg».proof.Proof.PreDecode

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Pipeline (Dat Cfg Window BodyObligation cellOf)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The tile obligation, as the launch theorem states it -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__routing_body (coordsV c s)
          (Memref.whole main_v0_scv) (Memref.isWhole_whole _) (Memref.whole main_arg2_scv) (Memref.isWhole_whole _) (Memref.whole main_v1_scv) (Memref.isWhole_whole _)
          (Memref.whole cc0_scratch0) (Memref.isWhole_whole _) (Memref.whole cc0_scratch1) (Memref.isWhole_whole _) (Memref.whole cc0_scratch2) (Memref.isWhole_whole _)
          cc0_scratch3 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

/-! ## A SparseCore's holdings are its sixteen tiles' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(bigSep Finset.univ fun i : Fin 16 => goRes m d (wid (Fin.cast nCore_zero c) i)) ⊢ |={Set.univ}=> iprop(
      (bigSep Finset.univ fun i : Fin ((K (F := F)).nSub 0) => goRes m d (wid (Fin.cast nCore_zero c) (Fin.cast nSub_zero i)))
      ∗ ((bigSep Finset.univ fun i : Fin ((K (F := F)).nSub 0) => tdRes m d (wid (Fin.cast nCore_zero c) (Fin.cast nSub_zero i)))
          -∗ bigSep Finset.univ fun i : Fin 16 => tdRes m d (wid (Fin.cast nCore_zero c) i)))
  rw [bigSep_tasks (F := F) (fun i => goRes m d (wid (Fin.cast nCore_zero c) i)),
    bigSep_tasks (F := F) (fun i => tdRes m d (wid (Fin.cast nCore_zero c) i))]
  iintro H; imodintro
  isplitl [H]; · iexact H
  iintro H; iexact H

/-! ## The launch element: the handshakes' rounds, the pipeline's cells, no counters yet -/

def u₀ : UU := (initOf (K (F := F)).hsCells (K (F := F)).hsToks, (uP₀, 1))

omit [FloatOps F] in
theorem bigSep_emp' {I : Type} (s : Finset I) : (bigSep s fun _ => iprop(emp)) = (iprop(emp) : sProp 𝕄) := bigSep_emp_const s

omit [FloatOps F] in
theorem own_EP : (BI.own (embR (uP₀, (1 : Counters))) : sProp 𝕄) = BI.own (EP (F := F) uP₀) := rfl

theorem hu₀ : (ownU (u₀ (F := F)) : sProp 𝕄)
    ⊢ |={Set.univ}=> iprop(BI.own (EH (initOf (K (F := F)).hsCells (K (F := F)).hsToks)) ∗ (bigSep Finset.univ fun d : Dev nD => pipeGhost (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HP := (Entails.of_eq (own_EP (F := F))) $$ HR
  imod (pipe_fund (F := F)) $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What @main leaves, and how the final memory reads it -/

abbrev FIN (d : Dev nD) : sProp 𝕄 :=
  iprop((oLoc d ↦{fullShare} outB m d) ∗ (xLoc d ↦{fullShare} m (xLoc d)) ∗ (iLoc d ↦{fullShare} m (iLoc d)) ∗ (mLoc d ↦{fullShare} m (mLoc d)))

def fq (d : Dev nD) (s' : Phys nD τ sig (Elt F)) : Prop :=
  s'.mem.mem (oLoc d) = outB m d ∧ s'.mem.mem (xLoc d) = m (xLoc d) ∧ s'.mem.mem (iLoc d) = m (iLoc d) ∧ s'.mem.mem (mLoc d) = m (mLoc d)

theorem hfin (d : Dev nD) (s' : Phys nD τ sig (Elt F)) : iprop(FIN m d ∗ SI s') ⊢ (⌜fq m d s'⌝ : sProp 𝕄) := by
  iintro ⟨⟨Ho, Hx, Hi, Hm⟩, HSI⟩
  ihave H := (persistent_entails_right (SI_pointsTo_agree (st := s') (ℓ := oLoc d) (I := Finset.univ) (q := fullShare) (f := outB m d))) $$ [HSI Ho]
  · isplitl [HSI] <;> iassumption
  icases H with ⟨%h0, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := mLoc d) (I := Finset.univ) (q := fullShare) (f := m (mLoc d))) $$ [HSI Hm]
  · isplitl [HSI] <;> iassumption
  icases H with %h3
  ipureintro
  exact ⟨funext fun i => h0 i (Finset.mem_univ i), funext fun i => h1 i (Finset.mem_univ i), funext fun i => h2 i (Finset.mem_univ i), funext fun i => h3 i (Finset.mem_univ i)⟩

/-! ## @main on the TensorCore -/

abbrev i' : DevRef τ sig := Proc.devRef .tc (main_arg1 : Ref sig .tc)
abbrev f' : DevRef τ sig := Proc.devRef .tc (main_v0 : Ref sig .tc)
/-- The reshape of the expert list to its flat form. -/
abbrev opR : HloOp τ sig (Elt F) := StableHlo.reshape main_arg1 main_v0 rfl shapeCasts_S4096x2_S8192
abbrev S2 : Finset (DevRef τ sig) := {i', f'}

omit [FloatOps F] in
theorem held_S2 (d : Dev nD) (W : Valuation τ sig (Elt F)) :
    (held (T d) S2 W : sProp 𝕄) = iprop((iLoc d ↦{fullShare} W i') ∗ (fLoc d ↦{fullShare} W f')) := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ (mLoc d ↦{fullShare} W main_arg2)
      ∗ (fLoc d ↦{fullShare} W main_v0) ∗ (wLoc d ↦{fullShare} W main_v1) ∗ (oLoc d ↦{fullShare} W main_v2)) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The launch valuation. -/
def V0 (d : Dev nD) : Valuation τ sig (Elt F) := fun b => m (d, b)

omit [FloatOps F] in
theorem hR : (opR (F := F)).bufs ⊆ S2 := show ({i', f'} : Finset (DevRef τ sig)) ⊆ S2 by decide

omit [FloatOps F] in
/-- The reshape leaves the expert list as it was -/
theorem res_i (d : Dev nD) : (opR (F := F)).result (V0 m d) i' = m (iLoc d) :=
  (opR (F := F)).result_of_not_mem (V0 m d) (b := i') (show i' ∉ ({f'} : Finset (DevRef τ sig)) by decide)

omit [FloatOps F] in
/-- and writes its flat form. -/
theorem res_f (d : Dev nD) : (opR (F := F)).result (V0 m d) f' = flatB m d := by
  refine (StableHlo.reshape_result' (x := main_arg1) (y := main_v0) rfl shapeCasts_S4096x2_S8192 _ _ (V0 m d)).trans ?_
  funext j
  exact congrFun (Cert.Proof.PreDecode.flat_eq (m (iLoc d)) shapeCasts_S4096x2_S8192) j

/-- @main on device d's TensorCore. -/
theorem hmain (κ : GSem nD τ sig → ℕ) (d : Dev nD) :
    iprop((K (F := F)).ctx EH (P m) κ ∗ (K (F := F)).tcSt EH d 0 ∗ (K (F := F)).tcRes m ρ d ∗ pipeGhost (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hi, Hm, Hf, Hw, Ho⟩, -, -⟩, HG⟩
  -- the reshape: the expert list read, its flat form written
  iapply (wp_hlo_within 𝒱 (SparseCore.T d) none Set.univ (op := opR) (S := S2) hR (V := V0 m d)) $$ [Hb Hi Hf]
  · isplitl [Hb]; · iexact Hb
    rw [held_S2]
    isplitl [Hi]; · iexact Hi
    iexact Hf
  iintro ⟨Hb, Hheld⟩
  ihave Hh := (Entails.of_eq ((held_S2 (F := F) d _).trans (by rw [res_i, res_f]))) $$ Hheld
  icases Hh with ⟨Hi, Hf⟩
  -- the call: the flat list, the table and the mask array dealt to the tiles and collected
  ihave Hd := (deal m d) $$ [Hf Hm Hw]
  · isplitl [Hf]; · iexact Hf
    isplitl [Hm]; · iexact Hm
    iexact Hw
  icases Hd with ⟨Hrem, Hst0⟩
  rw [wp_ret]; imodintro
  iapply ((K (F := F)).wp_run (D (F := F)) 𝒱 (EH := EH) (P := P m) κ d 0) $$ [Hst Hst0 Hb Hx Hi Ho HG Hrem]
  isplitr; · iexact Hctx
  isplitl [Hst]; · iexact Hst
  isplitl [Hst0]; · iexact Hst0
  iintro ⟨Hst, Hdn⟩
  ihave Hc := (collect m d) $$ [Hrem Hdn]
  · isplitl [Hrem]; · iexact Hrem
    iexact Hdn
  icases Hc with ⟨Hf, Hm, Hw⟩
  -- the dispatch pipeline over the token rows, the mask and the result
  iapply (region_wp m (dats m) (body_obligation m) (share_full m) (owed_zero m) (recorded_eq m) (fun c => (Φ_in m c)) (fun c => (Φ_out m c)) κ d _) $$ [Hst Hb HG Hx Hw Ho Hi Hm Hf]
  isplitr; · iexact Hctx
  isplitl [Hst]; · iexact Hst
  isplitl [Hb]; · iexact Hb
  isplitl [HG]; · iexact HG
  isplitl [Hx]; · rw [arrA0]; iexact Hx
  isplitl [Hw]; · rw [arrA1]; iexact Hw
  isplitl [Ho]; · rw [arrA2]; iexact Ho
  iintro ⟨Hst, Hb, Hx, Hw, Ho⟩
  imodintro
  isplitl [Hst]; · iexact Hst
  isplitl [Ho]; · rw [arrAt_out]; iexact Ho
  isplitl [Hx]; · rw [arrAt_x]; iexact Hx
  isplitl [Hi]; · iexact Hi
  iexact Hm

/-! ## The program's run -/

def QC : PUnit × MemSt nD τ sig (Elt F) → Prop := fun r => ∀ c : Dev nD,
  r.2.mem (oLoc c) = outB m c ∧ r.2.mem (xLoc c) = m (xLoc c) ∧ r.2.mem (iLoc c) = m (iLoc c) ∧ r.2.mem (mLoc c) = m (mLoc c)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun d => pipeGhost (F := F) d) (FIN m) (u₀ (F := F)) (sep_elim_left.trans (hu₀ m)) (hmain m ρ) (fq m) (hfin m) (QC m) (fun _ h => h)

end Cert.Proof.KI

end
-- ==== Proof.KB.Common.lean ====
/-
  The kernel program as the SparseCore launch theorem sees it, and what its threads pass one another.

  One device, two SparseCores of sixteen vector subcores: thirty-two tiles, tile (c, i) numbered w = 2 i + c, each
  owning tokens [128 w, 128 w + 128). The TensorCore reshapes the expert list flat, starts the tiles, waits for them,
  then runs the dispatch pipeline over sixteen blocks of 256 tokens.
  A tile reads its 256 words of the flat expert list and the whole expert-to-device table (both under a read share of
  its own, one of 32), and owns, at the full share, its eight row pieces of the mask array: row r, columns
  [128 w, 128 w + 128), for r < 8. It leaves those pieces at the specification's mask.
-/
import proofs.«202873_g15822659519276_cont_week2b_991_21_alg».proof.Defs
import proofs.«202873_g15822659519276_cont_week2b_991_21_alg».proof.Proof.Gen.Kernel
import proofs.«202873_g15822659519276_cont_week2b_991_21_alg».proof.Proof.Gen.Kernel.Skeleton
import proofs.«202873_g15822659519276_cont_week2b_991_21_alg».proof.Proof.Gen.Kernel.Launch
import proofs.«202873_g15822659519276_cont_week2b_991_21_alg».proof.Proof.Gen.Kernel.Points
import proofs.«202873_g15822659519276_cont_week2b_991_21_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Batch
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

/-! ## The launch memory, the arrays and what they hold -/

variable (m : (ℓ : Loc nD τ sig) → Buf (Elt F) ℓ) (ρ : Dev nD → PrngReg)

/-- The token rows, the expert list, the expert-to-device table (the arguments); the flat expert list, the routing
    mask, the dispatched tensor (what @main computes), as locations of device d. -/
abbrev xLoc (d : Dev nD) : Loc nD τ sig := (SparseCore.T d).loc main_arg0
abbrev iLoc (d : Dev nD) : Loc nD τ sig := (SparseCore.T d).loc main_arg1
abbrev mLoc (d : Dev nD) : Loc nD τ sig := (SparseCore.T d).loc main_arg2
abbrev fLoc (d : Dev nD) : Loc nD τ sig := (SparseCore.T d).loc main_v0
abbrev wLoc (d : Dev nD) : Loc nD τ sig := (SparseCore.T d).loc main_v1
abbrev oLoc (d : Dev nD) : Loc nD τ sig := (SparseCore.T d).loc main_v2

/-- The flat expert list of the launch memory. -/
def flatB (d : Dev nD) : Buf (Elt F) (fLoc d) := Cert.Spec.flat (m (iLoc d))

variable [FloatOps F]

/-- The routing mask and the dispatched tensor of the launch memory's arguments. -/
def maskB (d : Dev nD) : Buf (Elt F) (wLoc d) := Cert.Spec.mask (F := F) (m (iLoc d)) (m (mLoc d))
def outB (d : Dev nD) : Buf (Elt F) (oLoc d) := Cert.Spec.out (F := F) (m (xLoc d)) (m (iLoc d)) (m (mLoc d))

omit [FloatOps F] in
/-- What the proof asks of the launch memory: every expert word below 16, every device word below 8. -/
def PreOK : Prop := ∀ d : Dev nD, (∀ i, (m (iLoc d) i).toNat < 16) ∧ (∀ j, (m (mLoc d) j).toNat < 8)

/-! ## The tiles' pieces of the mask array -/

/-- Tile (c, i) is worker 2 i + c. -/
abbrev wid (c : Fin 2) (i : Fin 16) : Fin 32 := ⟨2 * i.val + c.val, by omega⟩

omit [FloatOps F] in
theorem hblk (r : Fin 8) (w : Fin 32) : ∀ a, ((![r.val, w.val] : Fin 2 → Nat) a + 1) * (![1, 128] : Fin 2 → Nat) a ≤ S8x4096.size a := by
  intro a
  match a with
  | ⟨0, _⟩ => show (r.val + 1) * 1 ≤ 8; omega
  | ⟨1, _⟩ => show (w.val + 1) * 128 ≤ 4096; omega

/-- Row r, columns [128 w, 128 w + 128) of the mask array. -/
abbrev wRect (r : Fin 8) (w : Fin 32) : Rect S8x4096 := Rect.block (s := S8x4096) ![1, 128] ![r.val, w.val] (hblk r w)
abbrev wSet (r : Fin 8) (w : Fin 32) : Finset S8x4096.Idx := (wRect r w).set

/-- Worker w's read share of an array every tile reads. -/
abbrev tok (w : Fin 32) : PosShare TreeShare := Transfers.shareTok fullShare 32 w

/-- What worker w's task is handed: the flat expert list and the table under its read share, its eight row pieces
    of the mask array at their launch contents. -/
def goRes (d : Dev nD) (w : Fin 32) : sProp 𝕄 :=
  iprop((fLoc d ↦{tok w} flatB m d) ∗ (mLoc d ↦{tok w} m (mLoc d))
    ∗ bigSep Finset.univ fun r : Fin 8 => wLoc d ↦[wSet r w]{fullShare} m (wLoc d))

/-- What it hands back: the same, its pieces of the mask array at the specification's mask. -/
def tdRes (d : Dev nD) (w : Fin 32) : sProp 𝕄 :=
  iprop((fLoc d ↦{tok w} flatB m d) ∗ (mLoc d ↦{tok w} m (mLoc d))
    ∗ bigSep Finset.univ fun r : Fin 8 => wLoc d ↦[wSet r w]{fullShare} maskB m d)

/-- The one call: a SparseCore is handed its sixteen tiles' holdings and hands them back. -/
def P : (K (F := F)).Pay (nD := nD) (Val := Elt F) (Name := ℕ) (U := UU) where
  st := fun q d c => match q with
    | 0 => bigSep Finset.univ fun i : Fin 16 => goRes m d (wid (Fin.cast nCore_zero c) i)
  dn := fun q d c => match q with
    | 0 => bigSep Finset.univ fun i : Fin 16 => tdRes m d (wid (Fin.cast nCore_zero c) i)
  go := fun q d c i => match q with
    | 0 => goRes m d (wid (Fin.cast nCore_zero c) (Fin.cast nSub_zero i))
  td := fun q d c i => match q with
    | 0 => tdRes m d (wid (Fin.cast nCore_zero c) (Fin.cast nSub_zero i))
  x := fun _ _ => iprop(emp)

instance P_storable : (P (F := F) m).IsStorable where
  st q d c := match q with | 0 => by unfold P goRes; infer_instance
  dn q d c := match q with | 0 => by unfold P tdRes; infer_instance
  go q d c i := match q with | 0 => by unfold P goRes; infer_instance
  td q d c i := match q with | 0 => by unfold P tdRes; infer_instance

end Cert.Proof.KB

end
-- ==== Proof.KB.MaskDefs.lean ====
/-
  The routing-mask scratch of one tile as a function of its two tables, store by store.

  A tile holds 256 expert words (token t's k-th expert at 2 t + k, t < 128) and the 16-entry expert-to-device table.
  Its mask scratch of 1024 floats starts at zero; indexed store s of sixteen (chunk s / 2, expert column s % 2) puts 1.0
  at 128 * dev + t for the sixteen tokens t = 16 (s / 2) + x, x < 16, where dev is the device word of token t's expert
  in that column.
-/
import Idealize.ShloMosaic.PureOps
import Idealize.ShloMosaic.Lib.ValueIdx

noncomputable section

namespace Cert.Proof.KB

open Idealize.ShloMosaic Idealize.ShloMosaic.ValueIdx

variable {F : FTy → Type} [FloatOps F]
variable (idxv : IVec ⟨1, ![256]⟩ 32) (mapv : IVec ⟨1, ![16]⟩ 32)

/-- The device word of local token t's k-th expert, read through the two tables (the expert word modulo 16, the
    position modulo 256: total, and the identity on the words the precondition admits). -/
def devW (t k : ℕ) : ℕ :=
  (mapv (ix1 (⟨(idxv (ix1 (⟨(2 * t + k) % 256, Nat.mod_lt _ (by decide)⟩ : Fin 256))).toNat % 16, Nat.mod_lt _ (by decide)⟩ : Fin 16))).toNat

/-- Where indexed store s puts its lane x. -/
def posW (s x : ℕ) : ℕ := 128 * devW idxv mapv (16 * (s / 2) + x) (s % 2) + (16 * (s / 2) + x)

/-- 1.0 and 0.0 as the kernel spells them. -/
def oneW : F .f32 := Scalar.ofBits .f32 0x3F800000#32
def zeroW : F .f32 := Scalar.ofBits .f32 0x00000000#32

open Classical in
/-- The mask scratch after the first n indexed stores. -/
def Gn (n : ℕ) : (⟨1, ![1024]⟩ : Shape).Idx → F .f32 := fun j =>
  if ∃ s, s < n ∧ ∃ x, x < 16 ∧ (j 0).val = posW idxv mapv s x then oneW else zeroW

end Cert.Proof.KB

end
-- ==== Proof.KB.MaskVal.lean ====
/-
  The mask scratch of one tile after all sixteen indexed stores, element by element.

  Element 128 r + t of the scratch (r < 8, t < 128) holds 1.0 exactly when one of token t's two experts has device
  word r. Store s, lane x writes at 128 dev + t' with t' = 16 (s / 2) + x < 128 and dev < 8 the device word of token
  t''s expert in column s % 2; 128 dev + t' = 128 r + t forces t' = t and dev = r, and conversely token t's column k is
  written by store 2 (t / 16) + k, lane t % 16.
-/
import proofs.«202873_g15822659519276_cont_week2b_991_21_alg».proof.Proof.KB.MaskDefs

noncomputable section

namespace Cert.Proof.KB

open Idealize.ShloMosaic Idealize.ShloMosaic.ValueIdx

variable {F : FTy → Type} [FloatOps F]
variable (idxv : IVec ⟨1, ![256]⟩ 32) (mapv : IVec ⟨1, ![16]⟩ 32)

omit [FloatOps F] in
/-- Some store of the sixteen writes element 128 r + t exactly when token t has an expert of device word r. -/
theorem written_iff (hmap : ∀ j, (mapv j).toNat < 8) (r : Fin 8) (t : Fin 128) :
    (∃ s, s < 16 ∧ ∃ x, x < 16 ∧ 128 * r.val + t.val = posW idxv mapv s x)
      ↔ (devW idxv mapv t.val 0 = r.val ∨ devW idxv mapv t.val 1 = r.val) := by
  have hdev : ∀ t k, devW idxv mapv t k < 8 := fun t k => hmap _
  have hr : r.val < 8 := r.isLt
  have ht : t.val < 128 := t.isLt
  constructor
  · rintro ⟨s, hs, x, hx, e⟩
    unfold posW at e
    have hd := hdev (16 * (s / 2) + x) (s % 2)
    have et : 16 * (s / 2) + x = t.val := by omega
    have er : devW idxv mapv (16 * (s / 2) + x) (s % 2) = r.val := by omega
    rw [et] at er
    rcases Nat.mod_two_eq_zero_or_one s with h | h
    · left; rw [h] at er; exact er
    · right; rw [h] at er; exact er
  · rintro (h | h)
    · refine ⟨2 * (t.val / 16), by omega, t.val % 16, by omega, ?_⟩
      unfold posW
      have e1 : 16 * (2 * (t.val / 16) / 2) + t.val % 16 = t.val := by omega
      have e2 : 2 * (t.val / 16) % 2 = 0 := by omega
      rw [e1, e2, h]
    · refine ⟨2 * (t.val / 16) + 1, by omega, t.val % 16, by omega, ?_⟩
      unfold posW
      have e1 : 16 * ((2 * (t.val / 16) + 1) / 2) + t.val % 16 = t.val := by omega
      have e2 : (2 * (t.val / 16) + 1) % 2 = 1 := by omega
      rw [e1, e2, h]

/-- After the sixteen stores, element 128 r + t is 1.0 if one of token t's two experts has device word r, else 0.0. -/
theorem Gn_final (hmap : ∀ j, (mapv j).toNat < 8) (r : Fin 8) (t : Fin 128) :
    Gn (F := F) idxv mapv 16 (ix1 (⟨128 * r.val + t.val, by omega⟩ : Fin 1024))
      = if devW idxv mapv t.val 0 = r.val ∨ devW idxv mapv t.val 1 = r.val then oneW else zeroW := by
  unfold Gn
  by_cases h : devW idxv mapv t.val 0 = r.val ∨ devW idxv mapv t.val 1 = r.val
  · rw [if_pos h]; exact if_pos ((written_iff idxv mapv hmap r t).mpr h)
  · rw [if_neg h]; exact if_neg fun h' => h ((written_iff idxv mapv hmap r t).mp h')

/-- Before any store the scratch is zero. -/
theorem Gn_zero : Gn (F := F) idxv mapv 0 = fun _ => zeroW := by
  funext j
  unfold Gn
  exact if_neg (by rintro ⟨s, hs, -⟩; omega)

end Cert.Proof.KB

end
-- ==== Proof.KB.MaskStep.lean ====
/-
  One indexed store of the mask scratch, and the index vector it stores through, as pure facts.

  An indexed store of one value on every lane leaves that value at every element some lane names and the old contents
  elsewhere; the lanes' order does not matter. Store n of a tile writes 1.0 at posW n x for its sixteen lanes x, which
  takes the scratch after n stores to the scratch after n + 1. The index vector of store n = 2 c + k is 128 times the
  device words gathered through the two tables at the expert positions 2 (16 c + x) + k, plus the local tokens
  16 c + x; no word wraps, the device words being below 8 and the tokens below 128. The specification's mask at token
  128 w + t is what the tile of worker w computes from its own 256 expert words.
-/
import proofs.«202873_g15822659519276_cont_week2b_991_21_alg».proof.Proof.KB.MaskDefs
import proofs.«202873_g15822659519276_cont_week2b_991_21_alg».proof.Proof.KB.MaskVal
import proofs.«202873_g15822659519276_cont_week2b_991_21_alg».proof.Proof.Spec

noncomputable section

namespace Cert.Proof.KB

open Idealize.ShloMosaic Idealize.ShloMosaic.ValueIdx

variable {F : FTy → Type} [FloatOps F]
variable (idxv : IVec ⟨1, ![256]⟩ 32) (mapv : IVec ⟨1, ![16]⟩ 32)

/-! ## An indexed store of one value on every lane -/

omit [FloatOps F] in
/-- Writing one value c wherever a lane of the list names: c where some lane names the element, the old value where
    none does. -/
theorem foldl_lanes {α β ι : Type} (p : ι → α → Prop) {dec : ∀ k j, Decidable (p k j)} (c : β) (l : List ι) (g : α → β) (j : α) :
    ((∃ k ∈ l, p k j) → l.foldl (fun g k => fun j => if p k j then c else g j) g j = c)
      ∧ ((∀ k ∈ l, ¬ p k j) → l.foldl (fun g k => fun j => if p k j then c else g j) g j = g j) := by
  induction l generalizing g with
  | nil => exact ⟨fun ⟨k, hk, _⟩ => absurd hk (List.not_mem_nil), fun _ => rfl⟩
  | cons k l ih =>
    rw [List.foldl_cons]
    obtain ⟨ih1, ih2⟩ := ih (fun j => if p k j then c else g j)
    refine ⟨fun ⟨k', hk', hp⟩ => ?_, fun hn => ?_⟩
    · by_cases hl : ∃ k ∈ l, p k j
      · exact ih1 hl
      · have hk : p k j := by
          rcases List.mem_cons.mp hk' with e | hm
          · exact e ▸ hp
          · exact absurd ⟨k', hm, hp⟩ hl
        rw [ih2 (fun k'' hk'' hp'' => hl ⟨k'', hk'', hp''⟩)]; exact if_pos hk
    · rw [ih2 (fun k' hk' => hn k' (List.mem_cons_of_mem _ hk'))]
      exact if_neg (hn k List.mem_cons_self)

/-- An unmasked indexed store of one value c on every lane, element by element. -/
theorem storeIdx_const_apply {s : Shape} {e : EltTy} {d : Fin 1 → Nat} (f : Vec F s e) (idxs : Fin s.rank → IVec ⟨1, d⟩ 32)
    (c : Elt F e) (h : ∀ a x, (idxs a x).toNat < s.size a) (j : s.Idx) :
    ((∃ k : Fin (d 0), ∀ a, (j a).val = (idxs a (Shape.ofLane k)).toNat) → storeIdx f idxs (fun _ => c) (fun _ => 1#1) false h j = c)
      ∧ ((¬ ∃ k : Fin (d 0), ∀ a, (j a).val = (idxs a (Shape.ofLane k)).toNat) → storeIdx f idxs (fun _ => c) (fun _ => 1#1) false h j = f j) := by
  obtain ⟨h1, h2⟩ := foldl_lanes (fun (k : Fin (d 0)) (j : s.Idx) => ∀ a, (j a).val = (idxAt idxs h (Shape.ofLane k) a).val)
    (dec := fun _ _ => inferInstance) c (List.finRange (d 0)) f j
  refine ⟨fun ⟨k, hk⟩ => h1 ⟨k, List.mem_finRange k, hk⟩, fun hn => h2 fun k _ hk => hn ⟨k, hk⟩⟩

/-! ## Store n of a tile -/

/-- Store n, whose lane x writes 1.0 at posW n x, takes the scratch after n stores to the scratch after n + 1. -/
theorem storeIdx_Gn (n : ℕ) (ix : IVec ⟨1, ![16]⟩ 32)
    (h : ∀ a x, ((![ix] : Fin 1 → IVec ⟨1, ![16]⟩ 32) a x).toNat < (⟨1, ![1024]⟩ : Shape).size a)
    (hix : ∀ x : (⟨1, ![16]⟩ : Shape).Idx, (ix x).toNat = posW idxv mapv n (x 0).val) :
    storeIdx (F := F) (e := .f32) (Gn idxv mapv n) ![ix] (broadcast ⟨1, ![16]⟩ oneW) (fun _ => 1#1) false h = Gn idxv mapv (n + 1) := by
  funext j
  obtain ⟨h1, h2⟩ := storeIdx_const_apply (F := F) (e := .f32) (Gn idxv mapv n) ![ix] oneW h j
  -- a lane names element j exactly when j is that lane's position
  have hlane : (∃ k : Fin 16, ∀ a : Fin 1, (j a).val = ((![ix] : Fin 1 → IVec ⟨1, ![16]⟩ 32) a (Shape.ofLane k)).toNat)
      ↔ ∃ x, x < 16 ∧ (j 0).val = posW idxv mapv n x := by
    constructor
    · rintro ⟨k, hk⟩
      exact ⟨k.val, k.isLt, (hk 0).trans (hix (Shape.ofLane k))⟩
    · rintro ⟨x, hx, e⟩
      refine ⟨⟨x, hx⟩, fun a => ?_⟩
      match a with
      | ⟨0, _⟩ => exact e.trans (hix (Shape.ofLane (⟨x, hx⟩ : Fin 16))).symm
  by_cases hn : ∃ x, x < 16 ∧ (j 0).val = posW idxv mapv n x
  · refine (h1 (hlane.mpr hn)).trans ?_
    unfold Gn
    exact (if_pos ⟨n, Nat.lt_succ_self n, hn⟩).symm
  · refine (h2 fun hk => hn (hlane.mp hk)).trans ?_
    by_cases hs : ∃ s, s < n ∧ ∃ x, x < 16 ∧ (j 0).val = posW idxv mapv s x
    · obtain ⟨s, hsn, hx⟩ := hs
      unfold Gn
      exact (if_pos ⟨s, hsn, hx⟩).trans (if_pos ⟨s, Nat.lt_succ_of_lt hsn, hx⟩).symm
    · unfold Gn
      refine (if_neg hs).trans (if_neg ?_).symm
      rintro ⟨s, hsn, hx⟩
      rcases Nat.lt_succ_iff_lt_or_eq.mp hsn with hlt | heq
      · exact hs ⟨s, hlt, hx⟩
      · exact hn (heq ▸ hx)

/-! ## The index vector of store n -/

omit [FloatOps F] in
/-- 128 times a word below 8 plus a word below 128, as a number: no wrap. -/
theorem toNat_mul128_add (a b : BitVec 32) (ha : a.toNat < 8) (hb : b.toNat < 128) :
    (a * 128#32 + b).toNat = 128 * a.toNat + b.toNat := by
  have h128 : (128#32 : BitVec 32).toNat = 128 := rfl
  rw [BitVec.toNat_add, BitVec.toNat_mul, h128]
  omega

/-- The index vector of store n = 2 c + k: lane x holds posW n x. -/
theorem posW_of (n c k : ℕ) (hn : n = 2 * c + k) (hk : k < 2) (hc : c < 8) (E LT : IVec ⟨1, ![16]⟩ 32)
    (h0 : ∀ a x, ((![E] : Fin 1 → IVec ⟨1, ![16]⟩ 32) a x).toNat < (⟨1, ![256]⟩ : Shape).size a)
    (h1 : ∀ a x, ((![loadIdx (F := F) (e := .i32) idxv ![E] h0] : Fin 1 → IVec ⟨1, ![16]⟩ 32) a x).toNat < (⟨1, ![16]⟩ : Shape).size a)
    (hE : ∀ x, (E x).toNat = 2 * (16 * c + (x 0).val) + k) (hLT : ∀ x, (LT x).toNat = 16 * c + (x 0).val)
    (hmap : ∀ j, (mapv j).toNat < 8) :
    ∀ x, (addi (muli (loadIdx (F := F) (e := .i32) mapv ![loadIdx (F := F) (e := .i32) idxv ![E] h0] h1) (broadcast ⟨1, ![16]⟩ 128#32)) LT x).toNat = posW idxv mapv n (x 0).val := by
  intro x
  have hx : (x 0).val < 16 := (x 0).isLt
  have hw : (loadIdx (F := F) (e := .i32) idxv ![E] h0 x).toNat < 16 := h1 0 x
  -- the expert word gathered is the one devW reads
  have e1 : loadIdx (F := F) (e := .i32) idxv ![E] h0 x
      = idxv (ix1 (⟨(2 * (16 * c + (x 0).val) + k) % 256, Nat.mod_lt _ (by decide)⟩ : Fin 256)) := by
    show idxv (idxAt ![E] h0 x) = _
    refine congrArg idxv (funext fun a => ?_)
    match a with
    | ⟨0, _⟩ => exact Fin.ext (show (E x).toNat = (2 * (16 * c + (x 0).val) + k) % 256 by rw [hE x]; omega)
  -- so the device word gathered is devW
  have e2 : (loadIdx (F := F) (e := .i32) mapv ![loadIdx (F := F) (e := .i32) idxv ![E] h0] h1 x).toNat = devW idxv mapv (16 * c + (x 0).val) k := by
    show (mapv (idxAt ![loadIdx (F := F) (e := .i32) idxv ![E] h0] h1 x)).toNat = _
    unfold devW
    refine congrArg (fun i => (mapv i).toNat) (funext fun a => ?_)
    match a with
    | ⟨0, _⟩ =>
      refine Fin.ext ?_
      show (loadIdx (F := F) (e := .i32) idxv ![E] h0 x).toNat = (idxv _).toNat % 16
      rw [← e1]; omega
  have hd : devW idxv mapv (16 * c + (x 0).val) k < 8 := hmap _
  show (loadIdx (F := F) (e := .i32) mapv ![loadIdx (F := F) (e := .i32) idxv ![E] h0] h1 x * 128#32 + LT x).toNat = _
  rw [toNat_mul128_add _ _ (by rw [e2]; exact hd) (by rw [hLT x]; omega), e2, hLT x]
  unfold posW
  have q1 : n / 2 = c := by omega
  have q2 : n % 2 = k := by omega
  rw [q1, q2]

omit [FloatOps F] in
/-- A store's index vector stays inside the scratch. -/
theorem store_ix_lt (M LT : IVec ⟨1, ![16]⟩ 32) (hM : ∀ x, (M x).toNat < 8) (hLT : ∀ x, (LT x).toNat < 128) :
    ∀ x, (addi (muli M (broadcast ⟨1, ![16]⟩ 128#32)) LT x).toNat < 1024 := by
  intro x
  show (M x * 128#32 + LT x).toNat < 1024
  rw [toNat_mul128_add _ _ (hM x) (hLT x)]
  have := hM x; have := hLT x; omega

omit [FloatOps F] in
/-- The in-range facts an indexed load or store cites, from a bound on the index vector. -/
theorem chk_lt (n : ℕ) (v : IVec ⟨1, ![16]⟩ 32) (hv : ∀ x, (v x).toNat < n) :
    ∀ a x, ((![v] : Fin 1 → IVec ⟨1, ![16]⟩ 32) a x).toNat < (⟨1, ![n]⟩ : Shape).size a := by
  intro a x
  match a with
  | ⟨0, _⟩ => exact hv x

theorem chk_load {N : ℕ} (n : ℕ) (f : IVec ⟨1, ![N]⟩ 32) (hf : ∀ j, (f j).toNat < n) (idx : Fin 1 → IVec ⟨1, ![16]⟩ 32)
    (h : ∀ a x, (idx a x).toNat < (⟨1, ![N]⟩ : Shape).size a) :
    ∀ a x, ((![loadIdx (F := F) (e := .i32) f idx h] : Fin 1 → IVec ⟨1, ![16]⟩ 32) a x).toNat < (⟨1, ![n]⟩ : Shape).size a := by
  intro a x
  match a with
  | ⟨0, _⟩ => exact hf _

/-! ## The specification's mask over one worker's tokens -/

/-- Worker w's 256 words of the flat expert list. -/
def flatSlice (idx : IVec Cert.Spec.Si 32) (w : Fin 32) : IVec ⟨1, ![256]⟩ 32 := fun j =>
  Cert.Spec.flat idx (ix1 (⟨256 * w.val + (j 0).val, by have h : (j 0).val < 256 := (j 0).isLt; omega⟩ : Fin 8192))

omit [FloatOps F] in
/-- The device word the tile of worker w reads for its token t is the specification's for token 128 w + t. -/
theorem devW_flatSlice (idx : IVec Cert.Spec.Si 32) (map : IVec Cert.Spec.Sm 32) (w : Fin 32) (t : Fin 128) (k : Fin 2) :
    devW (flatSlice idx w) map t.val k.val = Cert.Spec.devOf idx map (⟨128 * w.val + t.val, by omega⟩ : Fin 4096) k := by
  have ht : t.val < 128 := t.isLt
  have hk : k.val < 2 := k.isLt
  have key : flatSlice idx w (ix1 (⟨(2 * t.val + k.val) % 256, Nat.mod_lt _ (by decide)⟩ : Fin 256))
      = idx (ix2 (⟨128 * w.val + t.val, by omega⟩ : Fin 4096) k) := by
    show idx (ix2 _ _) = idx (ix2 _ _)
    refine congrArg idx (congrArg₂ ix2 (Fin.ext ?_) (Fin.ext ?_))
    · show (256 * w.val + (2 * t.val + k.val) % 256) / 2 = 128 * w.val + t.val; omega
    · show (256 * w.val + (2 * t.val + k.val) % 256) % 2 = k.val; omega
  unfold devW Cert.Spec.devOf
  refine congrArg (fun i => (map i).toNat) (funext fun a => ?_)
  match a with
  | ⟨0, _⟩ => exact Fin.ext (congrArg (fun v : BitVec 32 => v.toNat % 16) key)

/-- The specification's mask at device r, token 128 w + t, from worker w's own expert words. -/
theorem maskAt_eq (idx : IVec Cert.Spec.Si 32) (map : IVec Cert.Spec.Sm 32) (w : Fin 32) (r : Fin 8) (t : Fin 128) :
    Cert.Spec.maskAt (F := F) idx map r (⟨128 * w.val + t.val, by omega⟩ : Fin 4096)
      = if devW (flatSlice idx w) map t.val 0 = r.val ∨ devW (flatSlice idx w) map t.val 1 = r.val then oneW else zeroW := by
  have e0 : devW (flatSlice idx w) map t.val 0 = Cert.Spec.devOf idx map (⟨128 * w.val + t.val, by omega⟩ : Fin 4096) 0 :=
    devW_flatSlice idx map w t 0
  have e1 : devW (flatSlice idx w) map t.val 1 = Cert.Spec.devOf idx map (⟨128 * w.val + t.val, by omega⟩ : Fin 4096) 1 :=
    devW_flatSlice idx map w t 1
  have hit : Cert.Spec.Hit idx map r (⟨128 * w.val + t.val, by omega⟩ : Fin 4096)
      ↔ (devW (flatSlice idx w) map t.val 0 = r.val ∨ devW (flatSlice idx w) map t.val 1 = r.val) := by
    unfold Cert.Spec.Hit
    constructor
    · rintro ⟨k, hk⟩
      match k, hk with
      | ⟨0, _⟩, hk => exact Or.inl (e0.trans hk)
      | ⟨1, _⟩, hk => exact Or.inr (e1.trans hk)
    · rintro (h | h)
      · exact ⟨0, e0.symm.trans h⟩
      · exact ⟨1, e1.symm.trans h⟩
  unfold Cert.Spec.maskAt oneW zeroW
  by_cases hh : Cert.Spec.Hit idx map r (⟨128 * w.val + t.val, by omega⟩ : Fin 4096)
  · rw [if_pos hh, if_pos (hit.mp hh)]
  · rw [if_neg hh, if_neg fun h' => hh (hit.mpr h')]

end Cert.Proof.KB

end
-- ==== Proof.KB.Pays.lean ====
/-
  The lane values of the tile body's index vectors.

  A tile handles its 128 tokens in eight chunks of sixteen lanes. In chunk c, lane l stands for the tile's local token
  16 c + l; the two words of the flat expert list that belong to it sit at positions 2 (16 c + l) and 2 (16 c + l) + 1
  of the tile's 256 words. Each index vector is the lane counter plus a literal, doubled, plus one: all far below 2^32,
  so the word arithmetic is the arithmetic of the values.
-/
import proofs.«202873_g15822659519276_cont_week2b_991_21_alg».proof.Proof.Gen.Kernel.Skeleton

namespace Cert.Proof.KB

open Cert.Kernel Cert.Kernel.Gen Idealize.ShloMosaic

/-- A lane number is below sixteen. -/
theorem lane_lt (x : S16.Idx) : (x 0).val < 16 := (x 0).isLt

/-- The lane counter: lane l holds l. -/
theorem iota_lane (h : S16.Iotas .scVector 32 [0]) : ∀ x, (iota .scVector S16 32 [0] h x).toNat = (x 0).val := by
  intro x
  have hx := lane_lt x
  show (BitVec.ofNat 32 (0 * S16.size 0 + (x 0).val)).toNat = (x 0).val
  rw [BitVec.toNat_ofNat, Nat.zero_mul, Nat.zero_add]
  exact Nat.mod_eq_of_lt (by omega)

/-- A literal k added to a vector whose lane l holds l: lane l holds k + l. -/
theorem lt_of (k : Nat) (hk : k ≤ 112) (v5 : IVec S16 32) (hv5 : ∀ x, (v5 x).toNat = (x 0).val) (x : S16.Idx) :
    (addi (broadcast S16 (BitVec.ofNat 32 k)) v5 x).toNat = k + (x 0).val := by
  have hx := lane_lt x
  show (BitVec.ofNat 32 k + v5 x).toNat = _
  rw [BitVec.toNat_add, BitVec.toNat_ofNat, hv5 x]
  omega

/-- A vector doubled, where the lane holds n below 2^30. -/
theorem ev_of (p : IVec S16 32) (n : Nat) (x : S16.Idx) (hn : n < 2 ^ 30) (hp : (p x).toNat = n) :
    (muli (broadcast S16 2#32) p x).toNat = 2 * n + 0 := by
  show (2#32 * p x).toNat = _
  rw [BitVec.toNat_mul, hp, show (2#32 : BitVec 32).toNat = 2 from rfl]
  omega

/-- A vector doubled, plus one. -/
theorem od_of (p : IVec S16 32) (n : Nat) (x : S16.Idx) (hn : n < 2 ^ 30) (hp : (p x).toNat = n) :
    (addi (muli (broadcast S16 2#32) p) (broadcast S16 1#32) x).toNat = 2 * n + 1 := by
  show (2#32 * p x + 1#32).toNat = _
  rw [BitVec.toNat_add, BitVec.toNat_mul, hp, show (2#32 : BitVec 32).toNat = 2 from rfl, show (1#32 : BitVec 32).toNat = 1 from rfl]
  omega

/-! ### Chunk 0: tokens 0 to 15 of the tile -/

theorem pay_lt0 : ∀ x, (k0_pay10 x).toNat = 16 * 0 + (x 0).val :=
  fun x => lt_of 0 (by omega) _ (iota_lane _) x

theorem pay_ev0 : ∀ x, (k0_pay11 x).toNat = 2 * (16 * 0 + (x 0).val) + 0 :=
  fun x => ev_of _ _ x (by have := lane_lt x; omega) (pay_lt0 x)

theorem pay_od0 : ∀ x, (k0_pay12 x).toNat = 2 * (16 * 0 + (x 0).val) + 1 :=
  fun x => od_of _ _ x (by have := lane_lt x; omega) (pay_lt0 x)

/-! ### Chunk 1: tokens 16 to 31 of the tile -/

theorem pay_lt1 (v5 : IVec S16 32) (hv5 : ∀ x, (v5 x).toNat = (x 0).val) : ∀ x, (k0_pay15 v5 16#32 x).toNat = 16 * 1 + (x 0).val :=
  fun x => lt_of 16 (by omega) v5 hv5 x

theorem pay_ev1 (v5 : IVec S16 32) (hv5 : ∀ x, (v5 x).toNat = (x 0).val) : ∀ x, (k0_pay16 v5 16#32 x).toNat = 2 * (16 * 1 + (x 0).val) + 0 :=
  fun x => ev_of _ _ x (by have := lane_lt x; omega) (pay_lt1 v5 hv5 x)

theorem pay_od1 (v5 : IVec S16 32) (hv5 : ∀ x, (v5 x).toNat = (x 0).val) : ∀ x, (k0_pay17 v5 16#32 x).toNat = 2 * (16 * 1 + (x 0).val) + 1 :=
  fun x => od_of _ _ x (by have := lane_lt x; omega) (pay_lt1 v5 hv5 x)

/-! ### Chunk 2: tokens 32 to 47 of the tile -/

theorem pay_lt2 (v5 : IVec S16 32) (hv5 : ∀ x, (v5 x).toNat = (x 0).val) : ∀ x, (k0_pay20 v5 x).toNat = 16 * 2 + (x 0).val :=
  fun x => lt_of 32 (by omega) v5 hv5 x

theorem pay_ev2 (v5 : IVec S16 32) (hv5 : ∀ x, (v5 x).toNat = (x 0).val) : ∀ x, (k0_pay21 v5 x).toNat = 2 * (16 * 2 + (x 0).val) + 0 :=
  fun x => ev_of _ _ x (by have := lane_lt x; omega) (pay_lt2 v5 hv5 x)

theorem pay_od2 (v5 : IVec S16 32) (hv5 : ∀ x, (v5 x).toNat = (x 0).val) : ∀ x, (k0_pay22 v5 x).toNat = 2 * (16 * 2 + (x 0).val) + 1 :=
  fun x => od_of _ _ x (by have := lane_lt x; omega) (pay_lt2 v5 hv5 x)

/-! ### Chunk 3: tokens 48 to 63 of the tile -/

theorem pay_lt3 (v5 : IVec S16 32) (hv5 : ∀ x, (v5 x).toNat = (x 0).val) : ∀ x, (k0_pay25 v5 x).toNat = 16 * 3 + (x 0).val :=
  fun x => lt_of 48 (by omega) v5 hv5 x

theorem pay_ev3 (v5 : IVec S16 32) (hv5 : ∀ x, (v5 x).toNat = (x 0).val) : ∀ x, (k0_pay26 v5 x).toNat = 2 * (16 * 3 + (x 0).val) + 0 :=
  fun x => ev_of _ _ x (by have := lane_lt x; omega) (pay_lt3 v5 hv5 x)

theorem pay_od3 (v5 : IVec S16 32) (hv5 : ∀ x, (v5 x).toNat = (x 0).val) : ∀ x, (k0_pay27 v5 x).toNat = 2 * (16 * 3 + (x 0).val) + 1 :=
  fun x => od_of _ _ x (by have := lane_lt x; omega) (pay_lt3 v5 hv5 x)

/-! ### Chunk 4: tokens 64 to 79 of the tile -/

theorem pay_lt4 (v5 : IVec S16 32) (hv5 : ∀ x, (v5 x).toNat = (x 0).val) : ∀ x, (k0_pay30 v5 x).toNat = 16 * 4 + (x 0).val :=
  fun x => lt_of 64 (by omega) v5 hv5 x

theorem pay_ev4 (v5 : IVec S16 32) (hv5 : ∀ x, (v5 x).toNat = (x 0).val) : ∀ x, (k0_pay31 v5 x).toNat = 2 * (16 * 4 + (x 0).val) + 0 :=
  fun x => ev_of _ _ x (by have := lane_lt x; omega) (pay_lt4 v5 hv5 x)

theorem pay_od4 (v5 : IVec S16 32) (hv5 : ∀ x, (v5 x).toNat = (x 0).val) : ∀ x, (k0_pay32 v5 x).toNat = 2 * (16 * 4 + (x 0).val) + 1 :=
  fun x => od_of _ _ x (by have := lane_lt x; omega) (pay_lt4 v5 hv5 x)

/-! ### Chunk 5: tokens 80 to 95 of the tile -/

theorem pay_lt5 (v5 : IVec S16 32) (hv5 : ∀ x, (v5 x).toNat = (x 0).val) : ∀ x, (k0_pay35 v5 x).toNat = 16 * 5 + (x 0).val :=
  fun x => lt_of 80 (by omega) v5 hv5 x

theorem pay_ev5 (v5 : IVec S16 32) (hv5 : ∀ x, (v5 x).toNat = (x 0).val) : ∀ x, (k0_pay36 v5 x).toNat = 2 * (16 * 5 + (x 0).val) + 0 :=
  fun x => ev_of _ _ x (by have := lane_lt x; omega) (pay_lt5 v5 hv5 x)

theorem pay_od5 (v5 : IVec S16 32) (hv5 : ∀ x, (v5 x).toNat = (x 0).val) : ∀ x, (k0_pay37 v5 x).toNat = 2 * (16 * 5 + (x 0).val) + 1 :=
  fun x => od_of _ _ x (by have := lane_lt x; omega) (pay_lt5 v5 hv5 x)

/-! ### Chunk 6: tokens 96 to 111 of the tile -/

theorem pay_lt6 (v5 : IVec S16 32) (hv5 : ∀ x, (v5 x).toNat = (x 0).val) : ∀ x, (k0_pay40 v5 x).toNat = 16 * 6 + (x 0).val :=
  fun x => lt_of 96 (by omega) v5 hv5 x

theorem pay_ev6 (v5 : IVec S16 32) (hv5 : ∀ x, (v5 x).toNat = (x 0).val) : ∀ x, (k0_pay41 v5 x).toNat = 2 * (16 * 6 + (x 0).val) + 0 :=
  fun x => ev_of _ _ x (by have := lane_lt x; omega) (pay_lt6 v5 hv5 x)

theorem pay_od6 (v5 : IVec S16 32) (hv5 : ∀ x, (v5 x).toNat = (x 0).val) : ∀ x, (k0_pay42 v5 x).toNat = 2 * (16 * 6 + (x 0).val) + 1 :=
  fun x => od_of _ _ x (by have := lane_lt x; omega) (pay_lt6 v5 hv5 x)

/-! ### Chunk 7: tokens 112 to 127 of the tile -/

theorem pay_lt7 (v5 : IVec S16 32) (hv5 : ∀ x, (v5 x).toNat = (x 0).val) : ∀ x, (k0_pay45 v5 x).toNat = 16 * 7 + (x 0).val :=
  fun x => lt_of 112 (by omega) v5 hv5 x

theorem pay_ev7 (v5 : IVec S16 32) (hv5 : ∀ x, (v5 x).toNat = (x 0).val) : ∀ x, (k0_pay46 v5 x).toNat = 2 * (16 * 7 + (x 0).val) + 0 :=
  fun x => ev_of _ _ x (by have := lane_lt x; omega) (pay_lt7 v5 hv5 x)

theorem pay_od7 (v5 : IVec S16 32) (hv5 : ∀ x, (v5 x).toNat = (x 0).val) : ∀ x, (k0_pay47 v5 x).toNat = 2 * (16 * 7 + (x 0).val) + 1 :=
  fun x => od_of _ _ x (by have := lane_lt x; omega) (pay_lt7 v5 hv5 x)

end Cert.Proof.KB
-- ==== Proof.KB.TileDefs.lean ====
/-
  Names shared by the parts of one tile's task: the thread of grid place L, the arrays and scratch buffers as the
  kernel's memrefs, the tile's three DMA semaphore cells, and the tile's own buffers and semaphores opened at them.
-/
import proofs.«202873_g15822659519276_cont_week2b_991_21_alg».proof.Proof.KB.Common
import proofs.«202873_g15822659519276_cont_week2b_991_21_alg».proof.Proof.KB.MaskDefs
import proofs.«202873_g15822659519276_cont_week2b_991_21_alg».proof.Proof.KB.MaskVal

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable [FloatOps F]

section Tile
variable (d : Dev nD) (L : grid0.Coords)
abbrev cV (L : grid0.Coords) : Fin τ.nSC := (L 0).castLE hcore0
abbrev jV (L : grid0.Coords) : Fin τ.nSub := (L 1).castLE hsub0

abbrev A2 : Memref sig .scVector .hbm S8192 .i32 := Memref.whole main_v0_scv
abbrev A3 : Memref sig .scVector .hbm S16 .i32 := Memref.whole main_arg2_scv
abbrev A4 : Memref sig .scVector .hbm S8x4096 .f32 := Memref.whole main_v1_scv
abbrev s0 : Memref sig .scVector .vmem S256 .i32 := Memref.whole cc0_scratch0
abbrev s1 : Memref sig .scVector .vmem S16 .i32 := Memref.whole cc0_scratch1
abbrev s2 : Memref sig .scVector .vmem S1024 .f32 := Memref.whole cc0_scratch2

local notation "𝕥" => (V d (cV L) (jV L))

theorem bound_zero : grid0.bound 0 = 2 := rfl
theorem bound_one : grid0.bound 1 = 16 := rfl
abbrev widL (L : grid0.Coords) : Fin 32 := wid (Fin.cast bound_zero (L 0)) (Fin.cast bound_one (L 1))

abbrev c3cell (d : Dev nD) (c : Fin τ.nSC) (i : Fin τ.nSub) : GSem nD τ sig := (V d c i, .dma cc0_scratch3.sem)
abbrev c0cell (d : Dev nD) (c : Fin τ.nSC) (i : Fin τ.nSub) : GSem nD τ sig := (V d c i, .dma cc0_scoped0.sem)
abbrev c1cell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (c3cell d (cV L) (jV L)) 0 ∗ semVal (c0cell d (cV L) (jV L)) 0 ∗ semVal (c1cell d (cV L) (jV L)) 0
          ∗ bigSep ((((ownCells (V d (cV L) (jV L))).erase (c3cell d (cV L) (jV L))).erase (c0cell d (cV L) (jV L))).erase (c1cell d (cV L) (jV L)))
              fun g => semVal g 0) := by
  unfold SparseCore.Cfg.ownSems0
  rw [SparseCore.bigSep_erase' ((mem_ownCells (g := c3cell d (cV L) (jV L))).mpr ⟨rfl, by
      show (SemLoc.dma cc0_scratch3.sem : SemLoc sig).isScoped .scVector = true; decide⟩),
    SparseCore.bigSep_erase' (Finset.mem_erase.mpr ⟨by simp [c3cell, c0cell]; decide, (mem_ownCells (g := c0cell d (cV L) (jV L))).mpr ⟨rfl, by
      show (SemLoc.dma cc0_scoped0.sem : SemLoc sig).isScoped .scVector = true; decide⟩⟩),
    SparseCore.bigSep_erase' (Finset.mem_erase.mpr ⟨by simp [c0cell, c1cell]; decide, Finset.mem_erase.mpr ⟨by simp [c3cell, c1cell]; decide,
      (mem_ownCells (g := c1cell d (cV L) (jV L))).mpr ⟨rfl, by show (SemLoc.dma cc0_scoped1.sem : SemLoc sig).isScoped .scVector = true; decide⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] in
theorem pts_s0 (f : Buf (Elt F) ((V d (cV L) (jV L)).loc cc0_scratch0)) :
    ((s0).view.loc (V d (cV L) (jV L)) ↦{fullShare} f : sProp 𝕄) = (V d (cV L) (jV L)).loc cc0_scratch0 ↦{fullShare} f := rfl
omit [FloatOps F] in
theorem pts_s1 (f : Buf (Elt F) ((V d (cV L) (jV L)).loc cc0_scratch1)) :
    ((s1).view.loc (V d (cV L) (jV L)) ↦{fullShare} f : sProp 𝕄) = (V d (cV L) (jV L)).loc cc0_scratch1 ↦{fullShare} f := rfl
omit [FloatOps F] in
theorem pts_s2 (f : Buf (Elt F) ((V d (cV L) (jV L)).loc cc0_scratch2)) :
    ((s2).view.loc (V d (cV L) (jV L)) ↦{fullShare} f : sProp 𝕄) = (V d (cV L) (jV L)).loc cc0_scratch2 ↦{fullShare} f := rfl
omit [FloatOps F] in
theorem pts_A2 (q : PosShare TreeShare) (f : Buf (Elt F) (fLoc d)) :
    ((A2).view.loc (V d (cV L) (jV L)) ↦{q} f : sProp 𝕄) = fLoc d ↦{q} f := rfl
omit [FloatOps F] in
theorem pts_A3 (q : PosShare TreeShare) (f : Buf (Elt F) (mLoc d)) :
    ((A3).view.loc (V d (cV L) (jV L)) ↦{q} f : sProp 𝕄) = mLoc d ↦{q} f := rfl

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The mask scratch read as the mask array reads it: entry (r, c) is scratch word 128 r + c % 128, whichever tile's
    columns c lies in. -/
def spreadG (G : S1024.Idx → F .f32) : S8x4096.Idx → F .f32 := fun i =>
  G (ix1 (⟨128 * (i 0).val + (i 1).val % 128, by
    have h0 : (i 0).val < 8 := (i 0).isLt
    have h1 : (i 1).val % 128 < 128 := Nat.mod_lt _ (by decide)
    omega⟩ : Fin 1024))

end Tile
end Cert.Proof.KB
end
-- ==== Proof.KB.ZeroTrip.lean ====
/-
  Zeroing the mask scratch, one loop trip at a time.

  Trip k of the zeroing loop stores sixteen zeros at each of the eight offsets 128 k + 16 i, i < 8: together the 128
  words [128 k, 128 k + 128). If the words below 128 k were zero before the trip, the words below 128 (k + 1) are zero
  after it: a word under one of the eight stores reads that store's payload, which is zero; a word under none lies below
  128 k and is unchanged. After the eight trips all 1024 words are zero, which is the scratch before any indexed store.
-/
import proofs.«202873_g15822659519276_cont_week2b_991_21_alg».proof.Proof.KB.TileDefs
import Idealize.ShloMosaic.Lib.Writes

noncomputable section

namespace Cert.Proof.KB

open Cert.Kernel Cert.Kernel.Gen

open Idealize.ShloMosaic
open Idealize.ShloMosaic.SparseCore (S V T)
open Idealize.SL.Sem
open Idealize.ShloMosaic.ValueIdx

variable {F : FTy → Type}
variable [FloatOps F]

/-- Writes whose payloads are all one constant leave that constant wherever the contents held it before or some piece
    covers. -/
theorem read_writes_const {sig : RefSig} {κ : Kind} {sp : Space} {s : Shape} {e : EltTy} {Val : EltTy → Type}
    (v : View sig κ sp s e) (f : v.ty.Contents Val) (z : Val e) (L : List (View.Piece Val s e))
    (hL : ∀ p ∈ L, ∀ x : p.1.shape.Idx, p.2 x = z) (y : s.Idx)
    (hy : v.read Val f y = z ∨ ∃ p ∈ L, y ∈ p.1.set) : v.read Val (v.writes Val f L) y = z := by
  by_cases h : ∃ p ∈ L, y ∈ p.1.set
  · exact View.read_writes_apply_of_pieces v f (fun _ => z) L hL y h
  · rw [View.read_writes_apply_of_forall_not_mem v f y L fun p hp hm => h ⟨p, hp, hm⟩]
    exact hy.resolve_right h

/-- The i-th store of trip k: sixteen zeros at offset 128 k + 16 i. -/
def zeroPiece (k : Fin k0_t1_loop.trips) (i : Fin 8) : View.Piece (Elt F) S1024 .f32 :=
  ⟨Rect.unit (s := S1024) (k0_off2 k (BitVec.ofNat 32 (16 * i.val))) S16.size (k0_off2_inb k i), fun _ => zeroW⟩

theorem trips_eq : Scf.trips k0_t1_loop.lb k0_t1_loop.ub k0_t1_loop.st = 8 := by decide

section Tile
variable (d : Dev nD) (L : grid0.Coords)

theorem zero_trip (k : Fin k0_t1_loop.trips) (f : Buf (Elt F) ((V d (cV L) (jV L)).loc cc0_scratch2))
    (hf : ∀ j : S1024.Idx, (j 0).val < 128 * k.val → f j = zeroW) :
    ∀ j : S1024.Idx, (j 0).val < 128 * (k.val + 1) →
      (s2).view.writes (Elt F) f [⟨Rect.unit (s := S1024) (k0_off2 k 112#32) S16.size (k0_off2_inb k 7), k0_pay8⟩,
        ⟨Rect.unit (s := S1024) (k0_off2 k 96#32) S16.size (k0_off2_inb k 6), k0_pay7⟩,
        ⟨Rect.unit (s := S1024) (k0_off2 k 80#32) S16.size (k0_off2_inb k 5), k0_pay6⟩,
        ⟨Rect.unit (s := S1024) (k0_off2 k 64#32) S16.size (k0_off2_inb k 4), k0_pay5⟩,
        ⟨Rect.unit (s := S1024) (k0_off2 k 48#32) S16.size (k0_off2_inb k 3), k0_pay4⟩,
        ⟨Rect.unit (s := S1024) (k0_off2 k 32#32) S16.size (k0_off2_inb k 2), k0_pay3⟩,
        ⟨Rect.unit (s := S1024) (k0_off2 k 16#32) S16.size (k0_off2_inb k 1), k0_pay2⟩,
        ⟨Rect.unit (s := S1024) (k0_off2 k 0#32) S16.size (k0_off2_inb k 0), k0_pay1⟩] j = zeroW := by
  intro j hj
  have hk : k.val < 8 := lt_of_lt_of_eq k.isLt trips_eq
  have hall : ∀ i : Fin 8, i ∈ ([7, 6, 5, 4, 3, 2, 1, 0] : List (Fin 8)) := by decide
  show (s2).view.read (Elt F) ((s2).view.writes (Elt F) f (([7, 6, 5, 4, 3, 2, 1, 0] : List (Fin 8)).map (zeroPiece (F := F) k))) j = zeroW
  refine read_writes_const (Val := Elt F) (s2).view f (zeroW (F := F)) _ (fun p hp x => ?_) j ?_
  · obtain ⟨i, -, rfl⟩ := List.mem_map.1 hp
    rfl
  · by_cases hlo : (j 0).val < 128 * k.val
    · exact Or.inl (hf j hlo)
    · refine Or.inr ?_
      have hi : ((j 0).val - 128 * k.val) / 16 < 8 := by omega
      refine ⟨zeroPiece k ⟨_, hi⟩, List.mem_map.2 ⟨_, hall _, rfl⟩, ?_⟩
      show j ∈ (Rect.unit (s := S1024) (k0_off2 k (BitVec.ofNat 32 (16 * (((j 0).val - 128 * k.val) / 16)))) S16.size
        (k0_off2_inb k ⟨_, hi⟩)).set
      refine Rect.mem_set_unit.2 (Fin.forall_fin_one.2 ?_)
      rw [k0_off2_eq k ⟨_, hi⟩]
      show 128 * k.val + 16 * (((j 0).val - 128 * k.val) / 16) ≤ (j 0).val
        ∧ (j 0).val < 128 * k.val + 16 * (((j 0).val - 128 * k.val) / 16) + 16
      omega

/-- A scratch whose words are all zero after the eight trips is the scratch before any indexed store. -/
theorem zero_all (idxv : IVec S256 32) (mapv : IVec S16 32) (f : Buf (Elt F) ((V d (cV L) (jV L)).loc cc0_scratch2))
    (hf : ∀ j : S1024.Idx, (j 0).val < 128 * Scf.trips k0_t1_loop.lb k0_t1_loop.ub k0_t1_loop.st → f j = zeroW) :
    f = Gn idxv mapv 0 := by
  rw [Gn_zero]
  funext j
  refine hf j ?_
  have hj : (j 0).val < 1024 := (j 0).isLt
  rw [trips_eq]
  omega

end Tile
end Cert.Proof.KB
end
-- ==== Proof.KB.Landed.lean ====
/-
  What the two synchronous copies leave in a tile's scratch buffers.

  The first copy moves the tile's 256 words of the flat expert list, words [256 w, 256 w + 256) for worker
  w = 2 i + c at grid place (c, i), into the first scratch buffer; the second moves the whole expert-to-device table
  into the second. An unmasked write of a whole buffer leaves its payload, and the payload read through the slice at
  offset 512 i + 256 c = 256 w is the flat list at 256 w + j.
-/
import proofs.«202873_g15822659519276_cont_week2b_991_21_alg».proof.Proof.KB.TileDefs
import proofs.«202873_g15822659519276_cont_week2b_991_21_alg».proof.Proof.KB.MaskStep

noncomputable section

namespace Cert.Proof.KB

open Cert.Kernel Cert.Kernel.Gen

open Idealize.ShloMosaic
open Idealize.ShloMosaic.SparseCore (S V T)
open Idealize.ShloMosaic.ValueIdx

variable {F : FTy → Type}

section Tile
variable (m : (ℓ : Loc nD τ sig) → Buf (Elt F) ℓ) (d : Dev nD) (L : grid0.Coords)

/-- The slice of the flat expert list a tile copies starts at 256 times its worker number. -/
theorem off1_emb (j : S256.Idx) :
    (Rect.unit (s := S8192) (k0_off1 L) S256.size (k0_off1_inb L)).emb j
      = ix1 (⟨256 * (widL L).val + (j 0).val, by
          have h : (j 0).val < 256 := (j 0).isLt
          have hw : (widL L).val < 32 := (widL L).isLt
          omega⟩ : Fin 8192) := by
  funext a
  match a with
  | ⟨0, _⟩ =>
    apply Fin.ext
    show k0_off1 L 0 + 1 * (j 0).val = 256 * (2 * (L 1).val + (L 0).val) + (j 0).val
    rw [k0_off1_eq L]
    show 512 * (L 1).val + 256 * (L 0).val + 1 * (j 0).val = _
    omega

/-- After the first copy the first scratch buffer holds the tile's 256 words of the flat expert list. -/
theorem s0_landed (g0 : Buf (Elt F) ((V d (cV L) (jV L)).loc cc0_scratch0)) :
    View.write (Elt F) (s0).view g0
        (ReadAs.same.apply (View.read (Elt F)
          ((A2).slice (Rect.unit (s := S8192) (k0_off1 L) S256.size (k0_off1_inb L)) (fun _ => rfl)).view (flatB m d)))
        Finset.univ
      = (flatSlice (m (iLoc d)) (widL L) : Buf (Elt F) ((V d (cV L) (jV L)).loc cc0_scratch0)) := by
  refine (View.write_whole_univ (Val := Elt F) cc0_scratch0 g0 _).trans ?_
  funext j
  show flatB m d ((Rect.unit (s := S8192) (k0_off1 L) S256.size (k0_off1_inb L)).emb j) = flatSlice (m (iLoc d)) (widL L) j
  rw [off1_emb]
  rfl

/-- After the second copy the second scratch buffer holds the expert-to-device table. -/
theorem s1_landed (g1 : Buf (Elt F) ((V d (cV L) (jV L)).loc cc0_scratch1)) :
    View.write (Elt F) (s1).view g1 (ReadAs.same.apply (View.read (Elt F) (A3).view (m (mLoc d)))) Finset.univ
      = (m (mLoc d) : Buf (Elt F) ((V d (cV L) (jV L)).loc cc0_scratch1)) := by
  exact View.write_whole_univ (Val := Elt F) cc0_scratch1 g1 _

end Tile

end Cert.Proof.KB

end
-- ==== Proof.KB.TailDefs.lean ====
/-
  Names for the last segment of a tile's task: the eight copies' source and target pieces as the body spells them, what a
  landed copy leaves, and the targets' offsets in closed form.
-/
import proofs.«202873_g15822659519276_cont_week2b_991_21_alg».proof.Proof.KB.TileDefs
import Idealize.ShloMosaic.Lib.Batch
import Idealize.ShloMosaic.Lib.Tactic
import Idealize.ShloMosaic.Lib.Writes

noncomputable section

namespace Cert.Proof.KB

open Cert.Kernel Cert.Kernel.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable [FloatOps F]

section Tile
variable (d : Dev nD) (L : grid0.Coords)

local notation "𝕥" => (V d (cV L) (jV L))

/-- One row piece of the mask array as a copy's target names it: the row and the 128 columns from the given offsets,
    seen as 128 words. -/
abbrev rowM (off : Fin 2 → ℕ) (h : ∀ a, off a + S1x128.size a ≤ S8x4096.size a) : Memref sig .scVector .hbm S128 .f32 :=
  (A4.slice (Rect.unit (s := S8x4096) off S1x128.size h) (fun _ => rfl)).squeeze S128 squeezes_S1x128_S128
/-- 128 words of the mask scratch from word o. -/
abbrev srcM (o : ℕ) (h : ∀ a, (![o] : Fin 1 → ℕ) a + S128.size a ≤ S1024.size a) : Memref sig .scVector .vmem S128 .f32 :=
  s2.slice (Rect.unit (s := S1024) ![o] S128.size h) (fun _ => rfl)

/-- What a landed copy leaves in the mask array: the target piece overwritten whole by the source piece's words. -/
abbrev landed (G : Buf (Elt F) ((V d (cV L) (jV L)).loc cc0_scratch2)) (fw : Buf (Elt F) (wLoc d))
    (off : Fin 2 → ℕ) (h : ∀ a, off a + S1x128.size a ≤ S8x4096.size a) (o : ℕ) (ho : ∀ a, (![o] : Fin 1 → ℕ) a + S128.size a ≤ S1024.size a) :
    Buf (Elt F) ((rowM off h).view.loc 𝕥) :=
  (rowM off h).view.writes (Elt F) fw [⟨Rect.whole S128, ReadAs.same.apply ((srcM o ho).view.read (Elt F) G)⟩]

/-- The tile's columns start at 128 times its number. -/
theorem off_row (r : Fin 8) : (![r.val, 256 * (L 1).val + 128 * (L 0).val] : Fin 2 → ℕ) = ![r.val, 128 * (widL L).val] := by
  funext a
  match a with
  | ⟨0, _⟩ => rfl
  | ⟨1, _⟩ => show 256 * (L 1).val + 128 * (L 0).val = 128 * (2 * (L 1).val + (L 0).val); omega
theorem off3_row : k0_off3 L = ![(0 : Fin 8).val, 128 * (widL L).val] := (k0_off3_eq L).trans (off_row L 0)
theorem off4_row : k0_off4 L = ![(1 : Fin 8).val, 128 * (widL L).val] := (k0_off4_eq L).trans (off_row L 1)
theorem off5_row : k0_off5 L = ![(2 : Fin 8).val, 128 * (widL L).val] := (k0_off5_eq L).trans (off_row L 2)
theorem off6_row : k0_off6 L = ![(3 : Fin 8).val, 128 * (widL L).val] := (k0_off6_eq L).trans (off_row L 3)
theorem off7_row : k0_off7 L = ![(4 : Fin 8).val, 128 * (widL L).val] := (k0_off7_eq L).trans (off_row L 4)
theorem off8_row : k0_off8 L = ![(5 : Fin 8).val, 128 * (widL L).val] := (k0_off8_eq L).trans (off_row L 5)
theorem off9_row : k0_off9 L = ![(6 : Fin 8).val, 128 * (widL L).val] := (k0_off9_eq L).trans (off_row L 6)
theorem off10_row : k0_off10 L = ![(7 : Fin 8).val, 128 * (widL L).val] := (k0_off10_eq L).trans (off_row L 7)

end Tile
end Cert.Proof.KB
end
-- ==== Proof.KB.TailRun.lean ====
/-
  The last segment of a tile's task, run: the eight copies of the mask scratch's rows to the tile's pieces of the mask
  array, all on one DMA semaphore, and the eight waits, over the pieces as the copies name them.

  No load or store touches a copy's source or target between the first copy and the last wait, so the copies are one counted
  batch: nothing is known at the first seven waits, and the eighth hands back every target at its source's words.
-/
import proofs.«202873_g15822659519276_cont_week2b_991_21_alg».proof.Proof.KB.TailDefs
import Idealize.ShloMosaic.Lib.Batch
import Idealize.ShloMosaic.Lib.Tactic
import Idealize.ShloMosaic.Lib.Writes

noncomputable section

namespace Cert.Proof.KB

open Cert.Kernel Cert.Kernel.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable [FloatOps F]

section Tile
variable (d : Dev nD) (L : grid0.Coords)

local notation "𝕥" => (V d (cV L) (jV L))

/-- The suffix of the tile's body from its first copy: the eight copies of the mask scratch's rows to the tile's pieces of
    the mask array, all on one DMA semaphore, then the eight waits. -/
def tailProg (L : grid0.Coords) : Prog (TpuEff nD τ sig (Elt F) Λ₀ (.scVector ((L 0).castLE hcore0) ((L 1).castLE hsub0))) PUnit := do
  let v154 : Memref sig .scVector .hbm S1x128 .f32 := A4.slice (Rect.unit (s := S8x4096) (k0_off3 L) S1x128.size (k0_off3_inb L)) (fun _ => rfl)
  let v155 : Memref sig .scVector .hbm S128 .f32 := v154.squeeze S128 squeezes_S1x128_S128
  let v156 : Memref sig .scVector .vmem S128 .f32 := s2.slice (Rect.unit (s := S1024) ![0] S128.size inb_S1024_S128_0) (fun _ => rfl)
  Prog.lift (.enqueueDma v156 (.here v155) (.dma cc0_scratch3.sem) (View.wordExact_bits rfl) ((View.wordExact_bits rfl).reshape _ _) ⟨Or.inl rfl, trivial⟩)
  k0_part7 L A2 (Memref.isWhole_whole _) A3 (Memref.isWhole_whole _) A4 (Memref.isWhole_whole _) s0 (Memref.isWhole_whole _) s1 (Memref.isWhole_whole _) s2 (Memref.isWhole_whole _) cc0_scratch3 cc0_scoped0 cc0_scoped1
  k0_part8 L A2 (Memref.isWhole_whole _) A3 (Memref.isWhole_whole _) A4 (Memref.isWhole_whole _) s0 (Memref.isWhole_whole _) s1 (Memref.isWhole_whole _) s2 (Memref.isWhole_whole _) cc0_scratch3 cc0_scoped0 cc0_scoped1
  let v234 : Memref sig .scVector .vmem S128 .f32 := s2.slice (Rect.unit (s := S1024) ![640] S128.size inb_S1024_S128_640) (fun _ => rfl)
  let v232 : Memref sig .scVector .hbm S1x128 .f32 := A4.slice (Rect.unit (s := S8x4096) (k0_off8 L) S1x128.size (k0_off8_inb L)) (fun _ => rfl)
  let v233 : Memref sig .scVector .hbm S128 .f32 := v232.squeeze S128 squeezes_S1x128_S128
  Prog.lift (.waitDma2 cc0_scratch3.sem v234 v233 (View.wordExact_bits rfl) ((View.wordExact_bits rfl).reshape _ _))
  let v238 : Memref sig .scVector .hbm S1x128 .f32 := A4.slice (Rect.unit (s := S8x4096) (k0_off9 L) S1x128.size (k0_off9_inb L)) (fun _ => rfl)
  let v239 : Memref sig .scVector .hbm S128 .f32 := v238.squeeze S128 squeezes_S1x128_S128
  let v240 : Memref sig .scVector .vmem S128 .f32 := s2.slice (Rect.unit (s := S1024) ![768] S128.size inb_S1024_S128_768) (fun _ => rfl)
  Prog.lift (.waitDma2 cc0_scratch3.sem v240 v239 (View.wordExact_bits rfl) ((View.wordExact_bits rfl).reshape _ _))
  let v244 : Memref sig .scVector .hbm S1x128 .f32 := A4.slice (Rect.unit (s := S8x4096) (k0_off10 L) S1x128.size (k0_off10_inb L)) (fun _ => rfl)
  let v245 : Memref sig .scVector .hbm S128 .f32 := v244.squeeze S128 squeezes_S1x128_S128
  let v246 : Memref sig .scVector .vmem S128 .f32 := s2.slice (Rect.unit (s := S1024) ![896] S128.size inb_S1024_S128_896) (fun _ => rfl)
  Prog.lift (.waitDma2 cc0_scratch3.sem v246 v245 (View.wordExact_bits rfl) ((View.wordExact_bits rfl).reshape _ _))
  pure ⟨⟩

/-! ## The pieces' words -/

/-- A target piece's words are the tile's piece of its row. -/
theorem set_rowM (off : Fin 2 → ℕ) (h : ∀ a, off a + S1x128.size a ≤ S8x4096.size a) (r : Fin 8) (w : Fin 32) (hoff : off = ![r.val, 128 * w.val]) :
    (rowM off h).view.set = wSet r w := by
  subst hoff
  refine Finset.ext fun i => ?_
  show i ∈ (((View.whole main_v1_scv).slice (Rect.unit (s := S8x4096) ![r.val, 128 * w.val] S1x128.size h)).reshape S128 squeezes_S1x128_S128.numel_eq).set
    ↔ i ∈ (Rect.unit (s := S8x4096) (fun a => (![r.val, w.val] : Fin 2 → ℕ) a * (![1, 128] : Fin 2 → ℕ) a) ![1, 128] (fun a => (Nat.succ_mul _ _).symm.trans_le (hblk r w a) |> fun h => by omega)).set
  rw [View.set_reshape, View.set_slice_whole, Rect.mem_set_unit, Rect.mem_set_unit]
  refine forall_congr' fun a => ?_
  match a with
  | ⟨0, _⟩ => show (r.val ≤ (i 0).val ∧ (i 0).val < r.val + 1) ↔ (r.val * 1 ≤ (i 0).val ∧ (i 0).val < r.val * 1 + 1); omega
  | ⟨1, _⟩ => show (128 * w.val ≤ (i 1).val ∧ (i 1).val < 128 * w.val + 128) ↔ (w.val * 128 ≤ (i 1).val ∧ (i 1).val < w.val * 128 + 128); omega

/-- A target piece, spelt as its copy spells it, is the tile's piece of that row. -/
theorem pts_row (off : Fin 2 → ℕ) (h : ∀ a, off a + S1x128.size a ≤ S8x4096.size a) (r : Fin 8) (hoff : off = ![r.val, 128 * (widL L).val])
    (f : Buf (Elt F) (wLoc d)) :
    ((rowM off h).view.loc 𝕥 ↦[(rowM off h).view.set]{fullShare} f : sProp 𝕄) = (wLoc d ↦[wSet r (widL L)]{fullShare} f) := by
  rw [set_rowM off h r (widL L) hoff]

/-! ## The batch -/

/-- What a copy delivers: its target piece landed, its source piece back. -/
abbrev deliv (G : Buf (Elt F) ((V d (cV L) (jV L)).loc cc0_scratch2)) (fw : Buf (Elt F) (wLoc d))
    (off : Fin 2 → ℕ) (h : ∀ a, off a + S1x128.size a ≤ S8x4096.size a) (o : ℕ) (ho : ∀ a, (![o] : Fin 1 → ℕ) a + S128.size a ≤ S1024.size a) : sProp 𝕄 :=
  iprop(((rowM off h).view.loc 𝕥 ↦[(rowM off h).view.set]{fullShare} landed d L G fw off h o ho)
    ∗ ((srcM o ho).view.loc 𝕥 ↦[(srcM o ho).view.set]{fullShare} G))

/-- The eight deliveries, in the order of the copies. -/
abbrev delivs (G : Buf (Elt F) ((V d (cV L) (jV L)).loc cc0_scratch2)) (fw : Buf (Elt F) (wLoc d)) : Fin 8 → sProp 𝕄
  | ⟨0, _⟩ => deliv d L G fw (k0_off3 L) (k0_off3_inb L) 0 inb_S1024_S128_0
  | ⟨1, _⟩ => deliv d L G fw (k0_off4 L) (k0_off4_inb L) 128 inb_S1024_S128_128
  | ⟨2, _⟩ => deliv d L G fw (k0_off5 L) (k0_off5_inb L) 256 inb_S1024_S128_256
  | ⟨3, _⟩ => deliv d L G fw (k0_off6 L) (k0_off6_inb L) 384 inb_S1024_S128_384
  | ⟨4, _⟩ => deliv d L G fw (k0_off7 L) (k0_off7_inb L) 512 inb_S1024_S128_512
  | ⟨5, _⟩ => deliv d L G fw (k0_off8 L) (k0_off8_inb L) 640 inb_S1024_S128_640
  | ⟨6, _⟩ => deliv d L G fw (k0_off9 L) (k0_off9_inb L) 768 inb_S1024_S128_768
  | ⟨7, _⟩ => deliv d L G fw (k0_off10 L) (k0_off10_inb L) 896 inb_S1024_S128_896

/-- One copy's credit. -/
abbrev creditN : ℕ := (rowM (k0_off3 L) (k0_off3_inb L)).view.amount (SemLoc.dma (sig := sig) cc0_scratch3.sem)

instance delivs_storable (G : Buf (Elt F) ((V d (cV L) (jV L)).loc cc0_scratch2)) (fw : Buf (Elt F) (wLoc d)) (t : Fin 8) :
    Storable (upEmb : UEmb _ 𝕄) (delivs d L G fw t) :=
  match t with
  | ⟨0, _⟩ => (inferInstance : Storable (upEmb : UEmb _ 𝕄) (deliv d L G fw (k0_off3 L) (k0_off3_inb L) 0 inb_S1024_S128_0))
  | ⟨1, _⟩ => (inferInstance : Storable (upEmb : UEmb _ 𝕄) (deliv d L G fw (k0_off4 L) (k0_off4_inb L) 128 inb_S1024_S128_128))
  | ⟨2, _⟩ => (inferInstance : Storable (upEmb : UEmb _ 𝕄) (deliv d L G fw (k0_off5 L) (k0_off5_inb L) 256 inb_S1024_S128_256))
  | ⟨3, _⟩ => (inferInstance : Storable (upEmb : UEmb _ 𝕄) (deliv d L G fw (k0_off6 L) (k0_off6_inb L) 384 inb_S1024_S128_384))
  | ⟨4, _⟩ => (inferInstance : Storable (upEmb : UEmb _ 𝕄) (deliv d L G fw (k0_off7 L) (k0_off7_inb L) 512 inb_S1024_S128_512))
  | ⟨5, _⟩ => (inferInstance : Storable (upEmb : UEmb _ 𝕄) (deliv d L G fw (k0_off8 L) (k0_off8_inb L) 640 inb_S1024_S128_640))
  | ⟨6, _⟩ => (inferInstance : Storable (upEmb : UEmb _ 𝕄) (deliv d L G fw (k0_off9 L) (k0_off9_inb L) 768 inb_S1024_S128_768))
  | ⟨7, _⟩ => (inferInstance : Storable (upEmb : UEmb _ 𝕄) (deliv d L G fw (k0_off10 L) (k0_off10_inb L) 896 inb_S1024_S128_896))

omit [FloatOps F] in
/-- One more wait at the kernel's own index keeps the recorded waits among the old ones and that index. -/
theorem mem_insert_own {W W0 : Waits sig (HIx 1)} {sm : SemLoc sig} (h : ∀ p ∈ W, p ∈ W0 ∨ p.2 = none) :
    ∀ p ∈ insert (sm, (none : HIx 1)) W, p ∈ W0 ∨ p.2 = none := by
  intro p hp
  rcases Finset.mem_insert.mp hp with rfl | hp
  · exact Or.inr rfl
  · exact h p hp

/-! ## The run -/

set_option maxHeartbeats 4000000 in
/-- The segment over the pieces as the copies name them: the eight sources and the eight targets go out with the batch and
    come back at the last wait, each target at its source's words. -/
theorem tail_run (G : Buf (Elt F) ((V d (cV L) (jV L)).loc cc0_scratch2)) (fw : Buf (Elt F) (wLoc d))
    (O : CellTallies nD τ sig (HIx 1)) (W0 : Waits sig (HIx 1)) (Q : PUnit → sProp 𝕄) :
    iprop(Transfers.MayWaits (V d (cV L) (jV L)) (none : HIx 1) O
        ∗ (((srcM 0 inb_S1024_S128_0).view.loc 𝕥 ↦[(srcM 0 inb_S1024_S128_0).view.set]{fullShare} G)
          ∗ ((srcM 128 inb_S1024_S128_128).view.loc 𝕥 ↦[(srcM 128 inb_S1024_S128_128).view.set]{fullShare} G)
          ∗ ((srcM 256 inb_S1024_S128_256).view.loc 𝕥 ↦[(srcM 256 inb_S1024_S128_256).view.set]{fullShare} G)
          ∗ ((srcM 384 inb_S1024_S128_384).view.loc 𝕥 ↦[(srcM 384 inb_S1024_S128_384).view.set]{fullShare} G)
          ∗ ((srcM 512 inb_S1024_S128_512).view.loc 𝕥 ↦[(srcM 512 inb_S1024_S128_512).view.set]{fullShare} G)
          ∗ ((srcM 640 inb_S1024_S128_640).view.loc 𝕥 ↦[(srcM 640 inb_S1024_S128_640).view.set]{fullShare} G)
          ∗ ((srcM 768 inb_S1024_S128_768).view.loc 𝕥 ↦[(srcM 768 inb_S1024_S128_768).view.set]{fullShare} G)
          ∗ ((srcM 896 inb_S1024_S128_896).view.loc 𝕥 ↦[(srcM 896 inb_S1024_S128_896).view.set]{fullShare} G))
        ∗ ((rowM (k0_off3 L) (k0_off3_inb L)).view.loc 𝕥 ↦[(rowM (k0_off3 L) (k0_off3_inb L)).view.set]{fullShare} fw)
        ∗ ((rowM (k0_off4 L) (k0_off4_inb L)).view.loc 𝕥 ↦[(rowM (k0_off4 L) (k0_off4_inb L)).view.set]{fullShare} fw)
        ∗ ((rowM (k0_off5 L) (k0_off5_inb L)).view.loc 𝕥 ↦[(rowM (k0_off5 L) (k0_off5_inb L)).view.set]{fullShare} fw)
        ∗ ((rowM (k0_off6 L) (k0_off6_inb L)).view.loc 𝕥 ↦[(rowM (k0_off6 L) (k0_off6_inb L)).view.set]{fullShare} fw)
        ∗ ((rowM (k0_off7 L) (k0_off7_inb L)).view.loc 𝕥 ↦[(rowM (k0_off7 L) (k0_off7_inb L)).view.set]{fullShare} fw)
        ∗ ((rowM (k0_off8 L) (k0_off8_inb L)).view.loc 𝕥 ↦[(rowM (k0_off8 L) (k0_off8_inb L)).view.set]{fullShare} fw)
        ∗ ((rowM (k0_off9 L) (k0_off9_inb L)).view.loc 𝕥 ↦[(rowM (k0_off9 L) (k0_off9_inb L)).view.set]{fullShare} fw)
        ∗ ((rowM (k0_off10 L) (k0_off10_inb L)).view.loc 𝕥 ↦[(rowM (k0_off10 L) (k0_off10_inb L)).view.set]{fullShare} fw)
        ∗ semVal (c3cell d (cV L) (jV L)) 0 ∗ owes (V d (cV L) (jV L)) O W0
        ∗ (((((srcM 0 inb_S1024_S128_0).view.loc 𝕥 ↦[(srcM 0 inb_S1024_S128_0).view.set]{fullShare} G)
              ∗ ((srcM 128 inb_S1024_S128_128).view.loc 𝕥 ↦[(srcM 128 inb_S1024_S128_128).view.set]{fullShare} G)
              ∗ ((srcM 256 inb_S1024_S128_256).view.loc 𝕥 ↦[(srcM 256 inb_S1024_S128_256).view.set]{fullShare} G)
              ∗ ((srcM 384 inb_S1024_S128_384).view.loc 𝕥 ↦[(srcM 384 inb_S1024_S128_384).view.set]{fullShare} G)
              ∗ ((srcM 512 inb_S1024_S128_512).view.loc 𝕥 ↦[(srcM 512 inb_S1024_S128_512).view.set]{fullShare} G)
              ∗ ((srcM 640 inb_S1024_S128_640).view.loc 𝕥 ↦[(srcM 640 inb_S1024_S128_640).view.set]{fullShare} G)
              ∗ ((srcM 768 inb_S1024_S128_768).view.loc 𝕥 ↦[(srcM 768 inb_S1024_S128_768).view.set]{fullShare} G)
              ∗ ((srcM 896 inb_S1024_S128_896).view.loc 𝕥 ↦[(srcM 896 inb_S1024_S128_896).view.set]{fullShare} G))
            ∗ ((rowM (k0_off3 L) (k0_off3_inb L)).view.loc 𝕥 ↦[(rowM (k0_off3 L) (k0_off3_inb L)).view.set]{fullShare} landed d L G fw (k0_off3 L) (k0_off3_inb L) 0 inb_S1024_S128_0)
            ∗ ((rowM (k0_off4 L) (k0_off4_inb L)).view.loc 𝕥 ↦[(rowM (k0_off4 L) (k0_off4_inb L)).view.set]{fullShare} landed d L G fw (k0_off4 L) (k0_off4_inb L) 128 inb_S1024_S128_128)
            ∗ ((rowM (k0_off5 L) (k0_off5_inb L)).view.loc 𝕥 ↦[(rowM (k0_off5 L) (k0_off5_inb L)).view.set]{fullShare} landed d L G fw (k0_off5 L) (k0_off5_inb L) 256 inb_S1024_S128_256)
            ∗ ((rowM (k0_off6 L) (k0_off6_inb L)).view.loc 𝕥 ↦[(rowM (k0_off6 L) (k0_off6_inb L)).view.set]{fullShare} landed d L G fw (k0_off6 L) (k0_off6_inb L) 384 inb_S1024_S128_384)
            ∗ ((rowM (k0_off7 L) (k0_off7_inb L)).view.loc 𝕥 ↦[(rowM (k0_off7 L) (k0_off7_inb L)).view.set]{fullShare} landed d L G fw (k0_off7 L) (k0_off7_inb L) 512 inb_S1024_S128_512)
            ∗ ((rowM (k0_off8 L) (k0_off8_inb L)).view.loc 𝕥 ↦[(rowM (k0_off8 L) (k0_off8_inb L)).view.set]{fullShare} landed d L G fw (k0_off8 L) (k0_off8_inb L) 640 inb_S1024_S128_640)
            ∗ ((rowM (k0_off9 L) (k0_off9_inb L)).view.loc 𝕥 ↦[(rowM (k0_off9 L) (k0_off9_inb L)).view.set]{fullShare} landed d L G fw (k0_off9 L) (k0_off9_inb L) 768 inb_S1024_S128_768)
            ∗ ((rowM (k0_off10 L) (k0_off10_inb L)).view.loc 𝕥 ↦[(rowM (k0_off10 L) (k0_off10_inb L)).view.set]{fullShare} landed d L G fw (k0_off10 L) (k0_off10_inb L) 896 inb_S1024_S128_896)
            ∗ semVal (c3cell d (cV L) (jV L)) 0 ∗ ∃ W', ⌜∀ p ∈ W', p ∈ W0 ∨ p.2 = none⌝ ∗ owes (V d (cV L) (jV L)) O W') -∗ Q ⟨⟩))
      ⊢ wp frame (wpE (defs₀ (F := F)) 𝒱₀ (V d (cV L) (jV L)) none) Set.univ (tailProg (F := F) L) Q := by
  iintro ⟨Hmw, ⟨HS0, HS1, HS2, HS3, HS4, HS5, HS6, HS7⟩, HD0, HD1, HD2, HD3, HD4, HD5, HD6, HD7, Hsem, HO, Hk⟩
  imod (Transfers.batch_alloc' (Lvl := ℕ) (countersEmb (U := UU)) 𝕥 (none : HIx 1) (creditN L) (delivs d L G fw) (sm := .dma cc0_scratch3.sem) (E := Set.univ)) $$ Hsem with HB
  unfold tailProg
  sl_exec
  sl_step
  iapply Hk
  isplitl [HB_src0 HB_src1 HB_src2 HB_src3 HB_src4 HB_src5 HB_src6 HB_src7]
  · isplitl [HB_src0]; · iexact HB_src0
    isplitl [HB_src1]; · iexact HB_src1
    isplitl [HB_src2]; · iexact HB_src2
    isplitl [HB_src3]; · iexact HB_src3
    isplitl [HB_src4]; · iexact HB_src4
    isplitl [HB_src5]; · iexact HB_src5
    isplitl [HB_src6]; · iexact HB_src6
    iexact HB_src7
  isplitl [HB_dst0]; · iexact HB_dst0
  isplitl [HB_dst1]; · iexact HB_dst1
  isplitl [HB_dst2]; · iexact HB_dst2
  isplitl [HB_dst3]; · iexact HB_dst3
  isplitl [HB_dst4]; · iexact HB_dst4
  isplitl [HB_dst5]; · iexact HB_dst5
  isplitl [HB_dst6]; · iexact HB_dst6
  isplitl [HB_dst7]; · iexact HB_dst7
  isplitl [HB]; · iexact HB
  iexists _; isplitr
  swap; · iexact HO
  ipureintro
  exact mem_insert_own (mem_insert_own (mem_insert_own (mem_insert_own (mem_insert_own (mem_insert_own (mem_insert_own (mem_insert_own fun p hp => Or.inl hp)))))))

end Tile
end Cert.Proof.KB
end
-- ==== Proof.KB.TailSrc.lean ====
/-
  The mask scratch held whole is its eight pieces of 128 words.

  Piece i is words [128 i, 128 i + 128) of the 1024: the pieces are pairwise disjoint (they are separated on the one
  axis) and word t lies in piece t / 128. So a points-to over the whole scratch is the separating conjunction of the
  eight points-tos over the pieces, at any contents.
-/
import proofs.«202873_g15822659519276_cont_week2b_991_21_alg».proof.Proof.KB.TailDefs

noncomputable section

namespace Cert.Proof.KB

open Cert.Kernel Cert.Kernel.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable [FloatOps F]

omit [FloatOps F] in
/-- A points-to over a whole location is the eight points-tos over eight pairwise disjoint sets covering it. -/
theorem pts_eight (ℓ : Loc nD τ sig) (q : PosShare TreeShare) (f : Buf (Elt F) ℓ) (K : Fin 8 → Finset (Idx ℓ))
    (hd : ∀ i ∈ (Finset.univ : Finset (Fin 8)), ∀ j ∈ (Finset.univ : Finset (Fin 8)), i ≠ j → Disjoint (K i) (K j))
    (hc : (Finset.univ : Finset (Fin 8)).biUnion K = Finset.univ) :
    (ℓ ↦{q} f : sProp 𝕄) = iprop((ℓ ↦[K 0]{q} f) ∗ (ℓ ↦[K 1]{q} f) ∗ (ℓ ↦[K 2]{q} f) ∗ (ℓ ↦[K 3]{q} f)
      ∗ (ℓ ↦[K 4]{q} f) ∗ (ℓ ↦[K 5]{q} f) ∗ (ℓ ↦[K 6]{q} f) ∗ (ℓ ↦[K 7]{q} f)) := by
  rw [← bigSep_fin8 (F := F) (fun i => ℓ ↦[K i]{q} f), ← pointsTo_biUnion Finset.univ K hd, hc]

section Tile
variable (d : Dev nD) (L : grid0.Coords)

local notation "𝕥" => (V d (cV L) (jV L))

omit [FloatOps F] in
theorem set_srcM (o : ℕ) (ho : ∀ a, (![o] : Fin 1 → ℕ) a + S128.size a ≤ S1024.size a) :
    (srcM o ho).view.set = (Rect.unit (s := S1024) ![o] S128.size ho).set := View.set_slice_whole cc0_scratch2 _

omit [FloatOps F] in
theorem mem_srcRect (o : ℕ) (ho : ∀ a, (![o] : Fin 1 → ℕ) a + S128.size a ≤ S1024.size a) (x : S1024.Idx) :
    x ∈ (Rect.unit (s := S1024) ![o] S128.size ho).set ↔ ∀ a, (![o] : Fin 1 → ℕ) a ≤ x a ∧ (x a : ℕ) < (![o] : Fin 1 → ℕ) a + S128.size a :=
  Rect.mem_set_unit

omit [FloatOps F] in
theorem srcM_disjoint (o o' : ℕ) (ho : ∀ a, (![o] : Fin 1 → ℕ) a + S128.size a ≤ S1024.size a)
    (ho' : ∀ a, (![o'] : Fin 1 → ℕ) a + S128.size a ≤ S1024.size a) (h : o + 128 ≤ o' ∨ o' + 128 ≤ o) :
    Disjoint (srcM o ho).view.set (srcM o' ho').view.set := by
  rw [set_srcM, set_srcM]
  exact Rect.unit_disjoint (0 : Fin 1) h

omit [FloatOps F] in
theorem inb_piece (i : Fin 8) : ∀ a, (![128 * i.val] : Fin 1 → ℕ) a + S128.size a ≤ S1024.size a := by
  intro a
  match a with
  | ⟨0, _⟩ => show 128 * i.val + 128 ≤ 1024; omega

/-- Piece i of the scratch: words [128 i, 128 i + 128). -/
abbrev srcSet (i : Fin 8) : Finset (Idx ((s2).view.loc 𝕥)) := (srcM (128 * i.val) (inb_piece i)).view.set

theorem pts_s2_rows (G : Buf (Elt F) ((V d (cV L) (jV L)).loc cc0_scratch2)) :
    ((s2).view.loc 𝕥 ↦{fullShare} G : sProp 𝕄)
      = iprop(((srcM 0 inb_S1024_S128_0).view.loc 𝕥 ↦[(srcM 0 inb_S1024_S128_0).view.set]{fullShare} G)
        ∗ ((srcM 128 inb_S1024_S128_128).view.loc 𝕥 ↦[(srcM 128 inb_S1024_S128_128).view.set]{fullShare} G)
        ∗ ((srcM 256 inb_S1024_S128_256).view.loc 𝕥 ↦[(srcM 256 inb_S1024_S128_256).view.set]{fullShare} G)
        ∗ ((srcM 384 inb_S1024_S128_384).view.loc 𝕥 ↦[(srcM 384 inb_S1024_S128_384).view.set]{fullShare} G)
        ∗ ((srcM 512 inb_S1024_S128_512).view.loc 𝕥 ↦[(srcM 512 inb_S1024_S128_512).view.set]{fullShare} G)
        ∗ ((srcM 640 inb_S1024_S128_640).view.loc 𝕥 ↦[(srcM 640 inb_S1024_S128_640).view.set]{fullShare} G)
        ∗ ((srcM 768 inb_S1024_S128_768).view.loc 𝕥 ↦[(srcM 768 inb_S1024_S128_768).view.set]{fullShare} G)
        ∗ ((srcM 896 inb_S1024_S128_896).view.loc 𝕥 ↦[(srcM 896 inb_S1024_S128_896).view.set]{fullShare} G)) := by
  have hd : ∀ i ∈ (Finset.univ : Finset (Fin 8)), ∀ j ∈ (Finset.univ : Finset (Fin 8)), i ≠ j →
      Disjoint (srcSet d L i) (srcSet d L j) := by
    intro i _ j _ hij
    refine srcM_disjoint _ _ _ _ ?_
    have : i.val ≠ j.val := fun e => hij (Fin.ext e)
    omega
  have hc : (Finset.univ : Finset (Fin 8)).biUnion (srcSet d L) = Finset.univ := by
    ext x
    simp only [Finset.mem_biUnion, Finset.mem_univ, true_and, iff_true]
    have hx : (x 0).val < 1024 := (x 0).isLt
    refine ⟨⟨(x 0).val / 128, by omega⟩, ?_⟩
    unfold srcSet
    rw [set_srcM]
    refine (mem_srcRect _ _ x).mpr fun a => ?_
    match a with
    | ⟨0, _⟩ => show 128 * ((x 0).val / 128) ≤ (x 0).val ∧ (x 0).val < 128 * ((x 0).val / 128) + 128; omega
  exact pts_eight (F := F) ((s2).view.loc 𝕥) fullShare G (srcSet d L) hd hc

end Tile
end Cert.Proof.KB
end
-- ==== Proof.KB.TailLand.lean ====
/-
  A landed copy of a row piece is the mask scratch spread over the mask array.

  The copy of piece r moves scratch words [128 r, 128 r + 128) onto row r, columns [128 w, 128 w + 128) of the mask
  array, seen as 128 words. Element j of the piece is the array's (r, 128 w + j); the spread scratch reads there word
  128 r + (128 w + j) % 128 = 128 r + j, which is the word the copy moved.
-/
import proofs.«202873_g15822659519276_cont_week2b_991_21_alg».proof.Proof.KB.TailDefs
import Idealize.ShloMosaic.Lib.Pipeline.Value

noncomputable section

namespace Cert.Proof.KB

open Cert.Kernel Cert.Kernel.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable [FloatOps F]

section Tile
variable (d : Dev nD) (L : grid0.Coords)

local notation "𝕥" => (V d (cV L) (jV L))

/-- On a row piece, the mask scratch spread over the mask array and what the landed copy of the piece's 128 scratch
    words leaves are the same function: element j of the piece reads scratch word 128 r + j either way. -/
theorem landed_spread (G : Buf (Elt F) ((V d (cV L) (jV L)).loc cc0_scratch2)) (fw : Buf (Elt F) (wLoc d))
    (off : Fin 2 → ℕ) (h : ∀ a, off a + S1x128.size a ≤ S8x4096.size a) (o : ℕ)
    (ho : ∀ a, (![o] : Fin 1 → ℕ) a + S128.size a ≤ S1024.size a) (r : Fin 8)
    (hoff : off = ![r.val, 128 * (widL L).val]) (ho' : o = 128 * r.val) :
    ((rowM off h).view.loc 𝕥 ↦[(rowM off h).view.set]{fullShare} spreadG G : sProp 𝕄)
      = ((rowM off h).view.loc 𝕥 ↦[(rowM off h).view.set]{fullShare} landed d L G fw off h o ho) := by
  refine pointsTo_congr fun i hi => ?_
  obtain ⟨j, rfl⟩ := View.exists_emb_of_mem_set _ hi
  have hj : (j 0).val < 128 := (j 0).isLt
  have hw : (widL L).val < 32 := (widL L).isLt
  have hr : r.val < 8 := r.isLt
  -- the piece's element j as an element of the row rectangle
  have hre : Shape.reshapeEquiv (squeezes_S1x128_S128).numel_eq j = (ix2 (0 : Fin 1) (j 0) : S1x128.Idx) := by
    apply Shape.reshapeEquiv_eq_of_rowMajor
    rw [Shape.rowMajor_val_two, Shape.rowMajor_val_one]
    show 0 * 128 + (j 0).val = (j 0).val
    omega
  have hemb : (rowM off h).view.emb j = (Rect.unit (s := S8x4096) off S1x128.size h).emb (ix2 (0 : Fin 1) (j 0)) := by
    rw [← hre]; rfl
  -- what the landed copy leaves there
  have e1 : landed d L G fw off h o ho ((rowM off h).view.emb j) = G ((srcM o ho).view.emb j) := by
    have hh := View.read_writes_cons_emb (rowM off h).view fw (Rect.whole S128)
      (ReadAs.same.apply ((srcM o ho).view.read (Elt F) G)) [] j
    rw [Rect.emb_whole_apply] at hh
    exact hh
  rw [e1, hemb]
  unfold spreadG
  refine congrArg G (funext fun a => ?_)
  match a with
  | ⟨0, _⟩ =>
    apply Fin.ext
    show 128 * (off 0 + 1 * 0) + (off 1 + 1 * (j 0).val) % 128 = o + 1 * (j 0).val
    subst hoff ho'
    show 128 * (r.val + 1 * 0) + (128 * (widL L).val + 1 * (j 0).val) % 128 = 128 * r.val + 1 * (j 0).val
    omega

end Tile
end Cert.Proof.KB
end
-- ==== Proof.KB.Tail.lean ====
/-
  The last segment of a tile's task: the eight copies of the mask scratch's rows to the tile's pieces of the mask array,
  all on one DMA semaphore, and the eight waits — stated over the scratch held whole and the tile's eight pieces of the
  mask array.

  The scratch held whole is its eight rows and each piece of the mask array is a copy's target, so the run over the pieces as
  the copies name them applies; afterwards each landed piece holds, on its own words, the scratch's row read as the mask array
  reads it, and the rows rejoin to the scratch.
-/
import proofs.«202873_g15822659519276_cont_week2b_991_21_alg».proof.Proof.KB.TailRun
import proofs.«202873_g15822659519276_cont_week2b_991_21_alg».proof.Proof.KB.TailSrc
import proofs.«202873_g15822659519276_cont_week2b_991_21_alg».proof.Proof.KB.TailLand
import Idealize.ShloMosaic.Lib.Batch
import Idealize.ShloMosaic.Lib.Tactic
import Idealize.ShloMosaic.Lib.Writes

noncomputable section

namespace Cert.Proof.KB

open Cert.Kernel Cert.Kernel.Gen

open Idealize.ShloMosaic Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable [FloatOps F]

section Tile
variable (d : Dev nD) (L : grid0.Coords)

local notation "𝕥" => (V d (cV L) (jV L))

/-- THE LAST SEGMENT of a tile's task: from the mask scratch at G, the tile's eight row pieces of the mask array and the
    copies' semaphore at zero, the eight copies and the eight waits leave each piece at the scratch's row (the scratch
    read as the mask array reads it), the scratch and the semaphore as they were, and record only waits at the kernel's
    own index. -/
theorem tail_copies (G : Buf (Elt F) ((V d (cV L) (jV L)).loc cc0_scratch2)) (fw : Buf (Elt F) (wLoc d))
    (O : CellTallies nD τ sig (HIx 1)) (W0 : Waits sig (HIx 1)) (Q : PUnit → sProp 𝕄) :
    iprop(Transfers.MayWaits (V d (cV L) (jV L)) (none : HIx 1) O ∗ ((s2).view.loc (V d (cV L) (jV L)) ↦{fullShare} G)
        ∗ (wLoc d ↦[wSet 0 (widL L)]{fullShare} fw) ∗ (wLoc d ↦[wSet 1 (widL L)]{fullShare} fw) ∗ (wLoc d ↦[wSet 2 (widL L)]{fullShare} fw) ∗ (wLoc d ↦[wSet 3 (widL L)]{fullShare} fw) ∗ (wLoc d ↦[wSet 4 (widL L)]{fullShare} fw) ∗ (wLoc d ↦[wSet 5 (widL L)]{fullShare} fw) ∗ (wLoc d ↦[wSet 6 (widL L)]{fullShare} fw) ∗ (wLoc d ↦[wSet 7 (widL L)]{fullShare} fw)
        ∗ semVal (c3cell d (cV L) (jV L)) 0 ∗ owes (V d (cV L) (jV L)) O W0
        ∗ ((((s2).view.loc (V d (cV L) (jV L)) ↦{fullShare} G)
            ∗ (wLoc d ↦[wSet 0 (widL L)]{fullShare} spreadG G) ∗ (wLoc d ↦[wSet 1 (widL L)]{fullShare} spreadG G) ∗ (wLoc d ↦[wSet 2 (widL L)]{fullShare} spreadG G) ∗ (wLoc d ↦[wSet 3 (widL L)]{fullShare} spreadG G) ∗ (wLoc d ↦[wSet 4 (widL L)]{fullShare} spreadG G) ∗ (wLoc d ↦[wSet 5 (widL L)]{fullShare} spreadG G) ∗ (wLoc d ↦[wSet 6 (widL L)]{fullShare} spreadG G) ∗ (wLoc d ↦[wSet 7 (widL L)]{fullShare} spreadG G)
            ∗ semVal (c3cell d (cV L) (jV L)) 0 ∗ ∃ W', ⌜∀ p ∈ W', p ∈ W0 ∨ p.2 = none⌝ ∗ owes (V d (cV L) (jV L)) O W') -∗ Q ⟨⟩))
      ⊢ wp frame (wpE (defs₀ (F := F)) 𝒱₀ (V d (cV L) (jV L)) none) Set.univ (tailProg (F := F) L) Q := by
  iintro ⟨Hmw, Hs2, Hw0, Hw1, Hw2, Hw3, Hw4, Hw5, Hw6, Hw7, Hsem, HO, Hk⟩
  iapply (tail_run d L G fw O W0 Q)
  isplitl [Hmw]; · iexact Hmw
  isplitl [Hs2]; · iapply (Entails.of_eq (pts_s2_rows d L G)); iexact Hs2
  isplitl [Hw0]; · iapply (Entails.of_eq (pts_row d L (k0_off3 L) (k0_off3_inb L) 0 (off3_row L) fw).symm); iexact Hw0
  isplitl [Hw1]; · iapply (Entails.of_eq (pts_row d L (k0_off4 L) (k0_off4_inb L) 1 (off4_row L) fw).symm); iexact Hw1
  isplitl [Hw2]; · iapply (Entails.of_eq (pts_row d L (k0_off5 L) (k0_off5_inb L) 2 (off5_row L) fw).symm); iexact Hw2
  isplitl [Hw3]; · iapply (Entails.of_eq (pts_row d L (k0_off6 L) (k0_off6_inb L) 3 (off6_row L) fw).symm); iexact Hw3
  isplitl [Hw4]; · iapply (Entails.of_eq (pts_row d L (k0_off7 L) (k0_off7_inb L) 4 (off7_row L) fw).symm); iexact Hw4
  isplitl [Hw5]; · iapply (Entails.of_eq (pts_row d L (k0_off8 L) (k0_off8_inb L) 5 (off8_row L) fw).symm); iexact Hw5
  isplitl [Hw6]; · iapply (Entails.of_eq (pts_row d L (k0_off9 L) (k0_off9_inb L) 6 (off9_row L) fw).symm); iexact Hw6
  isplitl [Hw7]; · iapply (Entails.of_eq (pts_row d L (k0_off10 L) (k0_off10_inb L) 7 (off10_row L) fw).symm); iexact Hw7
  isplitl [Hsem]; · iexact Hsem
  isplitl [HO]; · iexact HO
  iintro ⟨Hs, H0, H1, H2, H3, H4, H5, H6, H7, Hsem, HO⟩
  iapply Hk
  isplitl [Hs]; · iapply (Entails.of_eq (pts_s2_rows d L G).symm); iexact Hs
  isplitl [H0]
  · iapply (Entails.of_eq ((landed_spread d L G fw (k0_off3 L) (k0_off3_inb L) 0 inb_S1024_S128_0 0 (off3_row L) rfl).symm.trans (pts_row d L (k0_off3 L) (k0_off3_inb L) 0 (off3_row L) (spreadG G))))
    iexact H0
  isplitl [H1]
  · iapply (Entails.of_eq ((landed_spread d L G fw (k0_off4 L) (k0_off4_inb L) 128 inb_S1024_S128_128 1 (off4_row L) rfl).symm.trans (pts_row d L (k0_off4 L) (k0_off4_inb L) 1 (off4_row L) (spreadG G))))
    iexact H1
  isplitl [H2]
  · iapply (Entails.of_eq ((landed_spread d L G fw (k0_off5 L) (k0_off5_inb L) 256 inb_S1024_S128_256 2 (off5_row L) rfl).symm.trans (pts_row d L (k0_off5 L) (k0_off5_inb L) 2 (off5_row L) (spreadG G))))
    iexact H2
  isplitl [H3]
  · iapply (Entails.of_eq ((landed_spread d L G fw (k0_off6 L) (k0_off6_inb L) 384 inb_S1024_S128_384 3 (off6_row L) rfl).symm.trans (pts_row d L (k0_off6 L) (k0_off6_inb L) 3 (off6_row L) (spreadG G))))
    iexact H3
  isplitl [H4]
  · iapply (Entails.of_eq ((landed_spread d L G fw (k0_off7 L) (k0_off7_inb L) 512 inb_S1024_S128_512 4 (off7_row L) rfl).symm.trans (pts_row d L (k0_off7 L) (k0_off7_inb L) 4 (off7_row L) (spreadG G))))
    iexact H4
  isplitl [H5]
  · iapply (Entails.of_eq ((landed_spread d L G fw (k0_off8 L) (k0_off8_inb L) 640 inb_S1024_S128_640 5 (off8_row L) rfl).symm.trans (pts_row d L (k0_off8 L) (k0_off8_inb L) 5 (off8_row L) (spreadG G))))
    iexact H5
  isplitl [H6]
  · iapply (Entails.of_eq ((landed_spread d L G fw (k0_off9 L) (k0_off9_inb L) 768 inb_S1024_S128_768 6 (off9_row L) rfl).symm.trans (pts_row d L (k0_off9 L) (k0_off9_inb L) 6 (off9_row L) (spreadG G))))
    iexact H6
  isplitl [H7]
  · iapply (Entails.of_eq ((landed_spread d L G fw (k0_off10 L) (k0_off10_inb L) 896 inb_S1024_S128_896 7 (off10_row L) rfl).symm.trans (pts_row d L (k0_off10 L) (k0_off10_inb L) 7 (off10_row L) (spreadG G))))
    iexact H7
  isplitl [Hsem]; · iexact Hsem
  iexact HO

end Tile
end Cert.Proof.KB
end
-- ==== Proof.KB.TwoStores.lean ====
/-
  Two indexed stores into the mask scratch, one after the other, as the scratch's contents.

  Each store reads the whole scratch, scatters into what it read, and writes the whole scratch back. The second reads
  what the first wrote; so after both the scratch holds the second scatter applied to the first applied to what the
  scratch held.
-/
import proofs.«202873_g15822659519276_cont_week2b_991_21_alg».proof.Proof.KB.TileDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable [FloatOps F]

omit [FloatOps F] in
/-- Two stores through a whole buffer, each of a function of what a load of the whole buffer reads, the second load
    covered by the first store: the buffer ends at the second function of the first function of what it held. -/
theorem two_writes_whole {sg : RefSig} {κ : Kind} (Val : EltTy → Type) [∀ e, Nonempty (Val e)] (b : Ref sg κ) (G : b.ty.Contents Val)
    (φ1 φ2 : b.ty.Contents Val → b.ty.Contents Val) :
    (Memref.whole b).view.writes Val G
        [⟨Rect.whole _, φ2 ((Memref.whole b).view.readCov
            [⟨Rect.whole _, φ1 ((Memref.whole b).view.readAt Val (LoadRect.whole _) G)⟩] (LoadRect.whole _))⟩,
         ⟨Rect.whole _, φ1 ((Memref.whole b).view.readAt Val (LoadRect.whole _) G)⟩]
      = φ2 (φ1 G) := by
  have e1 : (Memref.whole b).view.readAt Val (LoadRect.whole _) G = G := Memref.readAt_whole Val b G
  rw [e1]
  have e2 : (Memref.whole b).view.readCov [⟨Rect.whole _, φ1 G⟩] (LoadRect.whole _) = φ1 G := by
    unfold View.readCov
    rw [View.writes_cons, View.writes_nil]
    exact (congrArg _ (Memref.write_access_whole_univ Val b _ (φ1 G))).trans (Memref.readAt_whole Val b (φ1 G))
  rw [e2, View.writes_cons]
  exact Memref.write_access_whole_univ Val b _ (φ2 (φ1 G))

section Tile
variable (d : Dev nD) (L : grid0.Coords)

theorem two_stores (G : Buf (Elt F) ((V d (cV L) (jV L)).loc cc0_scratch2)) (ix1 ix2 : IVec S16 32) (v1 v2 : FVec F S16 .f32)
    (h1 : ∀ a x, ((![ix1] : Fin 1 → IVec S16 32) a x).toNat < S1024.size a)
    (h2 : ∀ a x, ((![ix2] : Fin 1 → IVec S16 32) a x).toNat < S1024.size a) :
    (s2).view.writes (Elt F) G
        [⟨Rect.whole S1024, storeIdx (F := F) (e := .f32) ((s2).view.readCov
            [⟨Rect.whole S1024, storeIdx (F := F) (e := .f32) (View.readAt (Elt F) (s2).view (LoadRect.whole S1024) G) ![ix1] v1 (fun _ => 1#1) false h1⟩]
            (LoadRect.whole S1024)) ![ix2] v2 (fun _ => 1#1) false h2⟩,
         ⟨Rect.whole S1024, storeIdx (F := F) (e := .f32) (View.readAt (Elt F) (s2).view (LoadRect.whole S1024) G) ![ix1] v1 (fun _ => 1#1) false h1⟩]
      = storeIdx (F := F) (e := .f32) (storeIdx (F := F) (e := .f32) G ![ix1] v1 (fun _ => 1#1) false h1) ![ix2] v2 (fun _ => 1#1) false h2 := by
  exact two_writes_whole (Elt F) cc0_scratch2 G (fun g => storeIdx (F := F) (e := .f32) g ![ix1] v1 (fun _ => 1#1) false h1)
    (fun g => storeIdx (F := F) (e := .f32) g ![ix2] v2 (fun _ => 1#1) false h2)

end Tile
end Cert.Proof.KB
end
-- ==== Proof.KB.PieceVal.lean ====
/-
  A tile's finished mask scratch, read as the mask array reads it, is the specification's mask on the tile's pieces.

  Piece r of worker w is row r, columns [128 w, 128 w + 128) of the mask array. An element (r, 128 w + t) of it reads
  scratch word 128 r + t, which after the sixteen indexed stores is 1.0 exactly when one of local token t's two
  experts has device word r; the specification's mask at device r and token 128 w + t is 1.0 under the same
  condition, read from the worker's own 256 expert words.
-/
import proofs.«202873_g15822659519276_cont_week2b_991_21_alg».proof.Proof.KB.TileDefs
import proofs.«202873_g15822659519276_cont_week2b_991_21_alg».proof.Proof.KB.MaskStep

noncomputable section

namespace Cert.Proof.KB

open Cert.Kernel Cert.Kernel.Gen

open Idealize.ShloMosaic
open Idealize.ShloMosaic.SparseCore (S V T)
open Idealize.ShloMosaic.ValueIdx

variable {F : FTy → Type}

section Tile
variable (m : (ℓ : Loc nD τ sig) → Buf (Elt F) ℓ) [FloatOps F] (d : Dev nD) (L : grid0.Coords)

/-- On piece r of the tile's worker, the scratch after the sixteen stores spread over the mask array is the
    specification's mask. -/
theorem piece_val (hmap : ∀ j, (m (mLoc d) j).toNat < 8) (r : Fin 8) (i : S8x4096.Idx) (hi : i ∈ wSet r (widL L)) :
    spreadG (Gn (F := F) (flatSlice (m (iLoc d)) (widL L)) (m (mLoc d)) 16) i = maskB m d i := by
  have hh := Rect.mem_set_unit.mp hi
  have h0 : r.val * 1 ≤ (i 0).val ∧ (i 0).val < r.val * 1 + 1 := hh 0
  have h1 : (widL L).val * 128 ≤ (i 1).val ∧ (i 1).val < (widL L).val * 128 + 128 := hh 1
  have hw : (widL L).val < 32 := (widL L).isLt
  have hr : r.val < 8 := r.isLt
  -- the local token
  obtain ⟨t, ht⟩ : ∃ t : Fin 128, (i 1).val = 128 * (widL L).val + t.val :=
    ⟨⟨(i 1).val - 128 * (widL L).val, by omega⟩, by show (i 1).val = 128 * (widL L).val + ((i 1).val - 128 * (widL L).val); omega⟩
  have htl : t.val < 128 := t.isLt
  have e0 : i 0 = r := Fin.ext (by show (i 0).val = r.val; omega)
  have e1 : i 1 = (⟨128 * (widL L).val + t.val, by omega⟩ : Fin 4096) := Fin.ext ht
  -- the scratch word read
  have eL : spreadG (Gn (F := F) (flatSlice (m (iLoc d)) (widL L)) (m (mLoc d)) 16) i
      = Gn (F := F) (flatSlice (m (iLoc d)) (widL L)) (m (mLoc d)) 16 (ix1 (⟨128 * r.val + t.val, by omega⟩ : Fin 1024)) := by
    unfold spreadG
    refine congrArg (Gn (F := F) (flatSlice (m (iLoc d)) (widL L)) (m (mLoc d)) 16) (congrArg ix1 (Fin.ext ?_))
    show 128 * (i 0).val + (i 1).val % 128 = 128 * r.val + t.val
    omega
  -- the specification's entry
  have eR : maskB m d i
      = Cert.Spec.maskAt (F := F) (m (iLoc d)) (m (mLoc d)) r (⟨128 * (widL L).val + t.val, by omega⟩ : Fin 4096) :=
    congrArg₂ (Cert.Spec.maskAt (F := F) (m (iLoc d)) (m (mLoc d))) e0 e1
  rw [eL, eR, Gn_final (F := F) _ _ hmap r t, maskAt_eq (F := F) (m (iLoc d)) (m (mLoc d)) (widL L) r t]

end Tile

end Cert.Proof.KB

end
-- ==== Proof.KB.Tile.lean ====
/-
  The body obligation of the routing kernel: one vector subcore's task, at a symbolic grid place, generic in the
  float instance.

  The tile fetches its 256 expert words and the 16-entry expert-to-device table, zeroes its 1024-word mask scratch,
  then for each of its 128 tokens and each of the token's two experts stores 1.0 at scratch word 128 * device + token
  (sixteen indexed stores of sixteen lanes), and copies the eight rows of the scratch to its columns of the eight rows
  of the mask array. The scratch is carried through the sixteen stores as the function Gn of the two tables; its final
  value is the specification's mask on the tile's columns.
-/
import proofs.«202873_g15822659519276_cont_week2b_991_21_alg».proof.Proof.KB.Common
import proofs.«202873_g15822659519276_cont_week2b_991_21_alg».proof.Proof.KB.MaskDefs
import proofs.«202873_g15822659519276_cont_week2b_991_21_alg».proof.Proof.KB.MaskVal
import proofs.«202873_g15822659519276_cont_week2b_991_21_alg».proof.Proof.KB.MaskStep
import proofs.«202873_g15822659519276_cont_week2b_991_21_alg».proof.Proof.KB.Pays
import proofs.«202873_g15822659519276_cont_week2b_991_21_alg».proof.Proof.KB.TileDefs
import proofs.«202873_g15822659519276_cont_week2b_991_21_alg».proof.Proof.KB.ZeroTrip
import proofs.«202873_g15822659519276_cont_week2b_991_21_alg».proof.Proof.KB.Landed
import proofs.«202873_g15822659519276_cont_week2b_991_21_alg».proof.Proof.KB.Tail
import proofs.«202873_g15822659519276_cont_week2b_991_21_alg».proof.Proof.KB.TwoStores
import proofs.«202873_g15822659519276_cont_week2b_991_21_alg».proof.Proof.KB.PieceVal

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable (m : (ℓ : Loc nD τ sig) → Buf (Elt F) ℓ) [FloatOps F]

section Tile
variable (d : Dev nD) (L : grid0.Coords)

/-- The two tables as the tile's indexed loads read them off its scratch buffers. -/
abbrev idxR : IVec S256 32 :=
  View.readAt (Elt F) (s0).view (LoadRect.whole S256) (flatSlice (m (iLoc d)) (widL L) : Buf (Elt F) ((V d (cV L) (jV L)).loc cc0_scratch0))
abbrev mapR : IVec S16 32 :=
  View.readAt (Elt F) (s1).view (LoadRect.whole S16) (m (mLoc d))

omit [FloatOps F] in
theorem idxR_eq : idxR (F := F) m d L = flatSlice (m (iLoc d)) (widL L) := Memref.readAt_whole (Elt F) cc0_scratch0 _
omit [FloatOps F] in
theorem mapR_eq : mapR (F := F) m d = m (mLoc d) := Memref.readAt_whole (Elt F) cc0_scratch1 _

/-- Before trip k of the zeroing loop the mask scratch is zero below 128 k. -/
def zinv (d : Dev nD) (L : grid0.Coords) (k : Nat) (_ : PUnit) : sProp 𝕄 :=
  iprop(∃ f : Buf (Elt F) ((V d (cV L) (jV L)).loc cc0_scratch2), ((s2).view.loc (V d (cV L) (jV L)) ↦{fullShare} f)
    ∗ ⌜∀ j : S1024.Idx, (j 0).val < 128 * k → f j = zeroW⌝)

/-- One chunk's two indexed stores take the mask scratch from Gn n to Gn (n + 2). -/
theorem chunk_pts (idxv : IVec S256 32) (mapv : IVec S16 32) (n : ℕ) (ix1 ix2 : IVec S16 32) (v1 v2 : FVec F S16 .f32)
    (h1 : ∀ a x, ((![ix1] : Fin 1 → IVec S16 32) a x).toNat < S1024.size a) (h2 : ∀ a x, ((![ix2] : Fin 1 → IVec S16 32) a x).toNat < S1024.size a)
    (hv1 : v1 = broadcast S16 (oneW : F .f32)) (hv2 : v2 = broadcast S16 (oneW : F .f32))
    (hix1 : ∀ x : S16.Idx, (ix1 x).toNat = posW idxv mapv n (x 0).val) (hix2 : ∀ x : S16.Idx, (ix2 x).toNat = posW idxv mapv (n + 1) (x 0).val) :
    ((s2).view.loc (V d (cV L) (jV L)) ↦{fullShare} (s2).view.writes (Elt F) (Gn (F := F) idxv mapv n : Buf (Elt F) ((V d (cV L) (jV L)).loc cc0_scratch2))
        [⟨Rect.whole S1024, storeIdx ((s2).view.readCov [⟨Rect.whole S1024, storeIdx (View.readAt (Elt F) (s2).view (LoadRect.whole S1024) (Gn (F := F) idxv mapv n : Buf (Elt F) ((V d (cV L) (jV L)).loc cc0_scratch2))) ![ix1] v1 (fun _ => 1#1) false h1⟩] (LoadRect.whole S1024)) ![ix2] v2 (fun _ => 1#1) false h2⟩,
          ⟨Rect.whole S1024, storeIdx (View.readAt (Elt F) (s2).view (LoadRect.whole S1024) (Gn (F := F) idxv mapv n : Buf (Elt F) ((V d (cV L) (jV L)).loc cc0_scratch2))) ![ix1] v1 (fun _ => 1#1) false h1⟩] : sProp 𝕄)
      = ((s2).view.loc (V d (cV L) (jV L)) ↦{fullShare} (Gn (F := F) idxv mapv (n + 2) : Buf (Elt F) ((V d (cV L) (jV L)).loc cc0_scratch2))) := by
  subst hv1 hv2
  rw [two_stores (F := F) d L, storeIdx_Gn idxv mapv n ix1 h1 hix1, storeIdx_Gn idxv mapv (n + 1) ix2 h2 hix2]

/-- A landed row piece of the mask array holds the specification's mask there. -/
theorem piece_pts (hmap : ∀ j, (m (mLoc d) j).toNat < 8) (r : Fin 8) :
    (wLoc d ↦[wSet r (widL L)]{fullShare} (spreadG (Gn (F := F) (idxR (F := F) m d L) (mapR (F := F) m d) (14 + 2)) : Buf (Elt F) (wLoc d)) : sProp 𝕄)
      = (wLoc d ↦[wSet r (widL L)]{fullShare} maskB m d) :=
  pointsTo_congr fun i hi => by
    rw [idxR_eq, mapR_eq]
    exact piece_val (F := F) m d L hmap r i hi

theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goRes m d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__routing_body L A2 (Memref.isWhole_whole _) A3 (Memref.isWhole_whole _) A4 (Memref.isWhole_whole _)
            s0 (Memref.isWhole_whole _) s1 (Memref.isWhole_whole _) s2 (Memref.isWhole_whole _) cc0_scratch3 cc0_scoped0 cc0_scoped1)
          fun _ => iprop(tdRes m d (widL L) ∗ scopedBufs (V d (cV L) (jV L)) ∗ scopedSems0 (V d (cV L) (jV L))
            ∗ ∃ W', ⌜∀ p ∈ W', p ∈ W ∨ p.2 = none⌝ ∗ owes (V d (cV L) (jV L)) O W') := by
  conv =>
    rhs
    simp only [cc0__routing_body_eq_skeleton]; unfold cc0__routing_body_skel
    simp only [k0_part2_eq_skeleton, k0_part3_eq_skeleton, k0_part4_eq_skeleton, k0_part5_eq_skeleton, k0_part6_eq_skeleton]
    unfold k0_part2_skel k0_part3_skel k0_part4_skel k0_part5_skel k0_part6_skel
    simp only [SparseCore.vectorLoadIdx_bind (V d (cV L) (jV L)), SparseCore.vectorStoreIdx_bind (V d (cV L) (jV L)), Prog.bind_assoc]
  rw [(K (F := F)).scopedBufs_V hF d (cV L) (jV L), SparseCore.Cfg.scopedSems0_V (Val := Elt F) d (cV L) (jV L), ownSems0_V, ownBufs_V]
  unfold goRes
  rw [bigSep_fin8]
  iintro ⟨#Hlv, -, ⟨HF, HM, HW0, HW1, HW2, HW3, HW4, HW5, HW6, HW7⟩, ⟨⟨%g0, Hs0⟩, ⟨%g1, Hs1⟩, ⟨%g2, Hs2⟩, Hbufs⟩, ⟨Hsem3, Hsem0, Hsem1, Hsems⟩, HO⟩
  ihave Hmw := ((K (F := F)).mayWaits_none (thr := V d (cV L) (jV L)) hO) $$ Hlv
  ihave HF' := (Entails.of_eq (pts_A2 (F := F) d L _ _).symm) $$ HF
  ihave HM' := (Entails.of_eq (pts_A3 (F := F) d L _ _).symm) $$ HM
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  -- the two fetches and their waits
  sl_exec
  sl_unfold_run_names
  rw [s0_landed (F := F) m d L g0, s1_landed (F := F) m d L g1]
  -- the zeroing loop
  sl_for (zinv (F := F) d L) $$ [Hs2']
  case region =>
    intro k _
    unfold zinv
    iintro ⟨%f, Hs2, %hf⟩
    sl_exec
    sl_step
    iexists _; isplitl [Hs2]; · iexact Hs2
    ipureintro; exact zero_trip (F := F) d L k f hf
  · unfold zinv; iexists _; isplitl [Hs2']; · iexact Hs2'
    ipureintro; intro j hj; exact absurd hj (by omega)
  iintro %_ HI
  unfold zinv
  icases HI with ⟨%f, Hs2, %hf⟩
  obtain rfl := zero_all (F := F) d L (idxR (F := F) m d L) (mapR (F := F) m d) f hf
  have hidx' : ∀ j, (idxR (F := F) m d L j).toNat < 16 := by
    intro j; rw [idxR_eq]; exact (hpre d).1 _
  have hmap' : ∀ j, (mapR (F := F) m d j).toNat < 8 := by
    intro j; rw [mapR_eq]; exact (hpre d).2 _
  -- chunk 0: tokens 0 … 15
  sl_exec (disch := first
    | (show k0_chk1 _; exact chk_lt 256 _ (fun x => by have := lane_lt x; rw [pay_ev0 x]; omega))
    | (show k0_chk2 _; exact chk_lt 256 _ (fun x => by have := lane_lt x; rw [pay_od0 x]; omega))
    | (show k0_chk3 _; exact chk_load (F := F) 16 _ hidx' _ _)
    | (show k0_chk4 _; exact chk_load (F := F) 16 _ hidx' _ _)
    | (show k0_chk5 _; exact chk_lt 1024 _ (store_ix_lt _ _ (fun x => hmap' _) (fun x => by have := lane_lt x; rw [pay_lt0 x]; omega)))
    | (show k0_chk6 _; exact chk_lt 1024 _ (store_ix_lt _ _ (fun x => hmap' _) (fun x => by have := lane_lt x; rw [pay_lt0 x]; omega))))
  sl_unfold_run_names
  ihave Hs2 := (Entails.of_eq (chunk_pts (F := F) d L (idxR (F := F) m d L) (mapR (F := F) m d) 0 _ _ _ _ _ _ ?hvA0 ?hvB0 ?hA0 ?hB0)) $$ Hs2
  case hvA0 => rfl
  case hvB0 => rfl
  case hA0 => exact posW_of (F := F) (idxR (F := F) m d L) (mapR (F := F) m d) 0 0 0 rfl (by decide) (by decide) _ _ _ _ (pay_ev0) (pay_lt0) hmap'
  case hB0 => exact posW_of (F := F) (idxR (F := F) m d L) (mapR (F := F) m d) 1 0 1 rfl (by decide) (by decide) _ _ _ _ (pay_od0) (pay_lt0) hmap'
  -- chunk 1: tokens 16 … 31
  sl_exec (disch := first
    | (show k0_chk7 _; exact chk_lt 256 _ (fun x => by have := lane_lt x; rw [pay_ev1 _ (iota_lane _) x]; omega))
    | (show k0_chk8 _; exact chk_lt 256 _ (fun x => by have := lane_lt x; rw [pay_od1 _ (iota_lane _) x]; omega))
    | (show k0_chk9 _; exact chk_load (F := F) 16 _ hidx' _ _)
    | (show k0_chk10 _; exact chk_load (F := F) 16 _ hidx' _ _)
    | (show k0_chk11 _; exact chk_lt 1024 _ (store_ix_lt _ _ (fun x => hmap' _) (fun x => by have := lane_lt x; rw [pay_lt1 _ (iota_lane _) x]; omega)))
    | (show k0_chk12 _; exact chk_lt 1024 _ (store_ix_lt _ _ (fun x => hmap' _) (fun x => by have := lane_lt x; rw [pay_lt1 _ (iota_lane _) x]; omega))))
  sl_unfold_run_names
  ihave Hs2 := (Entails.of_eq (chunk_pts (F := F) d L (idxR (F := F) m d L) (mapR (F := F) m d) 2 _ _ _ _ _ _ ?hvA1 ?hvB1 ?hA1 ?hB1)) $$ Hs2
  case hvA1 => rfl
  case hvB1 => rfl
  case hA1 => exact posW_of (F := F) (idxR (F := F) m d L) (mapR (F := F) m d) 2 1 0 rfl (by decide) (by decide) _ _ _ _ (pay_ev1 _ (iota_lane iota_S16_d0_w32_scVector)) (pay_lt1 _ (iota_lane iota_S16_d0_w32_scVector)) hmap'
  case hB1 => exact posW_of (F := F) (idxR (F := F) m d L) (mapR (F := F) m d) 3 1 1 rfl (by decide) (by decide) _ _ _ _ (pay_od1 _ (iota_lane iota_S16_d0_w32_scVector)) (pay_lt1 _ (iota_lane iota_S16_d0_w32_scVector)) hmap'
  -- chunk 2: tokens 32 … 47
  sl_exec (disch := first
    | (show k0_chk13 _; exact chk_lt 256 _ (fun x => by have := lane_lt x; rw [pay_ev2 _ (iota_lane _) x]; omega))
    | (show k0_chk14 _; exact chk_lt 256 _ (fun x => by have := lane_lt x; rw [pay_od2 _ (iota_lane _) x]; omega))
    | (show k0_chk15 _; exact chk_load (F := F) 16 _ hidx' _ _)
    | (show k0_chk16 _; exact chk_load (F := F) 16 _ hidx' _ _)
    | (show k0_chk17 _; exact chk_lt 1024 _ (store_ix_lt _ _ (fun x => hmap' _) (fun x => by have := lane_lt x; rw [pay_lt2 _ (iota_lane _) x]; omega)))
    | (show k0_chk18 _; exact chk_lt 1024 _ (store_ix_lt _ _ (fun x => hmap' _) (fun x => by have := lane_lt x; rw [pay_lt2 _ (iota_lane _) x]; omega))))
  sl_unfold_run_names
  ihave Hs2 := (Entails.of_eq (chunk_pts (F := F) d L (idxR (F := F) m d L) (mapR (F := F) m d) 4 _ _ _ _ _ _ ?hvA2 ?hvB2 ?hA2 ?hB2)) $$ Hs2
  case hvA2 => rfl
  case hvB2 => rfl
  case hA2 => exact posW_of (F := F) (idxR (F := F) m d L) (mapR (F := F) m d) 4 2 0 rfl (by decide) (by decide) _ _ _ _ (pay_ev2 _ (iota_lane iota_S16_d0_w32_scVector)) (pay_lt2 _ (iota_lane iota_S16_d0_w32_scVector)) hmap'
  case hB2 => exact posW_of (F := F) (idxR (F := F) m d L) (mapR (F := F) m d) 5 2 1 rfl (by decide) (by decide) _ _ _ _ (pay_od2 _ (iota_lane iota_S16_d0_w32_scVector)) (pay_lt2 _ (iota_lane iota_S16_d0_w32_scVector)) hmap'
  -- chunk 3: tokens 48 … 63
  sl_exec (disch := first
    | (show k0_chk19 _; exact chk_lt 256 _ (fun x => by have := lane_lt x; rw [pay_ev3 _ (iota_lane _) x]; omega))
    | (show k0_chk20 _; exact chk_lt 256 _ (fun x => by have := lane_lt x; rw [pay_od3 _ (iota_lane _) x]; omega))
    | (show k0_chk21 _; exact chk_load (F := F) 16 _ hidx' _ _)
    | (show k0_chk22 _; exact chk_load (F := F) 16 _ hidx' _ _)
    | (show k0_chk23 _; exact chk_lt 1024 _ (store_ix_lt _ _ (fun x => hmap' _) (fun x => by have := lane_lt x; rw [pay_lt3 _ (iota_lane _) x]; omega)))
    | (show k0_chk24 _; exact chk_lt 1024 _ (store_ix_lt _ _ (fun x => hmap' _) (fun x => by have := lane_lt x; rw [pay_lt3 _ (iota_lane _) x]; omega))))
  sl_unfold_run_names
  ihave Hs2 := (Entails.of_eq (chunk_pts (F := F) d L (idxR (F := F) m d L) (mapR (F := F) m d) 6 _ _ _ _ _ _ ?hvA3 ?hvB3 ?hA3 ?hB3)) $$ Hs2
  case hvA3 => rfl
  case hvB3 => rfl
  case hA3 => exact posW_of (F := F) (idxR (F := F) m d L) (mapR (F := F) m d) 6 3 0 rfl (by decide) (by decide) _ _ _ _ (pay_ev3 _ (iota_lane iota_S16_d0_w32_scVector)) (pay_lt3 _ (iota_lane iota_S16_d0_w32_scVector)) hmap'
  case hB3 => exact posW_of (F := F) (idxR (F := F) m d L) (mapR (F := F) m d) 7 3 1 rfl (by decide) (by decide) _ _ _ _ (pay_od3 _ (iota_lane iota_S16_d0_w32_scVector)) (pay_lt3 _ (iota_lane iota_S16_d0_w32_scVector)) hmap'
  -- chunk 4: tokens 64 … 79
  sl_exec (disch := first
    | (show k0_chk25 _; exact chk_lt 256 _ (fun x => by have := lane_lt x; rw [pay_ev4 _ (iota_lane _) x]; omega))
    | (show k0_chk26 _; exact chk_lt 256 _ (fun x => by have := lane_lt x; rw [pay_od4 _ (iota_lane _) x]; omega))
    | (show k0_chk27 _; exact chk_load (F := F) 16 _ hidx' _ _)
    | (show k0_chk28 _; exact chk_load (F := F) 16 _ hidx' _ _)
    | (show k0_chk29 _; exact chk_lt 1024 _ (store_ix_lt _ _ (fun x => hmap' _) (fun x => by have := lane_lt x; rw [pay_lt4 _ (iota_lane _) x]; omega)))
    | (show k0_chk30 _; exact chk_lt 1024 _ (store_ix_lt _ _ (fun x => hmap' _) (fun x => by have := lane_lt x; rw [pay_lt4 _ (iota_lane _) x]; omega))))
  sl_unfold_run_names
  ihave Hs2 := (Entails.of_eq (chunk_pts (F := F) d L (idxR (F := F) m d L) (mapR (F := F) m d) 8 _ _ _ _ _ _ ?hvA4 ?hvB4 ?hA4 ?hB4)) $$ Hs2
  case hvA4 => rfl
  case hvB4 => rfl
  case hA4 => exact posW_of (F := F) (idxR (F := F) m d L) (mapR (F := F) m d) 8 4 0 rfl (by decide) (by decide) _ _ _ _ (pay_ev4 _ (iota_lane iota_S16_d0_w32_scVector)) (pay_lt4 _ (iota_lane iota_S16_d0_w32_scVector)) hmap'
  case hB4 => exact posW_of (F := F) (idxR (F := F) m d L) (mapR (F := F) m d) 9 4 1 rfl (by decide) (by decide) _ _ _ _ (pay_od4 _ (iota_lane iota_S16_d0_w32_scVector)) (pay_lt4 _ (iota_lane iota_S16_d0_w32_scVector)) hmap'
  -- chunk 5: tokens 80 … 95
  sl_exec (disch := first
    | (show k0_chk31 _; exact chk_lt 256 _ (fun x => by have := lane_lt x; rw [pay_ev5 _ (iota_lane _) x]; omega))
    | (show k0_chk32 _; exact chk_lt 256 _ (fun x => by have := lane_lt x; rw [pay_od5 _ (iota_lane _) x]; omega))
    | (show k0_chk33 _; exact chk_load (F := F) 16 _ hidx' _ _)
    | (show k0_chk34 _; exact chk_load (F := F) 16 _ hidx' _ _)
    | (show k0_chk35 _; exact chk_lt 1024 _ (store_ix_lt _ _ (fun x => hmap' _) (fun x => by have := lane_lt x; rw [pay_lt5 _ (iota_lane _) x]; omega)))
    | (show k0_chk36 _; exact chk_lt 1024 _ (store_ix_lt _ _ (fun x => hmap' _) (fun x => by have := lane_lt x; rw [pay_lt5 _ (iota_lane _) x]; omega))))
  sl_unfold_run_names
  ihave Hs2 := (Entails.of_eq (chunk_pts (F := F) d L (idxR (F := F) m d L) (mapR (F := F) m d) 10 _ _ _ _ _ _ ?hvA5 ?hvB5 ?hA5 ?hB5)) $$ Hs2
  case hvA5 => rfl
  case hvB5 => rfl
  case hA5 => exact posW_of (F := F) (idxR (F := F) m d L) (mapR (F := F) m d) 10 5 0 rfl (by decide) (by decide) _ _ _ _ (pay_ev5 _ (iota_lane iota_S16_d0_w32_scVector)) (pay_lt5 _ (iota_lane iota_S16_d0_w32_scVector)) hmap'
  case hB5 => exact posW_of (F := F) (idxR (F := F) m d L) (mapR (F := F) m d) 11 5 1 rfl (by decide) (by decide) _ _ _ _ (pay_od5 _ (iota_lane iota_S16_d0_w32_scVector)) (pay_lt5 _ (iota_lane iota_S16_d0_w32_scVector)) hmap'
  -- chunk 6: tokens 96 … 111
  sl_exec (disch := first
    | (show k0_chk37 _; exact chk_lt 256 _ (fun x => by have := lane_lt x; rw [pay_ev6 _ (iota_lane _) x]; omega))
    | (show k0_chk38 _; exact chk_lt 256 _ (fun x => by have := lane_lt x; rw [pay_od6 _ (iota_lane _) x]; omega))
    | (show k0_chk39 _; exact chk_load (F := F) 16 _ hidx' _ _)
    | (show k0_chk40 _; exact chk_load (F := F) 16 _ hidx' _ _)
    | (show k0_chk41 _; exact chk_lt 1024 _ (store_ix_lt _ _ (fun x => hmap' _) (fun x => by have := lane_lt x; rw [pay_lt6 _ (iota_lane _) x]; omega)))
    | (show k0_chk42 _; exact chk_lt 1024 _ (store_ix_lt _ _ (fun x => hmap' _) (fun x => by have := lane_lt x; rw [pay_lt6 _ (iota_lane _) x]; omega))))
  sl_unfold_run_names
  ihave Hs2 := (Entails.of_eq (chunk_pts (F := F) d L (idxR (F := F) m d L) (mapR (F := F) m d) 12 _ _ _ _ _ _ ?hvA6 ?hvB6 ?hA6 ?hB6)) $$ Hs2
  case hvA6 => rfl
  case hvB6 => rfl
  case hA6 => exact posW_of (F := F) (idxR (F := F) m d L) (mapR (F := F) m d) 12 6 0 rfl (by decide) (by decide) _ _ _ _ (pay_ev6 _ (iota_lane iota_S16_d0_w32_scVector)) (pay_lt6 _ (iota_lane iota_S16_d0_w32_scVector)) hmap'
  case hB6 => exact posW_of (F := F) (idxR (F := F) m d L) (mapR (F := F) m d) 13 6 1 rfl (by decide) (by decide) _ _ _ _ (pay_od6 _ (iota_lane iota_S16_d0_w32_scVector)) (pay_lt6 _ (iota_lane iota_S16_d0_w32_scVector)) hmap'
  -- chunk 7: tokens 112 … 127
  sl_exec (disch := first
    | (show k0_chk43 _; exact chk_lt 256 _ (fun x => by have := lane_lt x; rw [pay_ev7 _ (iota_lane _) x]; omega))
    | (show k0_chk44 _; exact chk_lt 256 _ (fun x => by have := lane_lt x; rw [pay_od7 _ (iota_lane _) x]; omega))
    | (show k0_chk45 _; exact chk_load (F := F) 16 _ hidx' _ _)
    | (show k0_chk46 _; exact chk_load (F := F) 16 _ hidx' _ _)
    | (show k0_chk47 _; exact chk_lt 1024 _ (store_ix_lt _ _ (fun x => hmap' _) (fun x => by have := lane_lt x; rw [pay_lt7 _ (iota_lane _) x]; omega)))
    | (show k0_chk48 _; exact chk_lt 1024 _ (store_ix_lt _ _ (fun x => hmap' _) (fun x => by have := lane_lt x; rw [pay_lt7 _ (iota_lane _) x]; omega))))
  sl_unfold_run_names
  ihave Hs2 := (Entails.of_eq (chunk_pts (F := F) d L (idxR (F := F) m d L) (mapR (F := F) m d) 14 _ _ _ _ _ _ ?hvA7 ?hvB7 ?hA7 ?hB7)) $$ Hs2
  case hvA7 => rfl
  case hvB7 => rfl
  case hA7 => exact posW_of (F := F) (idxR (F := F) m d L) (mapR (F := F) m d) 14 7 0 rfl (by decide) (by decide) _ _ _ _ (pay_ev7 _ (iota_lane iota_S16_d0_w32_scVector)) (pay_lt7 _ (iota_lane iota_S16_d0_w32_scVector)) hmap'
  case hB7 => exact posW_of (F := F) (idxR (F := F) m d L) (mapR (F := F) m d) 15 7 1 rfl (by decide) (by decide) _ _ _ _ (pay_od7 _ (iota_lane iota_S16_d0_w32_scVector)) (pay_lt7 _ (iota_lane iota_S16_d0_w32_scVector)) hmap'
  -- the eight copies of the scratch's rows to the mask array, and their waits
  iapply (tail_copies (F := F) d L (Gn (F := F) (idxR (F := F) m d L) (mapR (F := F) m d) (14 + 2)) (m (wLoc d)) O _ _) $$ [Hs2 HW0 HW1 HW2 HW3 HW4 HW5 HW6 HW7 Hsem3 HO HF' HM' Hs0' Hs1' Hbufs Hsems Hsem0 Hsem1]
  isplitr; · iexact Hmw
  isplitl [Hs2]; · iexact Hs2
  isplitl [HW0]; · iexact HW0
  isplitl [HW1]; · iexact HW1
  isplitl [HW2]; · iexact HW2
  isplitl [HW3]; · iexact HW3
  isplitl [HW4]; · iexact HW4
  isplitl [HW5]; · iexact HW5
  isplitl [HW6]; · iexact HW6
  isplitl [HW7]; · iexact HW7
  isplitl [Hsem3]; · iexact Hsem3
  isplitl [HO]; · iexact HO
  iintro ⟨Hs2, HW0, HW1, HW2, HW3, HW4, HW5, HW6, HW7, Hsem3, %W', %hW', HO⟩
  -- what is handed back
  unfold tdRes
  rw [bigSep_fin8]
  have hmap : ∀ j, (m (mLoc d) j).toNat < 8 := fun j => (hpre d).2 j
  isplitl [HF' HM' HW0 HW1 HW2 HW3 HW4 HW5 HW6 HW7]
  · isplitl [HF']; · iapply (Entails.of_eq (pts_A2 (F := F) d L _ _)); iexact HF'
    isplitl [HM']; · iapply (Entails.of_eq (pts_A3 (F := F) d L _ _)); iexact HM'
    isplitl [HW0]; · iapply (Entails.of_eq (piece_pts (F := F) m d L hmap 0)); iexact HW0
    isplitl [HW1]; · iapply (Entails.of_eq (piece_pts (F := F) m d L hmap 1)); iexact HW1
    isplitl [HW2]; · iapply (Entails.of_eq (piece_pts (F := F) m d L hmap 2)); iexact HW2
    isplitl [HW3]; · iapply (Entails.of_eq (piece_pts (F := F) m d L hmap 3)); iexact HW3
    isplitl [HW4]; · iapply (Entails.of_eq (piece_pts (F := F) m d L hmap 4)); iexact HW4
    isplitl [HW5]; · iapply (Entails.of_eq (piece_pts (F := F) m d L hmap 5)); iexact HW5
    isplitl [HW6]; · iapply (Entails.of_eq (piece_pts (F := F) m d L hmap 6)); iexact HW6
    iapply (Entails.of_eq (piece_pts (F := F) m d L hmap 7)); iexact HW7
  isplitl [Hs0' Hs1' Hs2 Hbufs]
  · isplitl [Hs0']; · iexists _; iapply (Entails.of_eq (pts_s0 (F := F) d L _)); iexact Hs0'
    isplitl [Hs1']; · iexists _; iapply (Entails.of_eq (pts_s1 (F := F) d L _)); iexact Hs1'
    isplitl [Hs2]; · iexists _; iapply (Entails.of_eq (pts_s2 (F := F) d L _)); iexact Hs2
    iexact Hbufs
  isplitl [Hsem3 Hsem0 Hsem1 Hsems]
  · isplitl [Hsem3]; · iexact Hsem3
    isplitl [Hsem0]; · iexact Hsem0
    isplitl [Hsem1]; · iexact Hsem1
    iexact Hsems
  iexists W'; isplitr
  · ipureintro; intro p hp
    rcases hW' p hp with h | h
    · rcases Finset.mem_insert.mp h with h | h
      · exact .inr (h ▸ rfl)
      · rcases Finset.mem_insert.mp h with h | h
        · exact .inr (h ▸ rfl)
        · exact .inl h
    · exact .inr h
  · iexact HO

end Tile
end Cert.Proof.KB
end
-- ==== Proof.KB.Region.lean ====
/-
  The dispatch pipeline's region, entered from the TensorCore's thread of the whole program.

  After the tiles have handed back the routing mask, the TensorCore calls the dispatch pipeline: sixteen blocks of
  256 tokens, three windows (the token rows and the mask read, the dispatched tensor written). The call is the
  pipeline's region under the extended body table; it runs from the three arrays at their entry contents to the
  arrays at what the pipeline computes, and returns the TensorCore's thread state unchanged: during the region the
  TensorCore owes nothing, and every wait of the pipeline is recorded at the index that carries level zero.
  The pipeline's staging cells' ghost state is dealt at launch, from the launch element's component for it.
-/
import proofs.«202873_g15822659519276_cont_week2b_991_21_alg».proof.Proof.KB.Common

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The pipeline's tables, its ghost state and the launch element's component -/

/-- The admissible tables of the pipelines: none is prefetched. -/
abbrev adm : (p : Fin 1) → (pcfgs (F := F) p).Adm := fun p => (cfgs p).toPCfg_adm

/-- The pairs a TensorCore's waits may have recorded around the region: those at or below level 8. -/
def recB (c : Dev nD) : Set (SemLoc sig × HIx 1) := {p | (K (F := F)).lev (T c, p.1) p.2 ≤ 8}

/-- The pipeline's ghost state on device d, as the launch deals it: its staging cells' launch state and the duty
    tokens of its transfers. -/
def pipeGhost (d : Dev nD) : sProp 𝕄 :=
  iprop(Pipeline.cellsGhost cfgs (EP (F := F)) 0 d ∗ Pipeline.toksInit cfgs (EP (F := F)) 0 d)

/-- The launch element's component for the pipeline's staging cells. -/
def uP₀ : UP := initOf (Pipeline.cells (nD := nD) (τ := τ) cfgs cellOf_inj) (Pipeline.launchToks (nD := nD) (τ := τ) cfgs cellOf_inj)

/-- Funding: from the component, every device's ghost state of the pipeline. -/
theorem pipe_fund : (BI.own (EP (F := F) uP₀) : sProp 𝕄) ⊢ |==> bigSep Finset.univ fun d : Dev nD => pipeGhost (F := F) d := by
  refine (Pipeline.fund_ghost cfgs (EP (F := F)) cellOf_inj).trans (bupd_mono ?_)
  unfold pipeGhost
  rw [bigSep_sep']
  refine BI.sep_mono (Entails.of_eq (bigSep_congr fun c _ => ?_)) (Entails.of_eq (bigSep_congr fun c _ => ?_))
  · exact bigSep_univ_of_subsingleton (0 : Fin 1)
  · exact bigSep_univ_of_subsingleton (0 : Fin 1)

variable (m : (ℓ : Loc nD τ sig) → Buf (Elt F) ℓ) [FloatOps F]

section Region

variable (dats : (p : Fin 1) → (c : Dev nD) → Pipeline.Dat τ (Elt F) (HIx 1) ℕ UU ℕ (cfgs p) c)
  (X Y : Dev nD → sProp (MT nD τ sig (HIx 1) (Elt F) ℕ UU ℕ))

/-- What the TensorCore holds of its debts around the region: nothing owed, its recorded pairs at or below level 8. -/
def owes1 (c : Dev nD) : sProp 𝕄 :=
  iprop(∃ W, ⌜(K (F := F)).WBelow (T c) W (8 * 1)⌝ ∗ owes (T c) (0 : CellTallies nD τ sig (HIx 1)) W)

/-- The thread state the region is entered from: the debts, what enters the body's invariant, the three arrays at
    their entry contents. -/
def regPre (c : Dev nD) : sProp 𝕄 :=
  iprop(owes1 (F := F) c ∗ X c
    ∗ (xLoc c ↦{fullShare} (dats 0 c).A 0) ∗ (wLoc c ↦{fullShare} (dats 0 c).A 1) ∗ (oLoc c ↦{fullShare} (dats 0 c).A 2))

/-- The one it leaves: the debts, what the invariant gives back, the arrays at what the pipeline computes. -/
def regPost (c : Dev nD) : sProp 𝕄 :=
  iprop(owes1 (F := F) c ∗ Y c
    ∗ (xLoc c ↦{fullShare} (dats 0 c).arrAt 0 cfg1.N) ∗ (wLoc c ↦{fullShare} (dats 0 c).arrAt 1 cfg1.N) ∗ (oLoc c ↦{fullShare} (dats 0 c).arrAt 2 cfg1.N))

/-- Conjoined over no index: nothing. -/
theorem bigSep_F0 {M : Type} [URA M] (Φ : Fin 0 → sProp M) : bigSep Finset.univ Φ = (BI.emp : sProp M) :=
  bigSep_univ_eq_bigSepL [] (by decide) (by decide) Φ

omit [FloatOps F] in
/-- No table is prefetched: none is held. -/
theorem prefHeld0 (c : Dev nD) (q) (pf) :
    (Pipeline.prefHeld (Ix := HIx 1) (Name := ℕ) (U := UU) (Lvl := ℕ) (Val := Elt F) (pcfgs (F := F) 0).pre c q pf : sProp 𝕄) = BI.emp :=
  bigSep_F0 _

variable (hbody : ∀ c, Pipeline.BodyObligation (dats 0 c) (defs₀ (F := F)) Variants.none (none : HIx 1) Set.univ)
  (hshare : ∀ c w, (dats 0 c).share w = fullShare) (howed : ∀ c t, (dats 0 c).owed t = 0)
  (hrec : ∀ c t, (dats 0 c).recorded t = recB (F := F) c)
  (hin : ∀ c, X c ⊢ (dats 0 c).Φ 0) (hout : ∀ c, (dats 0 c).Φ (Fin.last _) ⊢ Y c)

/-- The region's record: the decided layout, no semaphore of the kernel's own, the body obligation, and the four
    entailments around the thread states. -/
def reg : Pipeline.RegionSeg (pcfgs (F := F)) adm dats (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (hbody c).loose
  hwaits := Pipeline.hwaits_of_owed_zero _ _ _ _ _ _ 0 (fun c t => howed c t)
  pre := regPre dats X
  post := regPost dats Y
  X := X
  Y := Y
  Z _ := iprop(emp)
  hentry c := by
    rw [Pipeline.arrays_eq (Pipeline.pin (pcfgs (F := F)) adm) dats 0 c arr_whole1 (hshare c), bigSep_W1, prefHeld0]
    unfold regPre owes1 Pipeline.Dat.owesAt Pipeline.owesWithin Pipeline.Dat.bound
    rw [howed, hrec]
    iintro ⟨⟨⟨%W, %hW, HO⟩, HX, Hx, Hw, Ho⟩, -, -⟩
    imodintro
    isplitl [Hx Hw Ho]
    · isplitl [Hx]; · iexact Hx
      isplitl [Hw]; · iexact Hw
      iexact Ho
    isplitr; · iempintro
    isplitl [HO]
    · iexists W; isplitr
      · ipureintro; exact fun p hp => Or.inl (hW p (Finset.mem_coe.mp hp))
      iexact HO
    isplitl [HX]; · iexact HX
    iempintro
  hin c := by
    iintro ⟨HX, -, -⟩; iapply (hin c); iexact HX
  hout c := by
    rw [Pipeline.ownSems0_none, scopedRest1_eq]
    iintro HΦ
    isplitl [HΦ]; · iapply (hout c); iexact HΦ
    isplitr <;> iempintro
  hexit c := by
    rw [Pipeline.arrays_eq (Pipeline.pin (pcfgs (F := F)) adm) dats 0 c arr_whole1 (hshare c), bigSep_W1]
    unfold regPost owes1 Pipeline.Dat.owesAt Pipeline.owesWithin Pipeline.Dat.bound
    rw [howed, hrec]
    iintro ⟨⟨Hx, Hw, Ho⟩, ⟨%W, %hW, HO⟩, HY, -⟩
    imodintro
    isplitl [HO]
    · iexists W; isplitr
      · ipureintro; intro p hp
        rcases hW (Finset.mem_coe.mpr hp) with h | ⟨w, s, rfl⟩
        · exact h
        · exact Nat.zero_le _
      iexact HO
    isplitl [HY]; · iexact HY
    isplitl [Hx]; · iexact Hx
    isplitl [Hw]; · iexact Hw
    iexact Ho

omit [FloatOps F] in
/-- The call as it stands in the whole program is the pipeline's call, lifted to the extended body table. -/
theorem prog_eq : (Prog.lift (.customCall (SparseCore.inner (Pipeline.entry 0)) ()) :
      Prog (TpuEff nD τ sig (Elt F) (SparseCore.Sig (ΛP (F := F)) 1) .tc) PUnit)
    = SparseCore.liftProg (Prog.op (.customCall (Pipeline.entry 0) ()) fun _ => Prog.ret PUnit.unit) := rfl

include hbody hshare howed hrec hin hout in
set_option backward.isDefEq.respectTransparency.types false in
/-- The region, general in what enters the body's invariant and what it gives back. -/
theorem region_wp' (κ : GSem nD τ sig → ℕ) (d : Dev nD) (Q : PUnit → sProp 𝕄) :
    iprop((K (F := F)).ctx EH (P m) κ ∗ (K (F := F)).tcSt EH d 1 ∗ boundary (T d) ∗ pipeGhost (F := F) d ∗ X d
          ∗ (xLoc d ↦{fullShare} (dats 0 d).A 0) ∗ (wLoc d ↦{fullShare} (dats 0 d).A 1) ∗ (oLoc d ↦{fullShare} (dats 0 d).A 2)
          ∗ (iprop((K (F := F)).tcSt EH d 1 ∗ boundary (T d) ∗ Y d
              ∗ (xLoc d ↦{fullShare} (dats 0 d).arrAt 0 cfg1.N) ∗ (wLoc d ↦{fullShare} (dats 0 d).arrAt 1 cfg1.N) ∗ (oLoc d ↦{fullShare} (dats 0 d).arrAt 2 cfg1.N)) -∗ Q ⟨⟩))
        ⊢ wp frame (wpE ((K (F := F)).defs (D (F := F))) 𝒱 (T d) none) Set.univ (Prog.lift (.customCall (SparseCore.inner (Pipeline.entry 0)) ())) Q := by
  rw [prog_eq]
  refine BIBase.Entails.trans ?_ ((K (F := F)).wp_liftProg (D (F := F)) 𝒱 (T d) Set.univ none _ Q)
  have hpre : iprop((∃ W, ⌜(K (F := F)).WBelow (T d) W (8 * 1)⌝ ∗ owes (T d) (0 : CellTallies nD τ sig (HIx 1)) W) ∗ X d
      ∗ (xLoc d ↦{fullShare} (dats 0 d).A 0) ∗ (wLoc d ↦{fullShare} (dats 0 d).A 1) ∗ (oLoc d ↦{fullShare} (dats 0 d).A 2))
      ⊢ (reg dats X Y hbody hshare howed hrec hin hout).pre d := BI.Entails.refl _
  have hpost : (reg dats X Y hbody hshare howed hrec hin hout).post d
      ⊢ iprop((∃ W, ⌜(K (F := F)).WBelow (T d) W (8 * 1)⌝ ∗ owes (T d) (0 : CellTallies nD τ sig (HIx 1)) W) ∗ Y d
        ∗ (xLoc d ↦{fullShare} (dats 0 d).arrAt 0 cfg1.N) ∗ (wLoc d ↦{fullShare} (dats 0 d).arrAt 1 cfg1.N) ∗ (oLoc d ↦{fullShare} (dats 0 d).arrAt 2 cfg1.N)) :=
    BI.Entails.refl _
  unfold SparseCore.Cfg.tcSt pipeGhost
  rw [(K (F := F)).Otc_end d (le_refl 1)]
  iintro ⟨#Hctx, ⟨HO, Hrest⟩, Hbd, ⟨Hg, Ht⟩, HX, Hx, Hw, Ho, Hk⟩
  iapply (Pipeline.RegionSeg.wp (pcfgs (F := F)) adm dats (none : HIx 1) cellOf_inj EP defs₀ 𝒱₀ (K (F := F)).L (K (F := F)).lev
    (reg dats X Y hbody hshare howed hrec hin hout) d none (fun u h => by cases h) (fun _ => Prog.ret PUnit.unit) Q)
  isplitl [Hrest Hk]
  · iintro ⟨Hbd, Hpost⟩
    ihave Hp := hpost $$ Hpost
    icases Hp with ⟨HO, HY, Hx, Hw, Ho⟩
    rw [wp_ret]
    imodintro
    iapply Hk
    isplitl [HO Hrest]
    · isplitl [HO]; · iexact HO
      iexact Hrest
    isplitl [Hbd]; · iexact Hbd
    isplitl [HY]; · iexact HY
    isplitl [Hx]; · iexact Hx
    isplitl [Hw]; · iexact Hw
    iexact Ho
  isplitl [Hbd]; · iexact Hbd
  isplitl [HO HX Hx Hw Ho]
  · iapply hpre
    isplitl [HO]; · iexact HO
    isplitl [HX]; · iexact HX
    isplitl [Hx]; · iexact Hx
    isplitl [Hw]; · iexact Hw
    iexact Ho
  isplitr; · iapply (SparseCore.Cfg.ctx_levAts κ); iexact Hctx
  isplitl [Hg]; · iexact Hg
  iexact Ht

end Region

/-- The region as the whole program's proof uses it: the body's invariant is entered from nothing and gives nothing
    back. From the thread state after the tiles' call, the boundary, the pipeline's ghost state and the three arrays
    at the proof data's entry contents, the call runs to the same thread state, the boundary and the arrays at what
    the pipeline computes. -/
theorem region_wp (dats : (p : Fin 1) → (c : Dev nD) → Pipeline.Dat τ (Elt F) (HIx 1) ℕ UU ℕ (cfgs p) c)
    (hbody : ∀ c, Pipeline.BodyObligation (dats 0 c) (defs₀ (F := F)) Variants.none (none : HIx 1) Set.univ)
    (hshare : ∀ c w, (dats 0 c).share w = fullShare) (howed : ∀ c t, (dats 0 c).owed t = 0)
    (hrec : ∀ c t, (dats 0 c).recorded t = recB (F := F) c)
    (hin : ∀ c, (BI.emp : sProp 𝕄) ⊢ (dats 0 c).Φ 0) (hout : ∀ c, (dats 0 c).Φ (Fin.last _) ⊢ (BI.emp : sProp 𝕄))
    (κ : GSem nD τ sig → ℕ) (d : Dev nD) (Q : PUnit → sProp 𝕄) :
    iprop((K (F := F)).ctx EH (P m) κ ∗ (K (F := F)).tcSt EH d 1 ∗ boundary (T d) ∗ pipeGhost (F := F) d
          ∗ (xLoc d ↦{fullShare} (dats 0 d).A 0) ∗ (wLoc d ↦{fullShare} (dats 0 d).A 1) ∗ (oLoc d ↦{fullShare} (dats 0 d).A 2)
          ∗ (iprop((K (F := F)).tcSt EH d 1 ∗ boundary (T d)
              ∗ (xLoc d ↦{fullShare} (dats 0 d).arrAt 0 cfg1.N) ∗ (wLoc d ↦{fullShare} (dats 0 d).arrAt 1 cfg1.N) ∗ (oLoc d ↦{fullShare} (dats 0 d).arrAt 2 cfg1.N)) -∗ Q ⟨⟩))
        ⊢ wp frame (wpE ((K (F := F)).defs (D (F := F))) 𝒱 (T d) none) Set.univ (Prog.lift (.customCall (SparseCore.inner (Pipeline.entry 0)) ())) Q := by
  refine BIBase.Entails.trans ?_ (region_wp' m dats (fun _ => iprop(emp)) (fun _ => iprop(emp)) hbody hshare howed hrec hin hout κ d Q)
  iintro ⟨#Hctx, Hst, Hbd, Hg, Hx, Hw, Ho, Hk⟩
  isplitr; · iexact Hctx
  isplitl [Hst]; · iexact Hst
  isplitl [Hbd]; · iexact Hbd
  isplitl [Hg]; · iexact Hg
  isplitr; · iempintro
  isplitl [Hx]; · iexact Hx
  isplitl [Hw]; · iexact Hw
  isplitl [Ho]; · iexact Ho
  iintro ⟨Hst, Hbd, -, Hx, Hw, Ho⟩
  iapply Hk
  isplitl [Hst]; · iexact Hst
  isplitl [Hbd]; · iexact Hbd
  isplitl [Hx]; · iexact Hx
  isplitl [Hw]; · iexact Hw
  iexact Ho

end Cert.Proof.KB

end
-- ==== Proof.KB.TcBody.lean ====
/-
  The TensorCore dispatch: one block of the pipeline and the whole dispatched tensor.

  At grid point t the body is handed 256 token rows (the block x of f32[256, 1024]) and the 256 matching columns of the
  routing mask (the block w of f32[8, 256]); in thirty-two steps of eight rows it writes the block
  out[d, r, j] = x[r, j] * w[d, r] of f32[8, 256, 1024]. The sixteen blocks tile the dispatched tensor, so after the last
  point the result array holds, at (d, t, j), the token's row entry times the mask entry of (d, t).
-/
import proofs.«202873_g15822659519276_cont_week2b_991_21_alg».proof.Proof.KB.Common
import Idealize.ShloMosaic.Lib.Pipeline.FrameBody
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.Proof.KB

open Cert.Kernel Cert.Kernel.Gen

open Idealize.ShloMosaic Idealize.ShloMosaic.TcCoe Idealize.ShloMosaic.Tactic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig (HIx 1) (Elt F) ℕ UU ℕ

/-! ## The thirty-two steps' rectangles -/

theorem inb_rows (k : Fin 32) : ∀ a, (![8 * k.val, 0] : Fin 2 → Nat) a + S8x1024.size a ≤ S256x1024.size a := by
  intro a
  match a with
  | ⟨0, _⟩ => show 8 * k.val + 8 ≤ 256; omega
  | ⟨1, _⟩ => show 0 + 1024 ≤ 1024; omega

theorem inb_cols (k : Fin 32) : ∀ a, (![0, 8 * k.val] : Fin 2 → Nat) a + S8x8.size a ≤ S8x256.size a := by
  intro a
  match a with
  | ⟨0, _⟩ => show 0 + 8 ≤ 8; omega
  | ⟨1, _⟩ => show 8 * k.val + 8 ≤ 256; omega

theorem inb_out (k : Fin 32) : ∀ a, (![0, 8 * k.val, 0] : Fin 3 → Nat) a + S8x8x1024.size a ≤ S8x256x1024.size a := by
  intro a
  match a with
  | ⟨0, _⟩ => show 0 + 8 ≤ 8; omega
  | ⟨1, _⟩ => show 8 * k.val + 8 ≤ 256; omega
  | ⟨2, _⟩ => show 0 + 1024 ≤ 1024; omega

/-- Step k's token rows [8 k, 8 k + 8) of the block of rows. -/
abbrev rowsR (k : Fin 32) : Rect S256x1024 := Rect.unit (s := S256x1024) ![8 * k.val, 0] S8x1024.size (inb_rows k)
/-- Step k's columns [8 k, 8 k + 8) of the block of the mask. -/
abbrev colsR (k : Fin 32) : Rect S8x256 := Rect.unit (s := S8x256) ![0, 8 * k.val] S8x8.size (inb_cols k)
/-- Step k's rows [8 k, 8 k + 8) of the output block, all devices, all columns. -/
abbrev outR (k : Fin 32) : Rect S8x256x1024 := Rect.unit (s := S8x256x1024) ![0, 8 * k.val, 0] S8x8x1024.size (inb_out k)

variable [FloatOps F]

/-! ## One step and the block -/

/-- One step: eight token rows against the eight matching mask columns, out[d, r, j] = rows[r, j] * cols[d, r]. -/
def step (rows : Vec F S8x1024 .f32) (cols : Vec F S8x8 .f32) : FVec F S8x8x1024 .f32 :=
  mulf (broadcastTo S8x8x1024 (shapeCast S1x8x1024 rows shapeCasts_S8x1024_S1x8x1024) broadcasts_S1x8x1024_S8x8x1024)
    (broadcastTo S8x8x1024 (shapeCast S8x8x1 (shapeCast S8x8 cols shapeCasts_S8x8_S8x8) shapeCasts_S8x8_S8x8x1) broadcasts_S8x8x1_S8x8x1024)

/-- Step k's store, from the two input blocks. -/
def piece (x0 : Vec F S256x1024 .f32) (x1 : Vec F S8x256 .f32) (k : Fin 32) : View.Piece (Elt F) S8x256x1024 .f32 :=
  ⟨outR k, step (View.ld x0 (rowsR k)) (View.ld x1 (colsR k))⟩

/-- The steps, last first. -/
abbrev stepsRev : List (Fin 32) := [31, 30, 29, 28, 27, 26, 25, 24, 23, 22, 21, 20, 19, 18, 17, 16, 15, 14, 13, 12, 11, 10, 9, 8, 7, 6, 5, 4, 3, 2, 1, 0]

/-- the output block from the two input blocks: outblk[d, r, j] = inblk[r, j] * wblk[d, r], as the View.canon of the body's 32 stores -/
def outBlk (x0 : Vec F S256x1024 .f32) (x1 : Vec F S8x256 .f32) : Vec F S8x256x1024 .f32 :=
  View.canon (stepsRev.map (piece x0 x1))

/-! ## The steps tile the block -/

theorem mem_stepsRev : ∀ k : Fin 32, k ∈ stepsRev := by decide

/-- Row r of the output block is written by step r / 8. -/
theorem cover (x0 : Vec F S256x1024 .f32) (x1 : Vec F S8x256 .f32) (y : S8x256x1024.Idx) :
    ∃ pc ∈ stepsRev.map (piece x0 x1), y ∈ pc.1.set := by
  have h0 : (y 0).val < 8 := (y 0).isLt
  have h1 : (y 1).val < 256 := (y 1).isLt
  have h2 : (y 2).val < 1024 := (y 2).isLt
  refine ⟨piece x0 x1 ⟨(y 1).val / 8, by omega⟩, List.mem_map_of_mem (mem_stepsRev _), ?_⟩
  show y ∈ (outR ⟨(y 1).val / 8, by omega⟩).set
  rw [Rect.mem_set_unit]
  intro a
  match a with
  | ⟨0, _⟩ => show 0 ≤ (y 0).val ∧ (y 0).val < 0 + 8; omega
  | ⟨1, _⟩ => show 8 * ((y 1).val / 8) ≤ (y 1).val ∧ (y 1).val < 8 * ((y 1).val / 8) + 8; omega
  | ⟨2, _⟩ => show 0 ≤ (y 2).val ∧ (y 2).val < 0 + 1024; omega

/-! ## The body's triple -/

set_option maxHeartbeats 4000000 in
/-- The body on whole staging memrefs, the two inputs' at read contents x0 and x1 and the output's at anything, runs to the
    continuation holding the inputs' as they were and the output's at the block of x0 and x1. -/
theorem sound_kernel (c : Dev nD) (E : Set ℕ) (i : grid1.Coords) (arg1 : Memref sig .tc .vmem S256x1024 .f32) (harg1 : arg1.IsWhole)
    (arg2 : Memref sig .tc .vmem S8x256 .f32) (harg2 : arg2.IsWhole) (arg3 : Memref sig .tc .vmem S8x256x1024 .f32) (harg3 : arg3.IsWhole)
    (x0 : Vec F S256x1024 .f32) (x1 : Vec F S8x256 .f32) (Q : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ Q ⟨⟩))
      ⊢ wp frame (wpE (defs₀ (F := F)) Variants.none c none) E (cc1__dispatch_tc i arg1 harg1 arg2 harg2 arg3 harg3) Q := by
  simp only [cc1__dispatch_tc_eq_skeleton]; unfold cc1__dispatch_tc_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _ _)

/-! ## The pipeline's proof data -/

variable (m : (ℓ : Loc nD τ sig) → Buf (Elt F) ℓ)

/-- The block of token rows at point t: rows [256 t, 256 t + 256) of the token array as launched. -/
abbrev xblk (c : Dev nD) (t : Fin cfg1.N) : Vec F S256x1024 .f32 := ((cfg1.win 0).blk t).view.read (Elt F) (m (xLoc c))
/-- The block of the mask at point t: columns [256 t, 256 t + 256) of the routing mask. -/
abbrev wblk (c : Dev nD) (t : Fin cfg1.N) : Vec F S8x256 .f32 := ((cfg1.win 1).blk t).view.read (Elt F) (maskB m c)

/-- the proof data of pipeline 0 on core c: the arrays AS THE REGION FINDS THEM are a LITERAL match — window 0: m (xLoc c); window 1: maskB m c (the mask the SparseCore tiles left); window 2: m (oLoc c) -/
def dats (_ : Fin 1) (c : Dev nD) : Dat τ (Elt F) (HIx 1) ℕ UU ℕ cfg1 c where
  A w := match w with
    | ⟨0, _⟩ => m (xLoc c)
    | ⟨1, _⟩ => maskB m c
    | ⟨2, _⟩ => m (oLoc c)
  after w t := match w with
    | ⟨0, _⟩ => xblk m c t
    | ⟨1, _⟩ => wblk m c t
    | ⟨2, _⟩ => outBlk (xblk m c t) (wblk m c t)
  Φ _ := iprop(emp)
  q _ := fullShare
  owed _ := 0
  recorded _ := {p | (K (F := F)).lev (SparseCore.T c, p.1) p.2 ≤ 8}

theorem arrA0 (c : Dev nD) : (dats m 0 c).A 0 = m (xLoc c) := by dsimp only [dats]
theorem arrA1 (c : Dev nD) : (dats m 0 c).A 1 = maskB m c := by dsimp only [dats]
theorem arrA2 (c : Dev nD) : (dats m 0 c).A 2 = m (oLoc c) := by dsimp only [dats]

theorem after0 (c : Dev nD) (t : Fin cfg1.N) : (dats m 0 c).after 0 t = xblk m c t := by dsimp only [dats]
theorem after1 (c : Dev nD) (t : Fin cfg1.N) : (dats m 0 c).after 1 t = wblk m c t := by dsimp only [dats]
theorem after2 (c : Dev nD) (t : Fin cfg1.N) : (dats m 0 c).after 2 t = outBlk (xblk m c t) (wblk m c t) := by dsimp only [dats]

theorem share_full (c : Dev nD) (w : Fin cfg1.W) : (dats m 0 c).share w = fullShare := (dats m 0 c).share_full (fun _ => rfl) w
theorem owed_zero (c : Dev nD) (t : Fin (cfg1.N + 1)) : (dats m 0 c).owed t = 0 := rfl
theorem Φ_eq (c : Dev nD) (t : Fin (cfg1.N + 1)) : (dats m 0 c).Φ t = (BI.emp : sProp 𝕄) := rfl
theorem Φ_in (c : Dev nD) : (BI.emp : sProp 𝕄) ⊢ (dats m 0 c).Φ 0 := .rfl
theorem Φ_out (c : Dev nD) : (dats m 0 c).Φ (Fin.last _) ⊢ (BI.emp : sProp 𝕄) := .rfl
theorem recorded_eq (c : Dev nD) (t : Fin (cfg1.N + 1)) :
    (dats m 0 c).recorded t = {p | (K (F := F)).lev (SparseCore.T c, p.1) p.2 ≤ 8} := rfl

/-! ## What the body finds in the input windows' buffers -/

/-- An input window's current staging buffer holds its block at every point: both windows are uncut, never idle, and the
    body leaves their blocks in place. -/
theorem before0 (c : Dev nD) (t : Fin cfg1.N) (d) : (dats m 0 c).before 0 t d = xblk m c t :=
  ((dats m 0 c).before_in_eq_fetched 0 rfl (fun _ => rfl) (fun _ _ _ => rfl) (fun t => by rw [after0]; unfold Dat.blockOf; rw [arrA0]; try rfl) t d).trans
    (by unfold Dat.fetched Dat.blockOf; rw [arrA0]; try rfl)
theorem before1 (c : Dev nD) (t : Fin cfg1.N) (d) : (dats m 0 c).before 1 t d = wblk m c t :=
  ((dats m 0 c).before_in_eq_fetched 1 rfl (fun _ => rfl) (fun _ _ _ => rfl) (fun t => by rw [after1]; unfold Dat.blockOf; rw [arrA1]; try rfl) t d).trans
    (by unfold Dat.fetched Dat.blockOf; rw [arrA1]; try rfl)

/-! ## The body obligation, at a generic point -/

/-- What the body is called with at point t, the windows one by one, -/
def bodyPre (c : Dev nD) (t : Fin cfg1.N) : sProp 𝕄 :=
  iprop((dats m 0 c).Φ t.castSucc ∗ (dats m 0 c).owesAt (none : HIx 1) t.castSucc
    ∗ (∃ d, owns (c : Thread nD τ) (st1_0 t) fullShare ((dats m 0 c).before 0 t d))
    ∗ (∃ d, owns (c : Thread nD τ) (st1_1 t) fullShare ((dats m 0 c).before 1 t d))
    ∗ (∃ d, owns (c : Thread nD τ) (st1_2 t) fullShare ((dats m 0 c).before 2 t d)))

/-- and what it returns. -/
def bodyPost (c : Dev nD) (t : Fin cfg1.N) : sProp 𝕄 :=
  iprop((dats m 0 c).Φ t.succ ∗ (dats m 0 c).owesAt (none : HIx 1) t.succ
    ∗ owns (c : Thread nD τ) (st1_0 t) fullShare ((dats m 0 c).after 0 t)
    ∗ owns (c : Thread nD τ) (st1_1 t) fullShare ((dats m 0 c).after 1 t)
    ∗ owns (c : Thread nD τ) (st1_2 t) fullShare ((dats m 0 c).after 2 t))

/-- The body at any point: the inputs' memrefs hold their blocks, so the body's triple applies; the invariant and the
    core's tallies pass through unread. -/
theorem sound_body (c : Dev nD) (t : Fin cfg1.N) :
    bodyPre m c t ⊢ wp frame (wpE (defs₀ (F := F)) Variants.none c none) Set.univ (bodyAt1 t) (fun _ => bodyPost m c t) := by
  unfold bodyPre bodyPost bodyAt1
  simp only [before0, before1]
  rw [show (dats m 0 c).Φ t.succ = (dats m 0 c).Φ t.castSucc from rfl,
    show (dats m 0 c).owesAt (none : HIx 1) t.succ = (dats m 0 c).owesAt (none : HIx 1) t.castSucc from rfl,
    after0, after1, after2]
  iintro ⟨HΦ, Ho, ⟨%d0, H0⟩, ⟨%d1, H1⟩, ⟨%d2, H2⟩⟩
  iapply (sound_kernel c Set.univ (grid1.coords t) _ _ _ _ _ _ (xblk m c t) (wblk m c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none (none : HIx 1) Set.univ := fun t => by
  rw [bigSep_W1, bigSep_W1]
  exact sound_body m c t

/-! ## The input arrays after the region -/

/-- An input window's array is never written back. -/
theorem arrAt_x (c : Dev nD) : (dats m 0 c).arrAt 0 cfg1.N = m (xLoc c) := ((dats m 0 c).arrAt_in 0 rfl _).trans (arrA0 m c)
theorem arrAt_w (c : Dev nD) : (dats m 0 c).arrAt 1 cfg1.N = maskB m c := ((dats m 0 c).arrAt_in 1 rfl _).trans (arrA1 m c)

end Cert.Proof.KB

end
-- ==== Proof.KB.TcBlock.lean ====
/-
  The dispatch block, index by index.

  Each of the thirty-two steps multiplies eight token rows, laid along a new leading axis, by the eight matching mask
  columns, laid along a new trailing axis; read at (d, r, j) that is rows[r, j] * cols[d, r]. Step k's store covers rows
  [8 k, 8 k + 8) of the output block, so the block the stores leave is out[d, r, j] = x[r, j] * w[d, r] at every index.
-/
import proofs.«202873_g15822659519276_cont_week2b_991_21_alg».proof.Proof.KB.TcBody

noncomputable section

namespace Cert.Proof.KB

open Cert.Kernel Cert.Kernel.Gen

open Idealize.ShloMosaic Idealize.ShloMosaic.ValueIdx

variable {F : FTy → Type} [FloatOps F]

/-! ## One step at an index -/

/-- An [a, b] array cast to [a, b, 1] reads, at (i, j, u), the operand at (i, j). -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- One step at (d, r, j): the token row's entry times the mask's entry of (d, r). -/
theorem step_apply (rows : Vec F S8x1024 .f32) (cols : Vec F S8x8 .f32) (d : Fin 8) (r : Fin 8) (j : Fin 1024) :
    step rows cols (ix3 d r j) = FloatOps.mulf (rows (ix2 r j)) (cols (ix2 d r)) := by
  have e1 : broadcastTo S8x8x1024 (shapeCast S1x8x1024 rows shapeCasts_S8x1024_S1x8x1024) broadcasts_S1x8x1024_S8x8x1024 (ix3 d r j) = rows (ix2 r j) :=
    (broadcastTo_apply _ _ (ix3 d r j) (ix3 (0 : Fin 1) r j) (fun a => match a with | ⟨0, _⟩ => rfl | ⟨1, _⟩ => rfl | ⟨2, _⟩ => rfl)).trans
      (shapeCast_ab_1ab_apply rows _ 0 r j)
  have e2 : broadcastTo S8x8x1024 (shapeCast S8x8x1 (shapeCast S8x8 cols shapeCasts_S8x8_S8x8) shapeCasts_S8x8_S8x8x1) broadcasts_S8x8x1_S8x8x1024 (ix3 d r j) = cols (ix2 d r) :=
    (broadcastTo_apply _ _ (ix3 d r j) (ix3 d r (0 : Fin 1)) (fun a => match a with | ⟨0, _⟩ => rfl | ⟨1, _⟩ => rfl | ⟨2, _⟩ => rfl)).trans
      ((shapeCast_ab_ab1_apply _ _ d r 0).trans (congrFun (shapeCast_self cols _) (ix2 d r)))
  unfold step
  show FloatOps.mulf (broadcastTo S8x8x1024 (shapeCast S1x8x1024 rows shapeCasts_S8x1024_S1x8x1024) broadcasts_S1x8x1024_S8x8x1024 (ix3 d r j))
      (broadcastTo S8x8x1024 (shapeCast S8x8x1 (shapeCast S8x8 cols shapeCasts_S8x8_S8x8) shapeCasts_S8x8_S8x8x1) broadcasts_S8x8x1_S8x8x1024 (ix3 d r j)) = _
  rw [e1, e2]

/-! ## The block, index by index -/

/-- The block as one function of the two input blocks: out[d, r, j] = x[r, j] * w[d, r]. -/
def dispBlk (x0 : Vec F S256x1024 .f32) (x1 : Vec F S8x256 .f32) : Vec F S8x256x1024 .f32 :=
  fun i => FloatOps.mulf (x0 (ix2 (i 1) (i 2))) (x1 (ix2 (i 0) (i 1)))

/-- Step k's store agrees with it: local row r of the step is row 8 k + r of the block. -/
theorem piece_agrees (x0 : Vec F S256x1024 .f32) (x1 : Vec F S8x256 .f32) (k : Fin 32) (d : Fin 8) (r : Fin 8) (j : Fin 1024) :
    step (View.ld x0 (rowsR k)) (View.ld x1 (colsR k)) (ix3 d r j) = dispBlk x0 x1 ((outR k).emb (ix3 d r j)) := by
  have h0 : (rowsR k).idx (ix2 r j) = ix2 (((outR k).emb (ix3 d r j)) 1) (((outR k).emb (ix3 d r j)) 2) := by
    funext a; apply Fin.ext
    match a with
    | ⟨0, _⟩ => rfl
    | ⟨1, _⟩ => rfl
  have h1 : (colsR k).idx (ix2 d r) = ix2 (((outR k).emb (ix3 d r j)) 0) (((outR k).emb (ix3 d r j)) 1) := by
    funext a; apply Fin.ext
    match a with
    | ⟨0, _⟩ => rfl
    | ⟨1, _⟩ => rfl
  rw [step_apply]
  exact congrArg₂ FloatOps.mulf (congrArg x0 h0) (congrArg x1 h1)

/-- THE BLOCK: what the thirty-two stores leave is that function. -/
theorem outBlk_eq (x0 : Vec F S256x1024 .f32) (x1 : Vec F S8x256 .f32) :
    outBlk x0 x1 = fun i => FloatOps.mulf (x0 (ix2 (i 1) (i 2))) (x1 (ix2 (i 0) (i 1))) := by
  show outBlk x0 x1 = dispBlk x0 x1
  funext y
  unfold outBlk
  refine View.canon_apply_of_pieces (dispBlk x0 x1) _ (fun p hp x => ?_) y (cover x0 x1 y)
  obtain ⟨k, -, rfl⟩ := List.mem_map.mp hp
  have hx : x = ix3 (x 0) (x 1) (x 2) := eq_ix3 x
  rw [hx]
  exact piece_agrees x0 x1 k (x 0) (x 1) (x 2)

end Cert.Proof.KB

end
-- ==== Proof.KB.TcValue.lean ====
/-
  The dispatched tensor after the pipeline: the sixteen blocks tile it.

  Grid point t is handed rows [256 t, 256 t + 256) of the token array and columns [256 t, 256 t + 256) of the routing
  mask, and writes back rows [256 t, 256 t + 256) of the dispatched tensor, all devices and all columns: the block
  index of the rows is the grid coordinate on all three arrays and zero on every other axis. A block's element
  (d, r, j) therefore sits at (d, 256 t + r, j) of the result, where the specification's tensor holds
  x[256 t + r, j] * mask[d, 256 t + r]: what the body wrote from its two input blocks. Row n of the tensor is in the
  block of point n / 256, so the blocks cover the array and it ends at the specification's tensor.
-/
import proofs.«202873_g15822659519276_cont_week2b_991_21_alg».proof.Proof.KB.TcBlock

noncomputable section

namespace Cert.Proof.KB

open Cert.Kernel Cert.Kernel.Gen

open Idealize.ShloMosaic Idealize.ShloMosaic.TcCoe Idealize.ShloMosaic.ValueIdx
open Idealize.ShloMosaic.SparseCore (S V T)
open Idealize.ShloMosaic.SparseCore.Cfg (HIx)
open Idealize.SL Idealize.SL.Sem
open Idealize.ShloMosaic.Pipeline (Dat Cfg Window)

variable {F : FTy → Type} [FloatOps F]
variable (m : (ℓ : Loc nD τ sig) → Buf (Elt F) ℓ)

/-! ## The index maps over the grid -/

/-- The three windows move together: the rows' block index is the same on the token array (axis 0), the mask (axis 1)
    and the result (axis 1), and every other block index is zero. -/
theorem tc_index_maps : ∀ t : Fin cfg1.N,
    win1_0.index t (0 : Fin 2) = win1_2.index t (1 : Fin 3) ∧ win1_0.index t (1 : Fin 2) = 0
    ∧ win1_1.index t (0 : Fin 2) = 0 ∧ win1_1.index t (1 : Fin 2) = win1_2.index t (1 : Fin 3)
    ∧ win1_2.index t (0 : Fin 3) = 0 ∧ win1_2.index t (2 : Fin 3) = 0 :=
  (by decide +kernel : ∀ t : Fin grid1.N, _)

/-- Every block of 256 rows of the result is some point's. -/
theorem tc_rows_onto : ∀ q : Fin 16, ∃ t : Fin cfg1.N, win1_2.index t = ![0, q.val, 0] :=
  (by decide +kernel : ∀ q : Fin 16, ∃ t : Fin grid1.N, win1_2.index t = ![0, q.val, 0])

/-! ## What a point writes back -/

/-- The specification's tensor at an index: the token's entry times the mask's. -/
theorem outB_apply (c : Dev nD) (i : S8x4096x1024.Idx) :
    outB m c i = FloatOps.mulf (m (xLoc c) (ix2 (i 1) (i 2))) (maskB m c (ix2 (i 0) (i 1))) := rfl

/-- Point t writes back block t of the specification's tensor. -/
theorem tc_flushed_eq (c : Dev nD) (t : Fin cfg1.N) :
    (dats m 0 c).flushed 2 t = ((cfg1.win 2).blk t).view.read (Elt F) (outB m c) := by
  show (cfg1.win 2).cut (grid1.coords t) ((dats m 0 c).after 2 t) = _
  rw [after2, outBlk_eq]
  obtain ⟨e0, e1, e2, e3, e4, e5⟩ := tc_index_maps t
  funext j
  show FloatOps.mulf (m (xLoc c) (((cfg1.win 0).blk t).view.emb (ix2 (j 1) (j 2))))
      (maskB m c (((cfg1.win 1).blk t).view.emb (ix2 (j 0) (j 1))))
    = outB m c (((cfg1.win 2).blk t).view.emb j)
  rw [outB_apply]
  have h0 : ((cfg1.win 0).blk t).view.emb (ix2 (j 1) (j 2))
      = ix2 ((((cfg1.win 2).blk t).view.emb j) 1) ((((cfg1.win 2).blk t).view.emb j) 2) := by
    funext a; apply Fin.ext
    match a with
    | ⟨0, _⟩ => show win1_0.index t (0 : Fin 2) * 256 + 1 * (j 1).val = win1_2.index t (1 : Fin 3) * 256 + 1 * (j 1).val; omega
    | ⟨1, _⟩ => show win1_0.index t (1 : Fin 2) * 1024 + 1 * (j 2).val = win1_2.index t (2 : Fin 3) * 1024 + 1 * (j 2).val; omega
  have h1 : ((cfg1.win 1).blk t).view.emb (ix2 (j 0) (j 1))
      = ix2 ((((cfg1.win 2).blk t).view.emb j) 0) ((((cfg1.win 2).blk t).view.emb j) 1) := by
    funext a; apply Fin.ext
    match a with
    | ⟨0, _⟩ => show win1_1.index t (0 : Fin 2) * 8 + 1 * (j 0).val = win1_2.index t (0 : Fin 3) * 8 + 1 * (j 0).val; omega
    | ⟨1, _⟩ => show win1_1.index t (1 : Fin 2) * 256 + 1 * (j 1).val = win1_2.index t (1 : Fin 3) * 256 + 1 * (j 1).val; omega
  rw [h0, h1]
  rfl

/-! ## The blocks cover the tensor -/

/-- An index of the tensor is in point t's block iff each coordinate is in the block's range on its axis. -/
theorem tc_mem_blk (t : Fin cfg1.N) (i : S8x4096x1024.Idx) :
    i ∈ ((cfg1.win 2).blk t).view.set ↔ ∀ a : Fin 3, win1_2.index t a * S8x256x1024.size a ≤ (i a).val
      ∧ (i a).val < win1_2.index t a * S8x256x1024.size a + S8x256x1024.size a := by
  show i ∈ ((View.whole main_v2).slice (win1_2.rect t)).set ↔ _
  rw [View.set_slice_whole, Rect.mem_set_unit]
  exact Iff.rfl

/-- Row n of the tensor is in the block of the point whose rows' block index is n / 256. -/
theorem tc_blocks_cover (i : S8x4096x1024.Idx) :
    ∃ t : Fin cfg1.N, (cfg1.win 2).flush t = true ∧ i ∈ ((cfg1.win 2).blk t).view.set := by
  have hi0 : (i 0).val < 8 := (i 0).isLt
  have hi1 : (i 1).val < 4096 := (i 1).isLt
  have hi2 : (i 2).val < 1024 := (i 2).isLt
  obtain ⟨t, ht⟩ := tc_rows_onto ⟨(i 1).val / 256, by omega⟩
  have q0 : win1_2.index t (0 : Fin 3) = 0 := congrFun ht 0
  have q1 : win1_2.index t (1 : Fin 3) = (i 1).val / 256 := congrFun ht 1
  have q2 : win1_2.index t (2 : Fin 3) = 0 := congrFun ht 2
  refine ⟨t, flush1_2 t, ?_⟩
  rw [tc_mem_blk]
  intro a
  match a with
  | ⟨0, _⟩ => show win1_2.index t (0 : Fin 3) * 8 ≤ (i 0).val ∧ (i 0).val < win1_2.index t (0 : Fin 3) * 8 + 8; omega
  | ⟨1, _⟩ => show win1_2.index t (1 : Fin 3) * 256 ≤ (i 1).val ∧ (i 1).val < win1_2.index t (1 : Fin 3) * 256 + 256; omega
  | ⟨2, _⟩ => show win1_2.index t (2 : Fin 3) * 1024 ≤ (i 2).val ∧ (i 2).val < win1_2.index t (2 : Fin 3) * 1024 + 1024; omega

/-! ## The tensor after the last point -/

/-- After the last point the result array is the specification's dispatched tensor. -/
theorem arrAt_out (c : Dev nD) : (dats m 0 c).arrAt 2 cfg1.N = outB m c :=
  (dats m 0 c).arrAt_eq_of_cover 2 (outB m c) (fun t _ => tc_flushed_eq m c t) tc_blocks_cover

end Cert.Proof.KB

end
-- ==== Proof.KB.Split.lean ====
/-
  How the TensorCore's whole arrays split into the thirty-two tiles' holdings and join back.

  The mask array, 8 × 4096, is the disjoint union of its 256 rectangles (row r, columns [128 w, 128 w + 128)):
  element (r, t) lies in rectangle (r, t / 128) and in no other. The tiles (c, i) of Fin 2 × Fin 16 are the workers
  w = 2 i + c of Fin 32, one to one: a separating conjunction over the workers is one over the cores and, inside, over
  the subcores. An array every tile reads is, at the full share, a remainder and one read share per worker.
-/
import proofs.«202873_g15822659519276_cont_week2b_991_21_alg».proof.Proof.KB.Common

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Tiles and workers -/

/-- Tile (c, i) ↦ worker 2 i + c, with inverse w ↦ (w mod 2, w div 2). -/
def widEquiv : Fin 2 × Fin 16 ≃ Fin 32 where
  toFun p := wid p.1 p.2
  invFun w := (⟨w.val % 2, by omega⟩, ⟨w.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv w := by
    refine Fin.ext ?_
    show 2 * (w.val / 2) + w.val % 2 = w.val; omega

/-- A separating conjunction over the thirty-two workers, tile by tile. -/
theorem bigSep_workers (Φ : Fin 32 → sProp 𝕄) :
    bigSep Finset.univ Φ = bigSep Finset.univ fun c : Fin 2 => bigSep Finset.univ fun i : Fin 16 => Φ (wid c i) := by
  rw [bigSep_univ_equiv widEquiv Φ, bigSep_univ_prod]; rfl

/-! ## The 256 rectangles of the mask array -/

/-- the 256 rectangles are pairwise disjoint and cover the mask array -/
theorem wSets_disjoint : ∀ p ∈ (Finset.univ : Finset (Fin 8 × Fin 32)), ∀ p' ∈ (Finset.univ : Finset (Fin 8 × Fin 32)),
    p ≠ p' → Disjoint (wSet p.1 p.2) (wSet p'.1 p'.2) := by
  intro p _ p' _ h
  refine Rect.block_disjoint _ _ fun e => h ?_
  have e0 : p.1.val = p'.1.val := congrFun e 0
  have e1 : p.2.val = p'.2.val := congrFun e 1
  exact Prod.ext (Fin.ext e0) (Fin.ext e1)

theorem wSets_cover : (Finset.univ : Finset (Fin 8 × Fin 32)).biUnion (fun p => wSet p.1 p.2) = Finset.univ := by
  ext j
  simp only [Finset.mem_biUnion, Finset.mem_univ, true_and, iff_true]
  have h0 : (j 0).val < 8 := (j 0).isLt
  have h1 : (j 1).val < 4096 := (j 1).isLt
  refine ⟨(⟨(j 0).val, h0⟩, ⟨(j 1).val / 128, by omega⟩), Rect.mem_set_unit.mpr fun a => ?_⟩
  match a with
  | ⟨0, _⟩ => show (j 0).val * 1 ≤ (j 0).val ∧ (j 0).val < (j 0).val * 1 + 1; omega
  | ⟨1, _⟩ => show (j 1).val / 128 * 128 ≤ (j 1).val ∧ (j 1).val < (j 1).val / 128 * 128 + 128; omega

/-! ## The mask array, whole and in pieces -/

/-- the mask array held whole IS its 2 × 16 × 8 pieces, at any contents -/
theorem wPts_split (d : Dev nD) (f : Buf (Elt F) (wLoc d)) :
    (wLoc d ↦{fullShare} f : sProp 𝕄) = bigSep Finset.univ fun c : Fin 2 => bigSep Finset.univ fun i : Fin 16 =>
      bigSep Finset.univ fun r : Fin 8 => wLoc d ↦[wSet r (wid c i)]{fullShare} f := by
  rw [← bigSep_workers (F := F) (fun w => bigSep Finset.univ fun r : Fin 8 => wLoc d ↦[wSet r w]{fullShare} f),
    ← bigSep_univ_comm (fun (r : Fin 8) (w : Fin 32) => (wLoc d ↦[wSet r w]{fullShare} f : sProp 𝕄)),
    ← bigSep_univ_prod (fun p : Fin 8 × Fin 32 => (wLoc d ↦[wSet p.1 p.2]{fullShare} f : sProp 𝕄)),
    ← pointsTo_biUnion Finset.univ (ℓ := wLoc d) (fun p : Fin 8 × Fin 32 => wSet p.1 p.2) wSets_disjoint, wSets_cover]

/-! ## An array every tile reads -/

/-- an array every tile reads: the full share is a remainder and one token per tile -/
theorem toks_split (ℓ : Loc nD τ sig) (f : Buf (Elt F) ℓ) :
    (ℓ ↦{fullShare} f : sProp 𝕄) ⊣⊢ iprop((ℓ ↦{Transfers.shareDrop fullShare 32} f)
      ∗ bigSep Finset.univ fun c : Fin 2 => bigSep Finset.univ fun i : Fin 16 => ℓ ↦{tok (wid c i)} f) := by
  rw [← bigSep_workers (F := F) (fun w => ℓ ↦{tok w} f)]
  exact Transfers.pointsTo_toks fullShare 32

end Cert.Proof.KB

end
-- ==== Proof.KB.Deal.lean ====
/-
  How the TensorCore deals its three arrays into the one call's payloads and collects them back.

  The call's payloads, over the two cores, are the thirty-two workers' holdings: a read share of the flat expert list,
  a read share of the table, and the worker's eight row pieces of the mask array. Summed over the workers these are the
  thirty-two read shares of each read array and, the 256 rectangles being a partition, the mask array whole. With the two
  remainders of the read shares they are the three arrays at the full share.
-/
import proofs.«202873_g15822659519276_cont_week2b_991_21_alg».proof.Proof.KB.Split

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- A separating conjunction over the call's cores is one over Fin 2. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- The mask array held whole is the thirty-two workers' eight row pieces, at any contents. -/
theorem wPts_workers (d : Dev nD) (f : Buf (Elt F) (wLoc d)) :
    (wLoc d ↦{fullShare} f : sProp 𝕄)
      = bigSep Finset.univ fun w : Fin 32 => bigSep Finset.univ fun r : Fin 8 => wLoc d ↦[wSet r w]{fullShare} f := by
  rw [wPts_split, ← bigSep_workers (F := F) (fun w => bigSep Finset.univ fun r : Fin 8 => wLoc d ↦[wSet r w]{fullShare} f)]

variable (m : (ℓ : Loc nD τ sig) → Buf (Elt F) ℓ) [FloatOps F]

/-- The start payloads, summed: the read shares of the two read arrays and the mask array whole at its launch contents. -/
theorem st_sum (d : Dev nD) :
    (bigSep Finset.univ fun c : Fin ((K (F := F)).nCore 0) => (P m).st 0 d c)
      = iprop((bigSep Finset.univ fun w : Fin 32 => fLoc d ↦{tok w} flatB m d)
          ∗ (bigSep Finset.univ fun w : Fin 32 => mLoc d ↦{tok w} m (mLoc d))
          ∗ (wLoc d ↦{fullShare} m (wLoc d))) := by
  show (bigSep Finset.univ fun c : Fin ((K (F := F)).nCore 0) =>
      bigSep Finset.univ fun i : Fin 16 => goRes m d (wid (Fin.cast nCore_zero c) i)) = _
  rw [bigSep_cores (F := F) (fun c => bigSep Finset.univ fun i : Fin 16 => goRes m d (wid c i)),
    ← bigSep_workers (F := F) (fun w => goRes m d w)]
  unfold goRes
  rw [bigSep_sep', bigSep_sep', wPts_workers d (m (wLoc d))]

/-- The done payloads, summed: the same, the mask array at the specification's mask. -/
theorem dn_sum (d : Dev nD) :
    (bigSep Finset.univ fun c : Fin ((K (F := F)).nCore 0) => (P m).dn 0 d c)
      = iprop((bigSep Finset.univ fun w : Fin 32 => fLoc d ↦{tok w} flatB m d)
          ∗ (bigSep Finset.univ fun w : Fin 32 => mLoc d ↦{tok w} m (mLoc d))
          ∗ (wLoc d ↦{fullShare} maskB m d)) := by
  show (bigSep Finset.univ fun c : Fin ((K (F := F)).nCore 0) =>
      bigSep Finset.univ fun i : Fin 16 => tdRes m d (wid (Fin.cast nCore_zero c) i)) = _
  rw [bigSep_cores (F := F) (fun c => bigSep Finset.univ fun i : Fin 16 => tdRes m d (wid c i)),
    ← bigSep_workers (F := F) (fun w => tdRes m d w)]
  unfold tdRes
  rw [bigSep_sep', bigSep_sep', wPts_workers d (maskB m d)]

/-- dealing: the flat expert list, the table and the mask array, held whole, are the two read-share remainders and the
    call's start payloads -/
theorem deal (d : Dev nD) :
    iprop((fLoc d ↦{fullShare} flatB m d) ∗ (mLoc d ↦{fullShare} m (mLoc d)) ∗ (wLoc d ↦{fullShare} m (wLoc d)))
      ⊢ iprop(((fLoc d ↦{Transfers.shareDrop fullShare 32} flatB m d) ∗ (mLoc d ↦{Transfers.shareDrop fullShare 32} m (mLoc d)))
          ∗ bigSep Finset.univ fun c : Fin ((K (F := F)).nCore 0) => (P m).st 0 d c) := by
  rw [st_sum]
  iintro ⟨Hf, Hm, Hw⟩
  ihave Hf' := (Transfers.pointsTo_toks_split (ℓ := fLoc d) (S := Finset.univ) (f := flatB m d) fullShare 32) $$ Hf
  ihave Hm' := (Transfers.pointsTo_toks_split (ℓ := mLoc d) (S := Finset.univ) (f := m (mLoc d)) fullShare 32) $$ Hm
  icases Hf' with ⟨Hf0, Hft⟩
  icases Hm' with ⟨Hm0, Hmt⟩
  isplitl [Hf0 Hm0]
  · isplitl [Hf0]; · iexact Hf0
    iexact Hm0
  isplitl [Hft]; · iexact Hft
  isplitl [Hmt]; · iexact Hmt
  iexact Hw

/-- collecting: the remainders and the call's done payloads are the three arrays whole, the mask array at the
    specification's mask -/
theorem collect (d : Dev nD) :
    iprop(((fLoc d ↦{Transfers.shareDrop fullShare 32} flatB m d) ∗ (mLoc d ↦{Transfers.shareDrop fullShare 32} m (mLoc d)))
          ∗ bigSep Finset.univ fun c : Fin ((K (F := F)).nCore 0) => (P m).dn 0 d c)
      ⊢ iprop((fLoc d ↦{fullShare} flatB m d) ∗ (mLoc d ↦{fullShare} m (mLoc d)) ∗ (wLoc d ↦{fullShare} maskB m d)) := by
  rw [dn_sum]
  iintro ⟨⟨Hf0, Hm0⟩, Hft, Hmt, Hw⟩
  isplitl [Hf0 Hft]
  · iapply (Transfers.pointsTo_toks_join (ℓ := fLoc d) (S := Finset.univ) (f := flatB m d) fullShare 32)
    isplitl [Hf0]; · iexact Hf0
    iexact Hft
  isplitl [Hm0 Hmt]
  · iapply (Transfers.pointsTo_toks_join (ℓ := mLoc d) (S := Finset.univ) (f := m (mLoc d)) fullShare 32)
    isplitl [Hm0]; · iexact Hm0
    iexact Hmt
  iexact Hw

end Cert.Proof.KB

end
-- ==== Proof.KB.Launch.lean ====
/-
  The kernel program's run: every weakly fair execution of its thirty-five threads ends, nothing faulting, with the
  dispatched tensor at the specification's function of the arguments and the arguments unchanged.

  The SparseCore launch theorem is applied at one vector-subcore call. Each tile's task is the tile body's triple; a
  SparseCore's holdings are its sixteen tiles'; the launch element funds the handshakes' rounds and the pipeline's
  staging cells; @main on the TensorCore reshapes the expert list, deals the flat list, the table and the mask array to
  the tiles, collects them with the mask array at the mask, runs the dispatch pipeline over them, and keeps the four
  arrays the claim reads.
-/
import proofs.«202873_g15822659519276_cont_week2b_991_21_alg».proof.Proof.KB.Tile
import proofs.«202873_g15822659519276_cont_week2b_991_21_alg».proof.Proof.KB.Region
import proofs.«202873_g15822659519276_cont_week2b_991_21_alg».proof.Proof.KB.TcValue
import proofs.«202873_g15822659519276_cont_week2b_991_21_alg».proof.Proof.KB.Deal
import proofs.«202873_g15822659519276_cont_week2b_991_21_alg».proof.Proof.PreDecode

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Pipeline (Dat Cfg Window BodyObligation cellOf)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The tile obligation, as the launch theorem states it -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__routing_body (coordsV c s)
          (Memref.whole main_v0_scv) (Memref.isWhole_whole _) (Memref.whole main_arg2_scv) (Memref.isWhole_whole _) (Memref.whole main_v1_scv) (Memref.isWhole_whole _)
          (Memref.whole cc0_scratch0) (Memref.isWhole_whole _) (Memref.whole cc0_scratch1) (Memref.isWhole_whole _) (Memref.whole cc0_scratch2) (Memref.isWhole_whole _)
          cc0_scratch3 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

/-! ## A SparseCore's holdings are its sixteen tiles' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(bigSep Finset.univ fun i : Fin 16 => goRes m d (wid (Fin.cast nCore_zero c) i)) ⊢ |={Set.univ}=> iprop(
      (bigSep Finset.univ fun i : Fin ((K (F := F)).nSub 0) => goRes m d (wid (Fin.cast nCore_zero c) (Fin.cast nSub_zero i)))
      ∗ ((bigSep Finset.univ fun i : Fin ((K (F := F)).nSub 0) => tdRes m d (wid (Fin.cast nCore_zero c) (Fin.cast nSub_zero i)))
          -∗ bigSep Finset.univ fun i : Fin 16 => tdRes m d (wid (Fin.cast nCore_zero c) i)))
  rw [bigSep_tasks (F := F) (fun i => goRes m d (wid (Fin.cast nCore_zero c) i)),
    bigSep_tasks (F := F) (fun i => tdRes m d (wid (Fin.cast nCore_zero c) i))]
  iintro H; imodintro
  isplitl [H]; · iexact H
  iintro H; iexact H

/-! ## The launch element: the handshakes' rounds, the pipeline's cells, no counters yet -/

def u₀ : UU := (initOf (K (F := F)).hsCells (K (F := F)).hsToks, (uP₀, 1))

omit [FloatOps F] in
theorem bigSep_emp' {I : Type} (s : Finset I) : (bigSep s fun _ => iprop(emp)) = (iprop(emp) : sProp 𝕄) := bigSep_emp_const s

omit [FloatOps F] in
theorem own_EP : (BI.own (embR (uP₀, (1 : Counters))) : sProp 𝕄) = BI.own (EP (F := F) uP₀) := rfl

theorem hu₀ : (ownU (u₀ (F := F)) : sProp 𝕄)
    ⊢ |={Set.univ}=> iprop(BI.own (EH (initOf (K (F := F)).hsCells (K (F := F)).hsToks)) ∗ (bigSep Finset.univ fun d : Dev nD => pipeGhost (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HP := (Entails.of_eq (own_EP (F := F))) $$ HR
  imod (pipe_fund (F := F)) $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What @main leaves, and how the final memory reads it -/

abbrev FIN (d : Dev nD) : sProp 𝕄 :=
  iprop((oLoc d ↦{fullShare} outB m d) ∗ (xLoc d ↦{fullShare} m (xLoc d)) ∗ (iLoc d ↦{fullShare} m (iLoc d)) ∗ (mLoc d ↦{fullShare} m (mLoc d)))

def fq (d : Dev nD) (s' : Phys nD τ sig (Elt F)) : Prop :=
  s'.mem.mem (oLoc d) = outB m d ∧ s'.mem.mem (xLoc d) = m (xLoc d) ∧ s'.mem.mem (iLoc d) = m (iLoc d) ∧ s'.mem.mem (mLoc d) = m (mLoc d)

theorem hfin (d : Dev nD) (s' : Phys nD τ sig (Elt F)) : iprop(FIN m d ∗ SI s') ⊢ (⌜fq m d s'⌝ : sProp 𝕄) := by
  iintro ⟨⟨Ho, Hx, Hi, Hm⟩, HSI⟩
  ihave H := (persistent_entails_right (SI_pointsTo_agree (st := s') (ℓ := oLoc d) (I := Finset.univ) (q := fullShare) (f := outB m d))) $$ [HSI Ho]
  · isplitl [HSI] <;> iassumption
  icases H with ⟨%h0, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := mLoc d) (I := Finset.univ) (q := fullShare) (f := m (mLoc d))) $$ [HSI Hm]
  · isplitl [HSI] <;> iassumption
  icases H with %h3
  ipureintro
  exact ⟨funext fun i => h0 i (Finset.mem_univ i), funext fun i => h1 i (Finset.mem_univ i), funext fun i => h2 i (Finset.mem_univ i), funext fun i => h3 i (Finset.mem_univ i)⟩

/-! ## @main on the TensorCore -/

abbrev i' : DevRef τ sig := Proc.devRef .tc (main_arg1 : Ref sig .tc)
abbrev f' : DevRef τ sig := Proc.devRef .tc (main_v0 : Ref sig .tc)
/-- The reshape of the expert list to its flat form. -/
abbrev opR : HloOp τ sig (Elt F) := StableHlo.reshape main_arg1 main_v0 rfl shapeCasts_S4096x2_S8192
abbrev S2 : Finset (DevRef τ sig) := {i', f'}

omit [FloatOps F] in
theorem held_S2 (d : Dev nD) (W : Valuation τ sig (Elt F)) :
    (held (T d) S2 W : sProp 𝕄) = iprop((iLoc d ↦{fullShare} W i') ∗ (fLoc d ↦{fullShare} W f')) := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ (mLoc d ↦{fullShare} W main_arg2)
      ∗ (fLoc d ↦{fullShare} W main_v0) ∗ (wLoc d ↦{fullShare} W main_v1) ∗ (oLoc d ↦{fullShare} W main_v2)) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The launch valuation. -/
def V0 (d : Dev nD) : Valuation τ sig (Elt F) := fun b => m (d, b)

omit [FloatOps F] in
theorem hR : (opR (F := F)).bufs ⊆ S2 := show ({i', f'} : Finset (DevRef τ sig)) ⊆ S2 by decide

omit [FloatOps F] in
/-- The reshape leaves the expert list as it was -/
theorem res_i (d : Dev nD) : (opR (F := F)).result (V0 m d) i' = m (iLoc d) :=
  (opR (F := F)).result_of_not_mem (V0 m d) (b := i') (show i' ∉ ({f'} : Finset (DevRef τ sig)) by decide)

omit [FloatOps F] in
/-- and writes its flat form. -/
theorem res_f (d : Dev nD) : (opR (F := F)).result (V0 m d) f' = flatB m d := by
  refine (StableHlo.reshape_result' (x := main_arg1) (y := main_v0) rfl shapeCasts_S4096x2_S8192 _ _ (V0 m d)).trans ?_
  funext j
  exact congrFun (Cert.Proof.PreDecode.flat_eq (m (iLoc d)) shapeCasts_S4096x2_S8192) j

/-- @main on device d's TensorCore. -/
theorem hmain (κ : GSem nD τ sig → ℕ) (d : Dev nD) :
    iprop((K (F := F)).ctx EH (P m) κ ∗ (K (F := F)).tcSt EH d 0 ∗ (K (F := F)).tcRes m ρ d ∗ pipeGhost (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Hi, Hm, Hf, Hw, Ho⟩, -, -⟩, HG⟩
  -- the reshape: the expert list read, its flat form written
  iapply (wp_hlo_within 𝒱 (SparseCore.T d) none Set.univ (op := opR) (S := S2) hR (V := V0 m d)) $$ [Hb Hi Hf]
  · isplitl [Hb]; · iexact Hb
    rw [held_S2]
    isplitl [Hi]; · iexact Hi
    iexact Hf
  iintro ⟨Hb, Hheld⟩
  ihave Hh := (Entails.of_eq ((held_S2 (F := F) d _).trans (by rw [res_i, res_f]))) $$ Hheld
  icases Hh with ⟨Hi, Hf⟩
  -- the call: the flat list, the table and the mask array dealt to the tiles and collected
  ihave Hd := (deal m d) $$ [Hf Hm Hw]
  · isplitl [Hf]; · iexact Hf
    isplitl [Hm]; · iexact Hm
    iexact Hw
  icases Hd with ⟨Hrem, Hst0⟩
  rw [wp_ret]; imodintro
  iapply ((K (F := F)).wp_run (D (F := F)) 𝒱 (EH := EH) (P := P m) κ d 0) $$ [Hst Hst0 Hb Hx Hi Ho HG Hrem]
  isplitr; · iexact Hctx
  isplitl [Hst]; · iexact Hst
  isplitl [Hst0]; · iexact Hst0
  iintro ⟨Hst, Hdn⟩
  ihave Hc := (collect m d) $$ [Hrem Hdn]
  · isplitl [Hrem]; · iexact Hrem
    iexact Hdn
  icases Hc with ⟨Hf, Hm, Hw⟩
  -- the dispatch pipeline over the token rows, the mask and the result
  iapply (region_wp m (dats m) (body_obligation m) (share_full m) (owed_zero m) (recorded_eq m) (fun c => (Φ_in m c)) (fun c => (Φ_out m c)) κ d _) $$ [Hst Hb HG Hx Hw Ho Hi Hm Hf]
  isplitr; · iexact Hctx
  isplitl [Hst]; · iexact Hst
  isplitl [Hb]; · iexact Hb
  isplitl [HG]; · iexact HG
  isplitl [Hx]; · rw [arrA0]; iexact Hx
  isplitl [Hw]; · rw [arrA1]; iexact Hw
  isplitl [Ho]; · rw [arrA2]; iexact Ho
  iintro ⟨Hst, Hb, Hx, Hw, Ho⟩
  imodintro
  isplitl [Hst]; · iexact Hst
  isplitl [Ho]; · rw [arrAt_out]; iexact Ho
  isplitl [Hx]; · rw [arrAt_x]; iexact Hx
  isplitl [Hi]; · iexact Hi
  iexact Hm

/-! ## The program's run -/

def QC : PUnit × MemSt nD τ sig (Elt F) → Prop := fun r => ∀ c : Dev nD,
  r.2.mem (oLoc c) = outB m c ∧ r.2.mem (xLoc c) = m (xLoc c) ∧ r.2.mem (iLoc c) = m (iLoc c) ∧ r.2.mem (mLoc c) = m (mLoc c)

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun d => pipeGhost (F := F) d) (FIN m) (u₀ (F := F)) (sep_elim_left.trans (hu₀ m)) (hmain m ρ) (fq m) (hfin m) (QC m) (fun _ h => h)

end Cert.Proof.KB

end
-- ==== Proof.RefRun.lean ====
/-
  The reference program's run and value.

  The reference computes, from a token array x : f32[4096,1024], an expert list idx : i32[4096,2] and an
  expert-to-device table map : i32[16]:  dev = take(map, idx) (negative indices wrapped by 16, the gather
  clamped, positions outside 0..15 filled with the least integer),  mask[d,t] = or over k of (dev[t,k] = d)
  for d in 0..7,  out[d,t,:] = x[t,:] where mask[d,t], else 0.

  Part one lists the program's thirty-seven host operations in order — the outlined functions' operations at
  their call sites, over the call's own buffers — shows @main is that straight line, and reads the run back:
  every weakly fair execution ends with the result buffer at the operations' composed term of the three
  argument arrays, and the arguments unchanged.
-/
import proofs.«202873_g15822659519276_cont_week2b_991_21_alg».proof.Proof.Gen.ReferenceIdeal
import Idealize.ShloMosaic.Lib.StableHlo.Run
import Idealize.ShloMosaic.PureOps.Ideal

noncomputable section

namespace Cert.Proof.Ref

open Idealize.ShloMosaic Idealize.ShloMosaic.TcCoe Idealize.SL.Sem Idealize.ShloMosaic.StableHlo
open Cert.ReferenceIdeal Cert.ReferenceIdeal.Facts₀

section Generic

variable {F : FTy → Type} [FloatOps F] [Cert.ReferenceIdeal.Facts]

/-! ## The composed term, by stages -/

/-- the expert index with a negative one wrapped by the table's length -/
def wrapped (idx : IVec S4096x2 32) : IVec S4096x2 32 :=
  select (cmpi .slt idx (broadcastInDim S4096x2 ![] bcast_S_S4096x2 (constantI S_ 32 0#32)))
    (addi idx (broadcastInDim S4096x2 ![] bcast_S_S4096x2 (constantI S_ 32 16#32))) idx

/-- the wrapped index as a column of start indices -/
def starts (idx : IVec S4096x2 32) : IVec S4096x2x1 32 :=
  broadcastInDim S4096x2x1 ![0, 1] bcast_S4096x2_S4096x2x1_0_1 (wrapped idx)

/-- where the start index lies in 0..15 -/
def inRange (idx : IVec S4096x2 32) : IVec S4096x2 1 :=
  Host.reduce IntOp.andi
    (andi (cmpi .sge (starts idx) (broadcastInDim S4096x2x1 ![] bcast_S_S4096x2x1 (constantI S_ 32 0#32)))
      (cmpi .sle (starts idx)
        (broadcastInDim S4096x2x1 ![0, 1, 2] bcast_S1x1x1_S4096x2x1_0_1_2
          (broadcastInDim S1x1x1 ![2] bcast_S1_S1x1x1_2 (constantI S1 32 15#32)))))
    (constantI S_ 1 1#1) reducesTo_S4096x2x1_S4096x2_d2 h_S_

/-- the device word of each (token, slot): the table read at the start index where that is in range, the
    least integer elsewhere -/
def devWord (idx : IVec S4096x2 32) (map : IVec S16 32) : IVec S4096x2 32 :=
  select (inRange idx) (Host.gather gather_S16_S4096x2x1_S4096x2_n_0_n_n_0_2_1 map (starts idx))
    (broadcastInDim S4096x2 ![] bcast_S_S4096x2 (constantI S_ 32 2147483648#32))

/-- the routing mask over (device, token): some slot's device word is the device's number -/
def hitMask (idx : IVec S4096x2 32) (map : IVec S16 32) : IVec S8x4096 1 :=
  Host.reduce IntOp.ori
    (cmpi .eq
      (broadcastInDim S8x4096x2 ![0, 1, 2] bcast_S1x4096x2_S8x4096x2_0_1_2
        (broadcastInDim S1x4096x2 ![1, 2] bcast_S4096x2_S1x4096x2_1_2 (devWord idx map)))
      (broadcastInDim S8x4096x2 ![0, 1, 2] bcast_S8x1x1_S8x4096x2_0_1_2
        (broadcastInDim S8x1x1 ![0] bcast_S8_S8x1x1_0 (iotaInDim S8 32 0))))
    (constantI S_ 1 0#1) reducesTo_S8x4096x2_S8x4096_d2 h_S_

/-- the result: the token's row where the mask is set, zero elsewhere -/
def outTerm (x : FVec F S4096x1024 .f32) (idx : IVec S4096x2 32) (map : IVec S16 32) : FVec F S8x4096x1024 .f32 :=
  select
    (broadcastInDim S8x4096x1024 ![0, 1, 2] bcast_S8x4096x1_S8x4096x1024_0_1_2
      (broadcastInDim S8x4096x1 ![0, 1] bcast_S8x4096_S8x4096x1_0_1 (hitMask idx map)))
    (broadcastInDim S8x4096x1024 ![0, 1, 2] bcast_S1x4096x1024_S8x4096x1024_0_1_2
      (broadcastInDim S1x4096x1024 ![1, 2] bcast_S4096x1024_S1x4096x1024_1_2 x))
    (broadcastInDim S8x4096x1024 ![] bcast_S_S8x4096x1024 (constant S_ .f32 0x00000000#32))

/-! ## The operations -/

/-- @main's thirty-seven operations in order, the calls unfolded: jnp.take's twenty-two (its inner select the
    seventh), @main's own eleven, the final select's four. -/
abbrev ops : List (HloOp τ sig (Elt F)) :=
  [ TRef.nullary main_call0.c (constantI S_ 32 0#32),
    TRef.unary main_call0.c main_call0.v0 (broadcastInDim S4096x2 ![] bcast_S_S4096x2),
    TRef.binary (.of main_arg1) main_call0.v0 main_call0.v1 (cmpi .slt),
    TRef.nullary main_call0.c_0 (constantI S_ 32 16#32),
    TRef.unary main_call0.c_0 main_call0.v2 (broadcastInDim S4096x2 ![] bcast_S_S4096x2),
    TRef.binary (.of main_arg1) main_call0.v2 main_call0.v3 addi,
    TRef.ternary main_call0.v1 main_call0.v3 (.of main_arg1) main_call0.call0.v0 select,
    TRef.unary main_call0.call0.v0 main_call0.v5 (broadcastInDim S4096x2x1 ![0, 1] bcast_S4096x2_S4096x2x1_0_1),
    TRef.nullary main_call0.c_1 (constantI S1 32 15#32),
    TRef.nullary main_call0.c_2 (constantI S_ 32 0#32),
    TRef.unary main_call0.c_2 main_call0.v6 (broadcastInDim S4096x2x1 ![] bcast_S_S4096x2x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x2x1 ![0, 1, 2] bcast_S1x1x1_S4096x2x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x2x1_S4096x2_d2 h_S_),
    TRef.binary (.of main_arg2) main_call0.v5 main_call0.v13 (fun x i => Host.gather gather_S16_S4096x2x1_S4096x2_n_0_n_n_0_2_1 x i),
    TRef.nullary main_call0.c_4 (constantI S_ 32 2147483648#32),
    TRef.unary main_call0.c_4 main_call0.v14 (broadcastInDim S4096x2 ![] bcast_S_S4096x2),
    TRef.ternary main_call0.v12 main_call0.v13 main_call0.v14 main_call0.v15 select,
    unary main_v0 main_v1 (broadcastInDim S1x4096x2 ![1, 2] bcast_S4096x2_S1x4096x2_1_2 : (⟨S4096x2, .i32⟩ : BufTy).Contents (Elt F) → (⟨S1x4096x2, .i32⟩ : BufTy).Contents (Elt F)),
    nullary main_v2 (iotaInDim S8 32 0),
    unary main_v2 main_v3 (broadcastInDim S8x1x1 ![0] bcast_S8_S8x1x1_0 : (⟨S8, .i32⟩ : BufTy).Contents (Elt F) → (⟨S8x1x1, .i32⟩ : BufTy).Contents (Elt F)),
    unary main_v1 main_v4 (broadcastInDim S8x4096x2 ![0, 1, 2] bcast_S1x4096x2_S8x4096x2_0_1_2 : (⟨S1x4096x2, .i32⟩ : BufTy).Contents (Elt F) → (⟨S8x4096x2, .i32⟩ : BufTy).Contents (Elt F)),
    unary main_v3 main_v5 (broadcastInDim S8x4096x2 ![0, 1, 2] bcast_S8x1x1_S8x4096x2_0_1_2 : (⟨S8x1x1, .i32⟩ : BufTy).Contents (Elt F) → (⟨S8x4096x2, .i32⟩ : BufTy).Contents (Elt F)),
    binary main_v4 main_v5 main_v6 (cmpi .eq : (⟨S8x4096x2, .i32⟩ : BufTy).Contents (Elt F) → (⟨S8x4096x2, .i32⟩ : BufTy).Contents (Elt F) → (⟨S8x4096x2, .i1⟩ : BufTy).Contents (Elt F)),
    nullary main_c (constantI S_ 1 0#1),
    binary main_v6 main_c main_v7 ((fun x v => Host.reduce IntOp.ori x v reducesTo_S8x4096x2_S8x4096_d2 h_S_) : (⟨S8x4096x2, .i1⟩ : BufTy).Contents (Elt F) → (⟨S_, .i1⟩ : BufTy).Contents (Elt F) → (⟨S8x4096, .i1⟩ : BufTy).Contents (Elt F)),
    unary main_v7 main_v8 (broadcastInDim S8x4096x1 ![0, 1] bcast_S8x4096_S8x4096x1_0_1 : (⟨S8x4096, .i1⟩ : BufTy).Contents (Elt F) → (⟨S8x4096x1, .i1⟩ : BufTy).Contents (Elt F)),
    unary main_arg0 main_v9 (broadcastInDim S1x4096x1024 ![1, 2] bcast_S4096x1024_S1x4096x1024_1_2 : (⟨S4096x1024, .f32⟩ : BufTy).Contents (Elt F) → (⟨S1x4096x1024, .f32⟩ : BufTy).Contents (Elt F)),
    nullary main_cst (constant S_ .f32 0x00000000#32),
    TRef.unary (.of main_v8 : TRef sig ⟨S8x4096x1, .i1⟩) main_call1.v0 (broadcastInDim S8x4096x1024 ![0, 1, 2] bcast_S8x4096x1_S8x4096x1024_0_1_2),
    TRef.unary (.of main_v9 : TRef sig ⟨S1x4096x1024, .f32⟩) main_call1.v1 (broadcastInDim S8x4096x1024 ![0, 1, 2] bcast_S1x4096x1024_S8x4096x1024_0_1_2),
    TRef.unary (.of main_cst : TRef sig ⟨S_, .f32⟩) main_call1.v2 (broadcastInDim S8x4096x1024 ![] bcast_S_S8x4096x1024),
    TRef.ternary main_call1.v0 main_call1.v1 main_call1.v2 main_call1.v3 select ]

-- thirty-seven binds re-associated
set_option maxRecDepth 1024 in
/-- @main is that straight line: the functions' bodies unfolded at their calls, sequencing re-associated. -/
theorem main_eq (c : Dev nD) : main (F := F) c = seq ops := by
  simp only [main, fn_take.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..,
    unary_bufs_sub .., nullary_bufs_sub .., unary_bufs_sub .., unary_bufs_sub .., unary_bufs_sub .., binary_bufs_sub ..,
    nullary_bufs_sub .., binary_bufs_sub .., unary_bufs_sub .., unary_bufs_sub .., nullary_bufs_sub ..,
    unary_bufs_sub .., unary_bufs_sub .., unary_bufs_sub .., ternary_bufs_sub ..⟩

set_option maxRecDepth 8192 in
/-- On every device, for any float values, from any memory with zero counters: every weakly fair execution of
    @main terminates with the result buffer at the composed term of the three argument arrays, and the argument
    arrays unchanged. -/
theorem runF (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v10)
          = outTerm (F := F) (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v10).trans (by after_results_simp; simp only [TRef.ofBuf, TRef.toBuf, cast_eq]; rfl),
      (h c main_arg0).trans (by after_results_simp),
      (h c main_arg1).trans (by after_results_simp),
      (h c main_arg2).trans (by after_results_simp)⟩)
    (run_seq scopedRefs_eq scopedSems_eq defs main (fun _ => ops) main_eq (fun _ => ops_sub) m ρ)

end Generic

/-! ## At the ideal values -/

variable [Cert.ReferenceIdeal.Facts]

/-- the reference's result as ONE pure term of its three argument arrays (the operations' composed term) -/
def refTerm (x : FVec Ideal S4096x1024 .f32) (idx : IVec S4096x2 32) (map : IVec S16 32) : FVec Ideal S8x4096x1024 .f32 :=
  outTerm (F := Ideal) x idx map

/-- every weakly fair execution of the reference ends with the result buffer at `refTerm` of the arguments, the
    arguments unchanged -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v10)
            = refTerm (m ((c.tc : Thread nD τ).loc main_arg0)) (m ((c.tc : Thread nD τ).loc main_arg1))
                (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  runF (F := Ideal) m ρ

end Cert.Proof.Ref

end
-- ==== Proof.RefValue.lean ====
/-
  The reference's term is the specification's function, index by index.

  Under 0 ≤ idx ≤ 15 every stage of the reference reads, at one index, what the specification says: the wrapped
  index is the index itself; the range test passes; the clamped gather reads the table at the index; so the device
  word of (t, k) is map[idx[t, k]]. The mask at (d, t) is the or over the two slots of "the device word is d", which
  is "some slot's device, as a number, is d". The result at (d, t, j) selects x[t, j] or zero by that bit, and the
  specification multiplies x[t, j] by one or by zero: the same extended real.
-/
import proofs.«202873_g15822659519276_cont_week2b_991_21_alg».proof.Proof.RefRun
import proofs.«202873_g15822659519276_cont_week2b_991_21_alg».proof.Proof.Spec
import Idealize.ShloMosaic.Lib.ValueIdx
import Idealize.ShloMosaic.PureOps.Ideal.Laws
import Idealize.ShloMosaic.Lib.StableHlo.Predicate
import Idealize.ShloMosaic.Lib.Pipeline.Value

noncomputable section

namespace Cert.Proof.Ref

open Idealize.ShloMosaic Idealize.SL.Sem
open Cert.ReferenceIdeal Cert.ReferenceIdeal.Facts₀
open Idealize.ShloMosaic.ValueIdx Idealize.ShloMosaic.StableHlo.Predicate

section Value
variable [Cert.ReferenceIdeal.Facts]

/-! ### The index, wrapped and as a start index -/

theorem wrapped_apply (idx : IVec S4096x2 32) (i : S4096x2.Idx) :
    wrapped idx i = Scalar.select (IntOp.cmpi .slt (idx i) 0#32) (IntOp.addi (idx i) 16#32) (idx i) := rfl

theorem wrapped_at (idx : IVec S4096x2 32) (i : S4096x2.Idx) (h : (idx i).toNat < 16) : wrapped idx i = idx i := by
  rw [wrapped_apply]
  have hc : IntOp.cmpi .slt (idx i) 0#32 = 0#1 := by
    apply eq_zero_of_ne_one
    intro h1
    have := (slt_iff_toNat (a := idx i) (b := 0#32) (by omega) (by decide)).mp h1
    simp at this
  rw [hc, select_zero]

theorem starts_at (idx : IVec S4096x2 32) (t : Fin 4096) (k : Fin 2) :
    starts idx (ix3 t k (0 : Fin 1)) = wrapped idx (ix2 t k) := by
  unfold starts
  exact broadcastInDim_apply _ _ _ _ (ix2 t k) (fun a => match a with | ⟨0, _⟩ => rfl | ⟨1, _⟩ => rfl)

/-! ### One-bit folds -/

theorem ori_eq_one_iff (a b : BitVec 1) : IntOp.ori a b = 1#1 ↔ a = 1#1 ∨ b = 1#1 := by
  rcases BitVec.eq_zero_or_eq_one a with rfl | rfl <;> rcases BitVec.eq_zero_or_eq_one b with rfl | rfl <;> decide

theorem fold_ori_eq_one_iff {ι : Type} [DecidableEq ι] (S : Finset ι) (f : ι → BitVec 1) :
    S.fold IntOp.ori 0#1 f = 1#1 ↔ ∃ k ∈ S, f k = 1#1 := by
  induction S using Finset.induction_on with
  | empty => simp
  | insert a S ha ih => rw [Finset.fold_insert ha, ori_eq_one_iff, ih, Finset.exists_mem_insert]

theorem fold_andi_fin1 (f : Fin 1 → BitVec 1) (b : BitVec 1) :
    (Finset.univ : Finset (Fin 1)).fold IntOp.andi b f = IntOp.andi (f 0) b := by
  rw [Finset.univ_unique, Finset.fold_singleton]; rfl

/-! ### The range test and the gather -/

theorem lift_tk (h : S4096x2x1.Reduces [2] S4096x2) (t : Fin 4096) (k : Fin 2) (z : Fin 1) :
    h.lift (ix2 t k) z = ix3 t k z := by
  funext c
  match c with
  | ⟨0, _⟩ => rfl
  | ⟨1, _⟩ => rfl
  | ⟨2, _⟩ => rfl

theorem inRange_at (idx : IVec S4096x2 32) (t : Fin 4096) (k : Fin 2) (h : (idx (ix2 t k)).toNat < 16) :
    inRange idx (ix2 t k) = 1#1 := by
  have hR : S4096x2x1.Reduces [2] S4096x2 := by decide
  unfold inRange
  refine ((Host.reduce_eq_fold_single IntOp.andi _ _ reducesTo_S4096x2x1_S4096x2_d2 hR h_S_ (ix2 t k)).trans
    (fold_andi_fin1 _ _)).trans ?_
  show IntOp.andi (IntOp.andi (IntOp.cmpi .sge (starts idx (hR.lift (ix2 t k) (0 : Fin 1))) 0#32)
      (IntOp.cmpi .sle (starts idx (hR.lift (ix2 t k) (0 : Fin 1))) 15#32)) 1#1 = 1#1
  rw [lift_tk, starts_at, wrapped_at _ _ h]
  have h1 : IntOp.cmpi .sge (idx (ix2 t k)) 0#32 = 1#1 :=
    (sge_iff_toNat (a := idx (ix2 t k)) (b := 0#32) (by omega) (by decide)).mpr (Nat.zero_le _)
  have h2 : IntOp.cmpi .sle (idx (ix2 t k)) 15#32 = 1#1 :=
    (sle_iff_toNat (a := idx (ix2 t k)) (b := 15#32) (by omega) (by decide)).mpr
      (by show (idx (ix2 t k)).toNat ≤ 15; omega)
  rw [h1, h2]; decide

theorem gather_at (idx : IVec S4096x2 32) (map : IVec S16 32) (t : Fin 4096) (k : Fin 2) (h : (idx (ix2 t k)).toNat < 16) :
    Host.gather gather_S16_S4096x2x1_S4096x2_n_0_n_n_0_2_1 map (starts idx) (ix2 t k)
      = map (ix1 (⟨(idx (ix2 t k)).toNat, h⟩ : Fin 16)) := by
  have e := gather_take_apply (N := 16) (R := 4096) (C := 2) (by decide) gather_S16_S4096x2x1_S4096x2_n_0_n_n_0_2_1_wf
    map (starts idx) (ix2 t k)
  have hs : starts idx (takeIdx (ix2 t k)) = idx (ix2 t k) := by
    rw [show takeIdx (ix2 t k) = ix3 t k (0 : Fin 1) from
      funext fun a => match a with | ⟨0, _⟩ => rfl | ⟨1, _⟩ => rfl | ⟨2, _⟩ => rfl, starts_at, wrapped_at _ _ h]
  refine e.trans (congrArg map ?_)
  funext a
  match a with
  | ⟨0, _⟩ =>
    apply Fin.ext
    show min (starts idx (takeIdx (ix2 t k))).toInt.toNat (16 - 1) = (idx (ix2 t k)).toNat
    rw [hs, toInt_eq_toNat_of_lt (by omega)]
    simp only [Int.toNat_natCast]
    omega

theorem devWord_at (idx : IVec S4096x2 32) (map : IVec S16 32) (t : Fin 4096) (k : Fin 2) (h : (idx (ix2 t k)).toNat < 16) :
    devWord idx map (ix2 t k) = map (ix1 (⟨(idx (ix2 t k)).toNat, h⟩ : Fin 16)) := by
  show Scalar.select (inRange idx (ix2 t k))
      (Host.gather gather_S16_S4096x2x1_S4096x2_n_0_n_n_0_2_1 map (starts idx) (ix2 t k)) (2147483648#32) = _
  rw [inRange_at idx t k h, select_one, gather_at idx map t k h]

/-! ### The mask -/

theorem lift_dt (h : S8x4096x2.Reduces [2] S8x4096) (d : Fin 8) (t : Fin 4096) (k : Fin 2) :
    h.lift (ix2 d t) k = ix3 d t k := by
  funext c
  match c with
  | ⟨0, _⟩ => rfl
  | ⟨1, _⟩ => rfl
  | ⟨2, _⟩ => rfl

/-- the device words laid over the devices read, at (d, t, k), the word of (t, k) -/
theorem devB_at (w : IVec S4096x2 32) (d : Fin 8) (t : Fin 4096) (k : Fin 2) :
    broadcastInDim S8x4096x2 ![0, 1, 2] bcast_S1x4096x2_S8x4096x2_0_1_2
        (broadcastInDim S1x4096x2 ![1, 2] bcast_S4096x2_S1x4096x2_1_2 w) (ix3 d t k) = w (ix2 t k) := by
  refine (broadcastInDim_apply _ _ _ _ (ix3 (0 : Fin 1) t k)
    (fun a => match a with | ⟨0, _⟩ => rfl | ⟨1, _⟩ => rfl | ⟨2, _⟩ => rfl)).trans ?_
  exact broadcastInDim_apply _ _ _ _ (ix2 t k) (fun a => match a with | ⟨0, _⟩ => rfl | ⟨1, _⟩ => rfl)

/-- the device numbers laid over tokens and slots read, at (d, t, k), the number d -/
theorem iotaB_at (d : Fin 8) (t : Fin 4096) (k : Fin 2) :
    broadcastInDim S8x4096x2 ![0, 1, 2] bcast_S8x1x1_S8x4096x2_0_1_2
        (broadcastInDim S8x1x1 ![0] bcast_S8_S8x1x1_0 (iotaInDim S8 32 0)) (ix3 d t k) = BitVec.ofNat 32 d.val := by
  refine (broadcastInDim_apply _ _ _ _ (ix3 d (0 : Fin 1) (0 : Fin 1))
    (fun a => match a with | ⟨0, _⟩ => rfl | ⟨1, _⟩ => rfl | ⟨2, _⟩ => rfl)).trans ?_
  exact broadcastInDim_apply _ _ _ _ (ix1 d) (fun a => match a with | ⟨0, _⟩ => rfl)

theorem word_eq_dev_iff (w : BitVec 32) (d : Fin 8) : w = BitVec.ofNat 32 d.val ↔ w.toNat = d.val := by
  have hd := d.isLt
  constructor
  · rintro rfl; simp only [BitVec.toNat_ofNat]; omega
  · intro h; apply BitVec.eq_of_toNat_eq; simp only [BitVec.toNat_ofNat]; omega

theorem hitMask_at (idx : IVec S4096x2 32) (map : IVec S16 32) (hidx : ∀ i, (idx i).toNat < 16) (d : Fin 8) (t : Fin 4096) :
    hitMask idx map (ix2 d t) = 1#1 ↔ Cert.Spec.Hit idx map d t := by
  have hR : S8x4096x2.Reduces [2] S8x4096 := by decide
  unfold hitMask
  rw [Host.reduce_eq_fold_single IntOp.ori _ _ reducesTo_S8x4096x2_S8x4096_d2 hR h_S_ (ix2 d t)]
  refine (fold_ori_eq_one_iff (ι := Fin 2) Finset.univ _).trans ?_
  unfold Cert.Spec.Hit Cert.Spec.devOf
  refine exists_congr fun k => ?_
  simp only [Finset.mem_univ, true_and]
  show IntOp.cmpi .eq
      (broadcastInDim S8x4096x2 ![0, 1, 2] bcast_S1x4096x2_S8x4096x2_0_1_2
        (broadcastInDim S1x4096x2 ![1, 2] bcast_S4096x2_S1x4096x2_1_2 (devWord idx map)) (hR.lift (ix2 d t) k))
      (broadcastInDim S8x4096x2 ![0, 1, 2] bcast_S8x1x1_S8x4096x2_0_1_2
        (broadcastInDim S8x1x1 ![0] bcast_S8_S8x1x1_0 (iotaInDim S8 32 0)) (hR.lift (ix2 d t) k)) = 1#1 ↔ _
  rw [lift_dt, devB_at, iotaB_at, cmpi_eq_iff, devWord_at idx map t k (hidx _), word_eq_dev_iff]
  have he : (⟨(idx (ix2 t k)).toNat, hidx _⟩ : Fin 16) = ⟨(idx (ix2 t k)).toNat % 16, Nat.mod_lt _ (by decide)⟩ :=
    Fin.ext (Nat.mod_eq_of_lt (hidx _)).symm
  rw [he]

/-! ### The result -/

theorem one_f32 : Ideal.ofBits .f32 0x3F800000#32 = 1 := by
  simp [Ideal.ofBits, Ideal.ieee, -EReal.coe_mul]; norm_num

theorem outTerm_apply (x : FVec Ideal S4096x1024 .f32) (idx : IVec S4096x2 32) (map : IVec S16 32)
    (d : Fin 8) (t : Fin 4096) (j : Fin 1024) :
    outTerm (F := Ideal) x idx map (ix3 d t j)
      = Scalar.select (hitMask idx map (ix2 d t)) (x (ix2 t j)) (Ideal.ofBits .f32 0x00000000#32) := by
  have hm : broadcastInDim S8x4096x1024 ![0, 1, 2] bcast_S8x4096x1_S8x4096x1024_0_1_2
      (broadcastInDim S8x4096x1 ![0, 1] bcast_S8x4096_S8x4096x1_0_1 (hitMask idx map)) (ix3 d t j)
        = hitMask idx map (ix2 d t) := by
    refine (broadcastInDim_apply _ _ _ _ (ix3 d t (0 : Fin 1))
      (fun a => match a with | ⟨0, _⟩ => rfl | ⟨1, _⟩ => rfl | ⟨2, _⟩ => rfl)).trans ?_
    exact broadcastInDim_apply _ _ _ _ (ix2 d t) (fun a => match a with | ⟨0, _⟩ => rfl | ⟨1, _⟩ => rfl)
  have hx : broadcastInDim S8x4096x1024 ![0, 1, 2] bcast_S1x4096x1024_S8x4096x1024_0_1_2
      (broadcastInDim S1x4096x1024 ![1, 2] bcast_S4096x1024_S1x4096x1024_1_2 x) (ix3 d t j) = x (ix2 t j) := by
    refine (broadcastInDim_apply _ _ _ _ (ix3 (0 : Fin 1) t j)
      (fun a => match a with | ⟨0, _⟩ => rfl | ⟨1, _⟩ => rfl | ⟨2, _⟩ => rfl)).trans ?_
    exact broadcastInDim_apply _ _ _ _ (ix2 t j) (fun a => match a with | ⟨0, _⟩ => rfl | ⟨1, _⟩ => rfl)
  have hz : broadcastInDim S8x4096x1024 ![] bcast_S_S8x4096x1024 (constant (F := Ideal) S_ .f32 0x00000000#32) (ix3 d t j)
      = Ideal.ofBits .f32 0x00000000#32 := rfl
  unfold outTerm
  rw [select_apply]
  exact congr (congr (congrArg Scalar.select hm) hx) hz

theorem value_at (x : FVec Ideal S4096x1024 .f32) (idx : IVec S4096x2 32) (map : IVec S16 32)
    (hidx : ∀ i, (idx i).toNat < 16) (d : Fin 8) (t : Fin 4096) (j : Fin 1024) :
    outTerm (F := Ideal) x idx map (ix3 d t j) = Cert.Spec.out (F := Ideal) x idx map (ix3 d t j) := by
  rw [outTerm_apply]
  show _ = x (ix2 t j) * Cert.Spec.maskAt (F := Ideal) idx map d t
  unfold Cert.Spec.maskAt
  by_cases hH : Cert.Spec.Hit idx map d t
  · rw [(hitMask_at idx map hidx d t).mpr hH, select_one, if_pos hH]
    show _ = x (ix2 t j) * Ideal.ofBits .f32 0x3F800000#32
    rw [one_f32, mul_one]
  · rw [eq_zero_of_ne_one (fun h1 => hH ((hitMask_at idx map hidx d t).mp h1)), select_zero, if_neg hH]
    show _ = x (ix2 t j) * Ideal.ofBits .f32 0x00000000#32
    rw [Ideal.ofBits_zero_f32, mul_zero]

/-- the composed term is the specification's function, at every index -/
theorem valueF (x : FVec Ideal S4096x1024 .f32) (idx : IVec S4096x2 32) (map : IVec S16 32)
    (hidx : ∀ i, (idx i).toNat < 16) : outTerm (F := Ideal) x idx map = Cert.Spec.out (F := Ideal) x idx map := by
  funext i
  rw [eq_ix3 i]
  exact value_at x idx map hidx (i 0) (i 1) (i 2)

/-- under 0 ≤ idx ≤ 15 the reference's term is the specification's function -/
theorem value (x : FVec Ideal S4096x1024 .f32) (idx : IVec S4096x2 32) (map : IVec S16 32)
    (hidx : ∀ i, (idx i).toNat < 16) : refTerm x idx map = Cert.Spec.out (F := Ideal) x idx map :=
  valueF x idx map hidx

end Value

end Cert.Proof.Ref

end
-- ==== Proof.lean ====
/-
  The certificate's claim, assembled from the runs of its three programs.

  The specification's dispatched tensor is out[d, t, j] = x[t, j] · mask[d, t], where mask[d, t] is 1.0 when one of
  token t's two experts lives on device d and 0.0 otherwise. The kernel program's run ends with its result array at
  that function of its arguments and the arguments unchanged, at the bit-level values and at the ideal values alike,
  once every expert word is below 16 and every device word below 8. The reference program's run ends, at the ideal
  values, with its result at a term of its arguments that equals the same function once every expert word is below 16.
  The input-domain predicate gives both bounds. Hence each program runs and leaves its arguments unchanged, and from
  memories agreeing on the arguments the two ideal runs end at one and the same array.
-/
import proofs.«202873_g15822659519276_cont_week2b_991_21_alg».proof.Defs
import proofs.«202873_g15822659519276_cont_week2b_991_21_alg».proof.Proof.Gen.Kernel
import proofs.«202873_g15822659519276_cont_week2b_991_21_alg».proof.Proof.Gen.Kernel.Skeleton
import proofs.«202873_g15822659519276_cont_week2b_991_21_alg».proof.Proof.Gen.Kernel.Launch
import proofs.«202873_g15822659519276_cont_week2b_991_21_alg».proof.Proof.Gen.Kernel.Points
import proofs.«202873_g15822659519276_cont_week2b_991_21_alg».proof.Proof.Gen.KernelIdeal
import proofs.«202873_g15822659519276_cont_week2b_991_21_alg».proof.Proof.Gen.KernelIdeal.Skeleton
import proofs.«202873_g15822659519276_cont_week2b_991_21_alg».proof.Proof.Gen.KernelIdeal.Launch
import proofs.«202873_g15822659519276_cont_week2b_991_21_alg».proof.Proof.Gen.KernelIdeal.Points
import proofs.«202873_g15822659519276_cont_week2b_991_21_alg».proof.Proof.Gen.ReferenceIdeal
import proofs.«202873_g15822659519276_cont_week2b_991_21_alg».proof.Proof.Gen.Pre_input_domain
import proofs.«202873_g15822659519276_cont_week2b_991_21_alg».proof.Proof.KI.Launch
import proofs.«202873_g15822659519276_cont_week2b_991_21_alg».proof.Proof.KB.Launch
import proofs.«202873_g15822659519276_cont_week2b_991_21_alg».proof.Proof.RefRun
import proofs.«202873_g15822659519276_cont_week2b_991_21_alg».proof.Proof.RefValue
import proofs.«202873_g15822659519276_cont_week2b_991_21_alg».proof.Proof.PreDecode
import Idealize.ShloMosaic.Adequacy
import Idealize.ShloMosaic.Init

noncomputable section

namespace Cert.Proof.Assembly

open Idealize.ShloMosaic Idealize.SL.Sem

/-! ## The input-domain predicate gives the ranges the runs ask -/

/-- On the kernel program's launch memory, at the bit-level values. -/
theorem preOK_k (m : (ℓ : Loc Cert.Kernel.nD Cert.Kernel.τ Cert.Kernel.sig) → Buf (Elt Bits) ℓ) (h : Cert.Pre_Kernel m) :
    Cert.Proof.KB.PreOK m :=
  fun d => Cert.Proof.PreDecode.ranges (F := Bits) _ _ _ (h d)

/-- On the kernel program's launch memory, at the ideal values. -/
theorem preOK_ki (m : (ℓ : Loc Cert.KernelIdeal.nD Cert.KernelIdeal.τ Cert.KernelIdeal.sig) → Buf (Elt Ideal) ℓ)
    (h : Cert.Pre_KernelIdeal m) : Cert.Proof.KI.PreOK m :=
  fun d => Cert.Proof.PreDecode.ranges (F := Ideal) _ _ _ (h d)

/-! ## Each program runs and leaves its arguments unchanged -/

theorem frame_k : Cert.frame_Kernel := fun m ρ hpre =>
  (θ_run _ _ _).mono (fun _ h c => (h c).2) (Cert.Proof.KB.run_main (F := Bits) m ρ (preOK_k m hpre))

theorem frame_ki : Cert.frame_KernelIdeal := fun m ρ hpre =>
  (θ_run _ _ _).mono (fun _ h c => (h c).2) (Cert.Proof.KI.run_main (F := Ideal) m ρ (preOK_ki m hpre))

theorem frame_ri : Cert.frame_ReferenceIdeal := fun m ρ _ =>
  (θ_run _ _ _).mono (fun _ h c => (h c).2) (Cert.Proof.Ref.run m ρ)

/-! ## The idealization rewrote no operation -/

theorem preserves : Cert.preserves_Kernel_KernelIdeal := trivial

/-! ## At the ideal values the two programs end at one array -/

/-- The common result is the specification's dispatched tensor of the kernel program's arguments: the kernel's run
    ends there, and the reference's run ends at its own term of arguments that agree, which is that tensor because the
    expert words are below 16. -/
theorem algebraic : Cert.algebraic_KernelIdeal_ReferenceIdeal := by
  intro m ρ m' ρ' hpre hagree
  have hok := preOK_ki m hpre
  refine ⟨fun c => Cert.Proof.KI.outB m c, Cert.Proof.KI.run_main (F := Ideal) m ρ hok, ?_⟩
  refine (θ_run _ _ _).mono (fun _ h c => ⟨(h c).1.trans ?_, (h c).2⟩) (Cert.Proof.Ref.run m' ρ')
  rw [(hagree c).1, (hagree c).2.1, (hagree c).2.2]
  exact Cert.Proof.Ref.value _ _ _ (hok c).1

end Cert.Proof.Assembly

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Assembly.frame_k, Assembly.frame_ki, Assembly.frame_ri, Assembly.preserves, Assembly.algebraic⟩

end Cert.Proof

end
